-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![32768, 1024]⟩ ⟨2, ![65536, 1024]⟩ (Layout.meshBlock [2, 4, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S32768x1024 : Shape := ⟨2, ![32768, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel

variable [Facts]

def fn {F : FTy → Type} [FloatOps F] (main_arg0 : FVec F S32768x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  main_v3
-- ==== Pre_finite_inputs_ReferenceIdeal.lean ====
abbrev S65536x1024 : Shape := ⟨2, ![65536, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel

variable [Facts]

def fn {F : FTy → Type} [FloatOps F] (main_arg0 : FVec F S65536x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  main_v3
-- ==== Kernel.lean ====
abbrev S32768x1024 : Shape := ⟨2, ![32768, 1024]⟩
abbrev S65536x1024 : Shape := ⟨2, ![65536, 1024]⟩
abbrev S8x1024x1024 : Shape := ⟨3, ![8, 1024, 1024]⟩
abbrev S8 : Shape := ⟨1, ![8]⟩
abbrev S32 : Shape := ⟨1, ![32]⟩
abbrev S_ : Shape := ⟨0, ![]⟩
abbrev S1 : Shape := ⟨1, ![1]⟩
abbrev S1x1024x1024 : Shape := ⟨3, ![1, 1024, 1024]⟩
abbrev S1024x1024 : Shape := ⟨2, ![1024, 1024]⟩

abbrev nBuf : Space → Nat
  | .hbm => 2
  | .vmem => 1
  | .smem => 0
  | _ => 0

abbrev bufTy : (tb : Table) → Fin (tcTables nBuf tb) → BufTy
  | .hbm, ⟨0, _⟩ => ⟨S32768x1024, .f32⟩
  | .hbm, ⟨1, _⟩ => ⟨S65536x1024, .f32⟩
  | .local _ .vmem, ⟨0, _⟩ => ⟨S8x1024x1024, .f32⟩
  | _, _ => ⟨S32768x1024, .f32⟩

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 1 56 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) (c0_i32_20 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c32768_i32 : BitVec 32 := 32768#32
  let v27 : BitVec 32 := Scalar.muli v2 c32768_i32
  let v28 : BitVec 32 := Scalar.addi v27 c0_i32_20
  let c0_i32_23 : BitVec 32 := 0#32
  ![v28.toNat, 0]
def k0_dev2 (d0 : Dev nD) : Nat :=
  let c0_i32_32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_31 : BitVec 32 := 16#32
  let v36 : BitVec 32 := Scalar.muli v9 c16_i32_31
  let v37 : BitVec 32 := Scalar.addi c0_i32_32 v36
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_33 : BitVec 32 := 4#32
  let v38 : BitVec 32 := Scalar.muli v5 c4_i32_33
  let v39 : BitVec 32 := Scalar.addi v37 v38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_34 : BitVec 32 := 1#32
  let v40 : BitVec 32 := Scalar.muli v8 c1_i32_34
  let v41 : BitVec 32 := Scalar.addi v39 v40
  v41.toNat
def k0_dev3 (d0 : Dev nD) : Nat :=
  let c0_i32_62 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_61 : BitVec 32 := 16#32
  let v68 : BitVec 32 := Scalar.muli v9 c16_i32_61
  let v69 : BitVec 32 := Scalar.addi c0_i32_62 v68
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_63 : BitVec 32 := 4#32
  let v70 : BitVec 32 := Scalar.muli v5 c4_i32_63
  let v71 : BitVec 32 := Scalar.addi v69 v70
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_64 : BitVec 32 := 1#32
  let v72 : BitVec 32 := Scalar.muli v8 c1_i32_64
  let v73 : BitVec 32 := Scalar.addi v71 v72
  v73.toNat
def k0_dev4 (d0 : Dev nD) : Nat :=
  let c0_i32_92 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_91 : BitVec 32 := 16#32
  let v100 : BitVec 32 := Scalar.muli v9 c16_i32_91
  let v101 : BitVec 32 := Scalar.addi c0_i32_92 v100
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_93 : BitVec 32 := 4#32
  let v102 : BitVec 32 := Scalar.muli v5 c4_i32_93
  let v103 : BitVec 32 := Scalar.addi v101 v102
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_94 : BitVec 32 := 1#32
  let v104 : BitVec 32 := Scalar.muli v8 c1_i32_94
  let v105 : BitVec 32 := Scalar.addi v103 v104
  v105.toNat
def k0_dev5 (d0 : Dev nD) : Nat :=
  let c0_i32_121 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_120 : BitVec 32 := 16#32
  let v132 : BitVec 32 := Scalar.muli v9 c16_i32_120
  let v133 : BitVec 32 := Scalar.addi c0_i32_121 v132
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_122 : BitVec 32 := 4#32
  let v134 : BitVec 32 := Scalar.muli v5 c4_i32_122
  let v135 : BitVec 32 := Scalar.addi v133 v134
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_123 : BitVec 32 := 1#32
  let v136 : BitVec 32 := Scalar.muli v8 c1_i32_123
  let v137 : BitVec 32 := Scalar.addi v135 v136
  v137.toNat
def k0_dev6 (d0 : Dev nD) : Nat :=
  let c0_i32_151 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_150 : BitVec 32 := 16#32
  let v164 : BitVec 32 := Scalar.muli v9 c16_i32_150
  let v165 : BitVec 32 := Scalar.addi c0_i32_151 v164
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_152 : BitVec 32 := 4#32
  let v166 : BitVec 32 := Scalar.muli v5 c4_i32_152
  let v167 : BitVec 32 := Scalar.addi v165 v166
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_153 : BitVec 32 := 1#32
  let v168 : BitVec 32 := Scalar.muli v8 c1_i32_153
  let v169 : BitVec 32 := Scalar.addi v167 v168
  v169.toNat
def k0_dev7 (d0 : Dev nD) : Nat :=
  let c0_i32_180 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_179 : BitVec 32 := 16#32
  let v196 : BitVec 32 := Scalar.muli v9 c16_i32_179
  let v197 : BitVec 32 := Scalar.addi c0_i32_180 v196
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_181 : BitVec 32 := 4#32
  let v198 : BitVec 32 := Scalar.muli v5 c4_i32_181
  let v199 : BitVec 32 := Scalar.addi v197 v198
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_182 : BitVec 32 := 1#32
  let v200 : BitVec 32 := Scalar.muli v8 c1_i32_182
  let v201 : BitVec 32 := Scalar.addi v199 v200
  v201.toNat
def k0_dev8 (d0 : Dev nD) : Nat :=
  let c0_i32_209 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_208 : BitVec 32 := 16#32
  let v228 : BitVec 32 := Scalar.muli v9 c16_i32_208
  let v229 : BitVec 32 := Scalar.addi c0_i32_209 v228
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_210 : BitVec 32 := 4#32
  let v230 : BitVec 32 := Scalar.muli v5 c4_i32_210
  let v231 : BitVec 32 := Scalar.addi v229 v230
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_211 : BitVec 32 := 1#32
  let v232 : BitVec 32 := Scalar.muli v8 c1_i32_211
  let v233 : BitVec 32 := Scalar.addi v231 v232
  v233.toNat
def k0_dev9 (d0 : Dev nD) : Nat :=
  let c0_i32_238 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_237 : BitVec 32 := 16#32
  let v260 : BitVec 32 := Scalar.muli v9 c16_i32_237
  let v261 : BitVec 32 := Scalar.addi c0_i32_238 v260
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_239 : BitVec 32 := 4#32
  let v262 : BitVec 32 := Scalar.muli v5 c4_i32_239
  let v263 : BitVec 32 := Scalar.addi v261 v262
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_240 : BitVec 32 := 1#32
  let v264 : BitVec 32 := Scalar.muli v8 c1_i32_240
  let v265 : BitVec 32 := Scalar.addi v263 v264
  v265.toNat
def k0_dev10 (d0 : Dev nD) : Nat :=
  let c0_i32_279 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_278 : BitVec 32 := 16#32
  let v302 : BitVec 32 := Scalar.muli v9 c16_i32_278
  let v303 : BitVec 32 := Scalar.addi c0_i32_279 v302
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_280 : BitVec 32 := 4#32
  let v304 : BitVec 32 := Scalar.muli v5 c4_i32_280
  let v305 : BitVec 32 := Scalar.addi v303 v304
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_281 : BitVec 32 := 1#32
  let v306 : BitVec 32 := Scalar.muli v8 c1_i32_281
  let v307 : BitVec 32 := Scalar.addi v305 v306
  v307.toNat
def k0_dev11 (d0 : Dev nD) : Nat :=
  let c0_i32_320 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_319 : BitVec 32 := 16#32
  let v344 : BitVec 32 := Scalar.muli v9 c16_i32_319
  let v345 : BitVec 32 := Scalar.addi c0_i32_320 v344
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_321 : BitVec 32 := 4#32
  let v346 : BitVec 32 := Scalar.muli v5 c4_i32_321
  let v347 : BitVec 32 := Scalar.addi v345 v346
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_322 : BitVec 32 := 1#32
  let v348 : BitVec 32 := Scalar.muli v8 c1_i32_322
  let v349 : BitVec 32 := Scalar.addi v347 v348
  v349.toNat
def k0_dev12 (d0 : Dev nD) : Nat :=
  let c0_i32_361 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_360 : BitVec 32 := 16#32
  let v386 : BitVec 32 := Scalar.muli v9 c16_i32_360
  let v387 : BitVec 32 := Scalar.addi c0_i32_361 v386
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_362 : BitVec 32 := 4#32
  let v388 : BitVec 32 := Scalar.muli v5 c4_i32_362
  let v389 : BitVec 32 := Scalar.addi v387 v388
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_363 : BitVec 32 := 1#32
  let v390 : BitVec 32 := Scalar.muli v8 c1_i32_363
  let v391 : BitVec 32 := Scalar.addi v389 v390
  v391.toNat
def k0_dev13 (d0 : Dev nD) : Nat :=
  let c0_i32_402 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_401 : BitVec 32 := 16#32
  let v428 : BitVec 32 := Scalar.muli v9 c16_i32_401
  let v429 : BitVec 32 := Scalar.addi c0_i32_402 v428
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_403 : BitVec 32 := 4#32
  let v430 : BitVec 32 := Scalar.muli v5 c4_i32_403
  let v431 : BitVec 32 := Scalar.addi v429 v430
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_404 : BitVec 32 := 1#32
  let v432 : BitVec 32 := Scalar.muli v8 c1_i32_404
  let v433 : BitVec 32 := Scalar.addi v431 v432
  v433.toNat
def k0_dev14 (d0 : Dev nD) : Nat :=
  let c0_i32_443 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_442 : BitVec 32 := 16#32
  let v470 : BitVec 32 := Scalar.muli v9 c16_i32_442
  let v471 : BitVec 32 := Scalar.addi c0_i32_443 v470
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_444 : BitVec 32 := 4#32
  let v472 : BitVec 32 := Scalar.muli v5 c4_i32_444
  let v473 : BitVec 32 := Scalar.addi v471 v472
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_445 : BitVec 32 := 1#32
  let v474 : BitVec 32 := Scalar.muli v8 c1_i32_445
  let v475 : BitVec 32 := Scalar.addi v473 v474
  v475.toNat
def k0_dev15 (d0 : Dev nD) : Nat :=
  let c0_i32_484 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_483 : BitVec 32 := 16#32
  let v512 : BitVec 32 := Scalar.muli v9 c16_i32_483
  let v513 : BitVec 32 := Scalar.addi c0_i32_484 v512
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_485 : BitVec 32 := 4#32
  let v514 : BitVec 32 := Scalar.muli v5 c4_i32_485
  let v515 : BitVec 32 := Scalar.addi v513 v514
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_486 : BitVec 32 := 1#32
  let v516 : BitVec 32 := Scalar.muli v8 c1_i32_486
  let v517 : BitVec 32 := Scalar.addi v515 v516
  v517.toNat
def k0_dev16 (d0 : Dev nD) : Nat :=
  let c0_i32_525 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_524 : BitVec 32 := 16#32
  let v554 : BitVec 32 := Scalar.muli v9 c16_i32_524
  let v555 : BitVec 32 := Scalar.addi c0_i32_525 v554
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_526 : BitVec 32 := 4#32
  let v556 : BitVec 32 := Scalar.muli v5 c4_i32_526
  let v557 : BitVec 32 := Scalar.addi v555 v556
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_527 : BitVec 32 := 1#32
  let v558 : BitVec 32 := Scalar.muli v8 c1_i32_527
  let v559 : BitVec 32 := Scalar.addi v557 v558
  v559.toNat
def k0_dev17 (d0 : Dev nD) : Nat :=
  let c0_i32_566 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_565 : BitVec 32 := 16#32
  let v596 : BitVec 32 := Scalar.muli v9 c16_i32_565
  let v597 : BitVec 32 := Scalar.addi c0_i32_566 v596
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_567 : BitVec 32 := 4#32
  let v598 : BitVec 32 := Scalar.muli v5 c4_i32_567
  let v599 : BitVec 32 := Scalar.addi v597 v598
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_568 : BitVec 32 := 1#32
  let v600 : BitVec 32 := Scalar.muli v8 c1_i32_568
  let v601 : BitVec 32 := Scalar.addi v599 v600
  v601.toNat
def k0_dev18 (d0 : Dev nD) : Nat :=
  let c0_i32_608 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_607 : BitVec 32 := 16#32
  let v638 : BitVec 32 := Scalar.muli v9 c16_i32_607
  let v639 : BitVec 32 := Scalar.addi c0_i32_608 v638
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_609 : BitVec 32 := 4#32
  let v640 : BitVec 32 := Scalar.muli v5 c4_i32_609
  let v641 : BitVec 32 := Scalar.addi v639 v640
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_610 : BitVec 32 := 1#32
  let v642 : BitVec 32 := Scalar.muli v8 c1_i32_610
  let v643 : BitVec 32 := Scalar.addi v641 v642
  v643.toNat
def k0_dev19 (d0 : Dev nD) : Nat :=
  let c0_i32_649 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_648 : BitVec 32 := 16#32
  let v680 : BitVec 32 := Scalar.muli v9 c16_i32_648
  let v681 : BitVec 32 := Scalar.addi c0_i32_649 v680
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_650 : BitVec 32 := 4#32
  let v682 : BitVec 32 := Scalar.muli v5 c4_i32_650
  let v683 : BitVec 32 := Scalar.addi v681 v682
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_651 : BitVec 32 := 1#32
  let v684 : BitVec 32 := Scalar.muli v8 c1_i32_651
  let v685 : BitVec 32 := Scalar.addi v683 v684
  v685.toNat
def k0_dev20 (d0 : Dev nD) : Nat :=
  let c0_i32_690 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_689 : BitVec 32 := 16#32
  let v722 : BitVec 32 := Scalar.muli v9 c16_i32_689
  let v723 : BitVec 32 := Scalar.addi c0_i32_690 v722
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_691 : BitVec 32 := 4#32
  let v724 : BitVec 32 := Scalar.muli v5 c4_i32_691
  let v725 : BitVec 32 := Scalar.addi v723 v724
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_692 : BitVec 32 := 1#32
  let v726 : BitVec 32 := Scalar.muli v8 c1_i32_692
  let v727 : BitVec 32 := Scalar.addi v725 v726
  v727.toNat
def k0_dev21 (d0 : Dev nD) : Nat :=
  let c0_i32_731 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_730 : BitVec 32 := 16#32
  let v764 : BitVec 32 := Scalar.muli v9 c16_i32_730
  let v765 : BitVec 32 := Scalar.addi c0_i32_731 v764
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_732 : BitVec 32 := 4#32
  let v766 : BitVec 32 := Scalar.muli v5 c4_i32_732
  let v767 : BitVec 32 := Scalar.addi v765 v766
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_733 : BitVec 32 := 1#32
  let v768 : BitVec 32 := Scalar.muli v8 c1_i32_733
  let v769 : BitVec 32 := Scalar.addi v767 v768
  v769.toNat
def k0_dev22 (d0 : Dev nD) : Nat :=
  let c0_i32_772 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_771 : BitVec 32 := 16#32
  let v806 : BitVec 32 := Scalar.muli v9 c16_i32_771
  let v807 : BitVec 32 := Scalar.addi c0_i32_772 v806
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_773 : BitVec 32 := 4#32
  let v808 : BitVec 32 := Scalar.muli v5 c4_i32_773
  let v809 : BitVec 32 := Scalar.addi v807 v808
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_774 : BitVec 32 := 1#32
  let v810 : BitVec 32 := Scalar.muli v8 c1_i32_774
  let v811 : BitVec 32 := Scalar.addi v809 v810
  v811.toNat
def k0_dev23 (d0 : Dev nD) : Nat :=
  let c0_i32_813 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_812 : BitVec 32 := 16#32
  let v848 : BitVec 32 := Scalar.muli v9 c16_i32_812
  let v849 : BitVec 32 := Scalar.addi c0_i32_813 v848
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_814 : BitVec 32 := 4#32
  let v850 : BitVec 32 := Scalar.muli v5 c4_i32_814
  let v851 : BitVec 32 := Scalar.addi v849 v850
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_815 : BitVec 32 := 1#32
  let v852 : BitVec 32 := Scalar.muli v8 c1_i32_815
  let v853 : BitVec 32 := Scalar.addi v851 v852
  v853.toNat
def k0_dev24 (d0 : Dev nD) : Nat :=
  let c0_i32_854 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_853 : BitVec 32 := 16#32
  let v890 : BitVec 32 := Scalar.muli v9 c16_i32_853
  let v891 : BitVec 32 := Scalar.addi c0_i32_854 v890
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_855 : BitVec 32 := 4#32
  let v892 : BitVec 32 := Scalar.muli v5 c4_i32_855
  let v893 : BitVec 32 := Scalar.addi v891 v892
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_856 : BitVec 32 := 1#32
  let v894 : BitVec 32 := Scalar.muli v8 c1_i32_856
  let v895 : BitVec 32 := Scalar.addi v893 v894
  v895.toNat
def k0_dev25 (d0 : Dev nD) : Nat :=
  let c0_i32_895 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_894 : BitVec 32 := 16#32
  let v932 : BitVec 32 := Scalar.muli v9 c16_i32_894
  let v933 : BitVec 32 := Scalar.addi c0_i32_895 v932
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_896 : BitVec 32 := 4#32
  let v934 : BitVec 32 := Scalar.muli v5 c4_i32_896
  let v935 : BitVec 32 := Scalar.addi v933 v934
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_897 : BitVec 32 := 1#32
  let v936 : BitVec 32 := Scalar.muli v8 c1_i32_897
  let v937 : BitVec 32 := Scalar.addi v935 v936
  v937.toNat
def k0_dev26 (d0 : Dev nD) : Nat :=
  let c0_i32_936 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_935 : BitVec 32 := 16#32
  let v974 : BitVec 32 := Scalar.muli v9 c16_i32_935
  let v975 : BitVec 32 := Scalar.addi c0_i32_936 v974
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_937 : BitVec 32 := 4#32
  let v976 : BitVec 32 := Scalar.muli v5 c4_i32_937
  let v977 : BitVec 32 := Scalar.addi v975 v976
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_938 : BitVec 32 := 1#32
  let v978 : BitVec 32 := Scalar.muli v8 c1_i32_938
  let v979 : BitVec 32 := Scalar.addi v977 v978
  v979.toNat
def k0_dev27 (d0 : Dev nD) : Nat :=
  let c0_i32_977 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_976 : BitVec 32 := 16#32
  let v1016 : BitVec 32 := Scalar.muli v9 c16_i32_976
  let v1017 : BitVec 32 := Scalar.addi c0_i32_977 v1016
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_978 : BitVec 32 := 4#32
  let v1018 : BitVec 32 := Scalar.muli v5 c4_i32_978
  let v1019 : BitVec 32 := Scalar.addi v1017 v1018
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_979 : BitVec 32 := 1#32
  let v1020 : BitVec 32 := Scalar.muli v8 c1_i32_979
  let v1021 : BitVec 32 := Scalar.addi v1019 v1020
  v1021.toNat
def k0_dev28 (d0 : Dev nD) : Nat :=
  let c0_i32_1018 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1017 : BitVec 32 := 16#32
  let v1058 : BitVec 32 := Scalar.muli v9 c16_i32_1017
  let v1059 : BitVec 32 := Scalar.addi c0_i32_1018 v1058
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1019 : BitVec 32 := 4#32
  let v1060 : BitVec 32 := Scalar.muli v5 c4_i32_1019
  let v1061 : BitVec 32 := Scalar.addi v1059 v1060
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1020 : BitVec 32 := 1#32
  let v1062 : BitVec 32 := Scalar.muli v8 c1_i32_1020
  let v1063 : BitVec 32 := Scalar.addi v1061 v1062
  v1063.toNat
def k0_dev29 (d0 : Dev nD) : Nat :=
  let c0_i32_1059 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1058 : BitVec 32 := 16#32
  let v1100 : BitVec 32 := Scalar.muli v9 c16_i32_1058
  let v1101 : BitVec 32 := Scalar.addi c0_i32_1059 v1100
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1060 : BitVec 32 := 4#32
  let v1102 : BitVec 32 := Scalar.muli v5 c4_i32_1060
  let v1103 : BitVec 32 := Scalar.addi v1101 v1102
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1061 : BitVec 32 := 1#32
  let v1104 : BitVec 32 := Scalar.muli v8 c1_i32_1061
  let v1105 : BitVec 32 := Scalar.addi v1103 v1104
  v1105.toNat
def k0_dev30 (d0 : Dev nD) : Nat :=
  let c0_i32_1100 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1099 : BitVec 32 := 16#32
  let v1142 : BitVec 32 := Scalar.muli v9 c16_i32_1099
  let v1143 : BitVec 32 := Scalar.addi c0_i32_1100 v1142
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1101 : BitVec 32 := 4#32
  let v1144 : BitVec 32 := Scalar.muli v5 c4_i32_1101
  let v1145 : BitVec 32 := Scalar.addi v1143 v1144
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1102 : BitVec 32 := 1#32
  let v1146 : BitVec 32 := Scalar.muli v8 c1_i32_1102
  let v1147 : BitVec 32 := Scalar.addi v1145 v1146
  v1147.toNat
def k0_dev31 (d0 : Dev nD) : Nat :=
  let c0_i32_1141 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1140 : BitVec 32 := 16#32
  let v1184 : BitVec 32 := Scalar.muli v9 c16_i32_1140
  let v1185 : BitVec 32 := Scalar.addi c0_i32_1141 v1184
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1142 : BitVec 32 := 4#32
  let v1186 : BitVec 32 := Scalar.muli v5 c4_i32_1142
  let v1187 : BitVec 32 := Scalar.addi v1185 v1186
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1143 : BitVec 32 := 1#32
  let v1188 : BitVec 32 := Scalar.muli v8 c1_i32_1143
  let v1189 : BitVec 32 := Scalar.addi v1187 v1188
  v1189.toNat
def k0_dev32 (d0 : Dev nD) : Nat :=
  let c0_i32_1182 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1181 : BitVec 32 := 16#32
  let v1226 : BitVec 32 := Scalar.muli v9 c16_i32_1181
  let v1227 : BitVec 32 := Scalar.addi c0_i32_1182 v1226
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1183 : BitVec 32 := 4#32
  let v1228 : BitVec 32 := Scalar.muli v5 c4_i32_1183
  let v1229 : BitVec 32 := Scalar.addi v1227 v1228
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1184 : BitVec 32 := 1#32
  let v1230 : BitVec 32 := Scalar.muli v8 c1_i32_1184
  let v1231 : BitVec 32 := Scalar.addi v1229 v1230
  v1231.toNat
def k0_dev33 (d0 : Dev nD) : Nat :=
  let c0_i32_1223 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1222 : BitVec 32 := 16#32
  let v1268 : BitVec 32 := Scalar.muli v9 c16_i32_1222
  let v1269 : BitVec 32 := Scalar.addi c0_i32_1223 v1268
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1224 : BitVec 32 := 4#32
  let v1270 : BitVec 32 := Scalar.muli v5 c4_i32_1224
  let v1271 : BitVec 32 := Scalar.addi v1269 v1270
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1225 : BitVec 32 := 1#32
  let v1272 : BitVec 32 := Scalar.muli v8 c1_i32_1225
  let v1273 : BitVec 32 := Scalar.addi v1271 v1272
  v1273.toNat

class Facts₀ : Prop where
  hamt_1 : (1#32 : BitVec 32).msb = false
  inb_S8_S1_0 : ∀ a, (![0] : Fin 1 → Nat) a + S1.size a ≤ S8.size a
  squeezes_S1_S_ : S1.Squeezes S_
  inb_S8x1024x1024_S1x1024x1024_0_0_0 : ∀ a, (![0, 0, 0] : Fin 3 → Nat) a + S1x1024x1024.size a ≤ S8x1024x1024.size a
  squeezes_S1x1024x1024_S1024x1024 : S1x1024x1024.Squeezes S1024x1024
  inb_S32768x1024_S1024x1024_0_0 : ∀ a, (![0, 0] : Fin 2 → Nat) a + S1024x1024.size a ≤ S32768x1024.size a
  inb_S32_S1_0 : ∀ a, (![0] : Fin 1 → Nat) a + S1.size a ≤ S32.size a
  inb_S8_S1_1 : ∀ a, (![1] : Fin 1 → Nat) a + S1.size a ≤ S8.size a
  inb_S8x1024x1024_S1x1024x1024_1_0_0 : ∀ a, (![1, 0, 0] : Fin 3 → Nat) a + S1x1024x1024.size a ≤ S8x1024x1024.size a
  inb_S32768x1024_S1024x1024_1024_0 : ∀ a, (![1024, 0] : Fin 2 → Nat) a + S1024x1024.size a ≤ S32768x1024.size a
  inb_S32_S1_1 : ∀ a, (![1] : Fin 1 → Nat) a + S1.size a ≤ S32.size a
  inb_S8_S1_2 : ∀ a, (![2] : Fin 1 → Nat) a + S1.size a ≤ S8.size a
  inb_S8x1024x1024_S1x1024x1024_2_0_0 : ∀ a, (![2, 0, 0] : Fin 3 → Nat) a + S1x1024x1024.size a ≤ S8x1024x1024.size a
  inb_S32768x1024_S1024x1024_2048_0 : ∀ a, (![2048, 0] : Fin 2 → Nat) a + S1024x1024.size a ≤ S32768x1024.size a
  inb_S32_S1_2 : ∀ a, (![2] : Fin 1 → Nat) a + S1.size a ≤ S32.size a
  inb_S8_S1_3 : ∀ a, (![3] : Fin 1 → Nat) a + S1.size a ≤ S8.size a
  inb_S8x1024x1024_S1x1024x1024_3_0_0 : ∀ a, (![3, 0, 0] : Fin 3 → Nat) a + S1x1024x1024.size a ≤ S8x1024x1024.size a
  inb_S32768x1024_S1024x1024_3072_0 : ∀ a, (![3072, 0] : Fin 2 → Nat) a + S1024x1024.size a ≤ S32768x1024.size a
  inb_S32_S1_3 : ∀ a, (![3] : Fin 1 → Nat) a + S1.size a ≤ S32.size a
  inb_S8_S1_4 : ∀ a, (![4] : Fin 1 → Nat) a + S1.size a ≤ S8.size a
  inb_S8x1024x1024_S1x1024x1024_4_0_0 : ∀ a, (![4, 0, 0] : Fin 3 → Nat) a + S1x1024x1024.size a ≤ S8x1024x1024.size a
  inb_S32768x1024_S1024x1024_4096_0 : ∀ a, (![4096, 0] : Fin 2 → Nat) a + S1024x1024.size a ≤ S32768x1024.size a
  inb_S32_S1_4 : ∀ a, (![4] : Fin 1 → Nat) a + S1.size a ≤ S32.size a
  inb_S8_S1_5 : ∀ a, (![5] : Fin 1 → Nat) a + S1.size a ≤ S8.size a
  inb_S8x1024x1024_S1x1024x1024_5_0_0 : ∀ a, (![5, 0, 0] : Fin 3 → Nat) a + S1x1024x1024.size a ≤ S8x1024x1024.size a
  inb_S32768x1024_S1024x1024_5120_0 : ∀ a, (![5120, 0] : Fin 2 → Nat) a + S1024x1024.size a ≤ S32768x1024.size a
  inb_S32_S1_5 : ∀ a, (![5] : Fin 1 → Nat) a + S1.size a ≤ S32.size a
  inb_S8_S1_6 : ∀ a, (![6] : Fin 1 → Nat) a + S1.size a ≤ S8.size a
  inb_S8x1024x1024_S1x1024x1024_6_0_0 : ∀ a, (![6, 0, 0] : Fin 3 → Nat) a + S1x1024x1024.size a ≤ S8x1024x1024.size a
  inb_S32768x1024_S1024x1024_6144_0 : ∀ a, (![6144, 0] : Fin 2 → Nat) a + S1024x1024.size a ≤ S32768x1024.size a
  inb_S32_S1_6 : ∀ a, (![6] : Fin 1 → Nat) a + S1.size a ≤ S32.size a
  inb_S8_S1_7 : ∀ a, (![7] : Fin 1 → Nat) a + S1.size a ≤ S8.size a
  inb_S8x1024x1024_S1x1024x1024_7_0_0 : ∀ a, (![7, 0, 0] : Fin 3 → Nat) a + S1x1024x1024.size a ≤ S8x1024x1024.size a
  inb_S32768x1024_S1024x1024_7168_0 : ∀ a, (![7168, 0] : Fin 2 → Nat) a + S1024x1024.size a ≤ S32768x1024.size a
  inb_S32_S1_7 : ∀ a, (![7] : Fin 1 → Nat) a + S1.size a ≤ S32.size a
  inb_S32768x1024_S1024x1024_8192_0 : ∀ a, (![8192, 0] : Fin 2 → Nat) a + S1024x1024.size a ≤ S32768x1024.size a
  inb_S32_S1_8 : ∀ a, (![8] : Fin 1 → Nat) a + S1.size a ≤ S32.size a
  inb_S32768x1024_S1024x1024_9216_0 : ∀ a, (![9216, 0] : Fin 2 → Nat) a + S1024x1024.size a ≤ S32768x1024.size a
  inb_S32_S1_9 : ∀ a, (![9] : Fin 1 → Nat) a + S1.size a ≤ S32.size a
  inb_S32768x1024_S1024x1024_10240_0 : ∀ a, (![10240, 0] : Fin 2 → Nat) a + S1024x1024.size a ≤ S32768x1024.size a
  inb_S32_S1_10 : ∀ a, (![10] : Fin 1 → Nat) a + S1.size a ≤ S32.size a
  inb_S32768x1024_S1024x1024_11264_0 : ∀ a, (![11264, 0] : Fin 2 → Nat) a + S1024x1024.size a ≤ S32768x1024.size a
  inb_S32_S1_11 : ∀ a, (![11] : Fin 1 → Nat) a + S1.size a ≤ S32.size a
  inb_S32768x1024_S1024x1024_12288_0 : ∀ a, (![12288, 0] : Fin 2 → Nat) a + S1024x1024.size a ≤ S32768x1024.size a
  inb_S32_S1_12 : ∀ a, (![12] : Fin 1 → Nat) a + S1.size a ≤ S32.size a
  inb_S32768x1024_S1024x1024_13312_0 : ∀ a, (![13312, 0] : Fin 2 → Nat) a + S1024x1024.size a ≤ S32768x1024.size a
  inb_S32_S1_13 : ∀ a, (![13] : Fin 1 → Nat) a + S1.size a ≤ S32.size a
  inb_S32768x1024_S1024x1024_14336_0 : ∀ a, (![14336, 0] : Fin 2 → Nat) a + S1024x1024.size a ≤ S32768x1024.size a
  inb_S32_S1_14 : ∀ a, (![14] : Fin 1 → Nat) a + S1.size a ≤ S32.size a
  inb_S32768x1024_S1024x1024_15360_0 : ∀ a, (![15360, 0] : Fin 2 → Nat) a + S1024x1024.size a ≤ S32768x1024.size a
  inb_S32_S1_15 : ∀ a, (![15] : Fin 1 → Nat) a + S1.size a ≤ S32.size a
  inb_S32768x1024_S1024x1024_16384_0 : ∀ a, (![16384, 0] : Fin 2 → Nat) a + S1024x1024.size a ≤ S32768x1024.size a
  inb_S32_S1_16 : ∀ a, (![16] : Fin 1 → Nat) a + S1.size a ≤ S32.size a
  inb_S32768x1024_S1024x1024_17408_0 : ∀ a, (![17408, 0] : Fin 2 → Nat) a + S1024x1024.size a ≤ S32768x1024.size a
  inb_S32_S1_17 : ∀ a, (![17] : Fin 1 → Nat) a + S1.size a ≤ S32.size a
  inb_S32768x1024_S1024x1024_18432_0 : ∀ a, (![18432, 0] : Fin 2 → Nat) a + S1024x1024.size a ≤ S32768x1024.size a
  inb_S32_S1_18 : ∀ a, (![18] : Fin 1 → Nat) a + S1.size a ≤ S32.size a
  inb_S32768x1024_S1024x1024_19456_0 : ∀ a, (![19456, 0] : Fin 2 → Nat) a + S1024x1024.size a ≤ S32768x1024.size a
  inb_S32_S1_19 : ∀ a, (![19] : Fin 1 → Nat) a + S1.size a ≤ S32.size a
  inb_S32768x1024_S1024x1024_20480_0 : ∀ a, (![20480, 0] : Fin 2 → Nat) a + S1024x1024.size a ≤ S32768x1024.size a
  inb_S32_S1_20 : ∀ a, (![20] : Fin 1 → Nat) a + S1.size a ≤ S32.size a
  inb_S32768x1024_S1024x1024_21504_0 : ∀ a, (![21504, 0] : Fin 2 → Nat) a + S1024x1024.size a ≤ S32768x1024.size a
  inb_S32_S1_21 : ∀ a, (![21] : Fin 1 → Nat) a + S1.size a ≤ S32.size a
  inb_S32768x1024_S1024x1024_22528_0 : ∀ a, (![22528, 0] : Fin 2 → Nat) a + S1024x1024.size a ≤ S32768x1024.size a
  inb_S32_S1_22 : ∀ a, (![22] : Fin 1 → Nat) a + S1.size a ≤ S32.size a
  inb_S32768x1024_S1024x1024_23552_0 : ∀ a, (![23552, 0] : Fin 2 → Nat) a + S1024x1024.size a ≤ S32768x1024.size a
  inb_S32_S1_23 : ∀ a, (![23] : Fin 1 → Nat) a + S1.size a ≤ S32.size a
  inb_S32768x1024_S1024x1024_24576_0 : ∀ a, (![24576, 0] : Fin 2 → Nat) a + S1024x1024.size a ≤ S32768x1024.size a
  inb_S32_S1_24 : ∀ a, (![24] : Fin 1 → Nat) a + S1.size a ≤ S32.size a
  inb_S32768x1024_S1024x1024_25600_0 : ∀ a, (![25600, 0] : Fin 2 → Nat) a + S1024x1024.size a ≤ S32768x1024.size a
  inb_S32_S1_25 : ∀ a, (![25] : Fin 1 → Nat) a + S1.size a ≤ S32.size a
  inb_S32768x1024_S1024x1024_26624_0 : ∀ a, (![26624, 0] : Fin 2 → Nat) a + S1024x1024.size a ≤ S32768x1024.size a
  inb_S32_S1_26 : ∀ a, (![26] : Fin 1 → Nat) a + S1.size a ≤ S32.size a
  inb_S32768x1024_S1024x1024_27648_0 : ∀ a, (![27648, 0] : Fin 2 → Nat) a + S1024x1024.size a ≤ S32768x1024.size a
  inb_S32_S1_27 : ∀ a, (![27] : Fin 1 → Nat) a + S1.size a ≤ S32.size a
  inb_S32768x1024_S1024x1024_28672_0 : ∀ a, (![28672, 0] : Fin 2 → Nat) a + S1024x1024.size a ≤ S32768x1024.size a
  inb_S32_S1_28 : ∀ a, (![28] : Fin 1 → Nat) a + S1.size a ≤ S32.size a
  inb_S32768x1024_S1024x1024_29696_0 : ∀ a, (![29696, 0] : Fin 2 → Nat) a + S1024x1024.size a ≤ S32768x1024.size a
  inb_S32_S1_29 : ∀ a, (![29] : Fin 1 → Nat) a + S1.size a ≤ S32.size a
  inb_S32768x1024_S1024x1024_30720_0 : ∀ a, (![30720, 0] : Fin 2 → Nat) a + S1024x1024.size a ≤ S32768x1024.size a
  inb_S32_S1_30 : ∀ a, (![30] : Fin 1 → Nat) a + S1.size a ≤ S32.size a
  inb_S32768x1024_S1024x1024_31744_0 : ∀ a, (![31744, 0] : Fin 2 → Nat) a + S1024x1024.size a ≤ S32768x1024.size a
  inb_S32_S1_31 : ∀ a, (![31] : Fin 1 → Nat) a + S1.size a ≤ S32.size a
  hcc0_scratch1 : 0 + S8.numel ≤ 56
  hcc0_scratch2 : 8 + S8.numel ≤ 56
  hcc0_scratch3 : 16 + S8.numel ≤ 56
  hcc0_scratch4 : 24 + S32.numel ≤ 56
  k0_dev1_lt : ∀ d0 : Dev nD, (k0_dev1 d0) < nD
  k0_off1_inb : ∀ d0 : Dev nD, ∀ (r : Fin 32), ∀ a, (k0_off1 d0 (BitVec.ofNat 32 (1024 * r.val))) a + S1024x1024.size a ≤ S65536x1024.size a
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD

variable [Facts₀]

abbrev cc0_scratch1 : DmaSems sig S8 := SemArray.consecutive 0 S8 hcc0_scratch1
abbrev cc0_scratch2 : DmaSems sig S8 := SemArray.consecutive 8 S8 hcc0_scratch2
abbrev cc0_scratch3 : DmaSems sig S8 := SemArray.consecutive 16 S8 hcc0_scratch3
abbrev cc0_scratch4 : DmaSems sig S32 := SemArray.consecutive 24 S32 hcc0_scratch4

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S65536x1024 : Shape := ⟨2, ![65536, 1024]⟩

abbrev nBuf : Space → Nat
  | .hbm => 1
  | .vmem => 0
  | .smem => 0
  | _ => 0

abbrev bufTy : (tb : Table) → Fin (tcTables nBuf tb) → BufTy
  | .hbm, ⟨0, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.Geom.lean ====
/-
  The all-gather across the first mesh axis: the geometry.

  The mesh is 2 × 4 × 4 with device id `c = 16·x + 4·y + z`. Every device exchanges with its PARTNER, the
  device of the same `(y, z)` at the other `x`. A device's input block has 32768 rows, cut into 32 chunks of
  1024 rows; the result has 65536 rows, cut into 2 × 32 chunks: chunk `(h, k)` is rows
  `[32768·h + 1024·k, 32768·h + 1024·k + 1024)` and ends holding chunk `k` of the input block of the device
  at x-coordinate `h`. The scratch has 8 slots of one chunk each.
-/
import proofs.«900688_g7700000000000689_dist_ag_v7x_xyz2x4x4_x_m32768_n1024_f32_1_alg».proof.Proof.Gen.KernelIdeal.Launch
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.AG

open Cert.KernelIdeal Cert.KernelIdeal.Gen
open Idealize.ShloMosaic
open Idealize.ShloMosaic.TcCoe
open Idealize.SL Idealize.SL.Sem

variable {F : FTy → Type} [FloatOps F]

/-! ## The partner -/

/-- The device of the same `(y, z)` at the other x-coordinate. -/
def pr (c : Dev nD) : Dev nD := ⟨(c.val + 16) % 32, Nat.mod_lt _ (by decide)⟩

theorem pr_pr (c : Dev nD) : pr (pr c) = c := by revert c; decide
theorem pr_ne (c : Dev nD) : pr c ≠ c := by revert c; decide

/-- The involution as an equivalence. -/
def prEquiv : Dev nD ≃ Dev nD := ⟨pr, pr, pr_pr, pr_pr⟩

/-- The device's coordinate on the first mesh axis. -/
def hx (c : Dev nD) : Fin 2 := ⟨c.val / 16, by have : c.val < 32 := c.isLt; omega⟩

theorem hx_pr (c : Dev nD) : (hx (pr c)).val = 1 - (hx c).val := by revert c; decide
theorem hx_ne_pr (c : Dev nD) : hx (pr c) ≠ hx c := by revert c; decide

/-- The device of `c`'s `(y, z)` at x-coordinate `h`. -/
def devAt (c : Dev nD) (h : Fin 2) : Dev nD := ⟨16 * h.val + c.val % 16, by have := h.isLt; show 16 * h.val + c.val % 16 < 32; omega⟩

theorem devAt_hx (c : Dev nD) : devAt c (hx c) = c := by revert c; decide
theorem devAt_hx_pr (c : Dev nD) : devAt c (hx (pr c)) = pr c := by revert c; decide
theorem devAt_pr (c : Dev nD) (h : Fin 2) : devAt (pr c) h = devAt c h := by revert c h; decide

/-- The closed form every printed device chain has is the partner. -/
theorem closed_pr (c : Dev nD) : (4 * ((c.val / 4) % 4) + (c.val % 4) + 16) - 16 * (c.val / 16) = (pr c).val := by revert c; decide

/-- Every device chain the body computes — the barrier signal's and the 32 remote copies' — names the partner. -/
theorem dev_eq1 (c : Dev nD) : (⟨k0_dev1 c, k0_dev1_lt c⟩ : Dev nD) = pr c := Fin.ext ((k0_dev1_eq c).trans (closed_pr c))
theorem dev_eq2 (c : Dev nD) : (⟨k0_dev2 c, k0_dev2_lt c⟩ : Dev nD) = pr c := Fin.ext ((k0_dev2_eq c).trans (closed_pr c))
theorem dev_eq3 (c : Dev nD) : (⟨k0_dev3 c, k0_dev3_lt c⟩ : Dev nD) = pr c := Fin.ext ((k0_dev3_eq c).trans (closed_pr c))
theorem dev_eq4 (c : Dev nD) : (⟨k0_dev4 c, k0_dev4_lt c⟩ : Dev nD) = pr c := Fin.ext ((k0_dev4_eq c).trans (closed_pr c))
theorem dev_eq5 (c : Dev nD) : (⟨k0_dev5 c, k0_dev5_lt c⟩ : Dev nD) = pr c := Fin.ext ((k0_dev5_eq c).trans (closed_pr c))
theorem dev_eq6 (c : Dev nD) : (⟨k0_dev6 c, k0_dev6_lt c⟩ : Dev nD) = pr c := Fin.ext ((k0_dev6_eq c).trans (closed_pr c))
theorem dev_eq7 (c : Dev nD) : (⟨k0_dev7 c, k0_dev7_lt c⟩ : Dev nD) = pr c := Fin.ext ((k0_dev7_eq c).trans (closed_pr c))
theorem dev_eq8 (c : Dev nD) : (⟨k0_dev8 c, k0_dev8_lt c⟩ : Dev nD) = pr c := Fin.ext ((k0_dev8_eq c).trans (closed_pr c))
theorem dev_eq9 (c : Dev nD) : (⟨k0_dev9 c, k0_dev9_lt c⟩ : Dev nD) = pr c := Fin.ext ((k0_dev9_eq c).trans (closed_pr c))
theorem dev_eq10 (c : Dev nD) : (⟨k0_dev10 c, k0_dev10_lt c⟩ : Dev nD) = pr c := Fin.ext ((k0_dev10_eq c).trans (closed_pr c))
theorem dev_eq11 (c : Dev nD) : (⟨k0_dev11 c, k0_dev11_lt c⟩ : Dev nD) = pr c := Fin.ext ((k0_dev11_eq c).trans (closed_pr c))
theorem dev_eq12 (c : Dev nD) : (⟨k0_dev12 c, k0_dev12_lt c⟩ : Dev nD) = pr c := Fin.ext ((k0_dev12_eq c).trans (closed_pr c))
theorem dev_eq13 (c : Dev nD) : (⟨k0_dev13 c, k0_dev13_lt c⟩ : Dev nD) = pr c := Fin.ext ((k0_dev13_eq c).trans (closed_pr c))
theorem dev_eq14 (c : Dev nD) : (⟨k0_dev14 c, k0_dev14_lt c⟩ : Dev nD) = pr c := Fin.ext ((k0_dev14_eq c).trans (closed_pr c))
theorem dev_eq15 (c : Dev nD) : (⟨k0_dev15 c, k0_dev15_lt c⟩ : Dev nD) = pr c := Fin.ext ((k0_dev15_eq c).trans (closed_pr c))
theorem dev_eq16 (c : Dev nD) : (⟨k0_dev16 c, k0_dev16_lt c⟩ : Dev nD) = pr c := Fin.ext ((k0_dev16_eq c).trans (closed_pr c))
theorem dev_eq17 (c : Dev nD) : (⟨k0_dev17 c, k0_dev17_lt c⟩ : Dev nD) = pr c := Fin.ext ((k0_dev17_eq c).trans (closed_pr c))
theorem dev_eq18 (c : Dev nD) : (⟨k0_dev18 c, k0_dev18_lt c⟩ : Dev nD) = pr c := Fin.ext ((k0_dev18_eq c).trans (closed_pr c))
theorem dev_eq19 (c : Dev nD) : (⟨k0_dev19 c, k0_dev19_lt c⟩ : Dev nD) = pr c := Fin.ext ((k0_dev19_eq c).trans (closed_pr c))
theorem dev_eq20 (c : Dev nD) : (⟨k0_dev20 c, k0_dev20_lt c⟩ : Dev nD) = pr c := Fin.ext ((k0_dev20_eq c).trans (closed_pr c))
theorem dev_eq21 (c : Dev nD) : (⟨k0_dev21 c, k0_dev21_lt c⟩ : Dev nD) = pr c := Fin.ext ((k0_dev21_eq c).trans (closed_pr c))
theorem dev_eq22 (c : Dev nD) : (⟨k0_dev22 c, k0_dev22_lt c⟩ : Dev nD) = pr c := Fin.ext ((k0_dev22_eq c).trans (closed_pr c))
theorem dev_eq23 (c : Dev nD) : (⟨k0_dev23 c, k0_dev23_lt c⟩ : Dev nD) = pr c := Fin.ext ((k0_dev23_eq c).trans (closed_pr c))
theorem dev_eq24 (c : Dev nD) : (⟨k0_dev24 c, k0_dev24_lt c⟩ : Dev nD) = pr c := Fin.ext ((k0_dev24_eq c).trans (closed_pr c))
theorem dev_eq25 (c : Dev nD) : (⟨k0_dev25 c, k0_dev25_lt c⟩ : Dev nD) = pr c := Fin.ext ((k0_dev25_eq c).trans (closed_pr c))
theorem dev_eq26 (c : Dev nD) : (⟨k0_dev26 c, k0_dev26_lt c⟩ : Dev nD) = pr c := Fin.ext ((k0_dev26_eq c).trans (closed_pr c))
theorem dev_eq27 (c : Dev nD) : (⟨k0_dev27 c, k0_dev27_lt c⟩ : Dev nD) = pr c := Fin.ext ((k0_dev27_eq c).trans (closed_pr c))
theorem dev_eq28 (c : Dev nD) : (⟨k0_dev28 c, k0_dev28_lt c⟩ : Dev nD) = pr c := Fin.ext ((k0_dev28_eq c).trans (closed_pr c))
theorem dev_eq29 (c : Dev nD) : (⟨k0_dev29 c, k0_dev29_lt c⟩ : Dev nD) = pr c := Fin.ext ((k0_dev29_eq c).trans (closed_pr c))
theorem dev_eq30 (c : Dev nD) : (⟨k0_dev30 c, k0_dev30_lt c⟩ : Dev nD) = pr c := Fin.ext ((k0_dev30_eq c).trans (closed_pr c))
theorem dev_eq31 (c : Dev nD) : (⟨k0_dev31 c, k0_dev31_lt c⟩ : Dev nD) = pr c := Fin.ext ((k0_dev31_eq c).trans (closed_pr c))
theorem dev_eq32 (c : Dev nD) : (⟨k0_dev32 c, k0_dev32_lt c⟩ : Dev nD) = pr c := Fin.ext ((k0_dev32_eq c).trans (closed_pr c))
theorem dev_eq33 (c : Dev nD) : (⟨k0_dev33 c, k0_dev33_lt c⟩ : Dev nD) = pr c := Fin.ext ((k0_dev33_eq c).trans (closed_pr c))

/-! ## The chunks -/

theorem inb_x (k : Fin 32) : ∀ a, (![1024 * k.val, 0] : Fin 2 → Nat) a + S1024x1024.size a ≤ S32768x1024.size a := by
  intro a; have := k.isLt
  fin_cases a
  · show 1024 * k.val + 1024 ≤ 32768; omega
  · show 0 + 1024 ≤ 1024; omega

theorem inb_o (h : Fin 2) (k : Fin 32) : ∀ a, (![32768 * h.val + 1024 * k.val, 0] : Fin 2 → Nat) a + S1024x1024.size a ≤ S65536x1024.size a := by
  intro a; have := k.isLt; have := h.isLt
  fin_cases a
  · show 32768 * h.val + 1024 * k.val + 1024 ≤ 65536; omega
  · show 0 + 1024 ≤ 1024; omega

theorem inb_v (s : Fin 8) : ∀ a, (![s.val, 0, 0] : Fin 3 → Nat) a + S1x1024x1024.size a ≤ S8x1024x1024.size a := by
  intro a; have := s.isLt
  fin_cases a
  · show s.val + 1 ≤ 8; omega
  · show 0 + 1024 ≤ 1024; omega
  · show 0 + 1024 ≤ 1024; omega

/-- Chunk `k` of the device's input block. -/
abbrev xS (k : Fin 32) : Memref sig .tc .hbm S1024x1024 .f32 :=
  (Memref.whole main_arg0).slice (Rect.unit (s := S32768x1024) ![1024 * k.val, 0] S1024x1024.size (inb_x k)) (fun _ => rfl)

/-- Chunk `(h, k)` of the result. -/
abbrev oS (h : Fin 2) (k : Fin 32) : Memref sig .tc .hbm S1024x1024 .f32 :=
  (Memref.whole main_v1).slice (Rect.unit (s := S65536x1024) ![32768 * h.val + 1024 * k.val, 0] S1024x1024.size (inb_o h k)) (fun _ => rfl)

/-- Slot `s` of the scratch. -/
abbrev vS (s : Fin 8) : Memref sig .tc .vmem S1024x1024 .f32 :=
  ((Memref.whole cc0_scratch0).slice (Rect.unit (s := S8x1024x1024) ![s.val, 0, 0] S1x1024x1024.size (inb_v s)) (fun _ => rfl)).squeeze S1024x1024 squeezes_S1x1024x1024_S1024x1024

/-- The result chunk the printed body addresses through its offset chain is chunk `(hx c, k)`. -/
theorem oS_off (c : Dev nD) (k : Fin 32) :
    (Memref.whole main_v1 : Memref sig .tc .hbm S65536x1024 .f32).slice
        (Rect.unit (s := S65536x1024) (k0_off1 c (BitVec.ofNat 32 (1024 * k.val))) S1024x1024.size (k0_off1_inb c k)) (fun _ => rfl)
      = oS (hx c) k := by
  have h : k0_off1 c (BitVec.ofNat 32 (1024 * k.val)) = ![32768 * (hx c).val + 1024 * k.val, 0] := k0_off1_eq c k
  congr 1
  exact Rect.unit_congr h _ _

/-! ## Contents -/

variable (m : (ℓ : Loc nD τ sig) → Buf (Elt F) ℓ)

/-- The device's input block as launched. -/
def Xin (c : Dev nD) : Buf (Elt F) ((c : Thread nD τ).loc main_arg0) := m ((c : Thread nD τ).loc main_arg0)

/-- Chunk `k` of device `c`'s input block. -/
def blk (c : Dev nD) (k : Fin 32) : S1024x1024.Idx → Elt F .f32 := (xS k).view.read (Elt F) (Xin m c)

/-- The result every device ends with: row `i` is row `i mod 32768` of the input block of the device of `c`'s `(y, z)`
    at x-coordinate `i / 32768`. -/
def Fout (c : Dev nD) : Buf (Elt F) ((c : Thread nD τ).loc main_v1) :=
  fun (i : S65536x1024.Idx) =>
    (Xin m (devAt c ⟨(i 0).val / 32768, by have := ValueIdx.idx2_lt0 i; omega⟩) : S32768x1024.Idx → Elt F .f32)
      (ValueIdx.ix2 (⟨(i 0).val % 32768, Nat.mod_lt _ (by decide)⟩ : Fin 32768) (i 1))

end Cert.KernelIdeal.AG

end
-- ==== Proof.AGValue.lean ====
/-
  The all-gather across the first mesh axis: the value, the reference, and the claims.

  THE VALUE. Each device's input block is its block of the reference's whole array: on the 2 × 4 × 4 mesh, the array cut
  along dimension 0 by the first mesh axis, device `c` holds block `c / 16` (rows `[32768·(c / 16), 32768·(c / 16) + 32768)`).
  The result every device ends with has, at row `i`, row `i mod 32768` of the input block of the device of the same
  `(y, z)` at x-coordinate `i / 32768`: that device's id divided by 16 is `i / 32768`, so the row read is row
  `32768·(i / 32768) + i mod 32768 = i` of the whole array. The result is the whole array.

  THE REFERENCE returns its argument: its @main is the empty straight line, whose run leaves every buffer as launched.

  THE CLAIMS. From the kernel's run stated with its strongest post (the result named, the argument unchanged) each
  frame is that run with the result dropped, and the algebraic claim is its ideal instance with the result rewritten
  by the value equation, beside the reference's run.
-/
import proofs.«900688_g7700000000000689_dist_ag_v7x_xyz2x4x4_x_m32768_n1024_f32_1_alg».proof.Defs
import proofs.«900688_g7700000000000689_dist_ag_v7x_xyz2x4x4_x_m32768_n1024_f32_1_alg».proof.Proof.Geom
import proofs.«900688_g7700000000000689_dist_ag_v7x_xyz2x4x4_x_m32768_n1024_f32_1_alg».proof.Proof.Gen.Kernel
import proofs.«900688_g7700000000000689_dist_ag_v7x_xyz2x4x4_x_m32768_n1024_f32_1_alg».proof.Proof.Gen.KernelIdeal
import proofs.«900688_g7700000000000689_dist_ag_v7x_xyz2x4x4_x_m32768_n1024_f32_1_alg».proof.Proof.Gen.ReferenceIdeal
import proofs.«900688_g7700000000000689_dist_ag_v7x_xyz2x4x4_x_m32768_n1024_f32_1_alg».proof.Proof.Gen.Pre_finite_inputs_Kernel
import proofs.«900688_g7700000000000689_dist_ag_v7x_xyz2x4x4_x_m32768_n1024_f32_1_alg».proof.Proof.Gen.Pre_finite_inputs_ReferenceIdeal
import Idealize.ShloMosaic.Lib.StableHlo.Run
import Idealize.ShloMosaic.Lib.Layout
import Idealize.ShloMosaic.Lib.ValueIdx

noncomputable section

/-! ## The reference: the empty straight line -/

namespace Cert.ReferenceIdeal.AG

open Cert.ReferenceIdeal Cert.ReferenceIdeal.Gen
open Idealize.ShloMosaic Idealize.ShloMosaic.TcCoe Idealize.ShloMosaic.StableHlo Idealize.SL.Sem

variable {F : FTy → Type} [FloatOps F]

/-- @main is the straight line of no operation. -/
theorem main_eq (c : Dev nD) : main (F := F) c = seq ([] : List (HloOp τ sig (Elt F))) := rfl

/-- Nothing is scoped on this signature. -/
theorem scopedRefs_eq : (Finset.univ.filter fun b : Ref sig .tc => b.isScoped) = ∅ := by decide
theorem scopedSems_eq : (Finset.univ.filter fun sm : SemLoc sig => sm.isScoped .tc) = ∅ := by decide

/-- On its one device, for any float values, from any memory with zero counters: every weakly fair execution of @main
    terminates, and every final state has the argument buffer holding what it held. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_arg0) = m ((c.tc : Thread nD τ).loc main_arg0) :=
  (θ_run defs _ _).mono (fun _ h c => (h c main_arg0).trans rfl)
    (run_seq scopedRefs_eq scopedSems_eq defs main (fun _ => []) main_eq (fun _ => trivial) m ρ)

end Cert.ReferenceIdeal.AG

/-! ## The value: the gathered blocks are the whole array -/

namespace Cert.KernelIdeal.AG

open Cert.KernelIdeal Cert.KernelIdeal.Gen
open Idealize.ShloMosaic Idealize.ShloMosaic.TcCoe Idealize.ShloMosaic.ValueIdx
open Idealize.SL Idealize.SL.Sem

/-- On the 2 × 4 × 4 mesh a dimension cut along the first axis gives device `c` block `c / 16`; -/
theorem meshBlock_row (c : Fin 32) : ((Layout.meshBlock [2, 4, 4] ![[0], []] c) 0).val = c.val / 16 := by
  revert c; decide

/-- a dimension that is not cut has the one block `0`. -/
theorem meshBlock_col (c : Fin 32) : ((Layout.meshBlock [2, 4, 4] ![[0], []] c) 1).val = 0 := rfl

/-- If every device `c` of the mesh holds block `c / 16` of `W` along the rows, then row `i mod 32768` of the block of
    the device of `c`'s `(y, z)` at x-coordinate `i / 32768` is row `i` of `W`. -/
theorem whole_of_blocks {α : Type} (X : Fin 32 → (⟨2, ![32768, 1024]⟩ : Shape).Idx → α)
    (W : (⟨2, ![65536, 1024]⟩ : Shape).Idx → α)
    (hag : ∀ c : Fin 32, X c = Layout.blockN ⟨2, ![32768, 1024]⟩ ⟨2, ![65536, 1024]⟩ (Layout.meshBlock [2, 4, 4] ![[0], []] c) W)
    (c : Fin 32) (i : (⟨2, ![65536, 1024]⟩ : Shape).Idx) :
    X ⟨16 * ((i 0).val / 32768) + c.val % 16, by have := idx2_lt0 i; omega⟩
        (ix2 (⟨(i 0).val % 32768, Nat.mod_lt _ (by decide)⟩ : Fin 32768) (i 1)) = W i := by
  rw [hag, Layout.blockN_apply]
  congr 1
  funext b
  apply Fin.ext
  have h0 := idx2_lt0 i
  match b with
  | ⟨0, _⟩ =>
    rw [Layout.TilesN.idx_val]
    show ((Layout.meshBlock [2, 4, 4] ![[0], []] _) 0).val * 32768 + (i 0).val % 32768 = (i 0).val
    rw [meshBlock_row]
    show (16 * ((i 0).val / 32768) + c.val % 16) / 16 * 32768 + (i 0).val % 32768 = (i 0).val
    omega
  | ⟨1, _⟩ =>
    rw [Layout.TilesN.idx_val]
    show ((Layout.meshBlock [2, 4, 4] ![[0], []] _) 1).val * 1024 + (i 1).val = (i 1).val
    rw [meshBlock_col]; omega

/-- The reference's whole array, on its one device. -/
abbrev refLoc : Loc Cert.ReferenceIdeal.nD Cert.ReferenceIdeal.τ Cert.ReferenceIdeal.sig :=
  ((0 : Dev Cert.ReferenceIdeal.nD).tc : Thread Cert.ReferenceIdeal.nD Cert.ReferenceIdeal.τ).loc Cert.ReferenceIdeal.main_arg0

/-- Where every device's input block is its block of the reference's whole array, the result every device ends with is
    that whole array. -/
theorem Fout_eq (m : (ℓ : Loc nD τ sig) → Buf (Elt Ideal) ℓ)
    (m' : (ℓ : Loc Cert.ReferenceIdeal.nD Cert.ReferenceIdeal.τ Cert.ReferenceIdeal.sig) → Buf (Elt Ideal) ℓ)
    (hag : ∀ c : Dev nD, m ((c.tc : Thread nD τ).loc main_arg0)
      = Layout.blockN ⟨2, ![32768, 1024]⟩ ⟨2, ![65536, 1024]⟩ (Layout.meshBlock [2, 4, 4] ![[0], []] c) (m' refLoc))
    (c : Dev nD) : Fout m c = m' refLoc := by
  funext i
  exact whole_of_blocks (fun c : Dev nD => m ((c.tc : Thread nD τ).loc main_arg0)) (m' refLoc) hag c i

/-! ## The claims of the idealized kernel -/

/-- The frame: the run with the result dropped. -/
theorem frame_of_run
    {G : ((ℓ : Loc nD τ sig) → Buf (Elt Ideal) ℓ) → (c : Dev nD) → Buf (Elt Ideal) ((c.tc : Thread nD τ).loc main_v1)}
    (hrun : ∀ (m : (ℓ : Loc nD τ sig) → Buf (Elt Ideal) ℓ) (ρ : Dev nD → PrngReg),
      θ_run (defs (F := Ideal)) (onTc (τ := τ) (main (F := Ideal))) ⟨m, fun _ => 0, ρ⟩ (fun r => ∀ c : Dev nD,
        r.2.mem ((c.tc : Thread nD τ).loc main_v1) = G m c
        ∧ r.2.mem ((c.tc : Thread nD τ).loc main_arg0) = m ((c.tc : Thread nD τ).loc main_arg0))) :
    Cert.frame_KernelIdeal (hKernelIdeal := Cert.KernelIdeal.Gen.facts)
      (hPre_finite_inputs_Kernel := Cert.Pre_finite_inputs_Kernel.Gen.facts) :=
  fun m g _ => (θ_run _ _ _).mono (fun _ h c => (h c).2) (hrun m g)

/-- The algebraic claim: the run with the result rewritten to the reference's whole array, beside the reference's run. -/
theorem algebraic_of_run
    (hrun : ∀ (m : (ℓ : Loc nD τ sig) → Buf (Elt Ideal) ℓ) (ρ : Dev nD → PrngReg),
      θ_run (defs (F := Ideal)) (onTc (τ := τ) (main (F := Ideal))) ⟨m, fun _ => 0, ρ⟩ (fun r => ∀ c : Dev nD,
        r.2.mem ((c.tc : Thread nD τ).loc main_v1) = Fout m c
        ∧ r.2.mem ((c.tc : Thread nD τ).loc main_arg0) = m ((c.tc : Thread nD τ).loc main_arg0))) :
    Cert.algebraic_KernelIdeal_ReferenceIdeal (hKernelIdeal := Cert.KernelIdeal.Gen.facts)
      (hReferenceIdeal := Cert.ReferenceIdeal.Gen.facts)
      (hPre_finite_inputs_Kernel := Cert.Pre_finite_inputs_Kernel.Gen.facts) := by
  intro m g m' g' _ hag
  refine ⟨m' refLoc, ?_, ?_⟩
  · exact (θ_run _ _ _).mono (fun _ h c => ⟨(h c).1.trans (Fout_eq m m' hag c), (h c).2⟩) (hrun m g)
  · exact (θ_run _ _ _).mono (fun _ h => ⟨h 0, h 0⟩) (Cert.ReferenceIdeal.AG.run_main m' g')

/-- The reference's frame. -/
theorem frame_reference :
    Cert.frame_ReferenceIdeal (hReferenceIdeal := Cert.ReferenceIdeal.Gen.facts)
      (hPre_finite_inputs_ReferenceIdeal := Cert.Pre_finite_inputs_ReferenceIdeal.Gen.facts) :=
  fun m g _ => Cert.ReferenceIdeal.AG.run_main m g

end Cert.KernelIdeal.AG

/-! ## The frame of the kernel as printed -/

namespace Cert.Kernel.AG

open Cert.Kernel Cert.Kernel.Gen
open Idealize.ShloMosaic Idealize.ShloMosaic.TcCoe
open Idealize.SL Idealize.SL.Sem

/-- The frame: the run with the result dropped. -/
theorem frame_of_run
    {G : ((ℓ : Loc nD τ sig) → Buf (Elt Bits) ℓ) → (c : Dev nD) → Buf (Elt Bits) ((c.tc : Thread nD τ).loc main_v1)}
    (hrun : ∀ (m : (ℓ : Loc nD τ sig) → Buf (Elt Bits) ℓ) (ρ : Dev nD → PrngReg),
      θ_run (defs (F := Bits)) (onTc (τ := τ) (main (F := Bits))) ⟨m, fun _ => 0, ρ⟩ (fun r => ∀ c : Dev nD,
        r.2.mem ((c.tc : Thread nD τ).loc main_v1) = G m c
        ∧ r.2.mem ((c.tc : Thread nD τ).loc main_arg0) = m ((c.tc : Thread nD τ).loc main_arg0))) :
    Cert.frame_Kernel (hKernel := Cert.Kernel.Gen.facts)
      (hPre_finite_inputs_Kernel := Cert.Pre_finite_inputs_Kernel.Gen.facts) :=
  fun m g _ => (θ_run _ _ _).mono (fun _ h c => (h c).2) (hrun m g)

end Cert.Kernel.AG

/-! ## The certificate's claim from the two runs -/

namespace Cert.Proof.AG

open Idealize.ShloMosaic Idealize.ShloMosaic.TcCoe
open Idealize.SL Idealize.SL.Sem

/-- Everything the certificate claims, from the run of the kernel as printed and the run of the idealized kernel, each
    stated with the result named and the argument unchanged. -/
theorem claim_of_runs
    {G : ((ℓ : Loc Cert.Kernel.nD Cert.Kernel.τ Cert.Kernel.sig) → Buf (Elt Bits) ℓ) → (c : Dev Cert.Kernel.nD)
      → Buf (Elt Bits) ((c.tc : Thread Cert.Kernel.nD Cert.Kernel.τ).loc Cert.Kernel.main_v1)}
    (hK : ∀ (m : (ℓ : Loc Cert.Kernel.nD Cert.Kernel.τ Cert.Kernel.sig) → Buf (Elt Bits) ℓ) (ρ : Dev Cert.Kernel.nD → PrngReg),
      θ_run (Cert.Kernel.defs (F := Bits))
        (onTc (τ := Cert.Kernel.τ) (Cert.Kernel.main (F := Bits))) ⟨m, fun _ => 0, ρ⟩
        (fun r => ∀ c : Dev Cert.Kernel.nD,
          r.2.mem ((c.tc : Thread Cert.Kernel.nD Cert.Kernel.τ).loc Cert.Kernel.main_v1) = G m c
          ∧ r.2.mem ((c.tc : Thread Cert.Kernel.nD Cert.Kernel.τ).loc Cert.Kernel.main_arg0)
              = m ((c.tc : Thread Cert.Kernel.nD Cert.Kernel.τ).loc Cert.Kernel.main_arg0)))
    (hI : ∀ (m : (ℓ : Loc Cert.KernelIdeal.nD Cert.KernelIdeal.τ Cert.KernelIdeal.sig) → Buf (Elt Ideal) ℓ)
        (ρ : Dev Cert.KernelIdeal.nD → PrngReg),
      θ_run (Cert.KernelIdeal.defs (F := Ideal))
        (onTc (τ := Cert.KernelIdeal.τ) (Cert.KernelIdeal.main (F := Ideal)))
        ⟨m, fun _ => 0, ρ⟩
        (fun r => ∀ c : Dev Cert.KernelIdeal.nD,
          r.2.mem ((c.tc : Thread Cert.KernelIdeal.nD Cert.KernelIdeal.τ).loc Cert.KernelIdeal.main_v1) = Cert.KernelIdeal.AG.Fout m c
          ∧ r.2.mem ((c.tc : Thread Cert.KernelIdeal.nD Cert.KernelIdeal.τ).loc Cert.KernelIdeal.main_arg0)
              = m ((c.tc : Thread Cert.KernelIdeal.nD Cert.KernelIdeal.τ).loc Cert.KernelIdeal.main_arg0))) :
    Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    Cert.Kernel.AG.frame_of_run hK, Cert.KernelIdeal.AG.frame_of_run hI, Cert.KernelIdeal.AG.frame_reference, trivial,
    Cert.KernelIdeal.AG.algebraic_of_run hI⟩

end Cert.Proof.AG

/-- info: 'Cert.Proof.AG.claim_of_runs' depends on axioms: [propext, Classical.choice, Quot.sound] -/
#guard_msgs in #print axioms Cert.Proof.AG.claim_of_runs

end
-- ==== Proof.Cells.lean ====
/-
  The all-gather across the first mesh axis: the protocol.

  Every semaphore of a device is a cell of the rounds discipline, one duty a round:
  * the BARRIER cell: one round; its one unit is the partner's signal, which hands the device the partner's
    half of the partner's result buffer — the 32 chunks the device will write remotely;
  * LOAD cell `s` (slot `s`), rounds `r = 0..3`: the local copy of chunk `k = s + 8r` of the input block into slot
    `s`, paid by the device itself; it hands back the slot holding chunk `k` and the input chunk it read;
  * STORE cell `s`, rounds `0..3`: the local copy of slot `s` into chunk `(x, k)` of the device's own result,
    handing back that chunk written and the share of the slot it read;
  * SEND cell `s`, rounds `0..3`: the source side of the remote copy of slot `s`, handing back the other
    share of the slot;
  * RECEIVE cell `k`: one round; the partner's remote copy of ITS chunk `k` into chunk `(1 - x, k)` of the
    device's result, handing the device that chunk holding the partner's chunk `k`.
  A device owes, at launch, the partner's barrier cell one unit and each of the partner's receive cells a
  chunk's credit. Levels: barrier cells 1, receive cells 2, every other cell 0 — a device waits on its barrier
  owing only receive credits, on its local and send cells owing only receive credits, and on its receive cells
  owing nothing.
-/
import proofs.«900688_g7700000000000689_dist_ag_v7x_xyz2x4x4_x_m32768_n1024_f32_1_alg».proof.Proof.Geom

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's, duty names `Unit` -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The semaphores and their cells -/

/-- The runtime's barrier semaphore of collective id 0 (not scoped to the launch). -/
abbrev barS : Sem sig := (SemArray.scalar (sig.barrier 0 rfl) : Sems sig S_).sem

/-- The kernel's own DMA semaphores: load `s`, store `s`, send `s`, receive `k`. -/
def ldSem (s : Fin 8) : DmaSem sig := ⟨s.val, by have := s.isLt; show s.val < 56; omega⟩
def stSem (s : Fin 8) : DmaSem sig := ⟨8 + s.val, by have := s.isLt; show 8 + s.val < 56; omega⟩
def sdSem (s : Fin 8) : DmaSem sig := ⟨16 + s.val, by have := s.isLt; show 16 + s.val < 56; omega⟩
def rcSem (k : Fin 32) : DmaSem sig := ⟨24 + k.val, by have := k.isLt; show 24 + k.val < 56; omega⟩

abbrev barCell (c : Dev nD) : GSem nD τ sig := ((c : Thread nD τ), .reg barS)
abbrev ldCell (c : Dev nD) (s : Fin 8) : GSem nD τ sig := ((c : Thread nD τ), .dma (ldSem s))
abbrev stCell (c : Dev nD) (s : Fin 8) : GSem nD τ sig := ((c : Thread nD τ), .dma (stSem s))
abbrev sdCell (c : Dev nD) (s : Fin 8) : GSem nD τ sig := ((c : Thread nD τ), .dma (sdSem s))
abbrev rcCell (c : Dev nD) (k : Fin 32) : GSem nD τ sig := ((c : Thread nD τ), .dma (rcSem k))

/-- What a semaphore is in the protocol. -/
inductive CK where
  | bar | ld (s : Fin 8) | st (s : Fin 8) | sd (s : Fin 8) | rc (k : Fin 32) | other
  deriving DecidableEq

def kindOf : SemLoc sig → CK
  | .reg q => if q = barS then .bar else .other
  | .dma d =>
    if h : d.val < 8 then .ld ⟨d.val, h⟩
    else if h₁ : d.val < 16 then .st ⟨d.val - 8, by omega⟩
    else if h₂ : d.val < 24 then .sd ⟨d.val - 16, by omega⟩
    else if h₃ : d.val < 56 then .rc ⟨d.val - 24, by omega⟩
    else .other

theorem kind_bar : kindOf (.reg barS) = .bar := by unfold kindOf; exact if_pos rfl
theorem kind_ld (s : Fin 8) : kindOf (.dma (ldSem s)) = .ld s := by revert s; decide
theorem kind_st (s : Fin 8) : kindOf (.dma (stSem s)) = .st s := by revert s; decide
theorem kind_sd (s : Fin 8) : kindOf (.dma (sdSem s)) = .sd s := by revert s; decide
theorem kind_rc (k : Fin 32) : kindOf (.dma (rcSem k)) = .rc k := by revert k; decide

/-- The chunk slot `s` carries in round `r`. -/
def chunk (s : Fin 8) (r : ℕ) : Fin 32 := ⟨(s.val + 8 * r) % 32, Nat.mod_lt _ (by decide)⟩

/-- A chunk's credit on a slot, and on a chunk of the result. -/
abbrev Nv : ℕ := (vS 0).view.dmaCredit
abbrev No : ℕ := (oS 0 0).view.dmaCredit
theorem Nv_pos : 0 < Nv := View.dmaCredit_pos _ (by decide)
theorem No_pos : 0 < No := View.dmaCredit_pos _ (by decide)

/-- The two halves of a slot's share: the local store reads through one, the remote copy through the other. -/
abbrev qL : PosShare TreeShare := fullShare.left
abbrev qR : PosShare TreeShare := fullShare.right

/-! ## The payloads -/

/-- What the partner's signal hands device `c`: the 32 chunks of the PARTNER's result that `c` will write. -/
def barPay (c : Dev nD) : sProp 𝕄 :=
  bigSep Finset.univ fun k : Fin 32 =>
    iprop(∃ f, ((oS (hx c) k).view.loc (pr c : Thread nD τ) ↦[(oS (hx c) k).view.set]{fullShare} f))

/-- Slot `s` holding chunk `k`, and the input chunk read. -/
def ldPay (c : Dev nD) (s : Fin 8) (k : Fin 32) : sProp 𝕄 :=
  iprop(owns (c : Thread nD τ) (vS s) fullShare (blk m c k)
    ∗ ((xS k).view.loc (c : Thread nD τ) ↦[(xS k).view.set]{fullShare} Xin m c))

/-- Chunk `(x, k)` of the device's own result written, and the store's share of the slot. -/
def stPay (c : Dev nD) (s : Fin 8) (k : Fin 32) : sProp 𝕄 :=
  iprop(owns (c : Thread nD τ) (oS (hx c) k) fullShare (blk m c k) ∗ owns (c : Thread nD τ) (vS s) qL (blk m c k))

/-- The remote copy's share of the slot. -/
def sdPay (c : Dev nD) (s : Fin 8) (k : Fin 32) : sProp 𝕄 := owns (c : Thread nD τ) (vS s) qR (blk m c k)

/-- Chunk `(1 - x, k)` of the device's result holding the partner's chunk `k`. -/
def rcPay (c : Dev nD) (k : Fin 32) : sProp 𝕄 := owns (c : Thread nD τ) (oS (hx (pr c)) k) fullShare (blk m (pr c) k)

/-! ## The schedule -/

def agRd : Rounds.Schedule (GSem nD τ sig) Unit 𝕄 where
  duties g r :=
    if g.1.2 = .tc then
      (match kindOf g.2 with
        | .bar => if r = 0 then {()} else ∅
        | .rc _ => if r = 0 then {()} else ∅
        | .ld _ => if r < 4 then {()} else ∅
        | .st _ => if r < 4 then {()} else ∅
        | .sd _ => if r < 4 then {()} else ∅
        | .other => ∅)
    else ∅
  unitless _ := False
  amount g _ _ := match kindOf g.2 with
    | .bar => 1
    | .ld _ => Nv
    | _ => No
  payload g r _ := match kindOf g.2 with
    | .bar => barPay g.1.1
    | .ld s => ldPay m g.1.1 s (chunk s r)
    | .st s => stPay m g.1.1 s (chunk s r)
    | .sd s => sdPay m g.1.1 s (chunk s r)
    | .rc k => rcPay m g.1.1 k
    | .other => iprop(emp)
  amount_pos g _ _ _ := by
    cases kindOf g.2 <;> first | exact Nat.one_pos | exact Nv_pos | exact No_pos

set_option synthInstance.maxHeartbeats 1000000 in
set_option maxHeartbeats 1000000 in
instance agRd_payload_storable (g : GSem nD τ sig) (r : ℕ) (d : Unit) :
    BI.Storable (upEmb : UEmb _ 𝕄) ((agRd (F := F) m).payload g r d) := by
  show BI.Storable upEmb (match kindOf g.2 with
    | .bar => barPay g.1.1
    | .ld s => ldPay m g.1.1 s (chunk s r)
    | .st s => stPay m g.1.1 s (chunk s r)
    | .sd s => sdPay m g.1.1 s (chunk s r)
    | .rc k => rcPay m g.1.1 k
    | .other => iprop(emp))
  unfold barPay ldPay stPay sdPay rcPay owns
  split <;> infer_instance

section Sched
variable (c : Dev nD)

omit [FloatOps F] in
theorem duties_bar : (agRd (F := F) m).duties (barCell c) 0 = {()} := by
  dsimp only [agRd]; rw [if_pos rfl, kind_bar]; exact if_pos rfl
omit [FloatOps F] in
theorem duties_rc (k : Fin 32) : (agRd (F := F) m).duties (rcCell c k) 0 = {()} := by
  dsimp only [agRd]; rw [if_pos rfl, kind_rc]; exact if_pos rfl
omit [FloatOps F] in
theorem duties_ld (s : Fin 8) (r : ℕ) (hr : r < 4) : (agRd (F := F) m).duties (ldCell c s) r = {()} := by
  dsimp only [agRd]; rw [if_pos rfl, kind_ld]; exact if_pos hr
omit [FloatOps F] in
theorem duties_st (s : Fin 8) (r : ℕ) (hr : r < 4) : (agRd (F := F) m).duties (stCell c s) r = {()} := by
  dsimp only [agRd]; rw [if_pos rfl, kind_st]; exact if_pos hr
omit [FloatOps F] in
theorem duties_sd (s : Fin 8) (r : ℕ) (hr : r < 4) : (agRd (F := F) m).duties (sdCell c s) r = {()} := by
  dsimp only [agRd]; rw [if_pos rfl, kind_sd]; exact if_pos hr

omit [FloatOps F] in
theorem duties_bar_later : ∀ r, 1 ≤ r → (agRd (F := F) m).duties (barCell c) r = ∅ := fun r hr => by
  dsimp only [agRd]; rw [if_pos rfl, kind_bar]; exact if_neg (by omega)
omit [FloatOps F] in
theorem duties_rc_later (k : Fin 32) : ∀ r, 1 ≤ r → (agRd (F := F) m).duties (rcCell c k) r = ∅ := fun r hr => by
  dsimp only [agRd]; rw [if_pos rfl, kind_rc]; exact if_neg (by omega)
omit [FloatOps F] in
theorem duties_ld_later (s : Fin 8) : ∀ r, 4 ≤ r → (agRd (F := F) m).duties (ldCell c s) r = ∅ := fun r hr => by
  dsimp only [agRd]; rw [if_pos rfl, kind_ld]; exact if_neg (by omega)
omit [FloatOps F] in
theorem duties_st_later (s : Fin 8) : ∀ r, 4 ≤ r → (agRd (F := F) m).duties (stCell c s) r = ∅ := fun r hr => by
  dsimp only [agRd]; rw [if_pos rfl, kind_st]; exact if_neg (by omega)
omit [FloatOps F] in
theorem duties_sd_later (s : Fin 8) : ∀ r, 4 ≤ r → (agRd (F := F) m).duties (sdCell c s) r = ∅ := fun r hr => by
  dsimp only [agRd]; rw [if_pos rfl, kind_sd]; exact if_neg (by omega)

omit [FloatOps F] in
theorem amount_bar (r : ℕ) (d : Unit) : (agRd (F := F) m).amount (barCell c) r d = 1 := by dsimp only [agRd]; rw [kind_bar]
omit [FloatOps F] in
theorem amount_rc (k : Fin 32) (r : ℕ) (d : Unit) : (agRd (F := F) m).amount (rcCell c k) r d = No := by dsimp only [agRd]; rw [kind_rc]
omit [FloatOps F] in
theorem amount_ld (s : Fin 8) (r : ℕ) (d : Unit) : (agRd (F := F) m).amount (ldCell c s) r d = Nv := by dsimp only [agRd]; rw [kind_ld]
omit [FloatOps F] in
theorem amount_st (s : Fin 8) (r : ℕ) (d : Unit) : (agRd (F := F) m).amount (stCell c s) r d = No := by dsimp only [agRd]; rw [kind_st]
omit [FloatOps F] in
theorem amount_sd (s : Fin 8) (r : ℕ) (d : Unit) : (agRd (F := F) m).amount (sdCell c s) r d = No := by dsimp only [agRd]; rw [kind_sd]

omit [FloatOps F] in
theorem expect_bar : (agRd (F := F) m).expect (barCell c) 0 = 1 := by
  unfold Schedule.expect Schedule.amountOf; rw [duties_bar, Finset.sum_singleton, amount_bar]
omit [FloatOps F] in
theorem expect_rc (k : Fin 32) : (agRd (F := F) m).expect (rcCell c k) 0 = No := by
  unfold Schedule.expect Schedule.amountOf; rw [duties_rc, Finset.sum_singleton, amount_rc]
omit [FloatOps F] in
theorem expect_ld (s : Fin 8) (r : ℕ) (hr : r < 4) : (agRd (F := F) m).expect (ldCell c s) r = Nv := by
  unfold Schedule.expect Schedule.amountOf; rw [duties_ld m c s r hr, Finset.sum_singleton, amount_ld]
omit [FloatOps F] in
theorem expect_st (s : Fin 8) (r : ℕ) (hr : r < 4) : (agRd (F := F) m).expect (stCell c s) r = No := by
  unfold Schedule.expect Schedule.amountOf; rw [duties_st m c s r hr, Finset.sum_singleton, amount_st]
omit [FloatOps F] in
theorem expect_sd (s : Fin 8) (r : ℕ) (hr : r < 4) : (agRd (F := F) m).expect (sdCell c s) r = No := by
  unfold Schedule.expect Schedule.amountOf; rw [duties_sd m c s r hr, Finset.sum_singleton, amount_sd]

omit [FloatOps F] in
theorem payload_bar (r : ℕ) (d : Unit) : (agRd (F := F) m).payload (barCell c) r d = barPay c := by dsimp only [agRd]; rw [kind_bar]
omit [FloatOps F] in
theorem payload_rc (k : Fin 32) (r : ℕ) (d : Unit) : (agRd (F := F) m).payload (rcCell c k) r d = rcPay m c k := by dsimp only [agRd]; rw [kind_rc]
omit [FloatOps F] in
theorem payload_ld (s : Fin 8) (r : ℕ) (d : Unit) : (agRd (F := F) m).payload (ldCell c s) r d = ldPay m c s (chunk s r) := by dsimp only [agRd]; rw [kind_ld]
omit [FloatOps F] in
theorem payload_st (s : Fin 8) (r : ℕ) (d : Unit) : (agRd (F := F) m).payload (stCell c s) r d = stPay m c s (chunk s r) := by dsimp only [agRd]; rw [kind_st]
omit [FloatOps F] in
theorem payload_sd (s : Fin 8) (r : ℕ) (d : Unit) : (agRd (F := F) m).payload (sdCell c s) r d = sdPay m c s (chunk s r) := by dsimp only [agRd]; rw [kind_sd]

omit [FloatOps F] in
/-- The rest of a one-duty round, nothing taken: the duty's payload. -/
theorem rest_bar : bigSep ((agRd (F := F) m).duties (barCell c) 0 \ ∅) (fun d => (agRd (F := F) m).payload (barCell c) 0 d) = barPay c := by
  rw [Finset.sdiff_empty, duties_bar, bigSep_singleton, payload_bar]
omit [FloatOps F] in
theorem rest_rc (k : Fin 32) : bigSep ((agRd (F := F) m).duties (rcCell c k) 0 \ ∅) (fun d => (agRd (F := F) m).payload (rcCell c k) 0 d) = rcPay m c k := by
  rw [Finset.sdiff_empty, duties_rc, bigSep_singleton, payload_rc]
omit [FloatOps F] in
theorem rest_ld (s : Fin 8) (r : ℕ) (hr : r < 4) :
    bigSep ((agRd (F := F) m).duties (ldCell c s) r \ ∅) (fun d => (agRd (F := F) m).payload (ldCell c s) r d) = ldPay m c s (chunk s r) := by
  rw [Finset.sdiff_empty, duties_ld m c s r hr, bigSep_singleton, payload_ld]
omit [FloatOps F] in
theorem rest_st (s : Fin 8) (r : ℕ) (hr : r < 4) :
    bigSep ((agRd (F := F) m).duties (stCell c s) r \ ∅) (fun d => (agRd (F := F) m).payload (stCell c s) r d) = stPay m c s (chunk s r) := by
  rw [Finset.sdiff_empty, duties_st m c s r hr, bigSep_singleton, payload_st]
omit [FloatOps F] in
theorem rest_sd (s : Fin 8) (r : ℕ) (hr : r < 4) :
    bigSep ((agRd (F := F) m).duties (sdCell c s) r \ ∅) (fun d => (agRd (F := F) m).payload (sdCell c s) r d) = sdPay m c s (chunk s r) := by
  rw [Finset.sdiff_empty, duties_sd m c s r hr, bigSep_singleton, payload_sd]

end Sched

end Cert.KernelIdeal.AG

end
-- ==== Proof.Proto.lean ====
/-
  The all-gather across the first mesh axis: levels, what a device owes, the per-device ghost state and the
  pipeline's proof data.
-/
import proofs.«900688_g7700000000000689_dist_ag_v7x_xyz2x4x4_x_m32768_n1024_f32_1_alg».proof.Proof.Cells

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## All the cells -/

/-- The cells of the protocol: every TensorCore's barrier cell and its 56 own DMA cells. -/
def cellsAll : Finset (GSem nD τ sig) := Finset.univ.filter fun g => g.1.2 = .tc ∧ kindOf g.2 ≠ .other

theorem mem_bar (c : Dev nD) : barCell c ∈ cellsAll := by
  unfold cellsAll; rw [Finset.mem_filter]; exact ⟨Finset.mem_univ _, rfl, by rw [kind_bar]; exact fun h => by cases h⟩
theorem mem_ld (c : Dev nD) (s : Fin 8) : ldCell c s ∈ cellsAll := by
  unfold cellsAll; rw [Finset.mem_filter]; exact ⟨Finset.mem_univ _, rfl, by rw [kind_ld]; exact fun h => by cases h⟩
theorem mem_st (c : Dev nD) (s : Fin 8) : stCell c s ∈ cellsAll := by
  unfold cellsAll; rw [Finset.mem_filter]; exact ⟨Finset.mem_univ _, rfl, by rw [kind_st]; exact fun h => by cases h⟩
theorem mem_sd (c : Dev nD) (s : Fin 8) : sdCell c s ∈ cellsAll := by
  unfold cellsAll; rw [Finset.mem_filter]; exact ⟨Finset.mem_univ _, rfl, by rw [kind_sd]; exact fun h => by cases h⟩
theorem mem_rc (c : Dev nD) (k : Fin 32) : rcCell c k ∈ cellsAll := by
  unfold cellsAll; rw [Finset.mem_filter]; exact ⟨Finset.mem_univ _, rfl, by rw [kind_rc]; exact fun h => by cases h⟩

/-! ## Levels -/

def L (g : GSem nD τ sig) : Finset Unit := if g.1.2 = .tc then {()} else ∅
/-- barrier cells at 1, receive cells at 2, every other cell at 0. -/
def lv (g : GSem nD τ sig) (_ : Unit) : ℕ := match kindOf g.2 with | .bar => 1 | .rc _ => 2 | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by unfold lv; rw [kind_bar]
theorem lv_rc (c : Dev nD) (k : Fin 32) : lv (rcCell c k) () = 2 := by unfold lv; rw [kind_rc]
theorem lv_ld (c : Dev nD) (s : Fin 8) : lv (ldCell c s) () = 0 := by unfold lv; rw [kind_ld]
theorem lv_st (c : Dev nD) (s : Fin 8) : lv (stCell c s) () = 0 := by unfold lv; rw [kind_st]
theorem lv_sd (c : Dev nD) (s : Fin 8) : lv (sdCell c s) () = 0 := by unfold lv; rw [kind_sd]

/-! ## What a device owes -/

/-- The chunk counted `n` from the last. -/
def chunkRev (n : ℕ) : Fin 32 := ⟨31 - n % 32, by omega⟩

/-- The credits of the LAST `n` chunks on the partner's receive cells: what a device that has sent the first
    `32 - n` chunks still owes. The next chunk to send is the last summand. -/
def owedFrom (c : Dev nD) : ℕ → CellTallies nD τ sig Unit
  | 0 => 0
  | n + 1 => owedFrom c n + tallyAt (rcCell (pr c) (chunkRev n)) () No

/-- At launch: every chunk's credit, and the unit of the partner's barrier (the first signal peels it). -/
def O₀ (c : Dev nD) : CellTallies nD τ sig Unit := owedFrom c 32 + tallyAt (barCell (pr c)) () 1

theorem owedFrom_pos {c : Dev nD} : ∀ {n : ℕ} {g : GSem nD τ sig} {u : Unit}, 0 < owedFrom c n g u → ∃ k, g = rcCell (pr c) k
  | 0, g, u, h => by simp [owedFrom] at h
  | n + 1, g, u, h => by
    unfold owedFrom at h
    rw [Pi.add_apply, Finsupp.add_apply, tallyAt_apply] at h
    by_cases hg : g = rcCell (pr c) (chunkRev n) ∧ u = ()
    · exact ⟨_, hg.1⟩
    · rw [if_neg hg, Nat.add_zero] at h; exact owedFrom_pos h

omit [FloatOps F] in
/-- A wait on a cell of level 0 (a load, store or send cell) while owing only receive credits. -/
theorem mayWait_low (c : Dev nD) (sm : SemLoc sig) (h0 : lv ((c : Thread nD τ), sm) () = 0) (n : ℕ) :
    (levAts L lv : sProp 𝕄) ⊢ MayWait (c : Thread nD τ) sm () (owedFrom c n) :=
  MayOwe.of_cut (L := L) (lev := lv) 0 (fun p hp => by rw [Finset.mem_singleton.mp hp, L_tc]; exact Finset.mem_singleton_self _)
    (fun g u hg => by obtain ⟨k, rfl⟩ := owedFrom_pos hg; exact Finset.mem_singleton_self _)
    (fun p hp => by rw [Finset.mem_singleton.mp hp]; exact le_of_eq h0)
    (fun g u hg => by obtain ⟨k, rfl⟩ := owedFrom_pos hg; cases u; rw [lv_rc]; decide)

omit [FloatOps F] in
/-- The wait on the barrier cell while owing only receive credits. -/
theorem mayWait_bar (c : Dev nD) (n : ℕ) :
    (levAts L lv : sProp 𝕄) ⊢ MayWait (c : Thread nD τ) (.reg barS) () (owedFrom c n) :=
  MayOwe.of_cut (L := L) (lev := lv) 1 (fun p hp => by rw [Finset.mem_singleton.mp hp, L_tc]; exact Finset.mem_singleton_self _)
    (fun g u hg => by obtain ⟨k, rfl⟩ := owedFrom_pos hg; exact Finset.mem_singleton_self _)
    (fun p hp => by rw [Finset.mem_singleton.mp hp]; exact le_of_eq (lv_bar c))
    (fun g u hg => by obtain ⟨k, rfl⟩ := owedFrom_pos hg; cases u; rw [lv_rc]; decide)

/-! ## Bags: a family over the 32 chunks taken, or filled, one chunk at a time -/

/-- The members from chunk `n` on. -/
def bagFrom (n : ℕ) (Φ : Fin 32 → sProp 𝕄) : sProp 𝕄 := bigSep (Finset.univ.filter fun j : Fin 32 => n ≤ j.val) Φ
/-- The members before chunk `n`. -/
def bagTo (n : ℕ) (Φ : Fin 32 → sProp 𝕄) : sProp 𝕄 := bigSep (Finset.univ.filter fun j : Fin 32 => j.val < n) Φ

omit [FloatOps F] in
theorem bagFrom_zero (Φ : Fin 32 → sProp 𝕄) : bagFrom 0 Φ = bigSep Finset.univ Φ := by
  unfold bagFrom; rw [Finset.filter_true_of_mem fun _ _ => Nat.zero_le _]
omit [FloatOps F] in
theorem bagTo_all (Φ : Fin 32 → sProp 𝕄) : bagTo 32 Φ = bigSep Finset.univ Φ := by
  unfold bagTo; rw [Finset.filter_true_of_mem fun j _ => j.isLt]
omit [FloatOps F] in
theorem bagTo_zero (Φ : Fin 32 → sProp 𝕄) : bagTo 0 Φ = iprop(emp) := by
  unfold bagTo; rw [Finset.filter_false_of_mem fun _ _ => Nat.not_lt_zero _]; exact bigSep_empty
omit [FloatOps F] in
theorem bagFrom_end (Φ : Fin 32 → sProp 𝕄) : bagFrom 32 Φ = iprop(emp) := by
  unfold bagFrom; rw [Finset.filter_false_of_mem fun j _ => by have := j.isLt; omega]; exact bigSep_empty

omit [FloatOps F] in
/-- Taking chunk `k` out of the members from `k` on. -/
theorem bagFrom_take (k : Fin 32) (Φ : Fin 32 → sProp 𝕄) : bagFrom k.val Φ = iprop(Φ k ∗ bagFrom (k.val + 1) Φ) := by
  unfold bagFrom
  have h : (Finset.univ.filter fun j : Fin 32 => k.val ≤ j.val) = insert k (Finset.univ.filter fun j : Fin 32 => k.val + 1 ≤ j.val) := by
    ext j; simp only [Finset.mem_filter, Finset.mem_univ, true_and, Finset.mem_insert]
    constructor
    · intro h; by_cases hj : j = k
      · exact Or.inl hj
      · exact Or.inr (by have : j.val ≠ k.val := fun h' => hj (Fin.ext h'); omega)
    · rintro (rfl | h)
      · exact le_refl _
      · omega
  rw [h]
  exact bigSep_insert (by simp only [Finset.mem_filter, Finset.mem_univ, true_and]; omega)

omit [FloatOps F] in
/-- Putting chunk `k` after the members before `k`. -/
theorem bagTo_put (k : Fin 32) (Φ : Fin 32 → sProp 𝕄) : bagTo (k.val + 1) Φ = iprop(Φ k ∗ bagTo k.val Φ) := by
  unfold bagTo
  have h : (Finset.univ.filter fun j : Fin 32 => j.val < k.val + 1) = insert k (Finset.univ.filter fun j : Fin 32 => j.val < k.val) := by
    ext j; simp only [Finset.mem_filter, Finset.mem_univ, true_and, Finset.mem_insert]
    constructor
    · intro h; by_cases hj : j = k
      · exact Or.inl hj
      · exact Or.inr (by have : j.val ≠ k.val := fun h' => hj (Fin.ext h'); omega)
    · rintro (rfl | h)
      · exact Nat.lt_succ_self _
      · omega
  rw [h]
  exact bigSep_insert (by simp only [Finset.mem_filter, Finset.mem_univ, true_and]; omega)

/-! ## The ghost state -/

/-- The slot and the round of chunk `k`. -/
def slot (k : Fin 32) : Fin 8 := ⟨k.val % 8, Nat.mod_lt _ (by decide)⟩
def rnd (k : Fin 32) : ℕ := k.val / 8
theorem rnd_lt (k : Fin 32) : rnd k < 4 := by unfold rnd; have := k.isLt; omega
theorem chunk_slot_rnd (k : Fin 32) : chunk (slot k) (rnd k) = k := by revert k; decide

/-- Every cell's invariant under the name the launch allocated it at, and round 0 of every cell reached. -/
def records (K : GSem nD τ sig → ℕ) : sProp 𝕄 :=
  iprop((bigSep cellsAll fun g => cellInv ER (agRd m) (K g) g) ∗ bigSep cellsAll fun g => reached ER g 0)

instance records_persistent (K : GSem nD τ sig → ℕ) : BI.Persistent (records m K) := by unfold records; infer_instance

omit [FloatOps F] in
theorem inv_at (K : GSem nD τ sig → ℕ) {g : GSem nD τ sig} (hg : g ∈ cellsAll) :
    (bigSep cellsAll fun g => (cellInv ER (agRd m) (K g) g : sProp 𝕄)) ⊢ cellInv ER (agRd m) (K g) g := bigSep_elim hg
omit [FloatOps F] in
theorem reached_at {g : GSem nD τ sig} (hg : g ∈ cellsAll) :
    (bigSep cellsAll fun g => (reached ER g 0 : sProp 𝕄)) ⊢ reached ER g 0 := bigSep_elim hg
omit [FloatOps F] in
theorem inv_of_records (K : GSem nD τ sig → ℕ) {g : GSem nD τ sig} (hg : g ∈ cellsAll) : records m K ⊢ cellInv ER (agRd m) (K g) g := by
  unfold records; iintro ⟨HI, -⟩; iapply (inv_at m K hg); iexact HI
omit [FloatOps F] in
theorem reached_of_records (K : GSem nD τ sig → ℕ) {g : GSem nD τ sig} (hg : g ∈ cellsAll) : records m K ⊢ reached ER g 0 := by
  unfold records; iintro ⟨-, HR⟩; iapply (reached_at (F := F) hg); iexact HR

/-- The tokens of the duties device `c` pays: its own load, store and send cells' (one a chunk), the partner's
    receive cells' and the partner's barrier's. -/
def payToks (c : Dev nD) : sProp 𝕄 :=
  iprop((bigSep Finset.univ fun k : Fin 32 => dutyTok ER (ldCell c (slot k)) (rnd k) ())
    ∗ (bigSep Finset.univ fun k : Fin 32 => dutyTok ER (stCell c (slot k)) (rnd k) ())
    ∗ (bigSep Finset.univ fun k : Fin 32 => dutyTok ER (sdCell c (slot k)) (rnd k) ())
    ∗ (bigSep Finset.univ fun k : Fin 32 => dutyTok ER (rcCell (pr c) k) 0 ())
    ∗ dutyTok ER (barCell (pr c)) 0 ())

/-- What stays with device `c`: its positions at round 0 of its 57 cells, grouped by kind, and the tokens it pays with. -/
def linear (c : Dev nD) : sProp 𝕄 :=
  iprop(atPos ER (barCell c) 0 ∅ 0
    ∗ (bigSep Finset.univ fun s : Fin 8 => iprop(atPos ER (ldCell c s) 0 ∅ 0 ∗ atPos ER (stCell c s) 0 ∅ 0 ∗ atPos ER (sdCell c s) 0 ∅ 0))
    ∗ (bigSep Finset.univ fun k : Fin 32 => atPos ER (rcCell c k) 0 ∅ 0)
    ∗ payToks c)

def ghost (K : GSem nD τ sig → ℕ) (c : Dev nD) : sProp 𝕄 := iprop(records m K ∗ linear c)

/-- The launch credit of device `c`: the partner's unit on its barrier cell, a chunk's credit on each receive cell. -/
def creds (c : Dev nD) : sProp 𝕄 :=
  iprop(cred (tallyAt (barCell c) () 1) ∗ bigSep Finset.univ fun k : Fin 32 => cred (tallyAt (rcCell c k) () No))

/-- What device `c`'s body starts from, the scratch apart. -/
def start (c : Dev nD) : sProp 𝕄 :=
  iprop((∃ K, ghost m K c) ∗ creds c ∗ levAts L lv
    ∗ (((c : Thread nD τ).loc main_arg0) ↦{fullShare} Xin m c)
    ∗ (∃ f, ((c : Thread nD τ).loc main_v1) ↦{fullShare} f))

def Φ₀ (c : Dev nD) : sProp 𝕄 := iprop(start m c ∗ ∃ f, ((c : Thread nD τ).loc cc0_scratch0) ↦{fullShare} f)

/-- After the point: the input as it was, the result the whole array, the scratch at some contents, the 56 own
    cells closed at zero. -/
def Φ₁ (c : Dev nD) : sProp 𝕄 :=
  iprop((((c : Thread nD τ).loc main_arg0) ↦{fullShare} Xin m c)
    ∗ (((c : Thread nD τ).loc main_v1) ↦{fullShare} Fout m c)
    ∗ (∃ f, ((c : Thread nD τ).loc cc0_scratch0) ↦{fullShare} f)
    ∗ (bigSep Finset.univ fun s : Fin 8 => iprop(semVal (ldCell c s) 0 ∗ semVal (stCell c s) 0 ∗ semVal (sdCell c s) 0))
    ∗ bigSep Finset.univ fun k : Fin 32 => semVal (rcCell c k) 0)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.AG

end
-- ==== Proof.Steps.lean ====
/-
  The all-gather across the first mesh axis: one rule per kind of effect of a device's body, at the protocol's
  cells and generic in the chunk `k` (slot `k mod 8`, round `k / 8`).
-/
import proofs.«900688_g7700000000000689_dist_ag_v7x_xyz2x4x4_x_m32768_n1024_f32_1_alg».proof.Proof.Proto

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : GSem nD τ sig → ℕ)

/-! ## What a landing leaves, read through the destination -/

omit [FloatOps F] in
/-- A view wholly rewritten with `w` is owned at `w`. -/
theorem owns_of_written (c : Dev nD) {sp : Space} (mr : Memref sig .tc sp S1024x1024 .f32) (q : PosShare TreeShare)
    (g : mr.view.ty.Contents (Elt F)) (w : S1024x1024.Idx → Elt F .f32) :
    (mr.view.loc (c : Thread nD τ) ↦[mr.view.set]{q} (mr.view.write (Elt F) g w Finset.univ) : sProp 𝕄) ⊢ owns (c : Thread nD τ) mr q w :=
  (owns_intro (c : Thread nD τ) mr q _).trans (Entails.of_eq (by rw [View.read_write_univ]))

omit [FloatOps F] in
/-- A view held at contents that read `w` is owned at `w`. -/
theorem owns_of_read (c : Dev nD) {sp : Space} (mr : Memref sig .tc sp S1024x1024 .f32) (q : PosShare TreeShare)
    (f : mr.view.ty.Contents (Elt F)) (w : S1024x1024.Idx → Elt F .f32) (hf : mr.view.read (Elt F) f = w) :
    (mr.view.loc (c : Thread nD τ) ↦[mr.view.set]{q} f : sProp 𝕄) ⊢ owns (c : Thread nD τ) mr q w :=
  (owns_intro (c : Thread nD τ) mr q _).trans (Entails.of_eq (by rw [hf]))

/-! ## The copies -/

/-- The local copy of input chunk `k` into its slot. -/
theorem wp_load_chunk (c : Dev nD) (k : Fin 32)
    {src : Memref sig (Dev.tc c : Thread nD τ).2.kind .hbm S1024x1024 .f32} {dst : Memref sig (Dev.tc c : Thread nD τ).2.kind .vmem S1024x1024 .f32} {sem : SemLoc sig}
    {hsrc : src.view.WordExact} {hdst : dst.view.WordExact} {hsem : DmaTarget.Typed (nD := nD) .hbm sem (.here dst)}
    (hs : src = xS k) (hd : dst = vS (slot k)) (hm : sem = .dma (ldSem (slot k)))
    {α : Type} {Q : α → sProp 𝕄} {kont : PUnit → Prog (TpuEff nD τ sig (Elt F) Λ₀ .tc) α}
    (g : Buf (Elt F) ((vS (slot k)).view.loc (c : Thread nD τ))) :
    iprop(records m K
        ∗ ((xS k).view.loc (c : Thread nD τ) ↦[(xS k).view.set]{fullShare} Xin m c)
        ∗ ((vS (slot k)).view.loc (c : Thread nD τ) ↦[(vS (slot k)).view.set]{fullShare} g)
        ∗ dutyTok ER (ldCell c (slot k)) (rnd k) () ∗ reached ER (ldCell c (slot k)) (rnd k))
      ⊢ iprop((cred (tallyAt (ldCell c (slot k)) () Nv) -∗ wp frame (wpE (defs₀ (F := F)) 𝒱₀ (c : Thread nD τ) none) Set.univ (kont ⟨⟩) Q)
          -∗ wp frame (wpE (defs₀ (F := F)) 𝒱₀ (c : Thread nD τ) none) Set.univ (.op (.enqueueDma src (.here dst) sem hsrc hdst hsem) kont) Q) := by
  subst hs hd hm
  refine (sep_mono_left (inv_of_records m K (mem_ld c (slot k)))).trans ?_
  exact Rounds.wp_copy_pointsTo 𝒱₀ ER (agRd m) (c : Thread nD τ) none (κ := K (ldCell c (slot k))) (r := rnd k) (d := ())
    (by rw [duties_ld m c _ _ (rnd_lt k)]; exact Finset.mem_singleton_self _) () Nv rfl (amount_ld m c _ _ _)
    (by
      rw [payload_ld, chunk_slot_rnd]; unfold ldPay
      exact sep_mono_left (owns_of_written c (vS (slot k)) fullShare g _))

/-- The local copy of slot `k mod 8`, holding chunk `k`, into chunk `(x, k)` of the device's own result, read through the
    left half of the slot's share. -/
theorem wp_store_chunk (c : Dev nD) (k : Fin 32)
    {src : Memref sig (Dev.tc c : Thread nD τ).2.kind .vmem S1024x1024 .f32} {dst : Memref sig (Dev.tc c : Thread nD τ).2.kind .hbm S1024x1024 .f32} {sem : SemLoc sig}
    {hsrc : src.view.WordExact} {hdst : dst.view.WordExact} {hsem : DmaTarget.Typed (nD := nD) .vmem sem (.here dst)}
    (hs : src = vS (slot k)) (hd : dst = oS (hx c) k) (hm : sem = .dma (stSem (slot k)))
    {α : Type} {Q : α → sProp 𝕄} {kont : PUnit → Prog (TpuEff nD τ sig (Elt F) Λ₀ .tc) α}
    (f : Buf (Elt F) ((vS (slot k)).view.loc (c : Thread nD τ))) (hf : (vS (slot k)).view.read (Elt F) f = blk m c k)
    (g : Buf (Elt F) ((oS (hx c) k).view.loc (c : Thread nD τ))) :
    iprop(records m K
        ∗ ((vS (slot k)).view.loc (c : Thread nD τ) ↦[(vS (slot k)).view.set]{qL} f)
        ∗ ((oS (hx c) k).view.loc (c : Thread nD τ) ↦[(oS (hx c) k).view.set]{fullShare} g)
        ∗ dutyTok ER (stCell c (slot k)) (rnd k) () ∗ reached ER (stCell c (slot k)) (rnd k))
      ⊢ iprop((cred (tallyAt (stCell c (slot k)) () No) -∗ wp frame (wpE (defs₀ (F := F)) 𝒱₀ (c : Thread nD τ) none) Set.univ (kont ⟨⟩) Q)
          -∗ wp frame (wpE (defs₀ (F := F)) 𝒱₀ (c : Thread nD τ) none) Set.univ (.op (.enqueueDma src (.here dst) sem hsrc hdst hsem) kont) Q) := by
  subst hs hd hm
  refine (sep_mono_left (inv_of_records m K (mem_st c (slot k)))).trans ?_
  exact Rounds.wp_copy_pointsTo 𝒱₀ ER (agRd m) (c : Thread nD τ) none (κ := K (stCell c (slot k))) (r := rnd k) (d := ())
    (by rw [duties_st m c _ _ (rnd_lt k)]; exact Finset.mem_singleton_self _) () No rfl (amount_st m c _ _ _)
    (by
      rw [payload_st, chunk_slot_rnd]; unfold stPay
      exact BIClass.sep_mono ((owns_of_written c (oS (hx c) k) fullShare g _).trans (Entails.of_eq (by rw [hf])))
        (owns_of_read c (vS (slot k)) qL f _ hf))

/-- The remote copy of slot `k mod 8`, holding chunk `k`, into chunk `(x, k)` of the PARTNER's result, read through the
    right half of the slot's share: it pays round `k / 8` of the device's send cell and the partner's receive cell `k`,
    and takes that chunk's credit off what the device owes. `n` counts the chunks still to send after this one. -/
theorem wp_send_chunk (c : Dev nD) (k : Fin 32) (n : ℕ) (hn : chunkRev n = k) (p : Dev nD) (hp : p = pr c)
    {src : Memref sig (Dev.tc c : Thread nD τ).2.kind .vmem S1024x1024 .f32} {dst : Memref sig (Dev.tc p : Thread nD τ).2.kind .hbm S1024x1024 .f32}
    {hsc : dst.view.ref.isScScratch = false} {sS sem : SemLoc sig}
    {hsrc : src.view.WordExact} {hdst : dst.view.WordExact} {hsem : DmaTarget.Typed .vmem sem (.remote (Dev.tc p : Thread nD τ) dst sS hsc)}
    (hs : src = vS (slot k)) (hd : dst = oS (hx c) k) (hS : sS = .dma (sdSem (slot k))) (hm : sem = .dma (rcSem k))
    {α : Type} {Q : α → sProp 𝕄} {kont : PUnit → Prog (TpuEff nD τ sig (Elt F) Λ₀ .tc) α}
    (f : Buf (Elt F) ((vS (slot k)).view.loc (c : Thread nD τ))) (hf : (vS (slot k)).view.read (Elt F) f = blk m c k)
    (g : Buf (Elt F) ((oS (hx c) k).view.loc (pr c : Thread nD τ))) (W : Waits sig Unit) :
    iprop(records m K
        ∗ ((vS (slot k)).view.loc (c : Thread nD τ) ↦[(vS (slot k)).view.set]{qR} f)
        ∗ ((oS (hx c) k).view.loc (pr c : Thread nD τ) ↦[(oS (hx c) k).view.set]{fullShare} g)
        ∗ owes (c : Thread nD τ) (owedFrom c (n + 1)) W
        ∗ dutyTok ER (sdCell c (slot k)) (rnd k) () ∗ reached ER (sdCell c (slot k)) (rnd k)
        ∗ dutyTok ER (rcCell (pr c) k) 0 ())
      ⊢ iprop(((cred (tallyAt (sdCell c (slot k)) () No) ∗ owes (c : Thread nD τ) (owedFrom c n) W) -∗ wp frame (wpE (defs₀ (F := F)) 𝒱₀ (c : Thread nD τ) none) Set.univ (kont ⟨⟩) Q)
          -∗ wp frame (wpE (defs₀ (F := F)) 𝒱₀ (c : Thread nD τ) none) Set.univ (.op (.enqueueDma src (.remote (Dev.tc p : Thread nD τ) dst sS hsc) sem hsrc hdst hsem) kont) Q) := by
  subst hp hs hd hS hm
  iintro ⟨#HR, Hs, Hd, HO, Ht1, #Hr1, Ht2⟩
  ihave #HI1 := (inv_of_records m K (mem_sd c (slot k))) $$ HR
  ihave #HI2 := (inv_of_records m K (mem_rc (pr c) k)) $$ HR
  ihave #Hr2 := (reached_of_records m K (mem_rc (pr c) k)) $$ HR
  iapply (Rounds.wp_send_pointsTo 𝒱₀ ER (agRd m) (c : Thread nD τ) none (κ₁ := K (sdCell c (slot k))) (κ₂ := K (rcCell (pr c) k))
    (r₁ := rnd k) (r₂ := 0) (d₁ := ()) (d₂ := ()) (fd := g)
    (by rw [duties_sd m c _ _ (rnd_lt k)]; exact Finset.mem_singleton_self _) (by rw [duties_rc]; exact Finset.mem_singleton_self _)
    () () No rfl (amount_sd m c _ _ _) (amount_rc m (pr c) _ _ _) (owedFrom c n) (by rw [← hn]) (W := W)
    (by rw [payload_sd, chunk_slot_rnd]; unfold sdPay; exact owns_of_read c (vS (slot k)) qR f _ hf)
    (by
      rw [payload_rc]; unfold rcPay; rw [pr_pr]
      exact (owns_of_written (pr c) (oS (hx c) k) fullShare g _).trans (Entails.of_eq (by rw [hf]))))
  isplitr; · iexact HI1
  isplitr; · iexact HI2
  isplitl [Hs]; · iexact Hs
  isplitl [Hd]; · iexact Hd
  isplitl [HO]; · iexact HO
  isplitl [Ht1]; · iexact Ht1
  isplitr; · iexact Hr1
  isplitl [Ht2]; · iexact Ht2
  iexact Hr2

/-! ## The waits -/

section Waits

/-- The wait for the load of chunk `k`: the slot comes back holding chunk `k`, and the input chunk read. -/
theorem wp_wait_load (c : Dev nD) (k : Fin 32) (n : ℕ)
    {sem : DmaSem sig} {s' : Shape} {e' : EltTy} {κ' : Kind} {sp sp' : Space}
    {srcw : Memref sig (Dev.tc c : Thread nD τ).2.kind sp' s' e'} {dstw : Memref sig κ' sp S1024x1024 .f32} {hsrc : srcw.view.WordExact} {hdst : dstw.view.WordExact}
    {α : Type} {Q : α → sProp 𝕄} {kont : PUnit → Prog (TpuEff nD τ sig (Elt F) Λ₀ .tc) α}
    (hm : sem = ldSem (slot k)) (hcr : dstw.view.dmaCredit = Nv) (W : Waits sig Unit) :
    iprop(records m K ∗ cred (tallyAt (ldCell c (slot k)) () Nv)
        ∗ owes (c : Thread nD τ) (owedFrom c n) W ∗ levAts L lv ∗ atPos ER (ldCell c (slot k)) (rnd k) ∅ 0)
      ⊢ iprop(((owes (c : Thread nD τ) (owedFrom c n) (insert (SemLoc.dma (ldSem (slot k)), ()) W)
              ∗ atPos ER (ldCell c (slot k)) (rnd k + 1) ∅ 0 ∗ reached ER (ldCell c (slot k)) (rnd k + 1)
              ∗ ldPay m c (slot k) k) -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sem srcw dstw hsrc hdst) kont) Q) := by
  subst hm
  iintro ⟨#HR, Hc, HO, #Hlev, Hat⟩ Hk
  ihave #HI := (inv_of_records m K (mem_ld c (slot k))) $$ HR
  iapply (Rounds.wp_wait_rest_token 𝒱₀ ER (agRd m) (c : Thread nD τ) none (κ := K (ldCell c (slot k)))
      (wpE_waitDma2_eq 𝒱₀ (c : Thread nD τ) none Set.univ) (Set.mem_univ _) () (O := owedFrom c n) (W := W) (R := rnd k) (m := 0) (T := ∅)
      (by rw [Nat.zero_add, expect_ld m c _ _ (rnd_lt k)]; exact hcr)) $$ [Hc HO Hat]
  · isplitr; · iexact HI
    isplitl [Hc]; · rw [hcr]; iexact Hc
    isplitl [HO]; · iexact HO
    isplitr; · iapply (mayWait_low c _ (lv_ld c _) n); iexact Hlev
    iexact Hat
  iintro ⟨HO, Hat, Hr, Hpay⟩
  iapply Hk
  isplitl [HO]; · iexact HO
  isplitl [Hat]; · iexact Hat
  isplitl [Hr]; · iexact Hr
  iapply (Entails.of_eq ((rest_ld m c (slot k) (rnd k) (rnd_lt k)).trans (by rw [chunk_slot_rnd]))) $$ Hpay

/-- The wait for the local store of chunk `k`: chunk `(x, k)` of the result written, and the store's share of the slot. -/
theorem wp_wait_store (c : Dev nD) (k : Fin 32) (n : ℕ)
    {sem : DmaSem sig} {s' : Shape} {e' : EltTy} {κ' : Kind} {sp sp' : Space}
    {srcw : Memref sig (Dev.tc c : Thread nD τ).2.kind sp' s' e'} {dstw : Memref sig κ' sp S1024x1024 .f32} {hsrc : srcw.view.WordExact} {hdst : dstw.view.WordExact}
    {α : Type} {Q : α → sProp 𝕄} {kont : PUnit → Prog (TpuEff nD τ sig (Elt F) Λ₀ .tc) α}
    (hm : sem = stSem (slot k)) (hcr : dstw.view.dmaCredit = No) (W : Waits sig Unit) :
    iprop(records m K ∗ cred (tallyAt (stCell c (slot k)) () No)
        ∗ owes (c : Thread nD τ) (owedFrom c n) W ∗ levAts L lv ∗ atPos ER (stCell c (slot k)) (rnd k) ∅ 0)
      ⊢ iprop(((owes (c : Thread nD τ) (owedFrom c n) (insert (SemLoc.dma (stSem (slot k)), ()) W)
              ∗ atPos ER (stCell c (slot k)) (rnd k + 1) ∅ 0 ∗ reached ER (stCell c (slot k)) (rnd k + 1)
              ∗ stPay m c (slot k) k) -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sem srcw dstw hsrc hdst) kont) Q) := by
  subst hm
  iintro ⟨#HR, Hc, HO, #Hlev, Hat⟩ Hk
  ihave #HI := (inv_of_records m K (mem_st c (slot k))) $$ HR
  iapply (Rounds.wp_wait_rest_token 𝒱₀ ER (agRd m) (c : Thread nD τ) none (κ := K (stCell c (slot k)))
      (wpE_waitDma2_eq 𝒱₀ (c : Thread nD τ) none Set.univ) (Set.mem_univ _) () (O := owedFrom c n) (W := W) (R := rnd k) (m := 0) (T := ∅)
      (by rw [Nat.zero_add, expect_st m c _ _ (rnd_lt k)]; exact hcr)) $$ [Hc HO Hat]
  · isplitr; · iexact HI
    isplitl [Hc]; · rw [hcr]; iexact Hc
    isplitl [HO]; · iexact HO
    isplitr; · iapply (mayWait_low c _ (lv_st c _) n); iexact Hlev
    iexact Hat
  iintro ⟨HO, Hat, Hr, Hpay⟩
  iapply Hk
  isplitl [HO]; · iexact HO
  isplitl [Hat]; · iexact Hat
  isplitl [Hr]; · iexact Hr
  iapply (Entails.of_eq ((rest_st m c (slot k) (rnd k) (rnd_lt k)).trans (by rw [chunk_slot_rnd]))) $$ Hpay

/-- The wait for the send side of the remote copy of chunk `k`: the remote copy's share of the slot. -/
theorem wp_wait_send (c : Dev nD) (k : Fin 32) (n : ℕ)
    {sem : DmaSem sig} {s' : Shape} {e' : EltTy} {κ' : Kind} {sp sp' : Space}
    {srcw : Memref sig (Dev.tc c : Thread nD τ).2.kind sp' s' e'} {dstw : Memref sig κ' sp S1024x1024 .f32} {hsrc : srcw.view.WordExact} {hdst : dstw.view.WordExact}
    {α : Type} {Q : α → sProp 𝕄} {kont : PUnit → Prog (TpuEff nD τ sig (Elt F) Λ₀ .tc) α}
    (hm : sem = sdSem (slot k)) (hcr : dstw.view.dmaCredit = No) (W : Waits sig Unit) :
    iprop(records m K ∗ cred (tallyAt (sdCell c (slot k)) () No)
        ∗ owes (c : Thread nD τ) (owedFrom c n) W ∗ levAts L lv ∗ atPos ER (sdCell c (slot k)) (rnd k) ∅ 0)
      ⊢ iprop(((owes (c : Thread nD τ) (owedFrom c n) (insert (SemLoc.dma (sdSem (slot k)), ()) W)
              ∗ atPos ER (sdCell c (slot k)) (rnd k + 1) ∅ 0 ∗ reached ER (sdCell c (slot k)) (rnd k + 1)
              ∗ sdPay m c (slot k) k) -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sem srcw dstw hsrc hdst) kont) Q) := by
  subst hm
  iintro ⟨#HR, Hc, HO, #Hlev, Hat⟩ Hk
  ihave #HI := (inv_of_records m K (mem_sd c (slot k))) $$ HR
  iapply (Rounds.wp_wait_rest_token 𝒱₀ ER (agRd m) (c : Thread nD τ) none (κ := K (sdCell c (slot k)))
      (wpE_waitDma2_eq 𝒱₀ (c : Thread nD τ) none Set.univ) (Set.mem_univ _) () (O := owedFrom c n) (W := W) (R := rnd k) (m := 0) (T := ∅)
      (by rw [Nat.zero_add, expect_sd m c _ _ (rnd_lt k)]; exact hcr)) $$ [Hc HO Hat]
  · isplitr; · iexact HI
    isplitl [Hc]; · rw [hcr]; iexact Hc
    isplitl [HO]; · iexact HO
    isplitr; · iapply (mayWait_low c _ (lv_sd c _) n); iexact Hlev
    iexact Hat
  iintro ⟨HO, Hat, Hr, Hpay⟩
  iapply Hk
  isplitl [HO]; · iexact HO
  isplitl [Hat]; · iexact Hat
  isplitl [Hr]; · iexact Hr
  iapply (Entails.of_eq ((rest_sd m c (slot k) (rnd k) (rnd_lt k)).trans (by rw [chunk_slot_rnd]))) $$ Hpay

/-- The wait for the partner's chunk `k`, owing nothing: chunk `(1 - x, k)` of the result holding it. -/
theorem wp_wait_recv (c : Dev nD) (k : Fin 32)
    {sem : DmaSem sig} {s' : Shape} {e' : EltTy} {κ' : Kind} {sp sp' : Space}
    {srcw : Memref sig (Dev.tc c : Thread nD τ).2.kind sp' s' e'} {dstw : Memref sig κ' sp S1024x1024 .f32} {hsrc : srcw.view.WordExact} {hdst : dstw.view.WordExact}
    {α : Type} {Q : α → sProp 𝕄} {kont : PUnit → Prog (TpuEff nD τ sig (Elt F) Λ₀ .tc) α}
    (hm : sem = rcSem k) (hcr : dstw.view.dmaCredit = No) (W : Waits sig Unit) :
    iprop(records m K ∗ cred (tallyAt (rcCell c k) () No)
        ∗ owes (c : Thread nD τ) 0 W ∗ atPos ER (rcCell c k) 0 ∅ 0)
      ⊢ iprop(((owes (c : Thread nD τ) 0 (insert (SemLoc.dma (rcSem k), ()) W)
              ∗ atPos ER (rcCell c k) 1 ∅ 0 ∗ rcPay m c k) -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sem srcw dstw hsrc hdst) kont) Q) := by
  subst hm
  iintro ⟨#HR, Hc, HO, Hat⟩ Hk
  ihave #HI := (inv_of_records m K (mem_rc c k)) $$ HR
  iapply (Rounds.wp_wait_rest_token 𝒱₀ ER (agRd m) (c : Thread nD τ) none (κ := K (rcCell c k))
      (wpE_waitDma2_eq 𝒱₀ (c : Thread nD τ) none Set.univ) (Set.mem_univ _) () (O := 0) (W := W) (R := 0) (m := 0) (T := ∅)
      (by rw [Nat.zero_add, expect_rc]; exact hcr)) $$ [Hc HO Hat]
  · isplitr; · iexact HI
    isplitl [Hc]; · rw [hcr]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_rc m c k)) $$ Hpay

end Waits

end Cert.KernelIdeal.AG

end
-- ==== Proof.AGRegions.lean ====
/-
  The all-gather across the first mesh axis: the buffers cut into chunks and put together again.

  The body holds each buffer by pieces. The input block is held whole and one chunk of 1024 rows is carved out of
  it for the time of a copy. The scratch is held as its 8 slots. The result is held as its 2 × 32 chunks of 1024
  rows, the 32 chunks of the device's own half and the 32 of its partner's half. A row `r` of the result lies in
  chunk `(h, k)` exactly when `32768·h + 1024·k ≤ r < 32768·h + 1024·k + 1024`; the chunks are therefore pairwise
  disjoint and cover the rows, and likewise the 8 planes of the scratch. A slot is also held by halves of the full
  share, one half for each of the two copies that read it at the same time.

  Last, the value: chunk `(h, k)` of the result function `Fout` is chunk `k` of the input block of the device at
  x-coordinate `h`, so the chunks, each owned at the right input chunk, join to the result buffer holding `Fout`.
-/
import proofs.«900688_g7700000000000689_dist_ag_v7x_xyz2x4x4_x_m32768_n1024_f32_1_alg».proof.Proof.Geom
import Idealize.ShloMosaic.Lib.Memref
import Idealize.SL.ProofMode.BigOp

noncomputable section

namespace Cert.KernelIdeal.AG

open Cert.KernelIdeal Cert.KernelIdeal.Gen
open Idealize.ShloMosaic
open Idealize.ShloMosaic.TcCoe
open Idealize.SL Idealize.SL.Sem
open Idealize.SL.BI (sProp bigSep bigSep_insert bigSep_empty bigSep_congr bigSep_mono bigSep_exists_pi bigSep_univ_at
  bigSep_univ_prod bigSep_univ_two)
open scoped Idealize.SL.BI
open Idealize.SL.BI.BIBase Idealize.SL.BI.Laws Idealize.SL.ProofMode
open Idealize.SL.RA

/-! ## Points-to algebra, at any signature and machine algebra -/

section Generic

variable {n : Nat} {tp : Topo} {sg : RefSig} {Val : EltTy → Type}
variable {Ix : Type} [DecidableEq Ix] {Name : Type} [DecidableEq Name] {U : Type} [URA U] {Lvl : Type}

local notation "𝕄g" => MT n tp sg Ix Val Name U Lvl

/-- The full share of a set of elements is its two halves. -/
theorem pt_halves (ℓ : Loc n tp sg) (I : Finset (Idx ℓ)) (f : Buf Val ℓ) :
    (ℓ ↦[I]{fullShare} f : sProp 𝕄g) ⊣⊢ iprop((ℓ ↦[I]{fullShare.left} f) ∗ ℓ ↦[I]{fullShare.right} f) :=
  pointsTo_share (PosShare.mem_left_op_right fullShare)

/-- The two halves held at two valuations join: the valuations agree on the set. -/
theorem pt_join_halves (ℓ : Loc n tp sg) (I : Finset (Idx ℓ)) (f g : Buf Val ℓ) :
    iprop((ℓ ↦[I]{fullShare.left} f) ∗ ℓ ↦[I]{fullShare.right} g) ⊢ (ℓ ↦[I]{fullShare} f : sProp 𝕄g) :=
  BI.Laws.pure_elim _ pointsTo_agree fun h => by
    rw [pointsTo_congr (q := fullShare.right) (f := g) (g := f)
      (fun i hi => ((h i (Finset.mem_inter.mpr ⟨hi, hi⟩)).1).symm)]
    exact (pt_halves ℓ I f).2

/-- A memref owned at the full share: its elements at each half of the share, at one valuation. -/
theorem owns_open_halves (c : Thread n tp) {sp : Space} {sh : Shape} {e : EltTy} (mr : Memref sg c.2.kind sp sh e)
    (Y : sh.Idx → Val e) :
    (owns c mr fullShare Y : sProp 𝕄g)
      ⊢ iprop(∃ f, ⌜mr.view.read Val f = Y⌝ ∗ (mr.view.loc c ↦[mr.view.set]{fullShare.left} f)
          ∗ (mr.view.loc c ↦[mr.view.set]{fullShare.right} f)) := by
  unfold owns
  iintro ⟨%f, %hf, H⟩
  ihave H' := (pt_halves _ _ f).1 $$ H
  icases H' with ⟨Hl, Hr⟩
  iexists f
  isplitr
  · ipureintro; exact hf
  · isplitl [Hl]
    · iexact Hl
    · iexact Hr

/-- A memref owned at each half of the share: its elements at the full share, at some valuation. -/
theorem owns_close_halves (c : Thread n tp) {sp : Space} {sh : Shape} {e : EltTy} (mr : Memref sg c.2.kind sp sh e)
    (Y : sh.Idx → Val e) :
    iprop(owns c mr fullShare.left Y ∗ owns c mr fullShare.right Y)
      ⊢ (iprop(∃ g, mr.view.loc c ↦[mr.view.set]{fullShare} g) : sProp 𝕄g) := by
  unfold owns
  iintro ⟨⟨%f, %hf, Hl⟩, ⟨%g, %hg, Hr⟩⟩
  iexists f
  iapply (pt_join_halves _ _ f g)
  isplitl [Hl]
  · iexact Hl
  · iexact Hr

/-- A whole buffer is the separating conjunction of a disjoint covering family of element sets. -/
theorem whole_split {T : Type} [Fintype T] [DecidableEq T] (ℓ : Loc n tp sg) (K : T → Finset (Idx ℓ))
    (hd : ∀ t t', t ≠ t' → Disjoint (K t) (K t')) (hcov : Finset.univ.biUnion K = Finset.univ)
    (q : PosShare TreeShare) (f : Buf Val ℓ) :
    (ℓ ↦{q} f : sProp 𝕄g) = bigSep Finset.univ fun t => ℓ ↦[K t]{q} f := by
  rw [← pointsTo_biUnion Finset.univ K (fun t _ t' _ h => hd t t' h), hcov]

/-- The sets of a disjoint family, each held at some valuation, join to their union at some valuation. -/
theorem pt_exists_join {T : Type} [DecidableEq T] (ℓ : Loc n tp sg) (q : PosShare TreeShare) (S : Finset T)
    (K : T → Finset (Idx ℓ)) (f₀ : Buf Val ℓ) (h : ∀ t ∈ S, ∀ t' ∈ S, t ≠ t' → Disjoint (K t) (K t')) :
    bigSep S (fun t => iprop(∃ g, ℓ ↦[K t]{q} g)) ⊢ (iprop(∃ f, ℓ ↦[S.biUnion K]{q} f) : sProp 𝕄g) := by
  haveI : Nonempty (Buf Val ℓ) := ⟨f₀⟩
  refine (bigSep_exists_pi S (fun t g => (ℓ ↦[K t]{q} g : sProp 𝕄g))).trans ?_
  iintro ⟨%fs, H⟩
  ihave H' := (pointsTo_biUnion_join S K fs f₀ h) $$ H
  icases H' with ⟨%g, %hg, H'⟩
  iexists g
  iexact H'

/-- A disjoint covering family over an inhabited index type, each set held at some valuation, is the whole buffer
    at some valuation. -/
theorem whole_join_exists {T : Type} [Fintype T] [DecidableEq T] (ℓ : Loc n tp sg) (K : T → Finset (Idx ℓ))
    (hd : ∀ t t', t ≠ t' → Disjoint (K t) (K t')) (hcov : Finset.univ.biUnion K = Finset.univ)
    (q : PosShare TreeShare) (t₀ : T) :
    bigSep Finset.univ (fun t => iprop(∃ g, ℓ ↦[K t]{q} g)) ⊢ (iprop(∃ f, ℓ ↦{q} f) : sProp 𝕄g) := by
  have key (f₀ : Buf Val ℓ) :
      bigSep Finset.univ (fun t => iprop(∃ g, ℓ ↦[K t]{q} g)) ⊢ (iprop(∃ f, ℓ ↦{q} f) : sProp 𝕄g) := by
    have h := pt_exists_join (Ix := Ix) (Name := Name) (U := U) (Lvl := Lvl) ℓ q Finset.univ K f₀
      (fun t _ t' _ h => hd t t' h)
    rw [hcov] at h
    exact h
  have e : bigSep Finset.univ (fun t => (iprop(∃ g, ℓ ↦[K t]{q} g) : sProp 𝕄g))
      = iprop((∃ g, ℓ ↦[K t₀]{q} g) ∗ bigSep (Finset.univ.erase t₀) (fun t => iprop(∃ g, ℓ ↦[K t]{q} g))) :=
    bigSep_univ_at _ t₀
  rw [e]
  iintro ⟨⟨%g₀, H₀⟩, HR⟩
  iapply ((Entails.of_eq e.symm).trans (key g₀))
  isplitl [H₀]
  · iexists g₀; iexact H₀
  · iexact HR

/-- Two assertions indexed by the two values of `Fin 2`, named in either order. -/
theorem sep_fin2_cases (A : Fin 2 → sProp 𝕄g) (h₁ h₂ : Fin 2) (hc : (h₁ = 0 ∧ h₂ = 1) ∨ (h₁ = 1 ∧ h₂ = 0)) :
    iprop(A 0 ∗ A 1) ⊣⊢ iprop(A h₁ ∗ A h₂) := by
  rcases hc with ⟨rfl, rfl⟩ | ⟨rfl, rfl⟩
  · exact ⟨.rfl, .rfl⟩
  · constructor
    · iintro ⟨H0, H1⟩
      isplitl [H1]
      · iexact H1
      · iexact H0
    · iintro ⟨H1, H0⟩
      isplitl [H0]
      · iexact H0
      · iexact H1

end Generic

/-! ## The chunks as sets of rows -/

/-- Rows `[1024·k, 1024·k + 1024)` of the input block. -/
def xR (k : Fin 32) : Rect S32768x1024 :=
  Rect.unit (s := S32768x1024) ![1024 * k.val, 0] S1024x1024.size (inb_x k)

/-- Rows `[32768·h + 1024·k, 32768·h + 1024·k + 1024)` of the result. -/
def oR (h : Fin 2) (k : Fin 32) : Rect S65536x1024 :=
  Rect.unit (s := S65536x1024) ![32768 * h.val + 1024 * k.val, 0] S1024x1024.size (inb_o h k)

/-- Plane `s` of the scratch. -/
def vR (s : Fin 8) : Rect S8x1024x1024 :=
  Rect.unit (s := S8x1024x1024) ![s.val, 0, 0] S1x1024x1024.size (inb_v s)

/-- A row of the result lies in chunk `(h, k)` exactly when it is one of that chunk's 1024 rows. -/
theorem mem_oR (h : Fin 2) (k : Fin 32) (i : S65536x1024.Idx) :
    i ∈ (oR h k).set ↔ 32768 * h.val + 1024 * k.val ≤ (i 0).val ∧ (i 0).val < 32768 * h.val + 1024 * k.val + 1024 := by
  unfold oR
  rw [Rect.mem_set_unit]
  constructor
  · intro H; exact H 0
  · intro H a
    fin_cases a
    · exact H
    · have h1 : (i 1).val < 1024 := (i 1).isLt
      exact ⟨Nat.zero_le _, by show (i 1).val < 0 + 1024; omega⟩

theorem oR_disj : ∀ t t' : Fin 2 × Fin 32, t ≠ t' → Disjoint (oR t.1 t.2).set (oR t'.1 t'.2).set := by
  intro t t' hne
  rw [Finset.disjoint_left]
  intro i hi hi'
  rw [mem_oR] at hi hi'
  have h1 := t.1.isLt; have h2 := t'.1.isLt; have k1 := t.2.isLt; have k2 := t'.2.isLt
  apply hne
  apply Prod.ext
  · apply Fin.ext; omega
  · apply Fin.ext; omega

theorem oR_cov : (Finset.univ : Finset (Fin 2 × Fin 32)).biUnion (fun t => (oR t.1 t.2).set) = Finset.univ := by
  apply Finset.eq_univ_iff_forall.mpr
  intro i
  have hi : (i 0).val < 65536 := (i 0).isLt
  refine Finset.mem_biUnion.mpr
    ⟨(⟨(i 0).val / 32768, by omega⟩, ⟨(i 0).val % 32768 / 1024, by omega⟩), Finset.mem_univ _, ?_⟩
  rw [mem_oR]
  show 32768 * ((i 0).val / 32768) + 1024 * ((i 0).val % 32768 / 1024) ≤ (i 0).val
    ∧ (i 0).val < 32768 * ((i 0).val / 32768) + 1024 * ((i 0).val % 32768 / 1024) + 1024
  omega

/-- An element of the scratch lies in plane `s` exactly when its first coordinate is `s`. -/
theorem mem_vR (s : Fin 8) (i : S8x1024x1024.Idx) : i ∈ (vR s).set ↔ (i 0).val = s.val := by
  unfold vR
  rw [Rect.mem_set_unit]
  constructor
  · intro H
    have h0 : s.val ≤ (i 0).val := (H 0).1
    have h1 : (i 0).val < s.val + 1 := (H 0).2
    omega
  · intro H a
    fin_cases a
    · exact ⟨by show s.val ≤ (i 0).val; omega, by show (i 0).val < s.val + 1; omega⟩
    · have h1 : (i 1).val < 1024 := (i 1).isLt
      exact ⟨Nat.zero_le _, by show (i 1).val < 0 + 1024; omega⟩
    · have h1 : (i 2).val < 1024 := (i 2).isLt
      exact ⟨Nat.zero_le _, by show (i 2).val < 0 + 1024; omega⟩

theorem vR_disj : ∀ s s' : Fin 8, s ≠ s' → Disjoint (vR s).set (vR s').set := by
  intro s s' hne
  rw [Finset.disjoint_left]
  intro i hi hi'
  rw [mem_vR] at hi hi'
  exact hne (Fin.ext (hi.symm.trans hi'))

theorem vR_cov : (Finset.univ : Finset (Fin 8)).biUnion (fun s => (vR s).set) = Finset.univ := by
  apply Finset.eq_univ_iff_forall.mpr
  intro i
  have hi : (i 0).val < 8 := (i 0).isLt
  exact Finset.mem_biUnion.mpr ⟨⟨(i 0).val, hi⟩, Finset.mem_univ _, (mem_vR _ i).mpr rfl⟩

/-! ## The elements under each chunk's memref -/

theorem xS_set (k : Fin 32) : (xS k).view.set = (xR k).set := View.set_slice_whole main_arg0 (xR k)

theorem oS_set (h : Fin 2) (k : Fin 32) : (oS h k).view.set = (oR h k).set := View.set_slice_whole main_v1 (oR h k)

theorem vS_set (s : Fin 8) : (vS s).view.set = (vR s).set :=
  (View.set_reshape _ _).trans (View.set_slice_whole cc0_scratch0 (vR s))

theorem oS_disj : ∀ t t' : Fin 2 × Fin 32, t ≠ t' →
    Disjoint ((oS t.1 t.2).view.set : Finset S65536x1024.Idx) (oS t'.1 t'.2).view.set := by
  intro t t' hne
  rw [oS_set, oS_set]
  exact oR_disj t t' hne

theorem oS_cov : (Finset.univ : Finset (Fin 2 × Fin 32)).biUnion (β := S65536x1024.Idx)
    (fun t => (oS t.1 t.2).view.set) = Finset.univ := by
  apply Finset.eq_univ_iff_forall.mpr
  intro i
  have hi : i ∈ (Finset.univ : Finset (Fin 2 × Fin 32)).biUnion (fun t => (oR t.1 t.2).set) := by
    rw [oR_cov]; exact Finset.mem_univ i
  obtain ⟨t, -, ht⟩ := Finset.mem_biUnion.mp hi
  exact Finset.mem_biUnion.mpr ⟨t, Finset.mem_univ _, by rw [oS_set]; exact ht⟩

theorem vS_disj : ∀ s s' : Fin 8, s ≠ s' →
    Disjoint ((vS s).view.set : Finset S8x1024x1024.Idx) (vS s').view.set := by
  intro s s' hne
  rw [vS_set, vS_set]
  exact vR_disj s s' hne

theorem vS_cov : (Finset.univ : Finset (Fin 8)).biUnion (β := S8x1024x1024.Idx)
    (fun s => (vS s).view.set) = Finset.univ := by
  apply Finset.eq_univ_iff_forall.mpr
  intro i
  have hi : i ∈ (Finset.univ : Finset (Fin 8)).biUnion (fun s => (vR s).set) := by
    rw [vR_cov]; exact Finset.mem_univ i
  obtain ⟨s, -, hs⟩ := Finset.mem_biUnion.mp hi
  exact Finset.mem_biUnion.mpr ⟨s, Finset.mem_univ _, by rw [vS_set]; exact hs⟩

/-- A device's x-coordinate and its partner's are 0 and 1 in one order or the other. -/
theorem hx_cases (c : Dev nD) : (hx c = 0 ∧ hx (pr c) = 1) ∨ (hx c = 1 ∧ hx (pr c) = 0) := by revert c; decide

/-! ## The buffers split and joined -/

variable {F : FTy → Type} [FloatOps F]
variable {Ix : Type} [DecidableEq Ix] {Name : Type} [DecidableEq Name] {U : Type} [URA U] {Lvl : Type}

local notation "𝕄" => MT nD τ sig Ix (Elt F) Name U Lvl

/-- One chunk of the input block and the rest of it. -/
theorem x_split (c : Dev nD) (k : Fin 32) (q : PosShare TreeShare) (X : Buf (Elt F) ((c : Thread nD τ).loc main_arg0)) :
    ((((c : Thread nD τ).loc main_arg0) ↦{q} X) : sProp 𝕄)
      ⊣⊢ iprop(((xS k).view.loc (c : Thread nD τ) ↦[(xS k).view.set]{q} X)
          ∗ (((c : Thread nD τ).loc main_arg0) ↦[Finset.univ \ (xS k).view.set]{q} X)) :=
  pointsTo_split_subset (Finset.subset_univ _)

/-- A slot owned at the full share: its elements at each half, at one valuation that the slot reads as `Y`. -/
theorem slot_halves (m : (ℓ : Loc nD τ sig) → Buf (Elt F) ℓ) (c : Dev nD) (s : Fin 8) (Y : S1024x1024.Idx → Elt F .f32) :
    (owns (c : Thread nD τ) (vS s) fullShare Y : sProp 𝕄)
      ⊢ iprop(∃ f, ⌜(vS s).view.read (Elt F) f = Y⌝
          ∗ ((vS s).view.loc (c : Thread nD τ) ↦[(vS s).view.set]{fullShare.left} f)
          ∗ ((vS s).view.loc (c : Thread nD τ) ↦[(vS s).view.set]{fullShare.right} f)) :=
  owns_open_halves (c : Thread nD τ) (vS s) Y

/-- A slot owned at each half of the share is its elements at the full share. -/
theorem slot_whole (m : (ℓ : Loc nD τ sig) → Buf (Elt F) ℓ) (c : Dev nD) (s : Fin 8) (Y : S1024x1024.Idx → Elt F .f32) :
    iprop(owns (c : Thread nD τ) (vS s) fullShare.left Y ∗ owns (c : Thread nD τ) (vS s) fullShare.right Y)
      ⊢ (iprop(∃ g, (vS s).view.loc (c : Thread nD τ) ↦[(vS s).view.set]{fullShare} g) : sProp 𝕄) :=
  owns_close_halves (c : Thread nD τ) (vS s) Y

/-- The scratch is its 8 slots. -/
theorem v_split (c : Dev nD) (f : Buf (Elt F) ((c : Thread nD τ).loc cc0_scratch0)) :
    ((((c : Thread nD τ).loc cc0_scratch0) ↦{fullShare} f) : sProp 𝕄)
      ⊢ bigSep Finset.univ fun s : Fin 8 =>
          iprop(∃ g, (vS s).view.loc (c : Thread nD τ) ↦[(vS s).view.set]{fullShare} g) := by
  have hs (s : Fin 8) : ((((c : Thread nD τ).loc cc0_scratch0) ↦[(vS s).view.set]{fullShare} f) : sProp 𝕄)
      ⊢ iprop(∃ g, (vS s).view.loc (c : Thread nD τ) ↦[(vS s).view.set]{fullShare} g) := by
    iintro H
    iexists f
    iexact H
  rw [whole_split ((c : Thread nD τ).loc cc0_scratch0) (fun s : Fin 8 => (vS s).view.set) vS_disj vS_cov fullShare f]
  exact bigSep_mono fun s _ => hs s

/-- The 8 slots, whatever they hold, are the scratch. -/
theorem v_join (c : Dev nD) :
    (bigSep Finset.univ fun s : Fin 8 =>
        iprop(∃ g, (vS s).view.loc (c : Thread nD τ) ↦[(vS s).view.set]{fullShare} g) : sProp 𝕄)
      ⊢ iprop(∃ f, ((c : Thread nD τ).loc cc0_scratch0) ↦{fullShare} f) :=
  whole_join_exists ((c : Thread nD τ).loc cc0_scratch0) (fun s : Fin 8 => (vS s).view.set) vS_disj vS_cov fullShare
    (0 : Fin 8)

/-- The result buffer is the 32 chunks of its lower half and the 32 of its upper half. -/
theorem out_halves_eq (c : Dev nD) (q : PosShare TreeShare) (f : Buf (Elt F) ((c : Thread nD τ).loc main_v1)) :
    ((((c : Thread nD τ).loc main_v1) ↦{q} f) : sProp 𝕄)
      = iprop((bigSep Finset.univ fun k : Fin 32 => ((c : Thread nD τ).loc main_v1) ↦[(oS 0 k).view.set]{q} f)
          ∗ (bigSep Finset.univ fun k : Fin 32 => ((c : Thread nD τ).loc main_v1) ↦[(oS 1 k).view.set]{q} f)) := by
  have e := whole_split (Ix := Ix) (Name := Name) (U := U) (Lvl := Lvl) ((c : Thread nD τ).loc main_v1)
    (fun t : Fin 2 × Fin 32 => (oS t.1 t.2).view.set) oS_disj oS_cov q f
  rw [bigSep_univ_prod, bigSep_univ_two] at e
  exact e

/-- The chunks of one half, each at the buffer's valuation, are the chunks at some valuation. -/
theorem out_half_intro (c : Dev nD) (h : Fin 2) (f : Buf (Elt F) ((c : Thread nD τ).loc main_v1)) :
    (bigSep Finset.univ fun k : Fin 32 => (((c : Thread nD τ).loc main_v1) ↦[(oS h k).view.set]{fullShare} f : sProp 𝕄))
      ⊢ bigSep Finset.univ fun k : Fin 32 =>
          iprop(∃ g, (oS h k).view.loc (c : Thread nD τ) ↦[(oS h k).view.set]{fullShare} g) := by
  have hk (k : Fin 32) : ((((c : Thread nD τ).loc main_v1) ↦[(oS h k).view.set]{fullShare} f) : sProp 𝕄)
      ⊢ iprop(∃ g, (oS h k).view.loc (c : Thread nD τ) ↦[(oS h k).view.set]{fullShare} g) := by
    iintro H
    iexists f
    iexact H
  exact bigSep_mono fun k _ => hk k

/-- The result buffer is the 32 chunks of the device's own half and the 32 of its partner's half. -/
theorem out_split (c : Dev nD) (f : Buf (Elt F) ((c : Thread nD τ).loc main_v1)) :
    ((((c : Thread nD τ).loc main_v1) ↦{fullShare} f) : sProp 𝕄)
      ⊢ iprop((bigSep Finset.univ fun k : Fin 32 =>
            iprop(∃ g, (oS (hx c) k).view.loc (c : Thread nD τ) ↦[(oS (hx c) k).view.set]{fullShare} g))
          ∗ (bigSep Finset.univ fun k : Fin 32 =>
            iprop(∃ g, (oS (hx (pr c)) k).view.loc (c : Thread nD τ) ↦[(oS (hx (pr c)) k).view.set]{fullShare} g))) := by
  rw [out_halves_eq c fullShare f]
  refine Entails.trans ?_ (sep_fin2_cases
    (fun h : Fin 2 => (bigSep Finset.univ fun k : Fin 32 =>
      iprop(∃ g, (oS h k).view.loc (c : Thread nD τ) ↦[(oS h k).view.set]{fullShare} g) : sProp 𝕄))
    (hx c) (hx (pr c)) (hx_cases c)).1
  iintro ⟨H0, H1⟩
  isplitl [H0]
  · iapply (out_half_intro c 0 f); iexact H0
  · iapply (out_half_intro c 1 f); iexact H1

/-! ## The value -/

variable (m : (ℓ : Loc nD τ sig) → Buf (Elt F) ℓ)

/-- The result function at a row of the upper or lower half is the input block of the device at that
    x-coordinate, at the row's place in the half. -/
theorem Fout_apply (c : Dev nD) (i : S65536x1024.Idx) (h : Fin 2) (j : S32768x1024.Idx)
    (hh : h.val = (i 0).val / 32768) (h0 : (j 0).val = (i 0).val % 32768) (h1 : j 1 = i 1) :
    Fout m c i = (Xin m (devAt c h) : S32768x1024.Idx → Elt F .f32) j := by
  have hb : (i 0).val / 32768 < 2 := by
    have hi : (i 0).val < 65536 := ValueIdx.idx2_lt0 i
    clear hh h0 h1
    omega
  obtain rfl : h = ⟨(i 0).val / 32768, hb⟩ := Fin.ext hh
  obtain rfl : j = ValueIdx.ix2 (⟨(i 0).val % 32768, Nat.mod_lt _ (by decide)⟩ : Fin 32768) (i 1) := by
    funext a
    match a with
    | ⟨0, _⟩ => exact Fin.ext h0
    | ⟨1, _⟩ => exact h1
  rfl

/-- Chunk `(h, k)` of the result function is chunk `k` of the input block of the device at x-coordinate `h`. -/
theorem Fout_read (c : Dev nD) (h : Fin 2) (k : Fin 32) :
    (oS h k).view.read (Elt F) (Fout m c) = blk m (devAt c h) k := by
  funext x
  have hx0 : (x 0).val < 1024 := ValueIdx.idx2_lt0 x
  have hk := k.isLt
  have hh := h.isLt
  show Fout m c ((oR h k).emb x) = (Xin m (devAt c h) : S32768x1024.Idx → Elt F .f32) ((xR k).emb x)
  apply Fout_apply
  · show h.val = (32768 * h.val + 1024 * k.val + 1 * (x 0).val) / 32768
    omega
  · show 1024 * k.val + 1 * (x 0).val = (32768 * h.val + 1024 * k.val + 1 * (x 0).val) % 32768
    omega
  · apply Fin.ext
    show 0 + 1 * (x 1).val = 0 + 1 * (x 1).val
    rfl

/-- A chunk of the result owned at the right input chunk is its elements at the result function. -/
theorem out_piece (c : Dev nD) (h : Fin 2) (k : Fin 32) (q : PosShare TreeShare) :
    (owns (c : Thread nD τ) (oS h k) q (blk m (devAt c h) k) : sProp 𝕄)
      = (((c : Thread nD τ).loc main_v1) ↦[(oS h k).view.set]{q} Fout m c) := by
  rw [← Fout_read m c h k]
  exact owns_slice_read (c : Thread nD τ) (Memref.whole main_v1) q (oR h k) (fun _ => rfl) (Fout m c)

/-- The chunks of the device's own half, each owned at its own input chunk, and the chunks of its partner's half,
    each owned at the partner's input chunk, are the result buffer holding the result function. -/
theorem out_join (c : Dev nD) :
    iprop((bigSep Finset.univ fun k : Fin 32 => owns (c : Thread nD τ) (oS (hx c) k) fullShare (blk m c k))
        ∗ (bigSep Finset.univ fun k : Fin 32 => owns (c : Thread nD τ) (oS (hx (pr c)) k) fullShare (blk m (pr c) k)))
      ⊢ ((((c : Thread nD τ).loc main_v1) ↦{fullShare} Fout m c) : sProp 𝕄) := by
  have e1 (k : Fin 32) : (owns (c : Thread nD τ) (oS (hx c) k) fullShare (blk m c k) : sProp 𝕄)
      = (((c : Thread nD τ).loc main_v1) ↦[(oS (hx c) k).view.set]{fullShare} Fout m c) := by
    rw [← out_piece m c (hx c) k fullShare, devAt_hx]
  have e2 (k : Fin 32) : (owns (c : Thread nD τ) (oS (hx (pr c)) k) fullShare (blk m (pr c) k) : sProp 𝕄)
      = (((c : Thread nD τ).loc main_v1) ↦[(oS (hx (pr c)) k).view.set]{fullShare} Fout m c) := by
    rw [← out_piece m c (hx (pr c)) k fullShare, devAt_hx_pr]
  rw [bigSep_congr (fun k _ => e1 k), bigSep_congr (fun k _ => e2 k), out_halves_eq c fullShare (Fout m c)]
  exact (sep_fin2_cases
    (fun h : Fin 2 => (bigSep Finset.univ fun k : Fin 32 =>
      (((c : Thread nD τ).loc main_v1) ↦[(oS h k).view.set]{fullShare} Fout m c) : sProp 𝕄))
    (hx c) (hx (pr c)) (hx_cases c)).2

/-- info: 'Cert.KernelIdeal.AG.x_split' depends on axioms: [propext, Classical.choice, Quot.sound] -/
#guard_msgs in #print axioms x_split

/-- info: 'Cert.KernelIdeal.AG.slot_halves' depends on axioms: [propext, Classical.choice, Quot.sound] -/
#guard_msgs in #print axioms slot_halves

/-- info: 'Cert.KernelIdeal.AG.slot_whole' depends on axioms: [propext, Classical.choice, Quot.sound] -/
#guard_msgs in #print axioms slot_whole

/-- info: 'Cert.KernelIdeal.AG.v_split' depends on axioms: [propext, Classical.choice, Quot.sound] -/
#guard_msgs in #print axioms v_split

/-- info: 'Cert.KernelIdeal.AG.v_join' depends on axioms: [propext, Classical.choice, Quot.sound] -/
#guard_msgs in #print axioms v_join

/-- info: 'Cert.KernelIdeal.AG.out_split' depends on axioms: [propext, Classical.choice, Quot.sound] -/
#guard_msgs in #print axioms out_split

/-- info: 'Cert.KernelIdeal.AG.Fout_read' depends on axioms: [propext, Classical.choice, Quot.sound] -/
#guard_msgs in #print axioms Fout_read

/-- info: 'Cert.KernelIdeal.AG.out_join' depends on axioms: [propext, Classical.choice, Quot.sound] -/
#guard_msgs in #print axioms out_join

end Cert.KernelIdeal.AG

end
-- ==== Proof.BodyTactics.lean ====
/-
  The all-gather across the first mesh axis: one device's body, effect by effect in program order.

  Between effects the device holds: what it still owes (the receive credits of the chunks not yet sent); its input
  block whole; each scratch slot either free, or lent in two halves to the two copies reading it; its positions on
  its cells; and, as families indexed by the chunk and taken or filled in chunk order: the tokens of the duties it
  pays, the chunks of its own half of the result not yet written, the chunks of the partner's result it has yet to
  write, the credits and positions of its receive cells, and the chunks of the result already holding their block.
-/
import proofs.«900688_g7700000000000689_dist_ag_v7x_xyz2x4x4_x_m32768_n1024_f32_1_alg».proof.Proof.Steps
import proofs.«900688_g7700000000000689_dist_ag_v7x_xyz2x4x4_x_m32768_n1024_f32_1_alg».proof.Proof.AGRegions

set_option maxRecDepth 16384

noncomputable section

namespace Cert.KernelIdeal.AG

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : GSem nD τ sig → ℕ)

/-! ## Small facts about families -/

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

omit [FloatOps F] in
/-- The first member put. -/
theorem bagTo_start (Φ : Fin 32 → sProp 𝕄) : Φ (⟨0, by decide⟩ : Fin 32) ⊢ bagTo 1 Φ := by
  have h : iprop(Φ (⟨0, by decide⟩ : Fin 32) ∗ bagTo 0 Φ) ⊢ bagTo 1 Φ := Entails.of_eq (bagTo_put (⟨0, by decide⟩ : Fin 32) Φ).symm
  rw [bagTo_zero] at h
  exact (sep_emp (PROP := sProp 𝕄)).2.trans h

omit [FloatOps F] in
/-- Taking and putting with the indices as plain numerals. -/
theorem bagFrom_take' (n n' : ℕ) (hn : n < 32) (h' : n' = n + 1) (Φ : Fin 32 → sProp 𝕄) :
    bagFrom n Φ = iprop(Φ ⟨n, hn⟩ ∗ bagFrom n' Φ) := by subst h'; exact bagFrom_take ⟨n, hn⟩ Φ
omit [FloatOps F] in
theorem bagTo_put' (n n' : ℕ) (hn : n < 32) (h' : n' = n + 1) (Φ : Fin 32 → sProp 𝕄) :
    bagTo n' Φ = iprop(Φ ⟨n, hn⟩ ∗ bagTo n Φ) := by subst h'; exact bagTo_put ⟨n, hn⟩ Φ

omit [FloatOps F] in
/-- A persistent fact used under every member of a family. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## The point, and what the body starts from and ends with -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def bodyPre (c : Dev nD) : sProp 𝕄 :=
  iprop(records m K ∗ linear c ∗ creds c ∗ levAts L lv
    ∗ (((c : Thread nD τ).loc main_arg0) ↦{fullShare} Xin m c)
    ∗ (∃ f, ((c : Thread nD τ).loc main_v1) ↦{fullShare} f)
    ∗ (∃ f, ((c : Thread nD τ).loc cc0_scratch0) ↦{fullShare} f)
    ∗ (dats m 0 c).owesAt () t₀.castSucc)

def bodyPost (c : Dev nD) : sProp 𝕄 := iprop(Φ₁ m c ∗ (dats m 0 c).owesAt () t₀.succ)

/-- A receive cell at round 1 closes: its counter at zero is the core's again. -/
theorem close_rc (c : Dev nD) (k : Fin 32) :
    iprop(records m K ∗ atPos ER (rcCell c k) 1 ∅ 0) ⊢ (|={Set.univ}=> semVal (rcCell c k) 0 : sProp 𝕄) := by
  iintro ⟨#HR, Hat⟩
  ihave #HI := (inv_of_records m K (mem_rc c k)) $$ HR
  iapply (Rounds.cell_close ER (agRd m) (Set.mem_univ (K (rcCell c k))) (fun h => h) (R := 1) (duties_rc_later m c k))
  isplitr; · iexact HI
  iexact Hat

/-! ## The tactics of the body: one per kind of effect, at chunk `k` -/

open Lean in
/-- A hypothesis name with a number in it. -/
def agId (pre : String) (n : Nat) : Ident := mkIdent (Name.mkSimple s!"{pre}{n}")
open Lean in
def agId2 (pre : String) (n : Nat) (mid : String) (r : Nat) : Ident := mkIdent (Name.mkSimple s!"{pre}{n}{mid}{r}")

set_option hygiene false in
open Lean in
/-- Enter the next printed part: the bind peeled, the part opened at its skeleton. -/
macro "ag_part " e:ident s:ident : tactic =>
  `(tactic| (rw [wp_bind]; rw [$e:ident]; unfold $s:ident
             simp only [Prog.lift, Prog.bind_op, Prog.bind_ret, Prog.pure_eq_ret, semSignalWord, semWaitWord, wp_deviceId]))

set_option hygiene false in
open Lean in
/-- Leave a part: its returned tuple handed to what follows. -/
macro "ag_ret" : tactic => `(tactic| (rw [wp_ret]; imodintro; try dsimp only))

set_option hygiene false in
open Lean in
/-- Leave the last part, and the part that encloses the sixty (its returned tuple), into the root's tail. -/
macro "ag_root" : tactic =>
  `(tactic| (rw [wp_ret]; imodintro; try dsimp only
             rw [wp_ret]; imodintro; try dsimp only
             try simp only [Prog.lift, Prog.bind_op, Prog.bind_ret, Prog.pure_eq_ret]))

set_option hygiene false in
open Lean in
/-- The signal to the partner's barrier cell: it hands the partner the other half of the device's result. -/
macro "ag_signal" : tactic =>
  `(tactic| (
    simp only [dev_eq1 c]
    ihave #HIbP := (inv_of_records m K (mem_bar (pr c))) $$ HR
    ihave #HrbP := (reached_of_records m K (mem_bar (pr c))) $$ HR
    iapply (Rounds.wp_signal 𝒱₀ ER (agRd m) (c : Thread nD τ) none (dst := (pr c : Thread nD τ)) (κ := K (barCell (pr c)))
        (d := ()) (by rw [duties_bar]; exact Finset.mem_singleton_self _) ((amount_bar m (pr c) 0 ()).trans (by decide)) () (owedFrom c 32) rfl)
      $$ [HO HtBar HoGive]
    · isplitr; · iexact HIbP
      isplitl [HO]; · iexact HO
      isplitl [HtBar]; · iexact HtBar
      isplitl [HoGive]
      · rw [payload_bar]; unfold barPay; rw [pr_pr]; iexact HoGive
      iexact HrbP
    iintro HO))

set_option hygiene false in
open Lean in
/-- The wait on the device's own barrier cell, owing the 32 receive credits: the partner's half of the partner's result
    comes with the partner's unit. -/
macro "ag_barwait" : tactic =>
  `(tactic| (
    ihave #HIb := (inv_of_records m K (mem_bar c)) $$ HR
    iapply (Rounds.wp_wait_rest_token 𝒱₀ ER (agRd m) (c : Thread nD τ) none (κ := K (barCell c))
        (wpE_semWait_eq 𝒱₀ (c : Thread nD τ) none Set.univ) (Set.mem_univ _) () (O := owedFrom c 32) (R := 0) (m := 0) (T := ∅)
        (by rw [expect_bar]; decide)) $$ [HcBar HO HatBar]
    · isplitr; · iexact HIb
      isplitl [HcBar]; · iexact HcBar
      isplitl [HO]; · iexact HO
      isplitr; · iapply (mayWait_bar c 32); iexact Hlev
      iexact HatBar
    iintro ⟨HO, HatBar, -, Hpay⟩
    ihave HoPar := (Entails.of_eq ((rest_bar m c).trans (bagFrom_zero _).symm)) $$ Hpay))

set_option hygiene false in
open Lean in
/-- The local copy of input chunk `k` into its slot. -/
macro "ag_ld " k:num : tactic => do
  let kk := k.getNat
  let k1 := Syntax.mkNumLit (toString (k.getNat + 1)); let s := kk % 8; let r := kk / 8
  let hv := agId "Hv" s; let hr := agId2 "HrLd" s "r" r
  `(tactic| (
    ihave Hxc := (x_split (F := F) c (⟨$k, of_decide_eq_true rfl⟩ : Fin 32) fullShare (Xin m c)).1 $$ Hx
    icases Hxc with ⟨Hxk, Hxrest⟩
    ihave Htk := (Entails.of_eq (bagFrom_take' $k $k1 (of_decide_eq_true rfl) rfl _)) $$ HtLd
    icases Htk with ⟨Htok, HtLd⟩
    icases $hv:ident with ⟨%g, $hv:ident⟩
    iapply (wp_load_chunk m K c (⟨$k, of_decide_eq_true rfl⟩ : Fin 32) rfl rfl rfl g) $$ [Hxk $hv:ident Htok]
    · isplitr; · iexact HR
      isplitl [Hxk]; · iexact Hxk
      isplitl [$hv:ident]; · iexact $hv:ident
      isplitl [Htok]; · iexact Htok
      iexact $hr:ident
    iintro HcLd))

set_option hygiene false in
open Lean in
/-- The wait for that load: the slot holds chunk `k`; it is cut in its two halves for the two copies that read it. -/
macro "ag_ldw " k:num : tactic => do
  let kk := k.getNat; let s := kk % 8; let r := kk / 8
  let hat := agId "HatLd" s; let hr := agId2 "HrLd" s "r" (r + 1)
  let n := Syntax.mkNumLit (toString (32 - kk))
  let sl := Syntax.mkNumLit (toString s)
  `(tactic| (
    iapply (wp_wait_load m K c (⟨$k, of_decide_eq_true rfl⟩ : Fin 32) $n rfl (by rfl) _) $$ [HcLd HO $hat:ident]
    · isplitr; · iexact HR
      isplitl [HcLd]; · iexact HcLd
      isplitl [HO]; · iexact HO
      isplitr; · iexact Hlev
      iexact $hat:ident
    iintro ⟨HO, $hat:ident, #$hr:ident, Hpay⟩
    unfold ldPay
    icases Hpay with ⟨Hvo, Hxk⟩
    ihave Hx := (x_split (F := F) c (⟨$k, of_decide_eq_true rfl⟩ : Fin 32) fullShare (Xin m c)).2 $$ [Hxk Hxrest]
    · isplitl [Hxk]; · iexact Hxk
      iexact Hxrest
    ihave Hh := (slot_halves m c (slot (⟨$k, of_decide_eq_true rfl⟩ : Fin 32)) _) $$ Hvo
    icases Hh with ⟨%f, %hf, HfL, HfR⟩))

set_option hygiene false in
open Lean in
/-- The local copy of the slot into chunk `(x, k)` of the device's own result. -/
macro "ag_st " k:num : tactic => do
  let kk := k.getNat
  let k1 := Syntax.mkNumLit (toString (k.getNat + 1)); let s := kk % 8; let r := kk / 8
  let hc := agId "HcSt" s; let hr := agId2 "HrSt" s "r" r
  `(tactic| (
    ihave Htk := (Entails.of_eq (bagFrom_take' $k $k1 (of_decide_eq_true rfl) rfl _)) $$ HtSt
    icases Htk with ⟨Htok, HtSt⟩
    ihave Hok := (Entails.of_eq (bagFrom_take' $k $k1 (of_decide_eq_true rfl) rfl _)) $$ HoOwn
    icases Hok with ⟨⟨%g, Hog⟩, HoOwn⟩
    iapply (wp_store_chunk m K c (⟨$k, of_decide_eq_true rfl⟩ : Fin 32) rfl (oS_off c (⟨$k, of_decide_eq_true rfl⟩ : Fin 32)) rfl f hf g) $$ [HfL Hog Htok]
    · isplitr; · iexact HR
      isplitl [HfL]; · iexact HfL
      isplitl [Hog]; · iexact Hog
      isplitl [Htok]; · iexact Htok
      iexact $hr:ident
    iintro $hc:ident))

set_option hygiene false in
open Lean in
/-- The remote copy of the slot into chunk `(x, k)` of the partner's result. -/
macro "ag_sd " k:num : tactic => do
  let kk := k.getNat
  let k1 := Syntax.mkNumLit (toString (k.getNat + 1)); let s := kk % 8; let r := kk / 8
  let hc := agId "HcSd" s; let hr := agId2 "HrSd" s "r" r
  let n := Syntax.mkNumLit (toString (31 - kk))
  let dv := mkIdent (Name.mkSimple s!"dev_eq{kk + 2}")
  `(tactic| (
    ihave Htk := (Entails.of_eq (bagFrom_take' $k $k1 (of_decide_eq_true rfl) rfl _)) $$ HtSd
    icases Htk with ⟨Htok1, HtSd⟩
    ihave Htk := (Entails.of_eq (bagFrom_take' $k $k1 (of_decide_eq_true rfl) rfl _)) $$ HtRc
    icases Htk with ⟨Htok2, HtRc⟩
    ihave Hok := (Entails.of_eq (bagFrom_take' $k $k1 (of_decide_eq_true rfl) rfl _)) $$ HoPar
    icases Hok with ⟨⟨%g, Hpg⟩, HoPar⟩
    iapply (wp_send_chunk m K c (⟨$k, of_decide_eq_true rfl⟩ : Fin 32) $n rfl _ ($dv:ident c) rfl (oS_off c (⟨$k, of_decide_eq_true rfl⟩ : Fin 32)) rfl rfl f hf g _)
      $$ [HfR Hpg HO Htok1 Htok2]
    · isplitr; · iexact HR
      isplitl [HfR]; · iexact HfR
      isplitl [Hpg]; · iexact Hpg
      isplitl [HO]; · iexact HO
      isplitl [Htok1]; · iexact Htok1
      isplitr; · iexact $hr:ident
      iexact Htok2
    iintro ⟨$hc:ident, HO⟩))

set_option hygiene false in
open Lean in
/-- The wait for the local store of chunk `j`: chunk `(x, j)` of the result holds its block; the store's half of the slot
    is back. -/
macro "ag_stw " j:num : tactic => do
  let jj := j.getNat
  let j1 := Syntax.mkNumLit (toString (j.getNat + 1)); let s := jj % 8; let r := jj / 8
  let hc := agId "HcSt" s; let hat := agId "HatSt" s; let hr := agId2 "HrSt" s "r" (r + 1); let hvl := agId "HvL" s
  let n := Syntax.mkNumLit (toString (if jj < 24 then 24 - jj else 0))
  let put ← if jj == 0 then
      `(tactic| (ihave HresOwn := (bagTo_start (fun k : Fin 32 => owns (c : Thread nD τ) (oS (hx c) k) fullShare (blk m c k))) $$ [Hres]
                 · iexact Hres))
    else
      `(tactic| (ihave HresOwn := (Entails.of_eq (bagTo_put' $j $j1 (of_decide_eq_true rfl) rfl (fun k : Fin 32 => owns (c : Thread nD τ) (oS (hx c) k) fullShare (blk m c k))).symm) $$ [Hres HresOwn]
                 · isplitl [Hres]; · iexact Hres
                   iexact HresOwn))
  `(tactic| (
    iapply (wp_wait_store m K c (⟨$j, of_decide_eq_true rfl⟩ : Fin 32) $n rfl (by rfl) _) $$ [$hc:ident HO $hat:ident]
    · isplitr; · iexact HR
      isplitl [$hc:ident]; · iexact $hc:ident
      isplitl [HO]; · iexact HO
      isplitr; · iexact Hlev
      iexact $hat:ident
    iintro ⟨HO, $hat:ident, #$hr:ident, Hpay⟩
    unfold stPay
    icases Hpay with ⟨Hres, $hvl:ident⟩
    $put))

set_option hygiene false in
open Lean in
/-- The wait for the send side of the remote copy of chunk `j`: the other half of the slot is back, and the slot is free. -/
macro "ag_sdw " j:num : tactic => do
  let jj := j.getNat; let s := jj % 8; let r := jj / 8
  let hc := agId "HcSd" s; let hat := agId "HatSd" s; let hr := agId2 "HrSd" s "r" (r + 1)
  let hvl := agId "HvL" s; let hvr := agId "HvR" s; let hv := agId "Hv" s
  let n := Syntax.mkNumLit (toString (if jj < 24 then 24 - jj else 0))
  let sl := Syntax.mkNumLit (toString s)
  `(tactic| (
    iapply (wp_wait_send m K c (⟨$j, of_decide_eq_true rfl⟩ : Fin 32) $n rfl (by rfl) _) $$ [$hc:ident HO $hat:ident]
    · isplitr; · iexact HR
      isplitl [$hc:ident]; · iexact $hc:ident
      isplitl [HO]; · iexact HO
      isplitr; · iexact Hlev
      iexact $hat:ident
    iintro ⟨HO, $hat:ident, #$hr:ident, $hvr:ident⟩
    unfold sdPay
    ihave $hv:ident := (slot_whole m c (slot (⟨$j, of_decide_eq_true rfl⟩ : Fin 32)) _) $$ [$hvl:ident $hvr:ident]
    · isplitl [$hvl:ident]; · iexact $hvl:ident
      iexact $hvr:ident))

set_option hygiene false in
open Lean in
/-- The wait for the partner's chunk `k`: chunk `(1 - x, k)` of the result holds the partner's block `k`. -/
macro "ag_rcw " k:num : tactic => do
  let kk := k.getNat
  let k1 := Syntax.mkNumLit (toString (k.getNat + 1))
  let put ← if kk == 0 then
      `(tactic| (ihave HresPar := (bagTo_start (fun k : Fin 32 => rcPay m c k)) $$ [Hpay]
                 · iexact Hpay
                 ihave HatRc1 := (bagTo_start (fun k : Fin 32 => atPos ER (rcCell c k) 1 ∅ 0)) $$ [Hat1]
                 · iexact Hat1))
    else
      `(tactic| (ihave HresPar := (Entails.of_eq (bagTo_put' $k $k1 (of_decide_eq_true rfl) rfl (fun k : Fin 32 => rcPay m c k)).symm) $$ [Hpay HresPar]
                 · isplitl [Hpay]; · iexact Hpay
                   iexact HresPar
                 ihave HatRc1 := (Entails.of_eq (bagTo_put' $k $k1 (of_decide_eq_true rfl) rfl (fun k : Fin 32 => atPos ER (rcCell c k) 1 ∅ 0)).symm) $$ [Hat1 HatRc1]
                 · isplitl [Hat1]; · iexact Hat1
                   iexact HatRc1))
  `(tactic| (
    ihave Hck := (Entails.of_eq (bagFrom_take' $k $k1 (of_decide_eq_true rfl) rfl _)) $$ HcRc
    icases Hck with ⟨Hc, HcRc⟩
    ihave Hak := (Entails.of_eq (bagFrom_take' $k $k1 (of_decide_eq_true rfl) rfl _)) $$ HatRc
    icases Hak with ⟨Hat, HatRc⟩
    iapply (wp_wait_recv m K c (⟨$k, of_decide_eq_true rfl⟩ : Fin 32) rfl (by rfl) _) $$ [Hc HO Hat]
    · isplitr; · iexact HR
      isplitl [Hc]; · iexact Hc
      isplitl [HO]; · iexact HO
      iexact Hat
    iintro ⟨HO, Hat1, Hpay⟩
    $put))

end Cert.KernelIdeal.AG

end
-- ==== Proof.Body.lean ====
/-
  The all-gather across the first mesh axis: one device's body run from its start to its end.

  At the start the result buffer is cut in its two halves of 32 chunks: the device's own half it fills by local
  copies; the other half it hands to the partner with its barrier signal, and gets back chunk by chunk through its
  receive cells, each chunk holding the partner's block. The scratch is cut in its 8 slots. At the end every own
  cell has run through all its rounds and closes; the 64 chunks join to the whole array.
-/
import proofs.«900688_g7700000000000689_dist_ag_v7x_xyz2x4x4_x_m32768_n1024_f32_1_alg».proof.Proof.BodyLayout

set_option maxRecDepth 16384

noncomputable section

namespace Cert.KernelIdeal.AG

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : GSem nD τ sig → ℕ)

/-- Owing nothing, whatever waits are recorded, is what the pipeline expects back after the point. -/
theorem owesAt_succ_intro (c : Dev nD) (W : Waits sig Unit) : owes (c : Thread nD τ) 0 W ⊢ (dats (F := F) m 0 c).owesAt () t₀.succ := by
  unfold Dat.owesAt Pipeline.owesWithin
  rw [show (dats (F := F) m 0 c).owed t₀.succ = 0 from rfl]
  iintro HO
  iexists W
  isplitr; · ipureintro; exact fun _ _ => Or.inl trivial
  iexact HO

set_option maxHeartbeats 0 in
/-- The body on device `c`, from `bodyPre` to `bodyPost`. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole main_arg0) (Memref.isWhole_whole _) (Memref.whole main_v1) (Memref.isWhole_whole _)
            (Memref.whole cc0_scratch0) (Memref.isWhole_whole _) cc0_scratch1 cc0_scratch2 cc0_scratch3 cc0_scratch4) Kt := by
  unfold bodyPre linear payToks creds
  iintro ⟨⟨#HR, ⟨HatBar, Hat8, HatRc, HtLd, HtSt, HtSd, HtRc, HtBar⟩, ⟨HcBar, HcRc⟩, #Hlev, Hx, ⟨%fo, Ho⟩, ⟨%fv, Hv⟩, Ho'⟩, Hk⟩
  unfold Dat.owesAt Pipeline.owesWithin
  icases Ho' with ⟨%W, %hW, HO⟩
  rw [show (dats m 0 c).owed t₀.castSucc = O₀ c from rfl]
  -- the device's positions on its 24 four-round cells, one by one
  ihave Hat8 := (Entails.of_eq (bigSep_fin8 _)) $$ Hat8
  icases Hat8 with ⟨⟨HatLd0, HatSt0, HatSd0⟩, ⟨HatLd1, HatSt1, HatSd1⟩, ⟨HatLd2, HatSt2, HatSd2⟩, ⟨HatLd3, HatSt3, HatSd3⟩, ⟨HatLd4, HatSt4, HatSd4⟩, ⟨HatLd5, HatSt5, HatSd5⟩, ⟨HatLd6, HatSt6, HatSd6⟩, ⟨HatLd7, HatSt7, HatSd7⟩⟩
  -- the families taken in chunk order
  ihave HtLd := (Entails.of_eq (bagFrom_zero _).symm) $$ HtLd
  ihave HtSt := (Entails.of_eq (bagFrom_zero _).symm) $$ HtSt
  ihave HtSd := (Entails.of_eq (bagFrom_zero _).symm) $$ HtSd
  ihave HtRc := (Entails.of_eq (bagFrom_zero _).symm) $$ HtRc
  ihave HatRc := (Entails.of_eq (bagFrom_zero _).symm) $$ HatRc
  ihave HcRc := (Entails.of_eq (bagFrom_zero _).symm) $$ HcRc
  -- the result cut in its two halves, the scratch in its slots
  ihave Hos := (out_split (F := F) c fo) $$ Ho
  icases Hos with ⟨HoOwn, HoGive⟩
  ihave HoOwn := (Entails.of_eq (bagFrom_zero _).symm) $$ HoOwn
  ihave Hvs := (v_split (F := F) c fv) $$ Hv
  ihave Hvs := (Entails.of_eq (bigSep_fin8 _)) $$ Hvs
  icases Hvs with ⟨Hv0, Hv1, Hv2, Hv3, Hv4, Hv5, Hv6, Hv7⟩
  -- round 0 of every own cell is reached
  ihave #HrLd0r0 := (reached_of_records m K (mem_ld c (⟨0, by decide⟩ : Fin 8))) $$ HR
  ihave #HrSt0r0 := (reached_of_records m K (mem_st c (⟨0, by decide⟩ : Fin 8))) $$ HR
  ihave #HrSd0r0 := (reached_of_records m K (mem_sd c (⟨0, by decide⟩ : Fin 8))) $$ HR
  ihave #HrLd1r0 := (reached_of_records m K (mem_ld c (⟨1, by decide⟩ : Fin 8))) $$ HR
  ihave #HrSt1r0 := (reached_of_records m K (mem_st c (⟨1, by decide⟩ : Fin 8))) $$ HR
  ihave #HrSd1r0 := (reached_of_records m K (mem_sd c (⟨1, by decide⟩ : Fin 8))) $$ HR
  ihave #HrLd2r0 := (reached_of_records m K (mem_ld c (⟨2, by decide⟩ : Fin 8))) $$ HR
  ihave #HrSt2r0 := (reached_of_records m K (mem_st c (⟨2, by decide⟩ : Fin 8))) $$ HR
  ihave #HrSd2r0 := (reached_of_records m K (mem_sd c (⟨2, by decide⟩ : Fin 8))) $$ HR
  ihave #HrLd3r0 := (reached_of_records m K (mem_ld c (⟨3, by decide⟩ : Fin 8))) $$ HR
  ihave #HrSt3r0 := (reached_of_records m K (mem_st c (⟨3, by decide⟩ : Fin 8))) $$ HR
  ihave #HrSd3r0 := (reached_of_records m K (mem_sd c (⟨3, by decide⟩ : Fin 8))) $$ HR
  ihave #HrLd4r0 := (reached_of_records m K (mem_ld c (⟨4, by decide⟩ : Fin 8))) $$ HR
  ihave #HrSt4r0 := (reached_of_records m K (mem_st c (⟨4, by decide⟩ : Fin 8))) $$ HR
  ihave #HrSd4r0 := (reached_of_records m K (mem_sd c (⟨4, by decide⟩ : Fin 8))) $$ HR
  ihave #HrLd5r0 := (reached_of_records m K (mem_ld c (⟨5, by decide⟩ : Fin 8))) $$ HR
  ihave #HrSt5r0 := (reached_of_records m K (mem_st c (⟨5, by decide⟩ : Fin 8))) $$ HR
  ihave #HrSd5r0 := (reached_of_records m K (mem_sd c (⟨5, by decide⟩ : Fin 8))) $$ HR
  ihave #HrLd6r0 := (reached_of_records m K (mem_ld c (⟨6, by decide⟩ : Fin 8))) $$ HR
  ihave #HrSt6r0 := (reached_of_records m K (mem_st c (⟨6, by decide⟩ : Fin 8))) $$ HR
  ihave #HrSd6r0 := (reached_of_records m K (mem_sd c (⟨6, by decide⟩ : Fin 8))) $$ HR
  ihave #HrLd7r0 := (reached_of_records m K (mem_ld c (⟨7, by decide⟩ : Fin 8))) $$ HR
  ihave #HrSt7r0 := (reached_of_records m K (mem_st c (⟨7, by decide⟩ : Fin 8))) $$ HR
  ihave #HrSd7r0 := (reached_of_records m K (mem_sd c (⟨7, by decide⟩ : Fin 8))) $$ HR
  -- the body, part by part
  simp only [cc0_body_eq_skeleton]; unfold cc0_body_skel
  rw [wp_bind]; rw [k0_part61_eq_skeleton]; unfold k0_part61_skel
  ag_run_body
  -- every own cell has run through its rounds: they close (the goal is still the body's return)
  ihave #HIcld0 := (inv_of_records m K (mem_ld c (⟨0, by decide⟩ : Fin 8))) $$ HR
  imod (Rounds.cell_close ER (agRd m) (Set.mem_univ (K (ldCell c (⟨0, by decide⟩ : Fin 8)))) (fun h => h) (R := 4) (duties_ld_later m c (⟨0, by decide⟩ : Fin 8))) $$ [HatLd0] with HzLd0
  · isplitr; · iexact HIcld0
    iexact HatLd0
  ihave #HIcst0 := (inv_of_records m K (mem_st c (⟨0, by decide⟩ : Fin 8))) $$ HR
  imod (Rounds.cell_close ER (agRd m) (Set.mem_univ (K (stCell c (⟨0, by decide⟩ : Fin 8)))) (fun h => h) (R := 4) (duties_st_later m c (⟨0, by decide⟩ : Fin 8))) $$ [HatSt0] with HzSt0
  · isplitr; · iexact HIcst0
    iexact HatSt0
  ihave #HIcsd0 := (inv_of_records m K (mem_sd c (⟨0, by decide⟩ : Fin 8))) $$ HR
  imod (Rounds.cell_close ER (agRd m) (Set.mem_univ (K (sdCell c (⟨0, by decide⟩ : Fin 8)))) (fun h => h) (R := 4) (duties_sd_later m c (⟨0, by decide⟩ : Fin 8))) $$ [HatSd0] with HzSd0
  · isplitr; · iexact HIcsd0
    iexact HatSd0
  ihave #HIcld1 := (inv_of_records m K (mem_ld c (⟨1, by decide⟩ : Fin 8))) $$ HR
  imod (Rounds.cell_close ER (agRd m) (Set.mem_univ (K (ldCell c (⟨1, by decide⟩ : Fin 8)))) (fun h => h) (R := 4) (duties_ld_later m c (⟨1, by decide⟩ : Fin 8))) $$ [HatLd1] with HzLd1
  · isplitr; · iexact HIcld1
    iexact HatLd1
  ihave #HIcst1 := (inv_of_records m K (mem_st c (⟨1, by decide⟩ : Fin 8))) $$ HR
  imod (Rounds.cell_close ER (agRd m) (Set.mem_univ (K (stCell c (⟨1, by decide⟩ : Fin 8)))) (fun h => h) (R := 4) (duties_st_later m c (⟨1, by decide⟩ : Fin 8))) $$ [HatSt1] with HzSt1
  · isplitr; · iexact HIcst1
    iexact HatSt1
  ihave #HIcsd1 := (inv_of_records m K (mem_sd c (⟨1, by decide⟩ : Fin 8))) $$ HR
  imod (Rounds.cell_close ER (agRd m) (Set.mem_univ (K (sdCell c (⟨1, by decide⟩ : Fin 8)))) (fun h => h) (R := 4) (duties_sd_later m c (⟨1, by decide⟩ : Fin 8))) $$ [HatSd1] with HzSd1
  · isplitr; · iexact HIcsd1
    iexact HatSd1
  ihave #HIcld2 := (inv_of_records m K (mem_ld c (⟨2, by decide⟩ : Fin 8))) $$ HR
  imod (Rounds.cell_close ER (agRd m) (Set.mem_univ (K (ldCell c (⟨2, by decide⟩ : Fin 8)))) (fun h => h) (R := 4) (duties_ld_later m c (⟨2, by decide⟩ : Fin 8))) $$ [HatLd2] with HzLd2
  · isplitr; · iexact HIcld2
    iexact HatLd2
  ihave #HIcst2 := (inv_of_records m K (mem_st c (⟨2, by decide⟩ : Fin 8))) $$ HR
  imod (Rounds.cell_close ER (agRd m) (Set.mem_univ (K (stCell c (⟨2, by decide⟩ : Fin 8)))) (fun h => h) (R := 4) (duties_st_later m c (⟨2, by decide⟩ : Fin 8))) $$ [HatSt2] with HzSt2
  · isplitr; · iexact HIcst2
    iexact HatSt2
  ihave #HIcsd2 := (inv_of_records m K (mem_sd c (⟨2, by decide⟩ : Fin 8))) $$ HR
  imod (Rounds.cell_close ER (agRd m) (Set.mem_univ (K (sdCell c (⟨2, by decide⟩ : Fin 8)))) (fun h => h) (R := 4) (duties_sd_later m c (⟨2, by decide⟩ : Fin 8))) $$ [HatSd2] with HzSd2
  · isplitr; · iexact HIcsd2
    iexact HatSd2
  ihave #HIcld3 := (inv_of_records m K (mem_ld c (⟨3, by decide⟩ : Fin 8))) $$ HR
  imod (Rounds.cell_close ER (agRd m) (Set.mem_univ (K (ldCell c (⟨3, by decide⟩ : Fin 8)))) (fun h => h) (R := 4) (duties_ld_later m c (⟨3, by decide⟩ : Fin 8))) $$ [HatLd3] with HzLd3
  · isplitr; · iexact HIcld3
    iexact HatLd3
  ihave #HIcst3 := (inv_of_records m K (mem_st c (⟨3, by decide⟩ : Fin 8))) $$ HR
  imod (Rounds.cell_close ER (agRd m) (Set.mem_univ (K (stCell c (⟨3, by decide⟩ : Fin 8)))) (fun h => h) (R := 4) (duties_st_later m c (⟨3, by decide⟩ : Fin 8))) $$ [HatSt3] with HzSt3
  · isplitr; · iexact HIcst3
    iexact HatSt3
  ihave #HIcsd3 := (inv_of_records m K (mem_sd c (⟨3, by decide⟩ : Fin 8))) $$ HR
  imod (Rounds.cell_close ER (agRd m) (Set.mem_univ (K (sdCell c (⟨3, by decide⟩ : Fin 8)))) (fun h => h) (R := 4) (duties_sd_later m c (⟨3, by decide⟩ : Fin 8))) $$ [HatSd3] with HzSd3
  · isplitr; · iexact HIcsd3
    iexact HatSd3
  ihave #HIcld4 := (inv_of_records m K (mem_ld c (⟨4, by decide⟩ : Fin 8))) $$ HR
  imod (Rounds.cell_close ER (agRd m) (Set.mem_univ (K (ldCell c (⟨4, by decide⟩ : Fin 8)))) (fun h => h) (R := 4) (duties_ld_later m c (⟨4, by decide⟩ : Fin 8))) $$ [HatLd4] with HzLd4
  · isplitr; · iexact HIcld4
    iexact HatLd4
  ihave #HIcst4 := (inv_of_records m K (mem_st c (⟨4, by decide⟩ : Fin 8))) $$ HR
  imod (Rounds.cell_close ER (agRd m) (Set.mem_univ (K (stCell c (⟨4, by decide⟩ : Fin 8)))) (fun h => h) (R := 4) (duties_st_later m c (⟨4, by decide⟩ : Fin 8))) $$ [HatSt4] with HzSt4
  · isplitr; · iexact HIcst4
    iexact HatSt4
  ihave #HIcsd4 := (inv_of_records m K (mem_sd c (⟨4, by decide⟩ : Fin 8))) $$ HR
  imod (Rounds.cell_close ER (agRd m) (Set.mem_univ (K (sdCell c (⟨4, by decide⟩ : Fin 8)))) (fun h => h) (R := 4) (duties_sd_later m c (⟨4, by decide⟩ : Fin 8))) $$ [HatSd4] with HzSd4
  · isplitr; · iexact HIcsd4
    iexact HatSd4
  ihave #HIcld5 := (inv_of_records m K (mem_ld c (⟨5, by decide⟩ : Fin 8))) $$ HR
  imod (Rounds.cell_close ER (agRd m) (Set.mem_univ (K (ldCell c (⟨5, by decide⟩ : Fin 8)))) (fun h => h) (R := 4) (duties_ld_later m c (⟨5, by decide⟩ : Fin 8))) $$ [HatLd5] with HzLd5
  · isplitr; · iexact HIcld5
    iexact HatLd5
  ihave #HIcst5 := (inv_of_records m K (mem_st c (⟨5, by decide⟩ : Fin 8))) $$ HR
  imod (Rounds.cell_close ER (agRd m) (Set.mem_univ (K (stCell c (⟨5, by decide⟩ : Fin 8)))) (fun h => h) (R := 4) (duties_st_later m c (⟨5, by decide⟩ : Fin 8))) $$ [HatSt5] with HzSt5
  · isplitr; · iexact HIcst5
    iexact HatSt5
  ihave #HIcsd5 := (inv_of_records m K (mem_sd c (⟨5, by decide⟩ : Fin 8))) $$ HR
  imod (Rounds.cell_close ER (agRd m) (Set.mem_univ (K (sdCell c (⟨5, by decide⟩ : Fin 8)))) (fun h => h) (R := 4) (duties_sd_later m c (⟨5, by decide⟩ : Fin 8))) $$ [HatSd5] with HzSd5
  · isplitr; · iexact HIcsd5
    iexact HatSd5
  ihave #HIcld6 := (inv_of_records m K (mem_ld c (⟨6, by decide⟩ : Fin 8))) $$ HR
  imod (Rounds.cell_close ER (agRd m) (Set.mem_univ (K (ldCell c (⟨6, by decide⟩ : Fin 8)))) (fun h => h) (R := 4) (duties_ld_later m c (⟨6, by decide⟩ : Fin 8))) $$ [HatLd6] with HzLd6
  · isplitr; · iexact HIcld6
    iexact HatLd6
  ihave #HIcst6 := (inv_of_records m K (mem_st c (⟨6, by decide⟩ : Fin 8))) $$ HR
  imod (Rounds.cell_close ER (agRd m) (Set.mem_univ (K (stCell c (⟨6, by decide⟩ : Fin 8)))) (fun h => h) (R := 4) (duties_st_later m c (⟨6, by decide⟩ : Fin 8))) $$ [HatSt6] with HzSt6
  · isplitr; · iexact HIcst6
    iexact HatSt6
  ihave #HIcsd6 := (inv_of_records m K (mem_sd c (⟨6, by decide⟩ : Fin 8))) $$ HR
  imod (Rounds.cell_close ER (agRd m) (Set.mem_univ (K (sdCell c (⟨6, by decide⟩ : Fin 8)))) (fun h => h) (R := 4) (duties_sd_later m c (⟨6, by decide⟩ : Fin 8))) $$ [HatSd6] with HzSd6
  · isplitr; · iexact HIcsd6
    iexact HatSd6
  ihave #HIcld7 := (inv_of_records m K (mem_ld c (⟨7, by decide⟩ : Fin 8))) $$ HR
  imod (Rounds.cell_close ER (agRd m) (Set.mem_univ (K (ldCell c (⟨7, by decide⟩ : Fin 8)))) (fun h => h) (R := 4) (duties_ld_later m c (⟨7, by decide⟩ : Fin 8))) $$ [HatLd7] with HzLd7
  · isplitr; · iexact HIcld7
    iexact HatLd7
  ihave #HIcst7 := (inv_of_records m K (mem_st c (⟨7, by decide⟩ : Fin 8))) $$ HR
  imod (Rounds.cell_close ER (agRd m) (Set.mem_univ (K (stCell c (⟨7, by decide⟩ : Fin 8)))) (fun h => h) (R := 4) (duties_st_later m c (⟨7, by decide⟩ : Fin 8))) $$ [HatSt7] with HzSt7
  · isplitr; · iexact HIcst7
    iexact HatSt7
  ihave #HIcsd7 := (inv_of_records m K (mem_sd c (⟨7, by decide⟩ : Fin 8))) $$ HR
  imod (Rounds.cell_close ER (agRd m) (Set.mem_univ (K (sdCell c (⟨7, by decide⟩ : Fin 8)))) (fun h => h) (R := 4) (duties_sd_later m c (⟨7, by decide⟩ : Fin 8))) $$ [HatSd7] with HzSd7
  · isplitr; · iexact HIcsd7
    iexact HatSd7
  ihave HatRcAll := (Entails.of_eq (bagTo_all _)) $$ HatRc1
  imod ((bigSep_with_persistent (R := records m K) fun k _ => close_rc m K c k).trans (bigSep_fupd _ _)) $$ [HatRcAll] with HzRc
  · isplitr; · iexact HR
    iexact HatRcAll
  -- the result whole, the scratch whole
  ihave HresOwn := (Entails.of_eq (bagTo_all _)) $$ HresOwn
  ihave HresPar := (Entails.of_eq (bagTo_all _)) $$ HresPar
  ihave Hout := (out_join m c) $$ [HresOwn HresPar]
  · isplitl [HresOwn]; · iexact HresOwn
    unfold rcPay; iexact HresPar
  ihave Hvw := (v_join (F := F) c) $$ [Hv0 Hv1 Hv2 Hv3 Hv4 Hv5 Hv6 Hv7]
  · rw [bigSep_fin8]
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    iexact Hv7
  rw [wp_ret]; imodintro
  iapply Hk
  unfold bodyPost Φ₁
  ihave Hoa := (owesAt_succ_intro m c _) $$ HO
  isplitr [Hoa]
  · isplitl [Hx]; · iexact Hx
    isplitl [Hout]; · iexact Hout
    isplitl [Hvw]; · iexact Hvw
    isplitr [HzRc]
    · rw [bigSep_fin8]
      isplitl [HzLd0 HzSt0 HzSd0]
      · isplitl [HzLd0]; · iexact HzLd0
        isplitl [HzSt0]; · iexact HzSt0
        iexact HzSd0
      isplitl [HzLd1 HzSt1 HzSd1]
      · isplitl [HzLd1]; · iexact HzLd1
        isplitl [HzSt1]; · iexact HzSt1
        iexact HzSd1
      isplitl [HzLd2 HzSt2 HzSd2]
      · isplitl [HzLd2]; · iexact HzLd2
        isplitl [HzSt2]; · iexact HzSt2
        iexact HzSd2
      isplitl [HzLd3 HzSt3 HzSd3]
      · isplitl [HzLd3]; · iexact HzLd3
        isplitl [HzSt3]; · iexact HzSt3
        iexact HzSd3
      isplitl [HzLd4 HzSt4 HzSd4]
      · isplitl [HzLd4]; · iexact HzLd4
        isplitl [HzSt4]; · iexact HzSt4
        iexact HzSd4
      isplitl [HzLd5 HzSt5 HzSd5]
      · isplitl [HzLd5]; · iexact HzLd5
        isplitl [HzSt5]; · iexact HzSt5
        iexact HzSd5
      isplitl [HzLd6 HzSt6 HzSd6]
      · isplitl [HzLd6]; · iexact HzLd6
        isplitl [HzSt6]; · iexact HzSt6
        iexact HzSd6
      isplitl [HzLd7]; · iexact HzLd7
      isplitl [HzSt7]; · iexact HzSt7
      iexact HzSd7
    iexact HzRc
  · iexact Hoa

/-- info: 'Cert.KernelIdeal.AG.sound_body' depends on axioms: [propext, Classical.choice, Quot.sound] -/
#guard_msgs in #print axioms sound_body

/-! ## The body obligation -/

/-- The kernel stages no window: a family over its windows is empty. -/
theorem bigSep_W (Φ : Fin cfg0.W → sProp 𝕄) : bigSep Finset.univ Φ = iprop(emp) := by
  rw [Finset.univ_eq_empty]; rfl

/-- What the pipeline hands the body at its one point, and what it takes back. -/
def obPre (c : Dev nD) : sProp 𝕄 := iprop(Φ₀ m c ∗ (dats m 0 c).owesAt () t₀.castSucc ∗ emp)
def obPost (c : Dev nD) : sProp 𝕄 := iprop(Φ₁ m c ∗ (dats m 0 c).owesAt () t₀.succ ∗ emp)

/-- The library's body obligation on device `c`, from the body's run. -/
theorem body_obligation_of
    (hsb : ∀ (K : GSem nD τ sig → ℕ) (c : Dev nD) (Kt : PUnit → sProp 𝕄),
      iprop(bodyPre m K c ∗ (bodyPost m c -∗ Kt ⟨⟩)) ⊢ wp frame (wpE (defs₀ (F := F)) 𝒱₀ c none) Set.univ
        (cc0_body (Memref.whole main_arg0) (Memref.isWhole_whole _) (Memref.whole main_v1) (Memref.isWhole_whole _)
          (Memref.whole cc0_scratch0) (Memref.isWhole_whole _) cc0_scratch1 cc0_scratch2 cc0_scratch3 cc0_scratch4) Kt)
    (c : Dev nD) : BodyObligation (dats (F := F) m 0 c) (defs₀ (F := F)) 𝒱₀ () Set.univ := fun t => by
  rw [fin_N t]
  rw [bigSep_W, bigSep_W]
  show obPre m c ⊢ wp frame (wpE (defs₀ (F := F)) 𝒱₀ c none) Set.univ
    (cc0_body (Memref.whole main_arg0) (Memref.isWhole_whole _) (Memref.whole main_v1) (Memref.isWhole_whole _)
      (Memref.whole cc0_scratch0) (Memref.isWhole_whole _) cc0_scratch1 cc0_scratch2 cc0_scratch3 cc0_scratch4) (fun _ => obPost m c)
  unfold obPre Φ₀ start ghost
  iintro ⟨⟨⟨⟨%K, Hrec, Hlin⟩, Hcr, Hlev, Hx, Hout⟩, Hscr⟩, HO, -⟩
  iapply (hsb K c fun _ => obPost m c)
  unfold bodyPre
  isplitr []
  · isplitl [Hrec]; · iexact Hrec
    isplitl [Hlin]; · iexact Hlin
    isplitl [Hcr]; · iexact Hcr
    isplitl [Hlev]; · iexact Hlev
    isplitl [Hx]; · iexact Hx
    isplitl [Hout]; · iexact Hout
    isplitl [Hscr]; · iexact Hscr
    iexact HO
  · unfold bodyPost obPost
    iintro ⟨H1, H2⟩
    isplitl [H1]; · iexact H1
    isplitl [H2]; · iexact H2
    iempintro

/-- The library's body obligation on device `c`. -/
theorem body_obligation (c : Dev nD) : BodyObligation (dats (F := F) m 0 c) (defs₀ (F := F)) 𝒱₀ () Set.univ :=
  body_obligation_of m (sound_body m) c

/-- info: 'Cert.KernelIdeal.AG.body_obligation' depends on axioms: [propext, Classical.choice, Quot.sound] -/
#guard_msgs in #print axioms body_obligation

end Cert.KernelIdeal.AG

end
-- ==== Proof.AGLaunch.lean ====
/-
  The all-gather across the first mesh axis: the launch.

  The 57 cells of a device are indexed by kind — the barrier cell, the load, store and send cells of the 8 slots,
  the 32 receive cells — and the protocol's cells are exactly these on every device. The launch element deals every
  device the round state, the position and the reached-mark of its 57 cells and the duty tokens of its own cells
  (one a chunk on the load, store and send cells, one on every receive cell, one on the barrier cell); the global
  step allocates every cell's invariant, and the tokens of the receive cells and of the barrier cell go to the
  partner, who pays them. The launch credit of a device is what its partner owes its cells: a unit on the barrier
  cell and a chunk's credit on every receive cell. The input and the result array travel beside the region's
  invariant and are read against the final memory.
-/
import proofs.«900688_g7700000000000689_dist_ag_v7x_xyz2x4x4_x_m32768_n1024_f32_1_alg».proof.Proof.Proto

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells of a device, indexed by kind -/

/-- The own DMA semaphores: (load, store, send) of a slot, or the receive semaphore of a chunk. -/
abbrev OI : Type := (Fin 8 ⊕ Fin 8 ⊕ Fin 8) ⊕ Fin 32
/-- All 57: the barrier, or an own one. -/
abbrev CI : Type := Unit ⊕ OI

def osem : OI → SemLoc sig :=
  Sum.elim (Sum.elim (fun s => .dma (ldSem s)) (Sum.elim (fun s => .dma (stSem s)) (fun s => .dma (sdSem s)))) (fun k => .dma (rcSem k))
def csem : CI → SemLoc sig := Sum.elim (fun _ => .reg barS) osem
abbrev kcell (ci : Dev nD × CI) : GSem nD τ sig := ((ci.1 : Thread nD τ), csem ci.2)

/-- A semaphore's number among the 57: the barrier 0, DMA semaphore `d` at `d + 1`. -/
def semNo : SemLoc sig → ℕ
  | .reg _ => 0
  | .dma d => d.val + 1

theorem csem_injective : Function.Injective csem := by
  intro i i' h
  have h1 := congrArg semNo h
  rcases i with u | ((s | s | s) | k) <;> rcases i' with u' | ((s' | s' | s') | k') <;>
    dsimp only [csem, osem, Sum.elim_inl, Sum.elim_inr, semNo, ldSem, stSem, sdSem, rcSem] at h1 <;>
    first
      | rfl
      | (exfalso; omega)
      | (have hk : s = s' := Fin.ext (by omega); rw [hk])
      | (have hk : k = k' := Fin.ext (by omega); rw [hk])

theorem kcell_injective : Function.Injective (kcell : Dev nD × CI → GSem nD τ sig) := by
  rintro ⟨c, i⟩ ⟨c', i'⟩ h
  have h1 : c = c' := congrArg (fun g : GSem nD τ sig => g.1.1) h
  subst h1
  have h2 : csem i = csem i' := congrArg Prod.snd h
  rw [csem_injective h2]

theorem kind_csem (i : CI) : kindOf (csem i) ≠ .other := by
  rcases i with u | ((s | s | s) | k)
  · show kindOf (.reg barS) ≠ .other
    rw [kind_bar]; exact fun h => by cases h
  · show kindOf (.dma (ldSem s)) ≠ .other
    rw [kind_ld]; exact fun h => by cases h
  · show kindOf (.dma (stSem s)) ≠ .other
    rw [kind_st]; exact fun h => by cases h
  · show kindOf (.dma (sdSem s)) ≠ .other
    rw [kind_sd]; exact fun h => by cases h
  · show kindOf (.dma (rcSem k)) ≠ .other
    rw [kind_rc]; exact fun h => by cases h

/-- Every semaphore the protocol uses is one of the 57. -/
theorem csem_surj (sm : SemLoc sig) (h : kindOf sm ≠ .other) : ∃ i, csem i = sm := by
  rcases sm with q | d
  · by_cases hq : q = barS
    · exact ⟨.inl (), by rw [hq]; rfl⟩
    · exact absurd (show kindOf (.reg q) = .other from if_neg hq) h
  · have hd : d.val < 56 := d.isLt
    by_cases h8 : d.val < 8
    · exact ⟨.inr (.inl (.inl ⟨d.val, h8⟩)), rfl⟩
    · by_cases h16 : d.val < 16
      · exact ⟨.inr (.inl (.inr (.inl ⟨d.val - 8, by omega⟩))),
          congrArg SemLoc.dma (Fin.ext (show 8 + (d.val - 8) = d.val by omega))⟩
      · by_cases h24 : d.val < 24
        · exact ⟨.inr (.inl (.inr (.inr ⟨d.val - 16, by omega⟩))),
            congrArg SemLoc.dma (Fin.ext (show 16 + (d.val - 16) = d.val by omega))⟩
        · exact ⟨.inr (.inr ⟨d.val - 24, by omega⟩),
            congrArg SemLoc.dma (Fin.ext (show 24 + (d.val - 24) = d.val by omega))⟩

/-- The protocol's cells are the 57 cells of every device. -/
theorem cellsAll_eq : (cellsAll : Finset (GSem nD τ sig)) = Finset.univ.map ⟨kcell, kcell_injective⟩ := by
  ext g
  unfold cellsAll
  rw [Finset.mem_map, Finset.mem_filter]
  constructor
  · rintro ⟨-, hp, hk⟩
    obtain ⟨⟨d, p⟩, sm⟩ := g
    have hp' : p = .tc := hp
    subst hp'
    obtain ⟨i, hi⟩ := csem_surj sm hk
    exact ⟨(d, i), Finset.mem_univ _, by show ((d : Thread nD τ), csem i) = ((d, Proc.tc), sm); rw [hi]⟩
  · rintro ⟨⟨c, i⟩, -, rfl⟩
    exact ⟨Finset.mem_univ _, rfl, kind_csem i⟩

/-! ## Sums over the cells, regrouped -/

theorem bigSep_cells (Φ : GSem nD τ sig → sProp 𝕄) :
    bigSep cellsAll Φ = bigSep Finset.univ fun c : Dev nD => bigSep Finset.univ fun i : CI => Φ (kcell (c, i)) := by
  rw [cellsAll_eq, bigSep_map, bigSep_univ_prod]; rfl

/-- Over the own semaphores: slot by slot (load, store, send), then the receive semaphores. -/
theorem bigSep_OI (Φ : OI → sProp 𝕄) :
    bigSep Finset.univ Φ
      = iprop((bigSep Finset.univ fun s : Fin 8 => iprop(Φ (.inl (.inl s)) ∗ Φ (.inl (.inr (.inl s))) ∗ Φ (.inl (.inr (.inr s)))))
          ∗ bigSep Finset.univ fun k : Fin 32 => Φ (.inr k)) := by
  rw [bigSep_univ_sum, bigSep_univ_sum, bigSep_univ_sum,
    bigSep_sep' Finset.univ (fun s : Fin 8 => Φ (.inl (.inl s))) (fun s : Fin 8 => iprop(Φ (.inl (.inr (.inl s))) ∗ Φ (.inl (.inr (.inr s))))),
    bigSep_sep' Finset.univ (fun s : Fin 8 => Φ (.inl (.inr (.inl s)))) (fun s : Fin 8 => Φ (.inl (.inr (.inr s))))]
  rfl

/-- Over all 57: the barrier, then the own ones; -/
theorem bigSep_CI0 (Φ : CI → sProp 𝕄) :
    bigSep Finset.univ Φ = iprop(Φ (.inl ()) ∗ bigSep Finset.univ fun o : OI => Φ (.inr o)) := by
  rw [bigSep_univ_sum, bigSep_univ_of_subsingleton ()]
  rfl

/-- the own ones by kind. -/
theorem bigSep_CI (Φ : CI → sProp 𝕄) :
    bigSep Finset.univ Φ
      = iprop(Φ (.inl ()) ∗ (bigSep Finset.univ fun s : Fin 8 =>
            iprop(Φ (.inr (.inl (.inl s))) ∗ Φ (.inr (.inl (.inr (.inl s)))) ∗ Φ (.inr (.inl (.inr (.inr s))))))
          ∗ bigSep Finset.univ fun k : Fin 32 => Φ (.inr (.inr k))) := by
  rw [bigSep_univ_sum, bigSep_univ_of_subsingleton (), bigSep_OI]
  rfl

/-! ## The duty tokens -/

/-- The duties of a device's own cells: per chunk its load, its store, its send and its receive; the barrier's. -/
abbrev TI : Type := Fin 32 ⊕ Fin 32 ⊕ Fin 32 ⊕ Fin 32 ⊕ Unit

def tokAt (c : Dev nD) : TI → GSem nD τ sig × ℕ × Unit
  | .inl k => (ldCell c (slot k), rnd k, ())
  | .inr (.inl k) => (stCell c (slot k), rnd k, ())
  | .inr (.inr (.inl k)) => (sdCell c (slot k), rnd k, ())
  | .inr (.inr (.inr (.inl k))) => (rcCell c k, 0, ())
  | .inr (.inr (.inr (.inr _))) => (barCell c, 0, ())
def tokOf (cx : Dev nD × TI) : GSem nD τ sig × ℕ × Unit := tokAt cx.1 cx.2

theorem tokOf_injective : Function.Injective (tokOf : Dev nD × TI → GSem nD τ sig × ℕ × Unit) := by
  rintro ⟨c, x⟩ ⟨c', x'⟩ h
  have hc : c = c' := by
    have := congrArg (fun y : GSem nD τ sig × ℕ × Unit => y.1.1.1) h
    rcases x with k | k | k | k | u <;> rcases x' with k' | k' | k' | k' | u' <;> exact this
  subst hc
  have h1 := congrArg (fun y : GSem nD τ sig × ℕ × Unit => semNo y.1.2) h
  have h2 := congrArg (fun y : GSem nD τ sig × ℕ × Unit => y.2.1) h
  have hx : x = x' := by
    rcases x with k | k | k | k | u <;> rcases x' with k' | k' | k' | k' | u' <;>
      dsimp only [tokOf, tokAt, semNo, ldSem, stSem, sdSem, rcSem, slot, rnd] at h1 h2 <;>
      first
        | rfl
        | (exfalso; omega)
        | (have hk : k = k' := Fin.ext (by omega); rw [hk])
  rw [hx]

def agToks : Finset (GSem nD τ sig × ℕ × Unit) := Finset.univ.map ⟨tokOf, tokOf_injective⟩

/-- The duty tokens of device `c`'s own cells. -/
def toks (c : Dev nD) : sProp 𝕄 :=
  iprop((bigSep Finset.univ fun k : Fin 32 => dutyTok ER (ldCell c (slot k)) (rnd k) ())
    ∗ (bigSep Finset.univ fun k : Fin 32 => dutyTok ER (stCell c (slot k)) (rnd k) ())
    ∗ (bigSep Finset.univ fun k : Fin 32 => dutyTok ER (sdCell c (slot k)) (rnd k) ())
    ∗ (bigSep Finset.univ fun k : Fin 32 => dutyTok ER (rcCell c k) 0 ())
    ∗ dutyTok ER (barCell c) 0 ())

theorem agToks_split :
    bigSep agToks (fun x => (dutyTok ER x.1 x.2.1 x.2.2 : sProp 𝕄)) = bigSep Finset.univ fun c : Dev nD => toks c := by
  unfold agToks; rw [bigSep_map, bigSep_univ_prod]
  refine bigSep_congr fun c _ => ?_
  show (bigSep Finset.univ fun x : TI => (dutyTok ER (tokAt c x).1 (tokAt c x).2.1 (tokAt c x).2.2 : sProp 𝕄)) = toks c
  rw [bigSep_univ_sum, bigSep_univ_sum, bigSep_univ_sum, bigSep_univ_sum, bigSep_univ_of_subsingleton ()]
  rfl

/-- The tokens dealt to their payers: a device keeps those of its load, store and send cells; those of its receive
    cells and of its barrier cell go to the partner. -/
theorem toks_around : (bigSep Finset.univ fun c : Dev nD => (toks c : sProp 𝕄)) ⊢ bigSep Finset.univ fun c : Dev nD => payToks c := by
  unfold toks payToks
  simp only [bigSep_sep']
  rw [bigSep_univ_equiv prEquiv (fun c : Dev nD => (bigSep Finset.univ fun k : Fin 32 => dutyTok ER (rcCell c k) 0 () : sProp 𝕄)),
    bigSep_univ_equiv prEquiv (fun c : Dev nD => (dutyTok ER (barCell c) 0 () : sProp 𝕄))]
  iintro ⟨H1, H2, H3, H4, H5⟩
  isplitl [H1]; · iexact H1
  isplitl [H2]; · iexact H2
  isplitl [H3]; · iexact H3
  isplitl [H4]; · iexact H4
  iexact H5

/-! ## The launch element and the global step -/

theorem ownSemFacts : Pipeline.OwnSemFacts cfg0.spec osem :=
  ⟨fun o => by
      rcases o with (s | s | s) | k
      · revert s; decide
      · revert s; decide
      · revert s; decide
      · revert k; decide,
    fun o o' h => Sum.inr_injective (csem_injective (show csem (.inr o) = csem (.inr o') from h)),
    fun o w => w.elim0⟩

def u₀ : UU :=
  (initOf (Pipeline.cells cfgs cellOf_inj) (Pipeline.launchToks cfgs cellOf_inj), initOf cellsAll agToks)

/-- What the launch element deals device `c` (the theorem's `G`): the round state, the position and the reached-mark
    of each of its cells, and its own cells' duty tokens. -/
def G (c : Dev nD) : sProp 𝕄 :=
  iprop((bigSep Finset.univ fun i : CI => roundState ER (agRd m) (kcell (c, i)) 0)
    ∗ (bigSep Finset.univ fun i : CI => atPos ER (kcell (c, i)) 0 ∅ 0)
    ∗ (bigSep Finset.univ fun i : CI => reached ER (kcell (c, i)) 0)
    ∗ toks c)

/-- What the global step makes of it (`G'`). -/
def G' (c : Dev nD) : sProp 𝕄 := iprop(∃ K, ghost m K c)

theorem fund_ag : BI.own (ER (initOf cellsAll agToks)) ⊢ (|==> bigSep Finset.univ (G m) : sProp 𝕄) := by
  iintro HX
  imod (Rounds.fund ER (agRd m) cellsAll agToks) $$ HX with ⟨Hst, Hr, Hat, Htok⟩
  imodintro
  ihave Hst' := (Entails.of_eq (bigSep_cells (fun g => roundState ER (agRd m) g 0))) $$ Hst
  ihave Hat' := (Entails.of_eq (bigSep_cells (F := F) (fun g => atPos ER g 0 ∅ 0))) $$ Hat
  ihave Hr' := (Entails.of_eq (bigSep_cells (F := F) (fun g => reached ER g 0))) $$ Hr
  ihave Htok' := (Entails.of_eq (agToks_split (F := F))) $$ Htok
  unfold G; simp only [bigSep_sep']
  isplitl [Hst']; · iexact Hst'
  isplitl [Hat']; · iexact Hat'
  isplitl [Hr']; · iexact Hr'
  iexact Htok'

/-- The kernel's own semaphores, grouped by kind; -/
theorem ownSems0_eq (c : Dev nD) : (Pipeline.ownSems0 (Ix := Unit) (Name := ℕ) (U := UU) (Lvl := ℕ) (Val := Elt F) (τ := τ) osem c : sProp 𝕄)
    = iprop((bigSep Finset.univ fun s : Fin 8 => iprop(semVal (ldCell c s) 0 ∗ semVal (stCell c s) 0 ∗ semVal (sdCell c s) 0))
        ∗ bigSep Finset.univ fun k : Fin 32 => semVal (rcCell c k) 0) := by
  unfold Pipeline.ownSems0
  exact bigSep_OI (fun o => semVal ((c : Thread nD τ), osem o) 0)

/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell (c, i)) 0 : sProp 𝕄) := by
  rw [unscopedSems0_eq, bigSep_CI0]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => iprop(∃ κ : ℕ, cellInv ER (agRd m) κ (kcell (c, i))))
          ∗ (bigSep Finset.univ fun i : CI => atPos ER (kcell (c, i)) 0 ∅ 0)
          ∗ (bigSep Finset.univ fun i : CI => reached ER (kcell (c, i)) 0) ∗ toks c) := by
  unfold G
  iintro ⟨Hos, Hus, Hst, Hat, Hr, Htok⟩
  ihave Hv := (sems0_eq (F := F) c) $$ [Hos Hus]
  · isplitl [Hos] <;> iassumption
  imod (show iprop((bigSep Finset.univ fun i : CI => semVal (kcell (c, i)) 0) ∗ bigSep Finset.univ fun i : CI => roundState ER (agRd m) (kcell (c, i)) 0)
      ⊢ (|={Set.univ}=> bigSep Finset.univ fun i : CI => iprop(∃ κ : ℕ, cellInv ER (agRd m) κ (kcell (c, i))) : sProp 𝕄) from by
        rw [← bigSep_sep']
        exact (bigSep_mono fun i _ => (Rounds.body_intro ER (agRd m) (kcell (c, i))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

theorem ghost_intro (K : GSem nD τ sig → ℕ) (c : Dev nD) : iprop(records m K ∗ linear c) ⊢ G' m c := by
  unfold G' ghost
  iintro H
  iexists K
  iexact H

/-- A device's 57 positions, grouped by kind, with the tokens it pays. -/
theorem linear_intro (c : Dev nD) :
    iprop((bigSep Finset.univ fun i : CI => atPos ER (kcell (c, i)) 0 ∅ 0) ∗ payToks c) ⊢ (linear c : sProp 𝕄) := by
  rw [bigSep_CI]
  unfold linear
  iintro ⟨⟨Hb, Hs, Hk⟩, Hp⟩
  isplitl [Hb]; · iexact Hb
  isplitl [Hs]; · iexact Hs
  isplitl [Hk]; · iexact Hk
  iexact Hp

theorem regroup :
    (bigSep Finset.univ fun c : Dev nD => iprop((bigSep Finset.univ fun i : CI => iprop(∃ κ : ℕ, cellInv ER (agRd m) κ (kcell (c, i))))
          ∗ (bigSep Finset.univ fun i : CI => atPos ER (kcell (c, i)) 0 ∅ 0)
          ∗ (bigSep Finset.univ fun i : CI => reached ER (kcell (c, i)) 0) ∗ toks c) : sProp 𝕄)
      ⊢ bigSep Finset.univ (G' m) := by
  rw [bigSep_sep', bigSep_sep', bigSep_sep',
    ← bigSep_cells (fun g : GSem nD τ sig => iprop(∃ κ : ℕ, cellInv ER (agRd m) κ g)),
    ← bigSep_cells (F := F) (fun g : GSem nD τ sig => reached ER g 0)]
  iintro ⟨HI, Hat, #HR, Htok⟩
  ihave HK := (BI.bigSep_exists_pi cellsAll (fun (g : GSem nD τ sig) (κ : ℕ) => (cellInv ER (agRd m) κ g : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun i : CI => (atPos ER (kcell (c, i)) 0 ∅ 0 : sProp 𝕄)) payToks).symm).trans
      (bigSep_mono fun c _ => linear_intro (F := F) c))
    isplitl [Hat]; · iexact Hat
    iexact Htk

/-- The global step (`hglob`): own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem owedFrom_range (c : Dev nD) :
    ∀ n, owedFrom c n = ∑ i ∈ Finset.range n, tallyAt (rcCell (pr c) (chunkRev i)) () No
  | 0 => by rw [Finset.sum_range_zero]; rfl
  | n + 1 => by rw [Finset.sum_range_succ, ← owedFrom_range c n]; rfl

theorem chunkRev_rev (i : Fin 32) : chunkRev i.val = Fin.revPerm i :=
  Fin.ext (by rw [Fin.revPerm_apply, Fin.val_rev]; show 31 - i.val % 32 = 32 - (i.val + 1); omega)

/-- What a device owes its partner's receive cells: a chunk's credit each. -/
theorem owedFrom_eq (c : Dev nD) : owedFrom c 32 = ∑ k : Fin 32, tallyAt (rcCell (pr c) k) () No :=
  calc owedFrom c 32
      = ∑ i ∈ Finset.range 32, tallyAt (rcCell (pr c) (chunkRev i)) () No := owedFrom_range c 32
    _ = ∑ i : Fin 32, tallyAt (rcCell (pr c) (chunkRev i.val)) () No :=
        (Fin.sum_univ_eq_sum_range (fun i => tallyAt (rcCell (pr c) (chunkRev i)) () No) 32).symm
    _ = ∑ i : Fin 32, tallyAt (rcCell (pr c) (Fin.revPerm i)) () No :=
        Finset.sum_congr rfl fun i _ => by rw [chunkRev_rev]
    _ = ∑ k : Fin 32, tallyAt (rcCell (pr c) k) () No :=
        Equiv.sum_comp Fin.revPerm (fun k : Fin 32 => tallyAt (rcCell (pr c) k) () No)

/-- The launch credit of a device: what its partner owes its barrier cell and its receive cells. -/
theorem creds_intro (c : Dev nD) : (Pipeline.launchCred O₀ c : sProp 𝕄) ⊢ creds c := by
  have hO : (O₀ : Dev nD → CellTallies nD τ sig Unit)
      = fun d => (∑ k ∈ (Finset.univ : Finset (Fin 32)), tallyAt (rcCell (pr d) k) () No) + tallyAt (barCell (pr d)) () 1 :=
    funext fun d => by unfold O₀; rw [owedFrom_eq]
  rw [hO,
    Pipeline.launchCred_add (fun d : Dev nD => ∑ k ∈ (Finset.univ : Finset (Fin 32)), tallyAt (rcCell (pr d) k) () No)
      (fun d : Dev nD => tallyAt (barCell (pr d)) () 1) c,
    Pipeline.launchCred_sum Finset.univ (fun (k : Fin 32) (d : Dev nD) => tallyAt (rcCell (pr d) k) () No) c]
  have hbar : (Pipeline.launchCred (fun d : Dev nD => tallyAt (barCell (pr d)) () 1) c : sProp 𝕄) ⊢ cred (tallyAt (barCell c) () 1) :=
    Pipeline.launchCred_tallyAt (SemLoc.reg barS) pr pr pr_pr pr_pr () 1 c
  have hrc : (bigSep Finset.univ fun k : Fin 32 => (Pipeline.launchCred (fun d : Dev nD => tallyAt (rcCell (pr d) k) () No) c : sProp 𝕄))
      ⊢ bigSep Finset.univ fun k : Fin 32 => (cred (tallyAt (rcCell c k) () No) : sProp 𝕄) :=
    bigSep_mono fun k _ => Pipeline.launchCred_tallyAt (SemLoc.dma (rcSem k)) pr pr pr_pr pr_pr () No c
  unfold creds
  iintro ⟨Hr, Hb⟩
  isplitl [Hb]
  · iapply hbar; iexact Hb
  · iapply hrc; iexact Hr

/-! ## The theorem's side conditions -/

/-- What comes back beside the region's invariant: the input as it was, the result. -/
def Y (c : Dev nD) : sProp 𝕄 :=
  iprop((((c : Thread nD τ).loc main_arg0) ↦{fullShare} Xin m c) ∗ (((c : Thread nD τ).loc main_v1) ↦{fullShare} Fout m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Ha, Hv⟩, Hlev, Hcr, -, HG⟩
  ihave Hc := (creds_intro (F := F) c) $$ Hcr
  imodintro
  unfold start G'
  isplitl
  · isplitl [HG]; · iexact HG
    isplitl [Hc]; · iexact Hc
    isplitl [Hlev]; · iexact Hlev
    isplitl [Ha]; · iexact Ha
    iexists _; iexact Hv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq, ownSems0_eq]
  unfold Φ₁ Y
  iintro ⟨Ha, Hv, Hs, Hz, Hk⟩
  isplitl [Ha Hv]
  · isplitl [Ha] <;> iassumption
  isplitl [Hz Hk]
  · isplitl [Hz] <;> iassumption
  iexact Hs

theorem waits (c : Dev nD) : (levAts L lv : sProp 𝕄) ⊢ Pipeline.cellsWaits cfgs (dats m) () 0 c :=
  Pipeline.cellsWaits_intro cfgs (dats m) () 0 c fun w => w.elim0

/-! ## The run -/

set_option maxRecDepth 16384 in
/-- At the compiled mesh of 32 devices, for any float values, from any memory with zero counters: given the body
    obligation of every device, every weakly fair execution of @main terminates, and every final state has, on every
    device, the result array holding both input blocks of its column and the input array unchanged. -/
theorem run_main_of (hbody : ∀ c : Dev nD, BodyObligation (dats (F := F) m 0 c) (defs₀ (F := F)) 𝒱₀ () Set.univ) :
    θ_run defs (onTc (τ := τ) (main (F := F))) (s₀ m ρ)
      (fun r => ∀ c : Dev nD, r.2.mem ((c : Thread nD τ).loc main_v1) = Fout m c
        ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => w.elim0) (harr := arr_whole0) (hstage := stage_whole0) (hshare := fun c w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ag m) $$ HX with HG
      imodintro
      isplitl [HP] <;> iassumption)
    (hglob := glob m)
    (hA := fun _ w => w.elim0) (hpf := fun _ k => k.elim0)
    (X := start m) (Y := Y m) (Z := fun _ => iprop(emp))
    (hX := start_intro m ρ) (hin := phi0_intro m) (hout := phi1_exit m)
    (QY := fun c s => s.mem ((c : Thread nD τ).loc main_v1) = Fout m c ∧ s.mem ((c : Thread nD τ).loc main_arg0) = Xin m c)
    (hY := fun c s' => by
      unfold Y
      iintro ⟨⟨Ha, Hv⟩, -, HSI⟩
      icombine HSI Ha gives %ha
      icombine HSI Hv gives %hv
      imodintro
      isplitr
      · ipureintro; exact ⟨Buf.eq_of_forall_mem_univ hv, Buf.eq_of_forall_mem_univ ha⟩
      iexact HSI)
    (hQ := fun _ h c => (h c).2.2)

/-- info: 'Cert.KernelIdeal.AG.run_main_of' depends on axioms: [propext, Classical.choice, Quot.sound] -/
#guard_msgs in #print axioms run_main_of

end Cert.KernelIdeal.AG

end
-- ==== Proof.Run.lean ====
/-
  The all-gather across the first mesh axis: the run of @main on all 32 devices — every device's body proved, the
  launch applied.
-/
import proofs.«900688_g7700000000000689_dist_ag_v7x_xyz2x4x4_x_m32768_n1024_f32_1_alg».proof.Proof.Body
import proofs.«900688_g7700000000000689_dist_ag_v7x_xyz2x4x4_x_m32768_n1024_f32_1_alg».proof.Proof.AGLaunch

noncomputable section

namespace Cert.KernelIdeal.AG

open Cert.KernelIdeal Cert.KernelIdeal.Gen
open Idealize.ShloMosaic
open Idealize.ShloMosaic.TcCoe
open Idealize.SL Idealize.SL.Sem

variable {F : FTy → Type} [FloatOps F]

/-- Every weakly fair execution of @main terminates, nothing faulting, each device's result the whole array and its input
    block unchanged. -/
theorem run_main (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c : Thread nD τ).loc main_v1) = Fout m c
      ∧ r.2.mem ((c : Thread nD τ).loc main_arg0) = m ((c : Thread nD τ).loc main_arg0)) :=
  run_main_of m ρ (body_obligation m)

/-- info: 'Cert.KernelIdeal.AG.run_main' depends on axioms: [propext, Classical.choice, Quot.sound] -/
#guard_msgs in #print axioms run_main

end Cert.KernelIdeal.AG

end
-- ==== Proof.KGeom.lean ====
/-
  The all-gather across the first mesh axis: the geometry.

  The mesh is 2 × 4 × 4 with device id `c = 16·x + 4·y + z`. Every device exchanges with its PARTNER, the
  device of the same `(y, z)` at the other `x`. A device's input block has 32768 rows, cut into 32 chunks of
  1024 rows; the result has 65536 rows, cut into 2 × 32 chunks: chunk `(h, k)` is rows
  `[32768·h + 1024·k, 32768·h + 1024·k + 1024)` and ends holding chunk `k` of the input block of the device
  at x-coordinate `h`. The scratch has 8 slots of one chunk each.
-/
import proofs.«900688_g7700000000000689_dist_ag_v7x_xyz2x4x4_x_m32768_n1024_f32_1_alg».proof.Proof.Gen.Kernel.Launch
import Idealize.ShloMosaic.Lib.Pipeline.Launch
import Idealize.ShloMosaic.Lib.Pipeline.Kit
import Idealize.ShloMosaic.Lib.Tactic
import Idealize.ShloMosaic.Lib.ValueIdx

noncomputable section

namespace Cert.Kernel.AG

open Cert.Kernel Cert.Kernel.Gen
open Idealize.ShloMosaic
open Idealize.ShloMosaic.TcCoe
open Idealize.SL Idealize.SL.Sem

variable {F : FTy → Type} [FloatOps F]

/-! ## The partner -/

/-- The device of the same `(y, z)` at the other x-coordinate. -/
def pr (c : Dev nD) : Dev nD := ⟨(c.val + 16) % 32, Nat.mod_lt _ (by decide)⟩

theorem pr_pr (c : Dev nD) : pr (pr c) = c := by revert c; decide
theorem pr_ne (c : Dev nD) : pr c ≠ c := by revert c; decide

/-- The involution as an equivalence. -/
def prEquiv : Dev nD ≃ Dev nD := ⟨pr, pr, pr_pr, pr_pr⟩

/-- The device's coordinate on the first mesh axis. -/
def hx (c : Dev nD) : Fin 2 := ⟨c.val / 16, by have : c.val < 32 := c.isLt; omega⟩

theorem hx_pr (c : Dev nD) : (hx (pr c)).val = 1 - (hx c).val := by revert c; decide
theorem hx_ne_pr (c : Dev nD) : hx (pr c) ≠ hx c := by revert c; decide

/-- The device of `c`'s `(y, z)` at x-coordinate `h`. -/
def devAt (c : Dev nD) (h : Fin 2) : Dev nD := ⟨16 * h.val + c.val % 16, by have := h.isLt; show 16 * h.val + c.val % 16 < 32; omega⟩

theorem devAt_hx (c : Dev nD) : devAt c (hx c) = c := by revert c; decide
theorem devAt_hx_pr (c : Dev nD) : devAt c (hx (pr c)) = pr c := by revert c; decide
theorem devAt_pr (c : Dev nD) (h : Fin 2) : devAt (pr c) h = devAt c h := by revert c h; decide

/-- The closed form every printed device chain has is the partner. -/
theorem closed_pr (c : Dev nD) : (4 * ((c.val / 4) % 4) + (c.val % 4) + 16) - 16 * (c.val / 16) = (pr c).val := by revert c; decide

/-- Every device chain the body computes — the barrier signal's and the 32 remote copies' — names the partner. -/
theorem dev_eq1 (c : Dev nD) : (⟨k0_dev1 c, k0_dev1_lt c⟩ : Dev nD) = pr c := Fin.ext ((k0_dev1_eq c).trans (closed_pr c))
theorem dev_eq2 (c : Dev nD) : (⟨k0_dev2 c, k0_dev2_lt c⟩ : Dev nD) = pr c := Fin.ext ((k0_dev2_eq c).trans (closed_pr c))
theorem dev_eq3 (c : Dev nD) : (⟨k0_dev3 c, k0_dev3_lt c⟩ : Dev nD) = pr c := Fin.ext ((k0_dev3_eq c).trans (closed_pr c))
theorem dev_eq4 (c : Dev nD) : (⟨k0_dev4 c, k0_dev4_lt c⟩ : Dev nD) = pr c := Fin.ext ((k0_dev4_eq c).trans (closed_pr c))
theorem dev_eq5 (c : Dev nD) : (⟨k0_dev5 c, k0_dev5_lt c⟩ : Dev nD) = pr c := Fin.ext ((k0_dev5_eq c).trans (closed_pr c))
theorem dev_eq6 (c : Dev nD) : (⟨k0_dev6 c, k0_dev6_lt c⟩ : Dev nD) = pr c := Fin.ext ((k0_dev6_eq c).trans (closed_pr c))
theorem dev_eq7 (c : Dev nD) : (⟨k0_dev7 c, k0_dev7_lt c⟩ : Dev nD) = pr c := Fin.ext ((k0_dev7_eq c).trans (closed_pr c))
theorem dev_eq8 (c : Dev nD) : (⟨k0_dev8 c, k0_dev8_lt c⟩ : Dev nD) = pr c := Fin.ext ((k0_dev8_eq c).trans (closed_pr c))
theorem dev_eq9 (c : Dev nD) : (⟨k0_dev9 c, k0_dev9_lt c⟩ : Dev nD) = pr c := Fin.ext ((k0_dev9_eq c).trans (closed_pr c))
theorem dev_eq10 (c : Dev nD) : (⟨k0_dev10 c, k0_dev10_lt c⟩ : Dev nD) = pr c := Fin.ext ((k0_dev10_eq c).trans (closed_pr c))
theorem dev_eq11 (c : Dev nD) : (⟨k0_dev11 c, k0_dev11_lt c⟩ : Dev nD) = pr c := Fin.ext ((k0_dev11_eq c).trans (closed_pr c))
theorem dev_eq12 (c : Dev nD) : (⟨k0_dev12 c, k0_dev12_lt c⟩ : Dev nD) = pr c := Fin.ext ((k0_dev12_eq c).trans (closed_pr c))
theorem dev_eq13 (c : Dev nD) : (⟨k0_dev13 c, k0_dev13_lt c⟩ : Dev nD) = pr c := Fin.ext ((k0_dev13_eq c).trans (closed_pr c))
theorem dev_eq14 (c : Dev nD) : (⟨k0_dev14 c, k0_dev14_lt c⟩ : Dev nD) = pr c := Fin.ext ((k0_dev14_eq c).trans (closed_pr c))
theorem dev_eq15 (c : Dev nD) : (⟨k0_dev15 c, k0_dev15_lt c⟩ : Dev nD) = pr c := Fin.ext ((k0_dev15_eq c).trans (closed_pr c))
theorem dev_eq16 (c : Dev nD) : (⟨k0_dev16 c, k0_dev16_lt c⟩ : Dev nD) = pr c := Fin.ext ((k0_dev16_eq c).trans (closed_pr c))
theorem dev_eq17 (c : Dev nD) : (⟨k0_dev17 c, k0_dev17_lt c⟩ : Dev nD) = pr c := Fin.ext ((k0_dev17_eq c).trans (closed_pr c))
theorem dev_eq18 (c : Dev nD) : (⟨k0_dev18 c, k0_dev18_lt c⟩ : Dev nD) = pr c := Fin.ext ((k0_dev18_eq c).trans (closed_pr c))
theorem dev_eq19 (c : Dev nD) : (⟨k0_dev19 c, k0_dev19_lt c⟩ : Dev nD) = pr c := Fin.ext ((k0_dev19_eq c).trans (closed_pr c))
theorem dev_eq20 (c : Dev nD) : (⟨k0_dev20 c, k0_dev20_lt c⟩ : Dev nD) = pr c := Fin.ext ((k0_dev20_eq c).trans (closed_pr c))
theorem dev_eq21 (c : Dev nD) : (⟨k0_dev21 c, k0_dev21_lt c⟩ : Dev nD) = pr c := Fin.ext ((k0_dev21_eq c).trans (closed_pr c))
theorem dev_eq22 (c : Dev nD) : (⟨k0_dev22 c, k0_dev22_lt c⟩ : Dev nD) = pr c := Fin.ext ((k0_dev22_eq c).trans (closed_pr c))
theorem dev_eq23 (c : Dev nD) : (⟨k0_dev23 c, k0_dev23_lt c⟩ : Dev nD) = pr c := Fin.ext ((k0_dev23_eq c).trans (closed_pr c))
theorem dev_eq24 (c : Dev nD) : (⟨k0_dev24 c, k0_dev24_lt c⟩ : Dev nD) = pr c := Fin.ext ((k0_dev24_eq c).trans (closed_pr c))
theorem dev_eq25 (c : Dev nD) : (⟨k0_dev25 c, k0_dev25_lt c⟩ : Dev nD) = pr c := Fin.ext ((k0_dev25_eq c).trans (closed_pr c))
theorem dev_eq26 (c : Dev nD) : (⟨k0_dev26 c, k0_dev26_lt c⟩ : Dev nD) = pr c := Fin.ext ((k0_dev26_eq c).trans (closed_pr c))
theorem dev_eq27 (c : Dev nD) : (⟨k0_dev27 c, k0_dev27_lt c⟩ : Dev nD) = pr c := Fin.ext ((k0_dev27_eq c).trans (closed_pr c))
theorem dev_eq28 (c : Dev nD) : (⟨k0_dev28 c, k0_dev28_lt c⟩ : Dev nD) = pr c := Fin.ext ((k0_dev28_eq c).trans (closed_pr c))
theorem dev_eq29 (c : Dev nD) : (⟨k0_dev29 c, k0_dev29_lt c⟩ : Dev nD) = pr c := Fin.ext ((k0_dev29_eq c).trans (closed_pr c))
theorem dev_eq30 (c : Dev nD) : (⟨k0_dev30 c, k0_dev30_lt c⟩ : Dev nD) = pr c := Fin.ext ((k0_dev30_eq c).trans (closed_pr c))
theorem dev_eq31 (c : Dev nD) : (⟨k0_dev31 c, k0_dev31_lt c⟩ : Dev nD) = pr c := Fin.ext ((k0_dev31_eq c).trans (closed_pr c))
theorem dev_eq32 (c : Dev nD) : (⟨k0_dev32 c, k0_dev32_lt c⟩ : Dev nD) = pr c := Fin.ext ((k0_dev32_eq c).trans (closed_pr c))
theorem dev_eq33 (c : Dev nD) : (⟨k0_dev33 c, k0_dev33_lt c⟩ : Dev nD) = pr c := Fin.ext ((k0_dev33_eq c).trans (closed_pr c))

/-! ## The chunks -/

theorem inb_x (k : Fin 32) : ∀ a, (![1024 * k.val, 0] : Fin 2 → Nat) a + S1024x1024.size a ≤ S32768x1024.size a := by
  intro a; have := k.isLt
  fin_cases a
  · show 1024 * k.val + 1024 ≤ 32768; omega
  · show 0 + 1024 ≤ 1024; omega

theorem inb_o (h : Fin 2) (k : Fin 32) : ∀ a, (![32768 * h.val + 1024 * k.val, 0] : Fin 2 → Nat) a + S1024x1024.size a ≤ S65536x1024.size a := by
  intro a; have := k.isLt; have := h.isLt
  fin_cases a
  · show 32768 * h.val + 1024 * k.val + 1024 ≤ 65536; omega
  · show 0 + 1024 ≤ 1024; omega

theorem inb_v (s : Fin 8) : ∀ a, (![s.val, 0, 0] : Fin 3 → Nat) a + S1x1024x1024.size a ≤ S8x1024x1024.size a := by
  intro a; have := s.isLt
  fin_cases a
  · show s.val + 1 ≤ 8; omega
  · show 0 + 1024 ≤ 1024; omega
  · show 0 + 1024 ≤ 1024; omega

/-- Chunk `k` of the device's input block. -/
abbrev xS (k : Fin 32) : Memref sig .tc .hbm S1024x1024 .f32 :=
  (Memref.whole main_arg0).slice (Rect.unit (s := S32768x1024) ![1024 * k.val, 0] S1024x1024.size (inb_x k)) (fun _ => rfl)

/-- Chunk `(h, k)` of the result. -/
abbrev oS (h : Fin 2) (k : Fin 32) : Memref sig .tc .hbm S1024x1024 .f32 :=
  (Memref.whole main_v1).slice (Rect.unit (s := S65536x1024) ![32768 * h.val + 1024 * k.val, 0] S1024x1024.size (inb_o h k)) (fun _ => rfl)

/-- Slot `s` of the scratch. -/
abbrev vS (s : Fin 8) : Memref sig .tc .vmem S1024x1024 .f32 :=
  ((Memref.whole cc0_scratch0).slice (Rect.unit (s := S8x1024x1024) ![s.val, 0, 0] S1x1024x1024.size (inb_v s)) (fun _ => rfl)).squeeze S1024x1024 squeezes_S1x1024x1024_S1024x1024

/-- The result chunk the printed body addresses through its offset chain is chunk `(hx c, k)`. -/
theorem oS_off (c : Dev nD) (k : Fin 32) :
    (Memref.whole main_v1 : Memref sig .tc .hbm S65536x1024 .f32).slice
        (Rect.unit (s := S65536x1024) (k0_off1 c (BitVec.ofNat 32 (1024 * k.val))) S1024x1024.size (k0_off1_inb c k)) (fun _ => rfl)
      = oS (hx c) k := by
  have h : k0_off1 c (BitVec.ofNat 32 (1024 * k.val)) = ![32768 * (hx c).val + 1024 * k.val, 0] := k0_off1_eq c k
  congr 1
  exact Rect.unit_congr h _ _

/-! ## Contents -/

variable (m : (ℓ : Loc nD τ sig) → Buf (Elt F) ℓ)

/-- The device's input block as launched. -/
def Xin (c : Dev nD) : Buf (Elt F) ((c : Thread nD τ).loc main_arg0) := m ((c : Thread nD τ).loc main_arg0)

/-- Chunk `k` of device `c`'s input block. -/
def blk (c : Dev nD) (k : Fin 32) : S1024x1024.Idx → Elt F .f32 := (xS k).view.read (Elt F) (Xin m c)

/-- The result every device ends with: row `i` is row `i mod 32768` of the input block of the device of `c`'s `(y, z)`
    at x-coordinate `i / 32768`. -/
def Fout (c : Dev nD) : Buf (Elt F) ((c : Thread nD τ).loc main_v1) :=
  fun (i : S65536x1024.Idx) =>
    (Xin m (devAt c ⟨(i 0).val / 32768, by have := ValueIdx.idx2_lt0 i; omega⟩) : S32768x1024.Idx → Elt F .f32)
      (ValueIdx.ix2 (⟨(i 0).val % 32768, Nat.mod_lt _ (by decide)⟩ : Fin 32768) (i 1))

end Cert.Kernel.AG

end
-- ==== Proof.KCells.lean ====
/-
  The all-gather across the first mesh axis: the protocol.

  Every semaphore of a device is a cell of the rounds discipline, one duty a round:
  * the BARRIER cell: one round; its one unit is the partner's signal, which hands the device the partner's
    half of the partner's result buffer — the 32 chunks the device will write remotely;
  * LOAD cell `s` (slot `s`), rounds `r = 0..3`: the local copy of chunk `k = s + 8r` of the input block into slot
    `s`, paid by the device itself; it hands back the slot holding chunk `k` and the input chunk it read;
  * STORE cell `s`, rounds `0..3`: the local copy of slot `s` into chunk `(x, k)` of the device's own result,
    handing back that chunk written and the share of the slot it read;
  * SEND cell `s`, rounds `0..3`: the source side of the remote copy of slot `s`, handing back the other
    share of the slot;
  * RECEIVE cell `k`: one round; the partner's remote copy of ITS chunk `k` into chunk `(1 - x, k)` of the
    device's result, handing the device that chunk holding the partner's chunk `k`.
  A device owes, at launch, the partner's barrier cell one unit and each of the partner's receive cells a
  chunk's credit. Levels: barrier cells 1, receive cells 2, every other cell 0 — a device waits on its barrier
  owing only receive credits, on its local and send cells owing only receive credits, and on its receive cells
  owing nothing.
-/
import proofs.«900688_g7700000000000689_dist_ag_v7x_xyz2x4x4_x_m32768_n1024_f32_1_alg».proof.Proof.KGeom

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's, duty names `Unit` -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The semaphores and their cells -/

/-- The runtime's barrier semaphore of collective id 0 (not scoped to the launch). -/
abbrev barS : Sem sig := (SemArray.scalar (sig.barrier 0 rfl) : Sems sig S_).sem

/-- The kernel's own DMA semaphores: load `s`, store `s`, send `s`, receive `k`. -/
def ldSem (s : Fin 8) : DmaSem sig := ⟨s.val, by have := s.isLt; show s.val < 56; omega⟩
def stSem (s : Fin 8) : DmaSem sig := ⟨8 + s.val, by have := s.isLt; show 8 + s.val < 56; omega⟩
def sdSem (s : Fin 8) : DmaSem sig := ⟨16 + s.val, by have := s.isLt; show 16 + s.val < 56; omega⟩
def rcSem (k : Fin 32) : DmaSem sig := ⟨24 + k.val, by have := k.isLt; show 24 + k.val < 56; omega⟩

abbrev barCell (c : Dev nD) : GSem nD τ sig := ((c : Thread nD τ), .reg barS)
abbrev ldCell (c : Dev nD) (s : Fin 8) : GSem nD τ sig := ((c : Thread nD τ), .dma (ldSem s))
abbrev stCell (c : Dev nD) (s : Fin 8) : GSem nD τ sig := ((c : Thread nD τ), .dma (stSem s))
abbrev sdCell (c : Dev nD) (s : Fin 8) : GSem nD τ sig := ((c : Thread nD τ), .dma (sdSem s))
abbrev rcCell (c : Dev nD) (k : Fin 32) : GSem nD τ sig := ((c : Thread nD τ), .dma (rcSem k))

/-- What a semaphore is in the protocol. -/
inductive CK where
  | bar | ld (s : Fin 8) | st (s : Fin 8) | sd (s : Fin 8) | rc (k : Fin 32) | other
  deriving DecidableEq

def kindOf : SemLoc sig → CK
  | .reg q => if q = barS then .bar else .other
  | .dma d =>
    if h : d.val < 8 then .ld ⟨d.val, h⟩
    else if h₁ : d.val < 16 then .st ⟨d.val - 8, by omega⟩
    else if h₂ : d.val < 24 then .sd ⟨d.val - 16, by omega⟩
    else if h₃ : d.val < 56 then .rc ⟨d.val - 24, by omega⟩
    else .other

theorem kind_bar : kindOf (.reg barS) = .bar := by unfold kindOf; exact if_pos rfl
theorem kind_ld (s : Fin 8) : kindOf (.dma (ldSem s)) = .ld s := by revert s; decide
theorem kind_st (s : Fin 8) : kindOf (.dma (stSem s)) = .st s := by revert s; decide
theorem kind_sd (s : Fin 8) : kindOf (.dma (sdSem s)) = .sd s := by revert s; decide
theorem kind_rc (k : Fin 32) : kindOf (.dma (rcSem k)) = .rc k := by revert k; decide

/-- The chunk slot `s` carries in round `r`. -/
def chunk (s : Fin 8) (r : ℕ) : Fin 32 := ⟨(s.val + 8 * r) % 32, Nat.mod_lt _ (by decide)⟩

/-- A chunk's credit on a slot, and on a chunk of the result. -/
abbrev Nv : ℕ := (vS 0).view.dmaCredit
abbrev No : ℕ := (oS 0 0).view.dmaCredit
theorem Nv_pos : 0 < Nv := View.dmaCredit_pos _ (by decide)
theorem No_pos : 0 < No := View.dmaCredit_pos _ (by decide)

/-- The two halves of a slot's share: the local store reads through one, the remote copy through the other. -/
abbrev qL : PosShare TreeShare := fullShare.left
abbrev qR : PosShare TreeShare := fullShare.right

/-! ## The payloads -/

/-- What the partner's signal hands device `c`: the 32 chunks of the PARTNER's result that `c` will write. -/
def barPay (c : Dev nD) : sProp 𝕄 :=
  bigSep Finset.univ fun k : Fin 32 =>
    iprop(∃ f, ((oS (hx c) k).view.loc (pr c : Thread nD τ) ↦[(oS (hx c) k).view.set]{fullShare} f))

/-- Slot `s` holding chunk `k`, and the input chunk read. -/
def ldPay (c : Dev nD) (s : Fin 8) (k : Fin 32) : sProp 𝕄 :=
  iprop(owns (c : Thread nD τ) (vS s) fullShare (blk m c k)
    ∗ ((xS k).view.loc (c : Thread nD τ) ↦[(xS k).view.set]{fullShare} Xin m c))

/-- Chunk `(x, k)` of the device's own result written, and the store's share of the slot. -/
def stPay (c : Dev nD) (s : Fin 8) (k : Fin 32) : sProp 𝕄 :=
  iprop(owns (c : Thread nD τ) (oS (hx c) k) fullShare (blk m c k) ∗ owns (c : Thread nD τ) (vS s) qL (blk m c k))

/-- The remote copy's share of the slot. -/
def sdPay (c : Dev nD) (s : Fin 8) (k : Fin 32) : sProp 𝕄 := owns (c : Thread nD τ) (vS s) qR (blk m c k)

/-- Chunk `(1 - x, k)` of the device's result holding the partner's chunk `k`. -/
def rcPay (c : Dev nD) (k : Fin 32) : sProp 𝕄 := owns (c : Thread nD τ) (oS (hx (pr c)) k) fullShare (blk m (pr c) k)

/-! ## The schedule -/

def agRd : Rounds.Schedule (GSem nD τ sig) Unit 𝕄 where
  duties g r :=
    if g.1.2 = .tc then
      (match kindOf g.2 with
        | .bar => if r = 0 then {()} else ∅
        | .rc _ => if r = 0 then {()} else ∅
        | .ld _ => if r < 4 then {()} else ∅
        | .st _ => if r < 4 then {()} else ∅
        | .sd _ => if r < 4 then {()} else ∅
        | .other => ∅)
    else ∅
  unitless _ := False
  amount g _ _ := match kindOf g.2 with
    | .bar => 1
    | .ld _ => Nv
    | _ => No
  payload g r _ := match kindOf g.2 with
    | .bar => barPay g.1.1
    | .ld s => ldPay m g.1.1 s (chunk s r)
    | .st s => stPay m g.1.1 s (chunk s r)
    | .sd s => sdPay m g.1.1 s (chunk s r)
    | .rc k => rcPay m g.1.1 k
    | .other => iprop(emp)
  amount_pos g _ _ _ := by
    cases kindOf g.2 <;> first | exact Nat.one_pos | exact Nv_pos | exact No_pos

set_option synthInstance.maxHeartbeats 1000000 in
set_option maxHeartbeats 1000000 in
instance agRd_payload_storable (g : GSem nD τ sig) (r : ℕ) (d : Unit) :
    BI.Storable (upEmb : UEmb _ 𝕄) ((agRd (F := F) m).payload g r d) := by
  show BI.Storable upEmb (match kindOf g.2 with
    | .bar => barPay g.1.1
    | .ld s => ldPay m g.1.1 s (chunk s r)
    | .st s => stPay m g.1.1 s (chunk s r)
    | .sd s => sdPay m g.1.1 s (chunk s r)
    | .rc k => rcPay m g.1.1 k
    | .other => iprop(emp))
  unfold barPay ldPay stPay sdPay rcPay owns
  split <;> infer_instance

section Sched
variable (c : Dev nD)

omit [FloatOps F] in
theorem duties_bar : (agRd (F := F) m).duties (barCell c) 0 = {()} := by
  dsimp only [agRd]; rw [if_pos rfl, kind_bar]; exact if_pos rfl
omit [FloatOps F] in
theorem duties_rc (k : Fin 32) : (agRd (F := F) m).duties (rcCell c k) 0 = {()} := by
  dsimp only [agRd]; rw [if_pos rfl, kind_rc]; exact if_pos rfl
omit [FloatOps F] in
theorem duties_ld (s : Fin 8) (r : ℕ) (hr : r < 4) : (agRd (F := F) m).duties (ldCell c s) r = {()} := by
  dsimp only [agRd]; rw [if_pos rfl, kind_ld]; exact if_pos hr
omit [FloatOps F] in
theorem duties_st (s : Fin 8) (r : ℕ) (hr : r < 4) : (agRd (F := F) m).duties (stCell c s) r = {()} := by
  dsimp only [agRd]; rw [if_pos rfl, kind_st]; exact if_pos hr
omit [FloatOps F] in
theorem duties_sd (s : Fin 8) (r : ℕ) (hr : r < 4) : (agRd (F := F) m).duties (sdCell c s) r = {()} := by
  dsimp only [agRd]; rw [if_pos rfl, kind_sd]; exact if_pos hr

omit [FloatOps F] in
theorem duties_bar_later : ∀ r, 1 ≤ r → (agRd (F := F) m).duties (barCell c) r = ∅ := fun r hr => by
  dsimp only [agRd]; rw [if_pos rfl, kind_bar]; exact if_neg (by omega)
omit [FloatOps F] in
theorem duties_rc_later (k : Fin 32) : ∀ r, 1 ≤ r → (agRd (F := F) m).duties (rcCell c k) r = ∅ := fun r hr => by
  dsimp only [agRd]; rw [if_pos rfl, kind_rc]; exact if_neg (by omega)
omit [FloatOps F] in
theorem duties_ld_later (s : Fin 8) : ∀ r, 4 ≤ r → (agRd (F := F) m).duties (ldCell c s) r = ∅ := fun r hr => by
  dsimp only [agRd]; rw [if_pos rfl, kind_ld]; exact if_neg (by omega)
omit [FloatOps F] in
theorem duties_st_later (s : Fin 8) : ∀ r, 4 ≤ r → (agRd (F := F) m).duties (stCell c s) r = ∅ := fun r hr => by
  dsimp only [agRd]; rw [if_pos rfl, kind_st]; exact if_neg (by omega)
omit [FloatOps F] in
theorem duties_sd_later (s : Fin 8) : ∀ r, 4 ≤ r → (agRd (F := F) m).duties (sdCell c s) r = ∅ := fun r hr => by
  dsimp only [agRd]; rw [if_pos rfl, kind_sd]; exact if_neg (by omega)

omit [FloatOps F] in
theorem amount_bar (r : ℕ) (d : Unit) : (agRd (F := F) m).amount (barCell c) r d = 1 := by dsimp only [agRd]; rw [kind_bar]
omit [FloatOps F] in
theorem amount_rc (k : Fin 32) (r : ℕ) (d : Unit) : (agRd (F := F) m).amount (rcCell c k) r d = No := by dsimp only [agRd]; rw [kind_rc]
omit [FloatOps F] in
theorem amount_ld (s : Fin 8) (r : ℕ) (d : Unit) : (agRd (F := F) m).amount (ldCell c s) r d = Nv := by dsimp only [agRd]; rw [kind_ld]
omit [FloatOps F] in
theorem amount_st (s : Fin 8) (r : ℕ) (d : Unit) : (agRd (F := F) m).amount (stCell c s) r d = No := by dsimp only [agRd]; rw [kind_st]
omit [FloatOps F] in
theorem amount_sd (s : Fin 8) (r : ℕ) (d : Unit) : (agRd (F := F) m).amount (sdCell c s) r d = No := by dsimp only [agRd]; rw [kind_sd]

omit [FloatOps F] in
theorem expect_bar : (agRd (F := F) m).expect (barCell c) 0 = 1 := by
  unfold Schedule.expect Schedule.amountOf; rw [duties_bar, Finset.sum_singleton, amount_bar]
omit [FloatOps F] in
theorem expect_rc (k : Fin 32) : (agRd (F := F) m).expect (rcCell c k) 0 = No := by
  unfold Schedule.expect Schedule.amountOf; rw [duties_rc, Finset.sum_singleton, amount_rc]
omit [FloatOps F] in
theorem expect_ld (s : Fin 8) (r : ℕ) (hr : r < 4) : (agRd (F := F) m).expect (ldCell c s) r = Nv := by
  unfold Schedule.expect Schedule.amountOf; rw [duties_ld m c s r hr, Finset.sum_singleton, amount_ld]
omit [FloatOps F] in
theorem expect_st (s : Fin 8) (r : ℕ) (hr : r < 4) : (agRd (F := F) m).expect (stCell c s) r = No := by
  unfold Schedule.expect Schedule.amountOf; rw [duties_st m c s r hr, Finset.sum_singleton, amount_st]
omit [FloatOps F] in
theorem expect_sd (s : Fin 8) (r : ℕ) (hr : r < 4) : (agRd (F := F) m).expect (sdCell c s) r = No := by
  unfold Schedule.expect Schedule.amountOf; rw [duties_sd m c s r hr, Finset.sum_singleton, amount_sd]

omit [FloatOps F] in
theorem payload_bar (r : ℕ) (d : Unit) : (agRd (F := F) m).payload (barCell c) r d = barPay c := by dsimp only [agRd]; rw [kind_bar]
omit [FloatOps F] in
theorem payload_rc (k : Fin 32) (r : ℕ) (d : Unit) : (agRd (F := F) m).payload (rcCell c k) r d = rcPay m c k := by dsimp only [agRd]; rw [kind_rc]
omit [FloatOps F] in
theorem payload_ld (s : Fin 8) (r : ℕ) (d : Unit) : (agRd (F := F) m).payload (ldCell c s) r d = ldPay m c s (chunk s r) := by dsimp only [agRd]; rw [kind_ld]
omit [FloatOps F] in
theorem payload_st (s : Fin 8) (r : ℕ) (d : Unit) : (agRd (F := F) m).payload (stCell c s) r d = stPay m c s (chunk s r) := by dsimp only [agRd]; rw [kind_st]
omit [FloatOps F] in
theorem payload_sd (s : Fin 8) (r : ℕ) (d : Unit) : (agRd (F := F) m).payload (sdCell c s) r d = sdPay m c s (chunk s r) := by dsimp only [agRd]; rw [kind_sd]

omit [FloatOps F] in
/-- The rest of a one-duty round, nothing taken: the duty's payload. -/
theorem rest_bar : bigSep ((agRd (F := F) m).duties (barCell c) 0 \ ∅) (fun d => (agRd (F := F) m).payload (barCell c) 0 d) = barPay c := by
  rw [Finset.sdiff_empty, duties_bar, bigSep_singleton, payload_bar]
omit [FloatOps F] in
theorem rest_rc (k : Fin 32) : bigSep ((agRd (F := F) m).duties (rcCell c k) 0 \ ∅) (fun d => (agRd (F := F) m).payload (rcCell c k) 0 d) = rcPay m c k := by
  rw [Finset.sdiff_empty, duties_rc, bigSep_singleton, payload_rc]
omit [FloatOps F] in
theorem rest_ld (s : Fin 8) (r : ℕ) (hr : r < 4) :
    bigSep ((agRd (F := F) m).duties (ldCell c s) r \ ∅) (fun d => (agRd (F := F) m).payload (ldCell c s) r d) = ldPay m c s (chunk s r) := by
  rw [Finset.sdiff_empty, duties_ld m c s r hr, bigSep_singleton, payload_ld]
omit [FloatOps F] in
theorem rest_st (s : Fin 8) (r : ℕ) (hr : r < 4) :
    bigSep ((agRd (F := F) m).duties (stCell c s) r \ ∅) (fun d => (agRd (F := F) m).payload (stCell c s) r d) = stPay m c s (chunk s r) := by
  rw [Finset.sdiff_empty, duties_st m c s r hr, bigSep_singleton, payload_st]
omit [FloatOps F] in
theorem rest_sd (s : Fin 8) (r : ℕ) (hr : r < 4) :
    bigSep ((agRd (F := F) m).duties (sdCell c s) r \ ∅) (fun d => (agRd (F := F) m).payload (sdCell c s) r d) = sdPay m c s (chunk s r) := by
  rw [Finset.sdiff_empty, duties_sd m c s r hr, bigSep_singleton, payload_sd]

end Sched

end Cert.Kernel.AG

end
-- ==== Proof.KProto.lean ====
/-
  The all-gather across the first mesh axis: levels, what a device owes, the per-device ghost state and the
  pipeline's proof data.
-/
import proofs.«900688_g7700000000000689_dist_ag_v7x_xyz2x4x4_x_m32768_n1024_f32_1_alg».proof.Proof.KCells

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## All the cells -/

/-- The cells of the protocol: every TensorCore's barrier cell and its 56 own DMA cells. -/
def cellsAll : Finset (GSem nD τ sig) := Finset.univ.filter fun g => g.1.2 = .tc ∧ kindOf g.2 ≠ .other

theorem mem_bar (c : Dev nD) : barCell c ∈ cellsAll := by
  unfold cellsAll; rw [Finset.mem_filter]; exact ⟨Finset.mem_univ _, rfl, by rw [kind_bar]; exact fun h => by cases h⟩
theorem mem_ld (c : Dev nD) (s : Fin 8) : ldCell c s ∈ cellsAll := by
  unfold cellsAll; rw [Finset.mem_filter]; exact ⟨Finset.mem_univ _, rfl, by rw [kind_ld]; exact fun h => by cases h⟩
theorem mem_st (c : Dev nD) (s : Fin 8) : stCell c s ∈ cellsAll := by
  unfold cellsAll; rw [Finset.mem_filter]; exact ⟨Finset.mem_univ _, rfl, by rw [kind_st]; exact fun h => by cases h⟩
theorem mem_sd (c : Dev nD) (s : Fin 8) : sdCell c s ∈ cellsAll := by
  unfold cellsAll; rw [Finset.mem_filter]; exact ⟨Finset.mem_univ _, rfl, by rw [kind_sd]; exact fun h => by cases h⟩
theorem mem_rc (c : Dev nD) (k : Fin 32) : rcCell c k ∈ cellsAll := by
  unfold cellsAll; rw [Finset.mem_filter]; exact ⟨Finset.mem_univ _, rfl, by rw [kind_rc]; exact fun h => by cases h⟩

/-! ## Levels -/

def L (g : GSem nD τ sig) : Finset Unit := if g.1.2 = .tc then {()} else ∅
/-- barrier cells at 1, receive cells at 2, every other cell at 0. -/
def lv (g : GSem nD τ sig) (_ : Unit) : ℕ := match kindOf g.2 with | .bar => 1 | .rc _ => 2 | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by unfold lv; rw [kind_bar]
theorem lv_rc (c : Dev nD) (k : Fin 32) : lv (rcCell c k) () = 2 := by unfold lv; rw [kind_rc]
theorem lv_ld (c : Dev nD) (s : Fin 8) : lv (ldCell c s) () = 0 := by unfold lv; rw [kind_ld]
theorem lv_st (c : Dev nD) (s : Fin 8) : lv (stCell c s) () = 0 := by unfold lv; rw [kind_st]
theorem lv_sd (c : Dev nD) (s : Fin 8) : lv (sdCell c s) () = 0 := by unfold lv; rw [kind_sd]

/-! ## What a device owes -/

/-- The chunk counted `n` from the last. -/
def chunkRev (n : ℕ) : Fin 32 := ⟨31 - n % 32, by omega⟩

/-- The credits of the LAST `n` chunks on the partner's receive cells: what a device that has sent the first
    `32 - n` chunks still owes. The next chunk to send is the last summand. -/
def owedFrom (c : Dev nD) : ℕ → CellTallies nD τ sig Unit
  | 0 => 0
  | n + 1 => owedFrom c n + tallyAt (rcCell (pr c) (chunkRev n)) () No

/-- At launch: every chunk's credit, and the unit of the partner's barrier (the first signal peels it). -/
def O₀ (c : Dev nD) : CellTallies nD τ sig Unit := owedFrom c 32 + tallyAt (barCell (pr c)) () 1

theorem owedFrom_pos {c : Dev nD} : ∀ {n : ℕ} {g : GSem nD τ sig} {u : Unit}, 0 < owedFrom c n g u → ∃ k, g = rcCell (pr c) k
  | 0, g, u, h => by simp [owedFrom] at h
  | n + 1, g, u, h => by
    unfold owedFrom at h
    rw [Pi.add_apply, Finsupp.add_apply, tallyAt_apply] at h
    by_cases hg : g = rcCell (pr c) (chunkRev n) ∧ u = ()
    · exact ⟨_, hg.1⟩
    · rw [if_neg hg, Nat.add_zero] at h; exact owedFrom_pos h

omit [FloatOps F] in
/-- A wait on a cell of level 0 (a load, store or send cell) while owing only receive credits. -/
theorem mayWait_low (c : Dev nD) (sm : SemLoc sig) (h0 : lv ((c : Thread nD τ), sm) () = 0) (n : ℕ) :
    (levAts L lv : sProp 𝕄) ⊢ MayWait (c : Thread nD τ) sm () (owedFrom c n) :=
  MayOwe.of_cut (L := L) (lev := lv) 0 (fun p hp => by rw [Finset.mem_singleton.mp hp, L_tc]; exact Finset.mem_singleton_self _)
    (fun g u hg => by obtain ⟨k, rfl⟩ := owedFrom_pos hg; exact Finset.mem_singleton_self _)
    (fun p hp => by rw [Finset.mem_singleton.mp hp]; exact le_of_eq h0)
    (fun g u hg => by obtain ⟨k, rfl⟩ := owedFrom_pos hg; cases u; rw [lv_rc]; decide)

omit [FloatOps F] in
/-- The wait on the barrier cell while owing only receive credits. -/
theorem mayWait_bar (c : Dev nD) (n : ℕ) :
    (levAts L lv : sProp 𝕄) ⊢ MayWait (c : Thread nD τ) (.reg barS) () (owedFrom c n) :=
  MayOwe.of_cut (L := L) (lev := lv) 1 (fun p hp => by rw [Finset.mem_singleton.mp hp, L_tc]; exact Finset.mem_singleton_self _)
    (fun g u hg => by obtain ⟨k, rfl⟩ := owedFrom_pos hg; exact Finset.mem_singleton_self _)
    (fun p hp => by rw [Finset.mem_singleton.mp hp]; exact le_of_eq (lv_bar c))
    (fun g u hg => by obtain ⟨k, rfl⟩ := owedFrom_pos hg; cases u; rw [lv_rc]; decide)

/-! ## Bags: a family over the 32 chunks taken, or filled, one chunk at a time -/

/-- The members from chunk `n` on. -/
def bagFrom (n : ℕ) (Φ : Fin 32 → sProp 𝕄) : sProp 𝕄 := bigSep (Finset.univ.filter fun j : Fin 32 => n ≤ j.val) Φ
/-- The members before chunk `n`. -/
def bagTo (n : ℕ) (Φ : Fin 32 → sProp 𝕄) : sProp 𝕄 := bigSep (Finset.univ.filter fun j : Fin 32 => j.val < n) Φ

omit [FloatOps F] in
theorem bagFrom_zero (Φ : Fin 32 → sProp 𝕄) : bagFrom 0 Φ = bigSep Finset.univ Φ := by
  unfold bagFrom; rw [Finset.filter_true_of_mem fun _ _ => Nat.zero_le _]
omit [FloatOps F] in
theorem bagTo_all (Φ : Fin 32 → sProp 𝕄) : bagTo 32 Φ = bigSep Finset.univ Φ := by
  unfold bagTo; rw [Finset.filter_true_of_mem fun j _ => j.isLt]
omit [FloatOps F] in
theorem bagTo_zero (Φ : Fin 32 → sProp 𝕄) : bagTo 0 Φ = iprop(emp) := by
  unfold bagTo; rw [Finset.filter_false_of_mem fun _ _ => Nat.not_lt_zero _]; exact bigSep_empty
omit [FloatOps F] in
theorem bagFrom_end (Φ : Fin 32 → sProp 𝕄) : bagFrom 32 Φ = iprop(emp) := by
  unfold bagFrom; rw [Finset.filter_false_of_mem fun j _ => by have := j.isLt; omega]; exact bigSep_empty

omit [FloatOps F] in
/-- Taking chunk `k` out of the members from `k` on. -/
theorem bagFrom_take (k : Fin 32) (Φ : Fin 32 → sProp 𝕄) : bagFrom k.val Φ = iprop(Φ k ∗ bagFrom (k.val + 1) Φ) := by
  unfold bagFrom
  have h : (Finset.univ.filter fun j : Fin 32 => k.val ≤ j.val) = insert k (Finset.univ.filter fun j : Fin 32 => k.val + 1 ≤ j.val) := by
    ext j; simp only [Finset.mem_filter, Finset.mem_univ, true_and, Finset.mem_insert]
    constructor
    · intro h; by_cases hj : j = k
      · exact Or.inl hj
      · exact Or.inr (by have : j.val ≠ k.val := fun h' => hj (Fin.ext h'); omega)
    · rintro (rfl | h)
      · exact le_refl _
      · omega
  rw [h]
  exact bigSep_insert (by simp only [Finset.mem_filter, Finset.mem_univ, true_and]; omega)

omit [FloatOps F] in
/-- Putting chunk `k` after the members before `k`. -/
theorem bagTo_put (k : Fin 32) (Φ : Fin 32 → sProp 𝕄) : bagTo (k.val + 1) Φ = iprop(Φ k ∗ bagTo k.val Φ) := by
  unfold bagTo
  have h : (Finset.univ.filter fun j : Fin 32 => j.val < k.val + 1) = insert k (Finset.univ.filter fun j : Fin 32 => j.val < k.val) := by
    ext j; simp only [Finset.mem_filter, Finset.mem_univ, true_and, Finset.mem_insert]
    constructor
    · intro h; by_cases hj : j = k
      · exact Or.inl hj
      · exact Or.inr (by have : j.val ≠ k.val := fun h' => hj (Fin.ext h'); omega)
    · rintro (rfl | h)
      · exact Nat.lt_succ_self _
      · omega
  rw [h]
  exact bigSep_insert (by simp only [Finset.mem_filter, Finset.mem_univ, true_and]; omega)

/-! ## The ghost state -/

/-- The slot and the round of chunk `k`. -/
def slot (k : Fin 32) : Fin 8 := ⟨k.val % 8, Nat.mod_lt _ (by decide)⟩
def rnd (k : Fin 32) : ℕ := k.val / 8
theorem rnd_lt (k : Fin 32) : rnd k < 4 := by unfold rnd; have := k.isLt; omega
theorem chunk_slot_rnd (k : Fin 32) : chunk (slot k) (rnd k) = k := by revert k; decide

/-- Every cell's invariant under the name the launch allocated it at, and round 0 of every cell reached. -/
def records (K : GSem nD τ sig → ℕ) : sProp 𝕄 :=
  iprop((bigSep cellsAll fun g => cellInv ER (agRd m) (K g) g) ∗ bigSep cellsAll fun g => reached ER g 0)

instance records_persistent (K : GSem nD τ sig → ℕ) : BI.Persistent (records m K) := by unfold records; infer_instance

omit [FloatOps F] in
theorem inv_at (K : GSem nD τ sig → ℕ) {g : GSem nD τ sig} (hg : g ∈ cellsAll) :
    (bigSep cellsAll fun g => (cellInv ER (agRd m) (K g) g : sProp 𝕄)) ⊢ cellInv ER (agRd m) (K g) g := bigSep_elim hg
omit [FloatOps F] in
theorem reached_at {g : GSem nD τ sig} (hg : g ∈ cellsAll) :
    (bigSep cellsAll fun g => (reached ER g 0 : sProp 𝕄)) ⊢ reached ER g 0 := bigSep_elim hg
omit [FloatOps F] in
theorem inv_of_records (K : GSem nD τ sig → ℕ) {g : GSem nD τ sig} (hg : g ∈ cellsAll) : records m K ⊢ cellInv ER (agRd m) (K g) g := by
  unfold records; iintro ⟨HI, -⟩; iapply (inv_at m K hg); iexact HI
omit [FloatOps F] in
theorem reached_of_records (K : GSem nD τ sig → ℕ) {g : GSem nD τ sig} (hg : g ∈ cellsAll) : records m K ⊢ reached ER g 0 := by
  unfold records; iintro ⟨-, HR⟩; iapply (reached_at (F := F) hg); iexact HR

/-- The tokens of the duties device `c` pays: its own load, store and send cells' (one a chunk), the partner's
    receive cells' and the partner's barrier's. -/
def payToks (c : Dev nD) : sProp 𝕄 :=
  iprop((bigSep Finset.univ fun k : Fin 32 => dutyTok ER (ldCell c (slot k)) (rnd k) ())
    ∗ (bigSep Finset.univ fun k : Fin 32 => dutyTok ER (stCell c (slot k)) (rnd k) ())
    ∗ (bigSep Finset.univ fun k : Fin 32 => dutyTok ER (sdCell c (slot k)) (rnd k) ())
    ∗ (bigSep Finset.univ fun k : Fin 32 => dutyTok ER (rcCell (pr c) k) 0 ())
    ∗ dutyTok ER (barCell (pr c)) 0 ())

/-- What stays with device `c`: its positions at round 0 of its 57 cells, grouped by kind, and the tokens it pays with. -/
def linear (c : Dev nD) : sProp 𝕄 :=
  iprop(atPos ER (barCell c) 0 ∅ 0
    ∗ (bigSep Finset.univ fun s : Fin 8 => iprop(atPos ER (ldCell c s) 0 ∅ 0 ∗ atPos ER (stCell c s) 0 ∅ 0 ∗ atPos ER (sdCell c s) 0 ∅ 0))
    ∗ (bigSep Finset.univ fun k : Fin 32 => atPos ER (rcCell c k) 0 ∅ 0)
    ∗ payToks c)

def ghost (K : GSem nD τ sig → ℕ) (c : Dev nD) : sProp 𝕄 := iprop(records m K ∗ linear c)

/-- The launch credit of device `c`: the partner's unit on its barrier cell, a chunk's credit on each receive cell. -/
def creds (c : Dev nD) : sProp 𝕄 :=
  iprop(cred (tallyAt (barCell c) () 1) ∗ bigSep Finset.univ fun k : Fin 32 => cred (tallyAt (rcCell c k) () No))

/-- What device `c`'s body starts from, the scratch apart. -/
def start (c : Dev nD) : sProp 𝕄 :=
  iprop((∃ K, ghost m K c) ∗ creds c ∗ levAts L lv
    ∗ (((c : Thread nD τ).loc main_arg0) ↦{fullShare} Xin m c)
    ∗ (∃ f, ((c : Thread nD τ).loc main_v1) ↦{fullShare} f))

def Φ₀ (c : Dev nD) : sProp 𝕄 := iprop(start m c ∗ ∃ f, ((c : Thread nD τ).loc cc0_scratch0) ↦{fullShare} f)

/-- After the point: the input as it was, the result the whole array, the scratch at some contents, the 56 own
    cells closed at zero. -/
def Φ₁ (c : Dev nD) : sProp 𝕄 :=
  iprop((((c : Thread nD τ).loc main_arg0) ↦{fullShare} Xin m c)
    ∗ (((c : Thread nD τ).loc main_v1) ↦{fullShare} Fout m c)
    ∗ (∃ f, ((c : Thread nD τ).loc cc0_scratch0) ↦{fullShare} f)
    ∗ (bigSep Finset.univ fun s : Fin 8 => iprop(semVal (ldCell c s) 0 ∗ semVal (stCell c s) 0 ∗ semVal (sdCell c s) 0))
    ∗ bigSep Finset.univ fun k : Fin 32 => semVal (rcCell c k) 0)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.AG

end
-- ==== Proof.KSteps.lean ====
/-
  The all-gather across the first mesh axis: one rule per kind of effect of a device's body, at the protocol's
  cells and generic in the chunk `k` (slot `k mod 8`, round `k / 8`).
-/
import proofs.«900688_g7700000000000689_dist_ag_v7x_xyz2x4x4_x_m32768_n1024_f32_1_alg».proof.Proof.KProto

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : GSem nD τ sig → ℕ)

/-! ## What a landing leaves, read through the destination -/

omit [FloatOps F] in
/-- A view wholly rewritten with `w` is owned at `w`. -/
theorem owns_of_written (c : Dev nD) {sp : Space} (mr : Memref sig .tc sp S1024x1024 .f32) (q : PosShare TreeShare)
    (g : mr.view.ty.Contents (Elt F)) (w : S1024x1024.Idx → Elt F .f32) :
    (mr.view.loc (c : Thread nD τ) ↦[mr.view.set]{q} (mr.view.write (Elt F) g w Finset.univ) : sProp 𝕄) ⊢ owns (c : Thread nD τ) mr q w :=
  (owns_intro (c : Thread nD τ) mr q _).trans (Entails.of_eq (by rw [View.read_write_univ]))

omit [FloatOps F] in
/-- A view held at contents that read `w` is owned at `w`. -/
theorem owns_of_read (c : Dev nD) {sp : Space} (mr : Memref sig .tc sp S1024x1024 .f32) (q : PosShare TreeShare)
    (f : mr.view.ty.Contents (Elt F)) (w : S1024x1024.Idx → Elt F .f32) (hf : mr.view.read (Elt F) f = w) :
    (mr.view.loc (c : Thread nD τ) ↦[mr.view.set]{q} f : sProp 𝕄) ⊢ owns (c : Thread nD τ) mr q w :=
  (owns_intro (c : Thread nD τ) mr q _).trans (Entails.of_eq (by rw [hf]))

/-! ## The copies -/

/-- The local copy of input chunk `k` into its slot. -/
theorem wp_load_chunk (c : Dev nD) (k : Fin 32)
    {src : Memref sig (Dev.tc c : Thread nD τ).2.kind .hbm S1024x1024 .f32} {dst : Memref sig (Dev.tc c : Thread nD τ).2.kind .vmem S1024x1024 .f32} {sem : SemLoc sig}
    {hsrc : src.view.WordExact} {hdst : dst.view.WordExact} {hsem : DmaTarget.Typed (nD := nD) .hbm sem (.here dst)}
    (hs : src = xS k) (hd : dst = vS (slot k)) (hm : sem = .dma (ldSem (slot k)))
    {α : Type} {Q : α → sProp 𝕄} {kont : PUnit → Prog (TpuEff nD τ sig (Elt F) Λ₀ .tc) α}
    (g : Buf (Elt F) ((vS (slot k)).view.loc (c : Thread nD τ))) :
    iprop(records m K
        ∗ ((xS k).view.loc (c : Thread nD τ) ↦[(xS k).view.set]{fullShare} Xin m c)
        ∗ ((vS (slot k)).view.loc (c : Thread nD τ) ↦[(vS (slot k)).view.set]{fullShare} g)
        ∗ dutyTok ER (ldCell c (slot k)) (rnd k) () ∗ reached ER (ldCell c (slot k)) (rnd k))
      ⊢ iprop((cred (tallyAt (ldCell c (slot k)) () Nv) -∗ wp frame (wpE (defs₀ (F := F)) 𝒱₀ (c : Thread nD τ) none) Set.univ (kont ⟨⟩) Q)
          -∗ wp frame (wpE (defs₀ (F := F)) 𝒱₀ (c : Thread nD τ) none) Set.univ (.op (.enqueueDma src (.here dst) sem hsrc hdst hsem) kont) Q) := by
  subst hs hd hm
  refine (sep_mono_left (inv_of_records m K (mem_ld c (slot k)))).trans ?_
  exact Rounds.wp_copy_pointsTo 𝒱₀ ER (agRd m) (c : Thread nD τ) none (κ := K (ldCell c (slot k))) (r := rnd k) (d := ())
    (by rw [duties_ld m c _ _ (rnd_lt k)]; exact Finset.mem_singleton_self _) () Nv rfl (amount_ld m c _ _ _)
    (by
      rw [payload_ld, chunk_slot_rnd]; unfold ldPay
      exact sep_mono_left (owns_of_written c (vS (slot k)) fullShare g _))

/-- The local copy of slot `k mod 8`, holding chunk `k`, into chunk `(x, k)` of the device's own result, read through the
    left half of the slot's share. -/
theorem wp_store_chunk (c : Dev nD) (k : Fin 32)
    {src : Memref sig (Dev.tc c : Thread nD τ).2.kind .vmem S1024x1024 .f32} {dst : Memref sig (Dev.tc c : Thread nD τ).2.kind .hbm S1024x1024 .f32} {sem : SemLoc sig}
    {hsrc : src.view.WordExact} {hdst : dst.view.WordExact} {hsem : DmaTarget.Typed (nD := nD) .vmem sem (.here dst)}
    (hs : src = vS (slot k)) (hd : dst = oS (hx c) k) (hm : sem = .dma (stSem (slot k)))
    {α : Type} {Q : α → sProp 𝕄} {kont : PUnit → Prog (TpuEff nD τ sig (Elt F) Λ₀ .tc) α}
    (f : Buf (Elt F) ((vS (slot k)).view.loc (c : Thread nD τ))) (hf : (vS (slot k)).view.read (Elt F) f = blk m c k)
    (g : Buf (Elt F) ((oS (hx c) k).view.loc (c : Thread nD τ))) :
    iprop(records m K
        ∗ ((vS (slot k)).view.loc (c : Thread nD τ) ↦[(vS (slot k)).view.set]{qL} f)
        ∗ ((oS (hx c) k).view.loc (c : Thread nD τ) ↦[(oS (hx c) k).view.set]{fullShare} g)
        ∗ dutyTok ER (stCell c (slot k)) (rnd k) () ∗ reached ER (stCell c (slot k)) (rnd k))
      ⊢ iprop((cred (tallyAt (stCell c (slot k)) () No) -∗ wp frame (wpE (defs₀ (F := F)) 𝒱₀ (c : Thread nD τ) none) Set.univ (kont ⟨⟩) Q)
          -∗ wp frame (wpE (defs₀ (F := F)) 𝒱₀ (c : Thread nD τ) none) Set.univ (.op (.enqueueDma src (.here dst) sem hsrc hdst hsem) kont) Q) := by
  subst hs hd hm
  refine (sep_mono_left (inv_of_records m K (mem_st c (slot k)))).trans ?_
  exact Rounds.wp_copy_pointsTo 𝒱₀ ER (agRd m) (c : Thread nD τ) none (κ := K (stCell c (slot k))) (r := rnd k) (d := ())
    (by rw [duties_st m c _ _ (rnd_lt k)]; exact Finset.mem_singleton_self _) () No rfl (amount_st m c _ _ _)
    (by
      rw [payload_st, chunk_slot_rnd]; unfold stPay
      exact BIClass.sep_mono ((owns_of_written c (oS (hx c) k) fullShare g _).trans (Entails.of_eq (by rw [hf])))
        (owns_of_read c (vS (slot k)) qL f _ hf))

/-- The remote copy of slot `k mod 8`, holding chunk `k`, into chunk `(x, k)` of the PARTNER's result, read through the
    right half of the slot's share: it pays round `k / 8` of the device's send cell and the partner's receive cell `k`,
    and takes that chunk's credit off what the device owes. `n` counts the chunks still to send after this one. -/
theorem wp_send_chunk (c : Dev nD) (k : Fin 32) (n : ℕ) (hn : chunkRev n = k) (p : Dev nD) (hp : p = pr c)
    {src : Memref sig (Dev.tc c : Thread nD τ).2.kind .vmem S1024x1024 .f32} {dst : Memref sig (Dev.tc p : Thread nD τ).2.kind .hbm S1024x1024 .f32}
    {hsc : dst.view.ref.isScScratch = false} {sS sem : SemLoc sig}
    {hsrc : src.view.WordExact} {hdst : dst.view.WordExact} {hsem : DmaTarget.Typed .vmem sem (.remote (Dev.tc p : Thread nD τ) dst sS hsc)}
    (hs : src = vS (slot k)) (hd : dst = oS (hx c) k) (hS : sS = .dma (sdSem (slot k))) (hm : sem = .dma (rcSem k))
    {α : Type} {Q : α → sProp 𝕄} {kont : PUnit → Prog (TpuEff nD τ sig (Elt F) Λ₀ .tc) α}
    (f : Buf (Elt F) ((vS (slot k)).view.loc (c : Thread nD τ))) (hf : (vS (slot k)).view.read (Elt F) f = blk m c k)
    (g : Buf (Elt F) ((oS (hx c) k).view.loc (pr c : Thread nD τ))) (W : Waits sig Unit) :
    iprop(records m K
        ∗ ((vS (slot k)).view.loc (c : Thread nD τ) ↦[(vS (slot k)).view.set]{qR} f)
        ∗ ((oS (hx c) k).view.loc (pr c : Thread nD τ) ↦[(oS (hx c) k).view.set]{fullShare} g)
        ∗ owes (c : Thread nD τ) (owedFrom c (n + 1)) W
        ∗ dutyTok ER (sdCell c (slot k)) (rnd k) () ∗ reached ER (sdCell c (slot k)) (rnd k)
        ∗ dutyTok ER (rcCell (pr c) k) 0 ())
      ⊢ iprop(((cred (tallyAt (sdCell c (slot k)) () No) ∗ owes (c : Thread nD τ) (owedFrom c n) W) -∗ wp frame (wpE (defs₀ (F := F)) 𝒱₀ (c : Thread nD τ) none) Set.univ (kont ⟨⟩) Q)
          -∗ wp frame (wpE (defs₀ (F := F)) 𝒱₀ (c : Thread nD τ) none) Set.univ (.op (.enqueueDma src (.remote (Dev.tc p : Thread nD τ) dst sS hsc) sem hsrc hdst hsem) kont) Q) := by
  subst hp hs hd hS hm
  iintro ⟨#HR, Hs, Hd, HO, Ht1, #Hr1, Ht2⟩
  ihave #HI1 := (inv_of_records m K (mem_sd c (slot k))) $$ HR
  ihave #HI2 := (inv_of_records m K (mem_rc (pr c) k)) $$ HR
  ihave #Hr2 := (reached_of_records m K (mem_rc (pr c) k)) $$ HR
  iapply (Rounds.wp_send_pointsTo 𝒱₀ ER (agRd m) (c : Thread nD τ) none (κ₁ := K (sdCell c (slot k))) (κ₂ := K (rcCell (pr c) k))
    (r₁ := rnd k) (r₂ := 0) (d₁ := ()) (d₂ := ()) (fd := g)
    (by rw [duties_sd m c _ _ (rnd_lt k)]; exact Finset.mem_singleton_self _) (by rw [duties_rc]; exact Finset.mem_singleton_self _)
    () () No rfl (amount_sd m c _ _ _) (amount_rc m (pr c) _ _ _) (owedFrom c n) (by rw [← hn]) (W := W)
    (by rw [payload_sd, chunk_slot_rnd]; unfold sdPay; exact owns_of_read c (vS (slot k)) qR f _ hf)
    (by
      rw [payload_rc]; unfold rcPay; rw [pr_pr]
      exact (owns_of_written (pr c) (oS (hx c) k) fullShare g _).trans (Entails.of_eq (by rw [hf]))))
  isplitr; · iexact HI1
  isplitr; · iexact HI2
  isplitl [Hs]; · iexact Hs
  isplitl [Hd]; · iexact Hd
  isplitl [HO]; · iexact HO
  isplitl [Ht1]; · iexact Ht1
  isplitr; · iexact Hr1
  isplitl [Ht2]; · iexact Ht2
  iexact Hr2

/-! ## The waits -/

section Waits

/-- The wait for the load of chunk `k`: the slot comes back holding chunk `k`, and the input chunk read. -/
theorem wp_wait_load (c : Dev nD) (k : Fin 32) (n : ℕ)
    {sem : DmaSem sig} {s' : Shape} {e' : EltTy} {κ' : Kind} {sp sp' : Space}
    {srcw : Memref sig (Dev.tc c : Thread nD τ).2.kind sp' s' e'} {dstw : Memref sig κ' sp S1024x1024 .f32} {hsrc : srcw.view.WordExact} {hdst : dstw.view.WordExact}
    {α : Type} {Q : α → sProp 𝕄} {kont : PUnit → Prog (TpuEff nD τ sig (Elt F) Λ₀ .tc) α}
    (hm : sem = ldSem (slot k)) (hcr : dstw.view.dmaCredit = Nv) (W : Waits sig Unit) :
    iprop(records m K ∗ cred (tallyAt (ldCell c (slot k)) () Nv)
        ∗ owes (c : Thread nD τ) (owedFrom c n) W ∗ levAts L lv ∗ atPos ER (ldCell c (slot k)) (rnd k) ∅ 0)
      ⊢ iprop(((owes (c : Thread nD τ) (owedFrom c n) (insert (SemLoc.dma (ldSem (slot k)), ()) W)
              ∗ atPos ER (ldCell c (slot k)) (rnd k + 1) ∅ 0 ∗ reached ER (ldCell c (slot k)) (rnd k + 1)
              ∗ ldPay m c (slot k) k) -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sem srcw dstw hsrc hdst) kont) Q) := by
  subst hm
  iintro ⟨#HR, Hc, HO, #Hlev, Hat⟩ Hk
  ihave #HI := (inv_of_records m K (mem_ld c (slot k))) $$ HR
  iapply (Rounds.wp_wait_rest_token 𝒱₀ ER (agRd m) (c : Thread nD τ) none (κ := K (ldCell c (slot k)))
      (wpE_waitDma2_eq 𝒱₀ (c : Thread nD τ) none Set.univ) (Set.mem_univ _) () (O := owedFrom c n) (W := W) (R := rnd k) (m := 0) (T := ∅)
      (by rw [Nat.zero_add, expect_ld m c _ _ (rnd_lt k)]; exact hcr)) $$ [Hc HO Hat]
  · isplitr; · iexact HI
    isplitl [Hc]; · rw [hcr]; iexact Hc
    isplitl [HO]; · iexact HO
    isplitr; · iapply (mayWait_low c _ (lv_ld c _) n); iexact Hlev
    iexact Hat
  iintro ⟨HO, Hat, Hr, Hpay⟩
  iapply Hk
  isplitl [HO]; · iexact HO
  isplitl [Hat]; · iexact Hat
  isplitl [Hr]; · iexact Hr
  iapply (Entails.of_eq ((rest_ld m c (slot k) (rnd k) (rnd_lt k)).trans (by rw [chunk_slot_rnd]))) $$ Hpay

/-- The wait for the local store of chunk `k`: chunk `(x, k)` of the result written, and the store's share of the slot. -/
theorem wp_wait_store (c : Dev nD) (k : Fin 32) (n : ℕ)
    {sem : DmaSem sig} {s' : Shape} {e' : EltTy} {κ' : Kind} {sp sp' : Space}
    {srcw : Memref sig (Dev.tc c : Thread nD τ).2.kind sp' s' e'} {dstw : Memref sig κ' sp S1024x1024 .f32} {hsrc : srcw.view.WordExact} {hdst : dstw.view.WordExact}
    {α : Type} {Q : α → sProp 𝕄} {kont : PUnit → Prog (TpuEff nD τ sig (Elt F) Λ₀ .tc) α}
    (hm : sem = stSem (slot k)) (hcr : dstw.view.dmaCredit = No) (W : Waits sig Unit) :
    iprop(records m K ∗ cred (tallyAt (stCell c (slot k)) () No)
        ∗ owes (c : Thread nD τ) (owedFrom c n) W ∗ levAts L lv ∗ atPos ER (stCell c (slot k)) (rnd k) ∅ 0)
      ⊢ iprop(((owes (c : Thread nD τ) (owedFrom c n) (insert (SemLoc.dma (stSem (slot k)), ()) W)
              ∗ atPos ER (stCell c (slot k)) (rnd k + 1) ∅ 0 ∗ reached ER (stCell c (slot k)) (rnd k + 1)
              ∗ stPay m c (slot k) k) -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sem srcw dstw hsrc hdst) kont) Q) := by
  subst hm
  iintro ⟨#HR, Hc, HO, #Hlev, Hat⟩ Hk
  ihave #HI := (inv_of_records m K (mem_st c (slot k))) $$ HR
  iapply (Rounds.wp_wait_rest_token 𝒱₀ ER (agRd m) (c : Thread nD τ) none (κ := K (stCell c (slot k)))
      (wpE_waitDma2_eq 𝒱₀ (c : Thread nD τ) none Set.univ) (Set.mem_univ _) () (O := owedFrom c n) (W := W) (R := rnd k) (m := 0) (T := ∅)
      (by rw [Nat.zero_add, expect_st m c _ _ (rnd_lt k)]; exact hcr)) $$ [Hc HO Hat]
  · isplitr; · iexact HI
    isplitl [Hc]; · rw [hcr]; iexact Hc
    isplitl [HO]; · iexact HO
    isplitr; · iapply (mayWait_low c _ (lv_st c _) n); iexact Hlev
    iexact Hat
  iintro ⟨HO, Hat, Hr, Hpay⟩
  iapply Hk
  isplitl [HO]; · iexact HO
  isplitl [Hat]; · iexact Hat
  isplitl [Hr]; · iexact Hr
  iapply (Entails.of_eq ((rest_st m c (slot k) (rnd k) (rnd_lt k)).trans (by rw [chunk_slot_rnd]))) $$ Hpay

/-- The wait for the send side of the remote copy of chunk `k`: the remote copy's share of the slot. -/
theorem wp_wait_send (c : Dev nD) (k : Fin 32) (n : ℕ)
    {sem : DmaSem sig} {s' : Shape} {e' : EltTy} {κ' : Kind} {sp sp' : Space}
    {srcw : Memref sig (Dev.tc c : Thread nD τ).2.kind sp' s' e'} {dstw : Memref sig κ' sp S1024x1024 .f32} {hsrc : srcw.view.WordExact} {hdst : dstw.view.WordExact}
    {α : Type} {Q : α → sProp 𝕄} {kont : PUnit → Prog (TpuEff nD τ sig (Elt F) Λ₀ .tc) α}
    (hm : sem = sdSem (slot k)) (hcr : dstw.view.dmaCredit = No) (W : Waits sig Unit) :
    iprop(records m K ∗ cred (tallyAt (sdCell c (slot k)) () No)
        ∗ owes (c : Thread nD τ) (owedFrom c n) W ∗ levAts L lv ∗ atPos ER (sdCell c (slot k)) (rnd k) ∅ 0)
      ⊢ iprop(((owes (c : Thread nD τ) (owedFrom c n) (insert (SemLoc.dma (sdSem (slot k)), ()) W)
              ∗ atPos ER (sdCell c (slot k)) (rnd k + 1) ∅ 0 ∗ reached ER (sdCell c (slot k)) (rnd k + 1)
              ∗ sdPay m c (slot k) k) -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sem srcw dstw hsrc hdst) kont) Q) := by
  subst hm
  iintro ⟨#HR, Hc, HO, #Hlev, Hat⟩ Hk
  ihave #HI := (inv_of_records m K (mem_sd c (slot k))) $$ HR
  iapply (Rounds.wp_wait_rest_token 𝒱₀ ER (agRd m) (c : Thread nD τ) none (κ := K (sdCell c (slot k)))
      (wpE_waitDma2_eq 𝒱₀ (c : Thread nD τ) none Set.univ) (Set.mem_univ _) () (O := owedFrom c n) (W := W) (R := rnd k) (m := 0) (T := ∅)
      (by rw [Nat.zero_add, expect_sd m c _ _ (rnd_lt k)]; exact hcr)) $$ [Hc HO Hat]
  · isplitr; · iexact HI
    isplitl [Hc]; · rw [hcr]; iexact Hc
    isplitl [HO]; · iexact HO
    isplitr; · iapply (mayWait_low c _ (lv_sd c _) n); iexact Hlev
    iexact Hat
  iintro ⟨HO, Hat, Hr, Hpay⟩
  iapply Hk
  isplitl [HO]; · iexact HO
  isplitl [Hat]; · iexact Hat
  isplitl [Hr]; · iexact Hr
  iapply (Entails.of_eq ((rest_sd m c (slot k) (rnd k) (rnd_lt k)).trans (by rw [chunk_slot_rnd]))) $$ Hpay

/-- The wait for the partner's chunk `k`, owing nothing: chunk `(1 - x, k)` of the result holding it. -/
theorem wp_wait_recv (c : Dev nD) (k : Fin 32)
    {sem : DmaSem sig} {s' : Shape} {e' : EltTy} {κ' : Kind} {sp sp' : Space}
    {srcw : Memref sig (Dev.tc c : Thread nD τ).2.kind sp' s' e'} {dstw : Memref sig κ' sp S1024x1024 .f32} {hsrc : srcw.view.WordExact} {hdst : dstw.view.WordExact}
    {α : Type} {Q : α → sProp 𝕄} {kont : PUnit → Prog (TpuEff nD τ sig (Elt F) Λ₀ .tc) α}
    (hm : sem = rcSem k) (hcr : dstw.view.dmaCredit = No) (W : Waits sig Unit) :
    iprop(records m K ∗ cred (tallyAt (rcCell c k) () No)
        ∗ owes (c : Thread nD τ) 0 W ∗ atPos ER (rcCell c k) 0 ∅ 0)
      ⊢ iprop(((owes (c : Thread nD τ) 0 (insert (SemLoc.dma (rcSem k), ()) W)
              ∗ atPos ER (rcCell c k) 1 ∅ 0 ∗ rcPay m c k) -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sem srcw dstw hsrc hdst) kont) Q) := by
  subst hm
  iintro ⟨#HR, Hc, HO, Hat⟩ Hk
  ihave #HI := (inv_of_records m K (mem_rc c k)) $$ HR
  iapply (Rounds.wp_wait_rest_token 𝒱₀ ER (agRd m) (c : Thread nD τ) none (κ := K (rcCell c k))
      (wpE_waitDma2_eq 𝒱₀ (c : Thread nD τ) none Set.univ) (Set.mem_univ _) () (O := 0) (W := W) (R := 0) (m := 0) (T := ∅)
      (by rw [Nat.zero_add, expect_rc]; exact hcr)) $$ [Hc HO Hat]
  · isplitr; · iexact HI
    isplitl [Hc]; · rw [hcr]; iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_rc m c k)) $$ Hpay

end Waits

end Cert.Kernel.AG

end
-- ==== Proof.KAGRegions.lean ====
/-
  The all-gather across the first mesh axis: the buffers cut into chunks and put together again.

  The body holds each buffer by pieces. The input block is held whole and one chunk of 1024 rows is carved out of
  it for the time of a copy. The scratch is held as its 8 slots. The result is held as its 2 × 32 chunks of 1024
  rows, the 32 chunks of the device's own half and the 32 of its partner's half. A row `r` of the result lies in
  chunk `(h, k)` exactly when `32768·h + 1024·k ≤ r < 32768·h + 1024·k + 1024`; the chunks are therefore pairwise
  disjoint and cover the rows, and likewise the 8 planes of the scratch. A slot is also held by halves of the full
  share, one half for each of the two copies that read it at the same time.

  Last, the value: chunk `(h, k)` of the result function `Fout` is chunk `k` of the input block of the device at
  x-coordinate `h`, so the chunks, each owned at the right input chunk, join to the result buffer holding `Fout`.
-/
import proofs.«900688_g7700000000000689_dist_ag_v7x_xyz2x4x4_x_m32768_n1024_f32_1_alg».proof.Proof.KGeom
import Idealize.ShloMosaic.Lib.Memref
import Idealize.SL.ProofMode.BigOp

noncomputable section

namespace Cert.Kernel.AG

open Cert.Kernel Cert.Kernel.Gen
open Idealize.ShloMosaic
open Idealize.ShloMosaic.TcCoe
open Idealize.SL Idealize.SL.Sem
open Idealize.SL.BI (sProp bigSep bigSep_insert bigSep_empty bigSep_congr bigSep_mono bigSep_exists_pi bigSep_univ_at
  bigSep_univ_prod bigSep_univ_two)
open scoped Idealize.SL.BI
open Idealize.SL.BI.BIBase Idealize.SL.BI.Laws Idealize.SL.ProofMode
open Idealize.SL.RA

/-! ## Points-to algebra, at any signature and machine algebra -/

section Generic

variable {n : Nat} {tp : Topo} {sg : RefSig} {Val : EltTy → Type}
variable {Ix : Type} [DecidableEq Ix] {Name : Type} [DecidableEq Name] {U : Type} [URA U] {Lvl : Type}

local notation "𝕄g" => MT n tp sg Ix Val Name U Lvl

/-- The full share of a set of elements is its two halves. -/
theorem pt_halves (ℓ : Loc n tp sg) (I : Finset (Idx ℓ)) (f : Buf Val ℓ) :
    (ℓ ↦[I]{fullShare} f : sProp 𝕄g) ⊣⊢ iprop((ℓ ↦[I]{fullShare.left} f) ∗ ℓ ↦[I]{fullShare.right} f) :=
  pointsTo_share (PosShare.mem_left_op_right fullShare)

/-- The two halves held at two valuations join: the valuations agree on the set. -/
theorem pt_join_halves (ℓ : Loc n tp sg) (I : Finset (Idx ℓ)) (f g : Buf Val ℓ) :
    iprop((ℓ ↦[I]{fullShare.left} f) ∗ ℓ ↦[I]{fullShare.right} g) ⊢ (ℓ ↦[I]{fullShare} f : sProp 𝕄g) :=
  BI.Laws.pure_elim _ pointsTo_agree fun h => by
    rw [pointsTo_congr (q := fullShare.right) (f := g) (g := f)
      (fun i hi => ((h i (Finset.mem_inter.mpr ⟨hi, hi⟩)).1).symm)]
    exact (pt_halves ℓ I f).2

/-- A memref owned at the full share: its elements at each half of the share, at one valuation. -/
theorem owns_open_halves (c : Thread n tp) {sp : Space} {sh : Shape} {e : EltTy} (mr : Memref sg c.2.kind sp sh e)
    (Y : sh.Idx → Val e) :
    (owns c mr fullShare Y : sProp 𝕄g)
      ⊢ iprop(∃ f, ⌜mr.view.read Val f = Y⌝ ∗ (mr.view.loc c ↦[mr.view.set]{fullShare.left} f)
          ∗ (mr.view.loc c ↦[mr.view.set]{fullShare.right} f)) := by
  unfold owns
  iintro ⟨%f, %hf, H⟩
  ihave H' := (pt_halves _ _ f).1 $$ H
  icases H' with ⟨Hl, Hr⟩
  iexists f
  isplitr
  · ipureintro; exact hf
  · isplitl [Hl]
    · iexact Hl
    · iexact Hr

/-- A memref owned at each half of the share: its elements at the full share, at some valuation. -/
theorem owns_close_halves (c : Thread n tp) {sp : Space} {sh : Shape} {e : EltTy} (mr : Memref sg c.2.kind sp sh e)
    (Y : sh.Idx → Val e) :
    iprop(owns c mr fullShare.left Y ∗ owns c mr fullShare.right Y)
      ⊢ (iprop(∃ g, mr.view.loc c ↦[mr.view.set]{fullShare} g) : sProp 𝕄g) := by
  unfold owns
  iintro ⟨⟨%f, %hf, Hl⟩, ⟨%g, %hg, Hr⟩⟩
  iexists f
  iapply (pt_join_halves _ _ f g)
  isplitl [Hl]
  · iexact Hl
  · iexact Hr

/-- A whole buffer is the separating conjunction of a disjoint covering family of element sets. -/
theorem whole_split {T : Type} [Fintype T] [DecidableEq T] (ℓ : Loc n tp sg) (K : T → Finset (Idx ℓ))
    (hd : ∀ t t', t ≠ t' → Disjoint (K t) (K t')) (hcov : Finset.univ.biUnion K = Finset.univ)
    (q : PosShare TreeShare) (f : Buf Val ℓ) :
    (ℓ ↦{q} f : sProp 𝕄g) = bigSep Finset.univ fun t => ℓ ↦[K t]{q} f := by
  rw [← pointsTo_biUnion Finset.univ K (fun t _ t' _ h => hd t t' h), hcov]

/-- The sets of a disjoint family, each held at some valuation, join to their union at some valuation. -/
theorem pt_exists_join {T : Type} [DecidableEq T] (ℓ : Loc n tp sg) (q : PosShare TreeShare) (S : Finset T)
    (K : T → Finset (Idx ℓ)) (f₀ : Buf Val ℓ) (h : ∀ t ∈ S, ∀ t' ∈ S, t ≠ t' → Disjoint (K t) (K t')) :
    bigSep S (fun t => iprop(∃ g, ℓ ↦[K t]{q} g)) ⊢ (iprop(∃ f, ℓ ↦[S.biUnion K]{q} f) : sProp 𝕄g) := by
  haveI : Nonempty (Buf Val ℓ) := ⟨f₀⟩
  refine (bigSep_exists_pi S (fun t g => (ℓ ↦[K t]{q} g : sProp 𝕄g))).trans ?_
  iintro ⟨%fs, H⟩
  ihave H' := (pointsTo_biUnion_join S K fs f₀ h) $$ H
  icases H' with ⟨%g, %hg, H'⟩
  iexists g
  iexact H'

/-- A disjoint covering family over an inhabited index type, each set held at some valuation, is the whole buffer
    at some valuation. -/
theorem whole_join_exists {T : Type} [Fintype T] [DecidableEq T] (ℓ : Loc n tp sg) (K : T → Finset (Idx ℓ))
    (hd : ∀ t t', t ≠ t' → Disjoint (K t) (K t')) (hcov : Finset.univ.biUnion K = Finset.univ)
    (q : PosShare TreeShare) (t₀ : T) :
    bigSep Finset.univ (fun t => iprop(∃ g, ℓ ↦[K t]{q} g)) ⊢ (iprop(∃ f, ℓ ↦{q} f) : sProp 𝕄g) := by
  have key (f₀ : Buf Val ℓ) :
      bigSep Finset.univ (fun t => iprop(∃ g, ℓ ↦[K t]{q} g)) ⊢ (iprop(∃ f, ℓ ↦{q} f) : sProp 𝕄g) := by
    have h := pt_exists_join (Ix := Ix) (Name := Name) (U := U) (Lvl := Lvl) ℓ q Finset.univ K f₀
      (fun t _ t' _ h => hd t t' h)
    rw [hcov] at h
    exact h
  have e : bigSep Finset.univ (fun t => (iprop(∃ g, ℓ ↦[K t]{q} g) : sProp 𝕄g))
      = iprop((∃ g, ℓ ↦[K t₀]{q} g) ∗ bigSep (Finset.univ.erase t₀) (fun t => iprop(∃ g, ℓ ↦[K t]{q} g))) :=
    bigSep_univ_at _ t₀
  rw [e]
  iintro ⟨⟨%g₀, H₀⟩, HR⟩
  iapply ((Entails.of_eq e.symm).trans (key g₀))
  isplitl [H₀]
  · iexists g₀; iexact H₀
  · iexact HR

/-- Two assertions indexed by the two values of `Fin 2`, named in either order. -/
theorem sep_fin2_cases (A : Fin 2 → sProp 𝕄g) (h₁ h₂ : Fin 2) (hc : (h₁ = 0 ∧ h₂ = 1) ∨ (h₁ = 1 ∧ h₂ = 0)) :
    iprop(A 0 ∗ A 1) ⊣⊢ iprop(A h₁ ∗ A h₂) := by
  rcases hc with ⟨rfl, rfl⟩ | ⟨rfl, rfl⟩
  · exact ⟨.rfl, .rfl⟩
  · constructor
    · iintro ⟨H0, H1⟩
      isplitl [H1]
      · iexact H1
      · iexact H0
    · iintro ⟨H1, H0⟩
      isplitl [H0]
      · iexact H0
      · iexact H1

end Generic

/-! ## The chunks as sets of rows -/

/-- Rows `[1024·k, 1024·k + 1024)` of the input block. -/
def xR (k : Fin 32) : Rect S32768x1024 :=
  Rect.unit (s := S32768x1024) ![1024 * k.val, 0] S1024x1024.size (inb_x k)

/-- Rows `[32768·h + 1024·k, 32768·h + 1024·k + 1024)` of the result. -/
def oR (h : Fin 2) (k : Fin 32) : Rect S65536x1024 :=
  Rect.unit (s := S65536x1024) ![32768 * h.val + 1024 * k.val, 0] S1024x1024.size (inb_o h k)

/-- Plane `s` of the scratch. -/
def vR (s : Fin 8) : Rect S8x1024x1024 :=
  Rect.unit (s := S8x1024x1024) ![s.val, 0, 0] S1x1024x1024.size (inb_v s)

/-- A row of the result lies in chunk `(h, k)` exactly when it is one of that chunk's 1024 rows. -/
theorem mem_oR (h : Fin 2) (k : Fin 32) (i : S65536x1024.Idx) :
    i ∈ (oR h k).set ↔ 32768 * h.val + 1024 * k.val ≤ (i 0).val ∧ (i 0).val < 32768 * h.val + 1024 * k.val + 1024 := by
  unfold oR
  rw [Rect.mem_set_unit]
  constructor
  · intro H; exact H 0
  · intro H a
    fin_cases a
    · exact H
    · have h1 : (i 1).val < 1024 := (i 1).isLt
      exact ⟨Nat.zero_le _, by show (i 1).val < 0 + 1024; omega⟩

theorem oR_disj : ∀ t t' : Fin 2 × Fin 32, t ≠ t' → Disjoint (oR t.1 t.2).set (oR t'.1 t'.2).set := by
  intro t t' hne
  rw [Finset.disjoint_left]
  intro i hi hi'
  rw [mem_oR] at hi hi'
  have h1 := t.1.isLt; have h2 := t'.1.isLt; have k1 := t.2.isLt; have k2 := t'.2.isLt
  apply hne
  apply Prod.ext
  · apply Fin.ext; omega
  · apply Fin.ext; omega

theorem oR_cov : (Finset.univ : Finset (Fin 2 × Fin 32)).biUnion (fun t => (oR t.1 t.2).set) = Finset.univ := by
  apply Finset.eq_univ_iff_forall.mpr
  intro i
  have hi : (i 0).val < 65536 := (i 0).isLt
  refine Finset.mem_biUnion.mpr
    ⟨(⟨(i 0).val / 32768, by omega⟩, ⟨(i 0).val % 32768 / 1024, by omega⟩), Finset.mem_univ _, ?_⟩
  rw [mem_oR]
  show 32768 * ((i 0).val / 32768) + 1024 * ((i 0).val % 32768 / 1024) ≤ (i 0).val
    ∧ (i 0).val < 32768 * ((i 0).val / 32768) + 1024 * ((i 0).val % 32768 / 1024) + 1024
  omega

/-- An element of the scratch lies in plane `s` exactly when its first coordinate is `s`. -/
theorem mem_vR (s : Fin 8) (i : S8x1024x1024.Idx) : i ∈ (vR s).set ↔ (i 0).val = s.val := by
  unfold vR
  rw [Rect.mem_set_unit]
  constructor
  · intro H
    have h0 : s.val ≤ (i 0).val := (H 0).1
    have h1 : (i 0).val < s.val + 1 := (H 0).2
    omega
  · intro H a
    fin_cases a
    · exact ⟨by show s.val ≤ (i 0).val; omega, by show (i 0).val < s.val + 1; omega⟩
    · have h1 : (i 1).val < 1024 := (i 1).isLt
      exact ⟨Nat.zero_le _, by show (i 1).val < 0 + 1024; omega⟩
    · have h1 : (i 2).val < 1024 := (i 2).isLt
      exact ⟨Nat.zero_le _, by show (i 2).val < 0 + 1024; omega⟩

theorem vR_disj : ∀ s s' : Fin 8, s ≠ s' → Disjoint (vR s).set (vR s').set := by
  intro s s' hne
  rw [Finset.disjoint_left]
  intro i hi hi'
  rw [mem_vR] at hi hi'
  exact hne (Fin.ext (hi.symm.trans hi'))

theorem vR_cov : (Finset.univ : Finset (Fin 8)).biUnion (fun s => (vR s).set) = Finset.univ := by
  apply Finset.eq_univ_iff_forall.mpr
  intro i
  have hi : (i 0).val < 8 := (i 0).isLt
  exact Finset.mem_biUnion.mpr ⟨⟨(i 0).val, hi⟩, Finset.mem_univ _, (mem_vR _ i).mpr rfl⟩

/-! ## The elements under each chunk's memref -/

theorem xS_set (k : Fin 32) : (xS k).view.set = (xR k).set := View.set_slice_whole main_arg0 (xR k)

theorem oS_set (h : Fin 2) (k : Fin 32) : (oS h k).view.set = (oR h k).set := View.set_slice_whole main_v1 (oR h k)

theorem vS_set (s : Fin 8) : (vS s).view.set = (vR s).set :=
  (View.set_reshape _ _).trans (View.set_slice_whole cc0_scratch0 (vR s))

theorem oS_disj : ∀ t t' : Fin 2 × Fin 32, t ≠ t' →
    Disjoint ((oS t.1 t.2).view.set : Finset S65536x1024.Idx) (oS t'.1 t'.2).view.set := by
  intro t t' hne
  rw [oS_set, oS_set]
  exact oR_disj t t' hne

theorem oS_cov : (Finset.univ : Finset (Fin 2 × Fin 32)).biUnion (β := S65536x1024.Idx)
    (fun t => (oS t.1 t.2).view.set) = Finset.univ := by
  apply Finset.eq_univ_iff_forall.mpr
  intro i
  have hi : i ∈ (Finset.univ : Finset (Fin 2 × Fin 32)).biUnion (fun t => (oR t.1 t.2).set) := by
    rw [oR_cov]; exact Finset.mem_univ i
  obtain ⟨t, -, ht⟩ := Finset.mem_biUnion.mp hi
  exact Finset.mem_biUnion.mpr ⟨t, Finset.mem_univ _, by rw [oS_set]; exact ht⟩

theorem vS_disj : ∀ s s' : Fin 8, s ≠ s' →
    Disjoint ((vS s).view.set : Finset S8x1024x1024.Idx) (vS s').view.set := by
  intro s s' hne
  rw [vS_set, vS_set]
  exact vR_disj s s' hne

theorem vS_cov : (Finset.univ : Finset (Fin 8)).biUnion (β := S8x1024x1024.Idx)
    (fun s => (vS s).view.set) = Finset.univ := by
  apply Finset.eq_univ_iff_forall.mpr
  intro i
  have hi : i ∈ (Finset.univ : Finset (Fin 8)).biUnion (fun s => (vR s).set) := by
    rw [vR_cov]; exact Finset.mem_univ i
  obtain ⟨s, -, hs⟩ := Finset.mem_biUnion.mp hi
  exact Finset.mem_biUnion.mpr ⟨s, Finset.mem_univ _, by rw [vS_set]; exact hs⟩

/-- A device's x-coordinate and its partner's are 0 and 1 in one order or the other. -/
theorem hx_cases (c : Dev nD) : (hx c = 0 ∧ hx (pr c) = 1) ∨ (hx c = 1 ∧ hx (pr c) = 0) := by revert c; decide

/-! ## The buffers split and joined -/

variable {F : FTy → Type} [FloatOps F]
variable {Ix : Type} [DecidableEq Ix] {Name : Type} [DecidableEq Name] {U : Type} [URA U] {Lvl : Type}

local notation "𝕄" => MT nD τ sig Ix (Elt F) Name U Lvl

/-- One chunk of the input block and the rest of it. -/
theorem x_split (c : Dev nD) (k : Fin 32) (q : PosShare TreeShare) (X : Buf (Elt F) ((c : Thread nD τ).loc main_arg0)) :
    ((((c : Thread nD τ).loc main_arg0) ↦{q} X) : sProp 𝕄)
      ⊣⊢ iprop(((xS k).view.loc (c : Thread nD τ) ↦[(xS k).view.set]{q} X)
          ∗ (((c : Thread nD τ).loc main_arg0) ↦[Finset.univ \ (xS k).view.set]{q} X)) :=
  pointsTo_split_subset (Finset.subset_univ _)

/-- A slot owned at the full share: its elements at each half, at one valuation that the slot reads as `Y`. -/
theorem slot_halves (m : (ℓ : Loc nD τ sig) → Buf (Elt F) ℓ) (c : Dev nD) (s : Fin 8) (Y : S1024x1024.Idx → Elt F .f32) :
    (owns (c : Thread nD τ) (vS s) fullShare Y : sProp 𝕄)
      ⊢ iprop(∃ f, ⌜(vS s).view.read (Elt F) f = Y⌝
          ∗ ((vS s).view.loc (c : Thread nD τ) ↦[(vS s).view.set]{fullShare.left} f)
          ∗ ((vS s).view.loc (c : Thread nD τ) ↦[(vS s).view.set]{fullShare.right} f)) :=
  owns_open_halves (c : Thread nD τ) (vS s) Y

/-- A slot owned at each half of the share is its elements at the full share. -/
theorem slot_whole (m : (ℓ : Loc nD τ sig) → Buf (Elt F) ℓ) (c : Dev nD) (s : Fin 8) (Y : S1024x1024.Idx → Elt F .f32) :
    iprop(owns (c : Thread nD τ) (vS s) fullShare.left Y ∗ owns (c : Thread nD τ) (vS s) fullShare.right Y)
      ⊢ (iprop(∃ g, (vS s).view.loc (c : Thread nD τ) ↦[(vS s).view.set]{fullShare} g) : sProp 𝕄) :=
  owns_close_halves (c : Thread nD τ) (vS s) Y

/-- The scratch is its 8 slots. -/
theorem v_split (c : Dev nD) (f : Buf (Elt F) ((c : Thread nD τ).loc cc0_scratch0)) :
    ((((c : Thread nD τ).loc cc0_scratch0) ↦{fullShare} f) : sProp 𝕄)
      ⊢ bigSep Finset.univ fun s : Fin 8 =>
          iprop(∃ g, (vS s).view.loc (c : Thread nD τ) ↦[(vS s).view.set]{fullShare} g) := by
  have hs (s : Fin 8) : ((((c : Thread nD τ).loc cc0_scratch0) ↦[(vS s).view.set]{fullShare} f) : sProp 𝕄)
      ⊢ iprop(∃ g, (vS s).view.loc (c : Thread nD τ) ↦[(vS s).view.set]{fullShare} g) := by
    iintro H
    iexists f
    iexact H
  rw [whole_split ((c : Thread nD τ).loc cc0_scratch0) (fun s : Fin 8 => (vS s).view.set) vS_disj vS_cov fullShare f]
  exact bigSep_mono fun s _ => hs s

/-- The 8 slots, whatever they hold, are the scratch. -/
theorem v_join (c : Dev nD) :
    (bigSep Finset.univ fun s : Fin 8 =>
        iprop(∃ g, (vS s).view.loc (c : Thread nD τ) ↦[(vS s).view.set]{fullShare} g) : sProp 𝕄)
      ⊢ iprop(∃ f, ((c : Thread nD τ).loc cc0_scratch0) ↦{fullShare} f) :=
  whole_join_exists ((c : Thread nD τ).loc cc0_scratch0) (fun s : Fin 8 => (vS s).view.set) vS_disj vS_cov fullShare
    (0 : Fin 8)

/-- The result buffer is the 32 chunks of its lower half and the 32 of its upper half. -/
theorem out_halves_eq (c : Dev nD) (q : PosShare TreeShare) (f : Buf (Elt F) ((c : Thread nD τ).loc main_v1)) :
    ((((c : Thread nD τ).loc main_v1) ↦{q} f) : sProp 𝕄)
      = iprop((bigSep Finset.univ fun k : Fin 32 => ((c : Thread nD τ).loc main_v1) ↦[(oS 0 k).view.set]{q} f)
          ∗ (bigSep Finset.univ fun k : Fin 32 => ((c : Thread nD τ).loc main_v1) ↦[(oS 1 k).view.set]{q} f)) := by
  have e := whole_split (Ix := Ix) (Name := Name) (U := U) (Lvl := Lvl) ((c : Thread nD τ).loc main_v1)
    (fun t : Fin 2 × Fin 32 => (oS t.1 t.2).view.set) oS_disj oS_cov q f
  rw [bigSep_univ_prod, bigSep_univ_two] at e
  exact e

/-- The chunks of one half, each at the buffer's valuation, are the chunks at some valuation. -/
theorem out_half_intro (c : Dev nD) (h : Fin 2) (f : Buf (Elt F) ((c : Thread nD τ).loc main_v1)) :
    (bigSep Finset.univ fun k : Fin 32 => (((c : Thread nD τ).loc main_v1) ↦[(oS h k).view.set]{fullShare} f : sProp 𝕄))
      ⊢ bigSep Finset.univ fun k : Fin 32 =>
          iprop(∃ g, (oS h k).view.loc (c : Thread nD τ) ↦[(oS h k).view.set]{fullShare} g) := by
  have hk (k : Fin 32) : ((((c : Thread nD τ).loc main_v1) ↦[(oS h k).view.set]{fullShare} f) : sProp 𝕄)
      ⊢ iprop(∃ g, (oS h k).view.loc (c : Thread nD τ) ↦[(oS h k).view.set]{fullShare} g) := by
    iintro H
    iexists f
    iexact H
  exact bigSep_mono fun k _ => hk k

/-- The result buffer is the 32 chunks of the device's own half and the 32 of its partner's half. -/
theorem out_split (c : Dev nD) (f : Buf (Elt F) ((c : Thread nD τ).loc main_v1)) :
    ((((c : Thread nD τ).loc main_v1) ↦{fullShare} f) : sProp 𝕄)
      ⊢ iprop((bigSep Finset.univ fun k : Fin 32 =>
            iprop(∃ g, (oS (hx c) k).view.loc (c : Thread nD τ) ↦[(oS (hx c) k).view.set]{fullShare} g))
          ∗ (bigSep Finset.univ fun k : Fin 32 =>
            iprop(∃ g, (oS (hx (pr c)) k).view.loc (c : Thread nD τ) ↦[(oS (hx (pr c)) k).view.set]{fullShare} g))) := by
  rw [out_halves_eq c fullShare f]
  refine Entails.trans ?_ (sep_fin2_cases
    (fun h : Fin 2 => (bigSep Finset.univ fun k : Fin 32 =>
      iprop(∃ g, (oS h k).view.loc (c : Thread nD τ) ↦[(oS h k).view.set]{fullShare} g) : sProp 𝕄))
    (hx c) (hx (pr c)) (hx_cases c)).1
  iintro ⟨H0, H1⟩
  isplitl [H0]
  · iapply (out_half_intro c 0 f); iexact H0
  · iapply (out_half_intro c 1 f); iexact H1

/-! ## The value -/

variable (m : (ℓ : Loc nD τ sig) → Buf (Elt F) ℓ)

/-- The result function at a row of the upper or lower half is the input block of the device at that
    x-coordinate, at the row's place in the half. -/
theorem Fout_apply (c : Dev nD) (i : S65536x1024.Idx) (h : Fin 2) (j : S32768x1024.Idx)
    (hh : h.val = (i 0).val / 32768) (h0 : (j 0).val = (i 0).val % 32768) (h1 : j 1 = i 1) :
    Fout m c i = (Xin m (devAt c h) : S32768x1024.Idx → Elt F .f32) j := by
  have hb : (i 0).val / 32768 < 2 := by
    have hi : (i 0).val < 65536 := ValueIdx.idx2_lt0 i
    clear hh h0 h1
    omega
  obtain rfl : h = ⟨(i 0).val / 32768, hb⟩ := Fin.ext hh
  obtain rfl : j = ValueIdx.ix2 (⟨(i 0).val % 32768, Nat.mod_lt _ (by decide)⟩ : Fin 32768) (i 1) := by
    funext a
    match a with
    | ⟨0, _⟩ => exact Fin.ext h0
    | ⟨1, _⟩ => exact h1
  rfl

/-- Chunk `(h, k)` of the result function is chunk `k` of the input block of the device at x-coordinate `h`. -/
theorem Fout_read (c : Dev nD) (h : Fin 2) (k : Fin 32) :
    (oS h k).view.read (Elt F) (Fout m c) = blk m (devAt c h) k := by
  funext x
  have hx0 : (x 0).val < 1024 := ValueIdx.idx2_lt0 x
  have hk := k.isLt
  have hh := h.isLt
  show Fout m c ((oR h k).emb x) = (Xin m (devAt c h) : S32768x1024.Idx → Elt F .f32) ((xR k).emb x)
  apply Fout_apply
  · show h.val = (32768 * h.val + 1024 * k.val + 1 * (x 0).val) / 32768
    omega
  · show 1024 * k.val + 1 * (x 0).val = (32768 * h.val + 1024 * k.val + 1 * (x 0).val) % 32768
    omega
  · apply Fin.ext
    show 0 + 1 * (x 1).val = 0 + 1 * (x 1).val
    rfl

/-- A chunk of the result owned at the right input chunk is its elements at the result function. -/
theorem out_piece (c : Dev nD) (h : Fin 2) (k : Fin 32) (q : PosShare TreeShare) :
    (owns (c : Thread nD τ) (oS h k) q (blk m (devAt c h) k) : sProp 𝕄)
      = (((c : Thread nD τ).loc main_v1) ↦[(oS h k).view.set]{q} Fout m c) := by
  rw [← Fout_read m c h k]
  exact owns_slice_read (c : Thread nD τ) (Memref.whole main_v1) q (oR h k) (fun _ => rfl) (Fout m c)

/-- The chunks of the device's own half, each owned at its own input chunk, and the chunks of its partner's half,
    each owned at the partner's input chunk, are the result buffer holding the result function. -/
theorem out_join (c : Dev nD) :
    iprop((bigSep Finset.univ fun k : Fin 32 => owns (c : Thread nD τ) (oS (hx c) k) fullShare (blk m c k))
        ∗ (bigSep Finset.univ fun k : Fin 32 => owns (c : Thread nD τ) (oS (hx (pr c)) k) fullShare (blk m (pr c) k)))
      ⊢ ((((c : Thread nD τ).loc main_v1) ↦{fullShare} Fout m c) : sProp 𝕄) := by
  have e1 (k : Fin 32) : (owns (c : Thread nD τ) (oS (hx c) k) fullShare (blk m c k) : sProp 𝕄)
      = (((c : Thread nD τ).loc main_v1) ↦[(oS (hx c) k).view.set]{fullShare} Fout m c) := by
    rw [← out_piece m c (hx c) k fullShare, devAt_hx]
  have e2 (k : Fin 32) : (owns (c : Thread nD τ) (oS (hx (pr c)) k) fullShare (blk m (pr c) k) : sProp 𝕄)
      = (((c : Thread nD τ).loc main_v1) ↦[(oS (hx (pr c)) k).view.set]{fullShare} Fout m c) := by
    rw [← out_piece m c (hx (pr c)) k fullShare, devAt_hx_pr]
  rw [bigSep_congr (fun k _ => e1 k), bigSep_congr (fun k _ => e2 k), out_halves_eq c fullShare (Fout m c)]
  exact (sep_fin2_cases
    (fun h : Fin 2 => (bigSep Finset.univ fun k : Fin 32 =>
      (((c : Thread nD τ).loc main_v1) ↦[(oS h k).view.set]{fullShare} Fout m c) : sProp 𝕄))
    (hx c) (hx (pr c)) (hx_cases c)).2

/-- info: 'Cert.Kernel.AG.x_split' depends on axioms: [propext, Classical.choice, Quot.sound] -/
#guard_msgs in #print axioms x_split

/-- info: 'Cert.Kernel.AG.slot_halves' depends on axioms: [propext, Classical.choice, Quot.sound] -/
#guard_msgs in #print axioms slot_halves

/-- info: 'Cert.Kernel.AG.slot_whole' depends on axioms: [propext, Classical.choice, Quot.sound] -/
#guard_msgs in #print axioms slot_whole

/-- info: 'Cert.Kernel.AG.v_split' depends on axioms: [propext, Classical.choice, Quot.sound] -/
#guard_msgs in #print axioms v_split

/-- info: 'Cert.Kernel.AG.v_join' depends on axioms: [propext, Classical.choice, Quot.sound] -/
#guard_msgs in #print axioms v_join

/-- info: 'Cert.Kernel.AG.out_split' depends on axioms: [propext, Classical.choice, Quot.sound] -/
#guard_msgs in #print axioms out_split

/-- info: 'Cert.Kernel.AG.Fout_read' depends on axioms: [propext, Classical.choice, Quot.sound] -/
#guard_msgs in #print axioms Fout_read

/-- info: 'Cert.Kernel.AG.out_join' depends on axioms: [propext, Classical.choice, Quot.sound] -/
#guard_msgs in #print axioms out_join

end Cert.Kernel.AG

end
-- ==== Proof.KBodyTactics.lean ====
/-
  The all-gather across the first mesh axis: one device's body, effect by effect in program order.

  Between effects the device holds: what it still owes (the receive credits of the chunks not yet sent); its input
  block whole; each scratch slot either free, or lent in two halves to the two copies reading it; its positions on
  its cells; and, as families indexed by the chunk and taken or filled in chunk order: the tokens of the duties it
  pays, the chunks of its own half of the result not yet written, the chunks of the partner's result it has yet to
  write, the credits and positions of its receive cells, and the chunks of the result already holding their block.
-/
import proofs.«900688_g7700000000000689_dist_ag_v7x_xyz2x4x4_x_m32768_n1024_f32_1_alg».proof.Proof.KSteps
import proofs.«900688_g7700000000000689_dist_ag_v7x_xyz2x4x4_x_m32768_n1024_f32_1_alg».proof.Proof.KAGRegions

set_option maxRecDepth 16384

noncomputable section

namespace Cert.Kernel.AG

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : GSem nD τ sig → ℕ)

/-! ## Small facts about families -/

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

omit [FloatOps F] in
/-- The first member put. -/
theorem bagTo_start (Φ : Fin 32 → sProp 𝕄) : Φ (⟨0, by decide⟩ : Fin 32) ⊢ bagTo 1 Φ := by
  have h : iprop(Φ (⟨0, by decide⟩ : Fin 32) ∗ bagTo 0 Φ) ⊢ bagTo 1 Φ := Entails.of_eq (bagTo_put (⟨0, by decide⟩ : Fin 32) Φ).symm
  rw [bagTo_zero] at h
  exact (sep_emp (PROP := sProp 𝕄)).2.trans h

omit [FloatOps F] in
/-- Taking and putting with the indices as plain numerals. -/
theorem bagFrom_take' (n n' : ℕ) (hn : n < 32) (h' : n' = n + 1) (Φ : Fin 32 → sProp 𝕄) :
    bagFrom n Φ = iprop(Φ ⟨n, hn⟩ ∗ bagFrom n' Φ) := by subst h'; exact bagFrom_take ⟨n, hn⟩ Φ
omit [FloatOps F] in
theorem bagTo_put' (n n' : ℕ) (hn : n < 32) (h' : n' = n + 1) (Φ : Fin 32 → sProp 𝕄) :
    bagTo n' Φ = iprop(Φ ⟨n, hn⟩ ∗ bagTo n Φ) := by subst h'; exact bagTo_put ⟨n, hn⟩ Φ

omit [FloatOps F] in
/-- A persistent fact used under every member of a family. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## The point, and what the body starts from and ends with -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def bodyPre (c : Dev nD) : sProp 𝕄 :=
  iprop(records m K ∗ linear c ∗ creds c ∗ levAts L lv
    ∗ (((c : Thread nD τ).loc main_arg0) ↦{fullShare} Xin m c)
    ∗ (∃ f, ((c : Thread nD τ).loc main_v1) ↦{fullShare} f)
    ∗ (∃ f, ((c : Thread nD τ).loc cc0_scratch0) ↦{fullShare} f)
    ∗ (dats m 0 c).owesAt () t₀.castSucc)

def bodyPost (c : Dev nD) : sProp 𝕄 := iprop(Φ₁ m c ∗ (dats m 0 c).owesAt () t₀.succ)

/-- A receive cell at round 1 closes: its counter at zero is the core's again. -/
theorem close_rc (c : Dev nD) (k : Fin 32) :
    iprop(records m K ∗ atPos ER (rcCell c k) 1 ∅ 0) ⊢ (|={Set.univ}=> semVal (rcCell c k) 0 : sProp 𝕄) := by
  iintro ⟨#HR, Hat⟩
  ihave #HI := (inv_of_records m K (mem_rc c k)) $$ HR
  iapply (Rounds.cell_close ER (agRd m) (Set.mem_univ (K (rcCell c k))) (fun h => h) (R := 1) (duties_rc_later m c k))
  isplitr; · iexact HI
  iexact Hat

/-! ## The tactics of the body: one per kind of effect, at chunk `k` -/

open Lean in
/-- A hypothesis name with a number in it. -/
def agId (pre : String) (n : Nat) : Ident := mkIdent (Name.mkSimple s!"{pre}{n}")
open Lean in
def agId2 (pre : String) (n : Nat) (mid : String) (r : Nat) : Ident := mkIdent (Name.mkSimple s!"{pre}{n}{mid}{r}")

set_option hygiene false in
open Lean in
/-- Enter the next printed part: the bind peeled, the part opened at its skeleton. -/
macro "ag_part " e:ident s:ident : tactic =>
  `(tactic| (rw [wp_bind]; rw [$e:ident]; unfold $s:ident
             simp only [Prog.lift, Prog.bind_op, Prog.bind_ret, Prog.pure_eq_ret, semSignalWord, semWaitWord, wp_deviceId]))

set_option hygiene false in
open Lean in
/-- Leave a part: its returned tuple handed to what follows. -/
macro "ag_ret" : tactic => `(tactic| (rw [wp_ret]; imodintro; try dsimp only))

set_option hygiene false in
open Lean in
/-- Leave the last part, and the part that encloses the sixty (its returned tuple), into the root's tail. -/
macro "ag_root" : tactic =>
  `(tactic| (rw [wp_ret]; imodintro; try dsimp only
             rw [wp_ret]; imodintro; try dsimp only
             try simp only [Prog.lift, Prog.bind_op, Prog.bind_ret, Prog.pure_eq_ret]))

set_option hygiene false in
open Lean in
/-- The signal to the partner's barrier cell: it hands the partner the other half of the device's result. -/
macro "ag_signal" : tactic =>
  `(tactic| (
    simp only [dev_eq1 c]
    ihave #HIbP := (inv_of_records m K (mem_bar (pr c))) $$ HR
    ihave #HrbP := (reached_of_records m K (mem_bar (pr c))) $$ HR
    iapply (Rounds.wp_signal 𝒱₀ ER (agRd m) (c : Thread nD τ) none (dst := (pr c : Thread nD τ)) (κ := K (barCell (pr c)))
        (d := ()) (by rw [duties_bar]; exact Finset.mem_singleton_self _) ((amount_bar m (pr c) 0 ()).trans (by decide)) () (owedFrom c 32) rfl)
      $$ [HO HtBar HoGive]
    · isplitr; · iexact HIbP
      isplitl [HO]; · iexact HO
      isplitl [HtBar]; · iexact HtBar
      isplitl [HoGive]
      · rw [payload_bar]; unfold barPay; rw [pr_pr]; iexact HoGive
      iexact HrbP
    iintro HO))

set_option hygiene false in
open Lean in
/-- The wait on the device's own barrier cell, owing the 32 receive credits: the partner's half of the partner's result
    comes with the partner's unit. -/
macro "ag_barwait" : tactic =>
  `(tactic| (
    ihave #HIb := (inv_of_records m K (mem_bar c)) $$ HR
    iapply (Rounds.wp_wait_rest_token 𝒱₀ ER (agRd m) (c : Thread nD τ) none (κ := K (barCell c))
        (wpE_semWait_eq 𝒱₀ (c : Thread nD τ) none Set.univ) (Set.mem_univ _) () (O := owedFrom c 32) (R := 0) (m := 0) (T := ∅)
        (by rw [expect_bar]; decide)) $$ [HcBar HO HatBar]
    · isplitr; · iexact HIb
      isplitl [HcBar]; · iexact HcBar
      isplitl [HO]; · iexact HO
      isplitr; · iapply (mayWait_bar c 32); iexact Hlev
      iexact HatBar
    iintro ⟨HO, HatBar, -, Hpay⟩
    ihave HoPar := (Entails.of_eq ((rest_bar m c).trans (bagFrom_zero _).symm)) $$ Hpay))

set_option hygiene false in
open Lean in
/-- The local copy of input chunk `k` into its slot. -/
macro "ag_ld " k:num : tactic => do
  let kk := k.getNat
  let k1 := Syntax.mkNumLit (toString (k.getNat + 1)); let s := kk % 8; let r := kk / 8
  let hv := agId "Hv" s; let hr := agId2 "HrLd" s "r" r
  `(tactic| (
    ihave Hxc := (x_split (F := F) c (⟨$k, of_decide_eq_true rfl⟩ : Fin 32) fullShare (Xin m c)).1 $$ Hx
    icases Hxc with ⟨Hxk, Hxrest⟩
    ihave Htk := (Entails.of_eq (bagFrom_take' $k $k1 (of_decide_eq_true rfl) rfl _)) $$ HtLd
    icases Htk with ⟨Htok, HtLd⟩
    icases $hv:ident with ⟨%g, $hv:ident⟩
    iapply (wp_load_chunk m K c (⟨$k, of_decide_eq_true rfl⟩ : Fin 32) rfl rfl rfl g) $$ [Hxk $hv:ident Htok]
    · isplitr; · iexact HR
      isplitl [Hxk]; · iexact Hxk
      isplitl [$hv:ident]; · iexact $hv:ident
      isplitl [Htok]; · iexact Htok
      iexact $hr:ident
    iintro HcLd))

set_option hygiene false in
open Lean in
/-- The wait for that load: the slot holds chunk `k`; it is cut in its two halves for the two copies that read it. -/
macro "ag_ldw " k:num : tactic => do
  let kk := k.getNat; let s := kk % 8; let r := kk / 8
  let hat := agId "HatLd" s; let hr := agId2 "HrLd" s "r" (r + 1)
  let n := Syntax.mkNumLit (toString (32 - kk))
  let sl := Syntax.mkNumLit (toString s)
  `(tactic| (
    iapply (wp_wait_load m K c (⟨$k, of_decide_eq_true rfl⟩ : Fin 32) $n rfl (by rfl) _) $$ [HcLd HO $hat:ident]
    · isplitr; · iexact HR
      isplitl [HcLd]; · iexact HcLd
      isplitl [HO]; · iexact HO
      isplitr; · iexact Hlev
      iexact $hat:ident
    iintro ⟨HO, $hat:ident, #$hr:ident, Hpay⟩
    unfold ldPay
    icases Hpay with ⟨Hvo, Hxk⟩
    ihave Hx := (x_split (F := F) c (⟨$k, of_decide_eq_true rfl⟩ : Fin 32) fullShare (Xin m c)).2 $$ [Hxk Hxrest]
    · isplitl [Hxk]; · iexact Hxk
      iexact Hxrest
    ihave Hh := (slot_halves m c (slot (⟨$k, of_decide_eq_true rfl⟩ : Fin 32)) _) $$ Hvo
    icases Hh with ⟨%f, %hf, HfL, HfR⟩))

set_option hygiene false in
open Lean in
/-- The local copy of the slot into chunk `(x, k)` of the device's own result. -/
macro "ag_st " k:num : tactic => do
  let kk := k.getNat
  let k1 := Syntax.mkNumLit (toString (k.getNat + 1)); let s := kk % 8; let r := kk / 8
  let hc := agId "HcSt" s; let hr := agId2 "HrSt" s "r" r
  `(tactic| (
    ihave Htk := (Entails.of_eq (bagFrom_take' $k $k1 (of_decide_eq_true rfl) rfl _)) $$ HtSt
    icases Htk with ⟨Htok, HtSt⟩
    ihave Hok := (Entails.of_eq (bagFrom_take' $k $k1 (of_decide_eq_true rfl) rfl _)) $$ HoOwn
    icases Hok with ⟨⟨%g, Hog⟩, HoOwn⟩
    iapply (wp_store_chunk m K c (⟨$k, of_decide_eq_true rfl⟩ : Fin 32) rfl (oS_off c (⟨$k, of_decide_eq_true rfl⟩ : Fin 32)) rfl f hf g) $$ [HfL Hog Htok]
    · isplitr; · iexact HR
      isplitl [HfL]; · iexact HfL
      isplitl [Hog]; · iexact Hog
      isplitl [Htok]; · iexact Htok
      iexact $hr:ident
    iintro $hc:ident))

set_option hygiene false in
open Lean in
/-- The remote copy of the slot into chunk `(x, k)` of the partner's result. -/
macro "ag_sd " k:num : tactic => do
  let kk := k.getNat
  let k1 := Syntax.mkNumLit (toString (k.getNat + 1)); let s := kk % 8; let r := kk / 8
  let hc := agId "HcSd" s; let hr := agId2 "HrSd" s "r" r
  let n := Syntax.mkNumLit (toString (31 - kk))
  let dv := mkIdent (Name.mkSimple s!"dev_eq{kk + 2}")
  `(tactic| (
    ihave Htk := (Entails.of_eq (bagFrom_take' $k $k1 (of_decide_eq_true rfl) rfl _)) $$ HtSd
    icases Htk with ⟨Htok1, HtSd⟩
    ihave Htk := (Entails.of_eq (bagFrom_take' $k $k1 (of_decide_eq_true rfl) rfl _)) $$ HtRc
    icases Htk with ⟨Htok2, HtRc⟩
    ihave Hok := (Entails.of_eq (bagFrom_take' $k $k1 (of_decide_eq_true rfl) rfl _)) $$ HoPar
    icases Hok with ⟨⟨%g, Hpg⟩, HoPar⟩
    iapply (wp_send_chunk m K c (⟨$k, of_decide_eq_true rfl⟩ : Fin 32) $n rfl _ ($dv:ident c) rfl (oS_off c (⟨$k, of_decide_eq_true rfl⟩ : Fin 32)) rfl rfl f hf g _)
      $$ [HfR Hpg HO Htok1 Htok2]
    · isplitr; · iexact HR
      isplitl [HfR]; · iexact HfR
      isplitl [Hpg]; · iexact Hpg
      isplitl [HO]; · iexact HO
      isplitl [Htok1]; · iexact Htok1
      isplitr; · iexact $hr:ident
      iexact Htok2
    iintro ⟨$hc:ident, HO⟩))

set_option hygiene false in
open Lean in
/-- The wait for the local store of chunk `j`: chunk `(x, j)` of the result holds its block; the store's half of the slot
    is back. -/
macro "ag_stw " j:num : tactic => do
  let jj := j.getNat
  let j1 := Syntax.mkNumLit (toString (j.getNat + 1)); let s := jj % 8; let r := jj / 8
  let hc := agId "HcSt" s; let hat := agId "HatSt" s; let hr := agId2 "HrSt" s "r" (r + 1); let hvl := agId "HvL" s
  let n := Syntax.mkNumLit (toString (if jj < 24 then 24 - jj else 0))
  let put ← if jj == 0 then
      `(tactic| (ihave HresOwn := (bagTo_start (fun k : Fin 32 => owns (c : Thread nD τ) (oS (hx c) k) fullShare (blk m c k))) $$ [Hres]
                 · iexact Hres))
    else
      `(tactic| (ihave HresOwn := (Entails.of_eq (bagTo_put' $j $j1 (of_decide_eq_true rfl) rfl (fun k : Fin 32 => owns (c : Thread nD τ) (oS (hx c) k) fullShare (blk m c k))).symm) $$ [Hres HresOwn]
                 · isplitl [Hres]; · iexact Hres
                   iexact HresOwn))
  `(tactic| (
    iapply (wp_wait_store m K c (⟨$j, of_decide_eq_true rfl⟩ : Fin 32) $n rfl (by rfl) _) $$ [$hc:ident HO $hat:ident]
    · isplitr; · iexact HR
      isplitl [$hc:ident]; · iexact $hc:ident
      isplitl [HO]; · iexact HO
      isplitr; · iexact Hlev
      iexact $hat:ident
    iintro ⟨HO, $hat:ident, #$hr:ident, Hpay⟩
    unfold stPay
    icases Hpay with ⟨Hres, $hvl:ident⟩
    $put))

set_option hygiene false in
open Lean in
/-- The wait for the send side of the remote copy of chunk `j`: the other half of the slot is back, and the slot is free. -/
macro "ag_sdw " j:num : tactic => do
  let jj := j.getNat; let s := jj % 8; let r := jj / 8
  let hc := agId "HcSd" s; let hat := agId "HatSd" s; let hr := agId2 "HrSd" s "r" (r + 1)
  let hvl := agId "HvL" s; let hvr := agId "HvR" s; let hv := agId "Hv" s
  let n := Syntax.mkNumLit (toString (if jj < 24 then 24 - jj else 0))
  let sl := Syntax.mkNumLit (toString s)
  `(tactic| (
    iapply (wp_wait_send m K c (⟨$j, of_decide_eq_true rfl⟩ : Fin 32) $n rfl (by rfl) _) $$ [$hc:ident HO $hat:ident]
    · isplitr; · iexact HR
      isplitl [$hc:ident]; · iexact $hc:ident
      isplitl [HO]; · iexact HO
      isplitr; · iexact Hlev
      iexact $hat:ident
    iintro ⟨HO, $hat:ident, #$hr:ident, $hvr:ident⟩
    unfold sdPay
    ihave $hv:ident := (slot_whole m c (slot (⟨$j, of_decide_eq_true rfl⟩ : Fin 32)) _) $$ [$hvl:ident $hvr:ident]
    · isplitl [$hvl:ident]; · iexact $hvl:ident
      iexact $hvr:ident))

set_option hygiene false in
open Lean in
/-- The wait for the partner's chunk `k`: chunk `(1 - x, k)` of the result holds the partner's block `k`. -/
macro "ag_rcw " k:num : tactic => do
  let kk := k.getNat
  let k1 := Syntax.mkNumLit (toString (k.getNat + 1))
  let put ← if kk == 0 then
      `(tactic| (ihave HresPar := (bagTo_start (fun k : Fin 32 => rcPay m c k)) $$ [Hpay]
                 · iexact Hpay
                 ihave HatRc1 := (bagTo_start (fun k : Fin 32 => atPos ER (rcCell c k) 1 ∅ 0)) $$ [Hat1]
                 · iexact Hat1))
    else
      `(tactic| (ihave HresPar := (Entails.of_eq (bagTo_put' $k $k1 (of_decide_eq_true rfl) rfl (fun k : Fin 32 => rcPay m c k)).symm) $$ [Hpay HresPar]
                 · isplitl [Hpay]; · iexact Hpay
                   iexact HresPar
                 ihave HatRc1 := (Entails.of_eq (bagTo_put' $k $k1 (of_decide_eq_true rfl) rfl (fun k : Fin 32 => atPos ER (rcCell c k) 1 ∅ 0)).symm) $$ [Hat1 HatRc1]
                 · isplitl [Hat1]; · iexact Hat1
                   iexact HatRc1))
  `(tactic| (
    ihave Hck := (Entails.of_eq (bagFrom_take' $k $k1 (of_decide_eq_true rfl) rfl _)) $$ HcRc
    icases Hck with ⟨Hc, HcRc⟩
    ihave Hak := (Entails.of_eq (bagFrom_take' $k $k1 (of_decide_eq_true rfl) rfl _)) $$ HatRc
    icases Hak with ⟨Hat, HatRc⟩
    iapply (wp_wait_recv m K c (⟨$k, of_decide_eq_true rfl⟩ : Fin 32) rfl (by rfl) _) $$ [Hc HO Hat]
    · isplitr; · iexact HR
      isplitl [Hc]; · iexact Hc
      isplitl [HO]; · iexact HO
      iexact Hat
    iintro ⟨HO, Hat1, Hpay⟩
    $put))

end Cert.Kernel.AG

end
-- ==== Proof.KBodyLayout.lean ====
import proofs.«900688_g7700000000000689_dist_ag_v7x_xyz2x4x4_x_m32768_n1024_f32_1_alg».proof.Proof.KBodyTactics
import proofs.«900688_g7700000000000689_dist_ag_v7x_xyz2x4x4_x_m32768_n1024_f32_1_alg».proof.Proof.Gen.Kernel.Skeleton

namespace Cert.Kernel.AG

open Cert.Kernel Cert.Kernel.Gen

set_option hygiene false in
/-- The body's effects in printed order. -/
macro "ag_run_body" : tactic => `(tactic| (
  ag_part k0_part1_eq_skeleton k0_part1_skel
  ag_signal
  ag_barwait
  ag_ld 0
  ag_ldw 0
  ag_ret
  ag_part k0_part2_eq_skeleton k0_part2_skel
  ag_st 0
  ag_sd 0
  ag_ld 1
  ag_ret
  ag_part k0_part3_eq_skeleton k0_part3_skel
  ag_ldw 1
  ag_st 1
  ag_sd 1
  ag_ld 2
  ag_ret
  ag_part k0_part4_eq_skeleton k0_part4_skel
  ag_ldw 2
  ag_st 2
  ag_sd 2
  ag_ret
  ag_part k0_part5_eq_skeleton k0_part5_skel
  ag_ld 3
  ag_ldw 3
  ag_st 3
  ag_ret
  ag_part k0_part6_eq_skeleton k0_part6_skel
  ag_sd 3
  ag_ld 4
  ag_ldw 4
  ag_st 4
  ag_ret
  ag_part k0_part7_eq_skeleton k0_part7_skel
  ag_sd 4
  ag_ld 5
  ag_ldw 5
  ag_st 5
  ag_ret
  ag_part k0_part8_eq_skeleton k0_part8_skel
  ag_sd 5
  ag_ld 6
  ag_ldw 6
  ag_st 6
  ag_ret
  ag_part k0_part9_eq_skeleton k0_part9_skel
  ag_sd 6
  ag_ld 7
  ag_ldw 7
  ag_ret
  ag_part k0_part10_eq_skeleton k0_part10_skel
  ag_st 7
  ag_sd 7
  ag_stw 0
  ag_sdw 0
  ag_ret
  ag_part k0_part11_eq_skeleton k0_part11_skel
  ag_ld 8
  ag_ldw 8
  ag_st 8
  ag_ret
  ag_part k0_part12_eq_skeleton k0_part12_skel
  ag_sd 8
  ag_stw 1
  ag_sdw 1
  ag_ld 9
  ag_ldw 9
  ag_ret
  ag_part k0_part13_eq_skeleton k0_part13_skel
  ag_st 9
  ag_sd 9
  ag_stw 2
  ag_sdw 2
  ag_ret
  ag_part k0_part14_eq_skeleton k0_part14_skel
  ag_ld 10
  ag_ldw 10
  ag_st 10
  ag_ret
  ag_part k0_part15_eq_skeleton k0_part15_skel
  ag_sd 10
  ag_stw 3
  ag_sdw 3
  ag_ld 11
  ag_ldw 11
  ag_ret
  ag_part k0_part16_eq_skeleton k0_part16_skel
  ag_st 11
  ag_sd 11
  ag_stw 4
  ag_sdw 4
  ag_ret
  ag_part k0_part17_eq_skeleton k0_part17_skel
  ag_ld 12
  ag_ldw 12
  ag_st 12
  ag_ret
  ag_part k0_part18_eq_skeleton k0_part18_skel
  ag_sd 12
  ag_stw 5
  ag_sdw 5
  ag_ld 13
  ag_ldw 13
  ag_ret
  ag_part k0_part19_eq_skeleton k0_part19_skel
  ag_st 13
  ag_sd 13
  ag_stw 6
  ag_sdw 6
  ag_ret
  ag_part k0_part20_eq_skeleton k0_part20_skel
  ag_ld 14
  ag_ldw 14
  ag_st 14
  ag_ret
  ag_part k0_part21_eq_skeleton k0_part21_skel
  ag_sd 14
  ag_stw 7
  ag_sdw 7
  ag_ld 15
  ag_ldw 15
  ag_ret
  ag_part k0_part22_eq_skeleton k0_part22_skel
  ag_st 15
  ag_sd 15
  ag_stw 8
  ag_ret
  ag_part k0_part23_eq_skeleton k0_part23_skel
  ag_sdw 8
  ag_ld 16
  ag_ldw 16
  ag_st 16
  ag_ret
  ag_part k0_part24_eq_skeleton k0_part24_skel
  ag_sd 16
  ag_stw 9
  ag_sdw 9
  ag_ld 17
  ag_ldw 17
  ag_ret
  ag_part k0_part25_eq_skeleton k0_part25_skel
  ag_st 17
  ag_sd 17
  ag_stw 10
  ag_ret
  ag_part k0_part26_eq_skeleton k0_part26_skel
  ag_sdw 10
  ag_ld 18
  ag_ldw 18
  ag_st 18
  ag_ret
  ag_part k0_part27_eq_skeleton k0_part27_skel
  ag_sd 18
  ag_stw 11
  ag_sdw 11
  ag_ld 19
  ag_ldw 19
  ag_ret
  ag_part k0_part28_eq_skeleton k0_part28_skel
  ag_st 19
  ag_sd 19
  ag_stw 12
  ag_ret
  ag_part k0_part29_eq_skeleton k0_part29_skel
  ag_sdw 12
  ag_ld 20
  ag_ldw 20
  ag_st 20
  ag_ret
  ag_part k0_part30_eq_skeleton k0_part30_skel
  ag_sd 20
  ag_stw 13
  ag_sdw 13
  ag_ld 21
  ag_ret
  ag_part k0_part31_eq_skeleton k0_part31_skel
  ag_ldw 21
  ag_st 21
  ag_sd 21
  ag_stw 14
  ag_ret
  ag_part k0_part32_eq_skeleton k0_part32_skel
  ag_sdw 14
  ag_ld 22
  ag_ldw 22
  ag_st 22
  ag_ret
  ag_part k0_part33_eq_skeleton k0_part33_skel
  ag_sd 22
  ag_stw 15
  ag_sdw 15
  ag_ld 23
  ag_ret
  ag_part k0_part34_eq_skeleton k0_part34_skel
  ag_ldw 23
  ag_st 23
  ag_sd 23
  ag_stw 16
  ag_ret
  ag_part k0_part35_eq_skeleton k0_part35_skel
  ag_sdw 16
  ag_ld 24
  ag_ldw 24
  ag_st 24
  ag_ret
  ag_part k0_part36_eq_skeleton k0_part36_skel
  ag_sd 24
  ag_stw 17
  ag_sdw 17
  ag_ld 25
  ag_ret
  ag_part k0_part37_eq_skeleton k0_part37_skel
  ag_ldw 25
  ag_st 25
  ag_sd 25
  ag_stw 18
  ag_ret
  ag_part k0_part38_eq_skeleton k0_part38_skel
  ag_sdw 18
  ag_ld 26
  ag_ldw 26
  ag_st 26
  ag_ret
  ag_part k0_part39_eq_skeleton k0_part39_skel
  ag_sd 26
  ag_stw 19
  ag_sdw 19
  ag_ld 27
  ag_ret
  ag_part k0_part40_eq_skeleton k0_part40_skel
  ag_ldw 27
  ag_st 27
  ag_sd 27
  ag_ret
  ag_part k0_part41_eq_skeleton k0_part41_skel
  ag_stw 20
  ag_sdw 20
  ag_ld 28
  ag_ldw 28
  ag_st 28
  ag_ret
  ag_part k0_part42_eq_skeleton k0_part42_skel
  ag_sd 28
  ag_stw 21
  ag_sdw 21
  ag_ld 29
  ag_ret
  ag_part k0_part43_eq_skeleton k0_part43_skel
  ag_ldw 29
  ag_st 29
  ag_sd 29
  ag_ret
  ag_part k0_part44_eq_skeleton k0_part44_skel
  ag_stw 22
  ag_sdw 22
  ag_ld 30
  ag_ldw 30
  ag_st 30
  ag_ret
  ag_part k0_part45_eq_skeleton k0_part45_skel
  ag_sd 30
  ag_stw 23
  ag_sdw 23
  ag_ld 31
  ag_ret
  ag_part k0_part46_eq_skeleton k0_part46_skel
  ag_ldw 31
  ag_st 31
  ag_sd 31
  ag_ret
  ag_part k0_part47_eq_skeleton k0_part47_skel
  ag_stw 24
  ag_sdw 24
  ag_stw 25
  ag_sdw 25
  ag_stw 26
  ag_ret
  ag_part k0_part48_eq_skeleton k0_part48_skel
  ag_sdw 26
  ag_stw 27
  ag_sdw 27
  ag_stw 28
  ag_sdw 28
  ag_ret
  ag_part k0_part49_eq_skeleton k0_part49_skel
  ag_stw 29
  ag_sdw 29
  ag_stw 30
  ag_sdw 30
  ag_stw 31
  ag_ret
  ag_part k0_part50_eq_skeleton k0_part50_skel
  ag_sdw 31
  ag_rcw 0
  ag_rcw 1
  ag_ret
  ag_part k0_part51_eq_skeleton k0_part51_skel
  ag_rcw 2
  ag_rcw 3
  ag_rcw 4
  ag_ret
  ag_part k0_part52_eq_skeleton k0_part52_skel
  ag_rcw 5
  ag_rcw 6
  ag_ret
  ag_part k0_part53_eq_skeleton k0_part53_skel
  ag_rcw 7
  ag_rcw 8
  ag_rcw 9
  ag_ret
  ag_part k0_part54_eq_skeleton k0_part54_skel
  ag_rcw 10
  ag_rcw 11
  ag_rcw 12
  ag_ret
  ag_part k0_part55_eq_skeleton k0_part55_skel
  ag_rcw 13
  ag_rcw 14
  ag_rcw 15
  ag_ret
  ag_part k0_part56_eq_skeleton k0_part56_skel
  ag_rcw 16
  ag_rcw 17
  ag_ret
  ag_part k0_part57_eq_skeleton k0_part57_skel
  ag_rcw 18
  ag_rcw 19
  ag_rcw 20
  ag_ret
  ag_part k0_part58_eq_skeleton k0_part58_skel
  ag_rcw 21
  ag_rcw 22
  ag_rcw 23
  ag_ret
  ag_part k0_part59_eq_skeleton k0_part59_skel
  ag_rcw 24
  ag_rcw 25
  ag_rcw 26
  ag_ret
  ag_part k0_part60_eq_skeleton k0_part60_skel
  ag_rcw 27
  ag_rcw 28
  ag_root
  ag_rcw 29
  ag_rcw 30
  ag_rcw 31))

end Cert.Kernel.AG
-- ==== Proof.KBody.lean ====
/-
  The all-gather across the first mesh axis: one device's body run from its start to its end.

  At the start the result buffer is cut in its two halves of 32 chunks: the device's own half it fills by local
  copies; the other half it hands to the partner with its barrier signal, and gets back chunk by chunk through its
  receive cells, each chunk holding the partner's block. The scratch is cut in its 8 slots. At the end every own
  cell has run through all its rounds and closes; the 64 chunks join to the whole array.
-/
import proofs.«900688_g7700000000000689_dist_ag_v7x_xyz2x4x4_x_m32768_n1024_f32_1_alg».proof.Proof.KBodyLayout

set_option maxRecDepth 16384

noncomputable section

namespace Cert.Kernel.AG

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : GSem nD τ sig → ℕ)

/-- Owing nothing, whatever waits are recorded, is what the pipeline expects back after the point. -/
theorem owesAt_succ_intro (c : Dev nD) (W : Waits sig Unit) : owes (c : Thread nD τ) 0 W ⊢ (dats (F := F) m 0 c).owesAt () t₀.succ := by
  unfold Dat.owesAt Pipeline.owesWithin
  rw [show (dats (F := F) m 0 c).owed t₀.succ = 0 from rfl]
  iintro HO
  iexists W
  isplitr; · ipureintro; exact fun _ _ => Or.inl trivial
  iexact HO

set_option maxHeartbeats 0 in
/-- The body on device `c`, from `bodyPre` to `bodyPost`. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole main_arg0) (Memref.isWhole_whole _) (Memref.whole main_v1) (Memref.isWhole_whole _)
            (Memref.whole cc0_scratch0) (Memref.isWhole_whole _) cc0_scratch1 cc0_scratch2 cc0_scratch3 cc0_scratch4) Kt := by
  unfold bodyPre linear payToks creds
  iintro ⟨⟨#HR, ⟨HatBar, Hat8, HatRc, HtLd, HtSt, HtSd, HtRc, HtBar⟩, ⟨HcBar, HcRc⟩, #Hlev, Hx, ⟨%fo, Ho⟩, ⟨%fv, Hv⟩, Ho'⟩, Hk⟩
  unfold Dat.owesAt Pipeline.owesWithin
  icases Ho' with ⟨%W, %hW, HO⟩
  rw [show (dats m 0 c).owed t₀.castSucc = O₀ c from rfl]
  -- the device's positions on its 24 four-round cells, one by one
  ihave Hat8 := (Entails.of_eq (bigSep_fin8 _)) $$ Hat8
  icases Hat8 with ⟨⟨HatLd0, HatSt0, HatSd0⟩, ⟨HatLd1, HatSt1, HatSd1⟩, ⟨HatLd2, HatSt2, HatSd2⟩, ⟨HatLd3, HatSt3, HatSd3⟩, ⟨HatLd4, HatSt4, HatSd4⟩, ⟨HatLd5, HatSt5, HatSd5⟩, ⟨HatLd6, HatSt6, HatSd6⟩, ⟨HatLd7, HatSt7, HatSd7⟩⟩
  -- the families taken in chunk order
  ihave HtLd := (Entails.of_eq (bagFrom_zero _).symm) $$ HtLd
  ihave HtSt := (Entails.of_eq (bagFrom_zero _).symm) $$ HtSt
  ihave HtSd := (Entails.of_eq (bagFrom_zero _).symm) $$ HtSd
  ihave HtRc := (Entails.of_eq (bagFrom_zero _).symm) $$ HtRc
  ihave HatRc := (Entails.of_eq (bagFrom_zero _).symm) $$ HatRc
  ihave HcRc := (Entails.of_eq (bagFrom_zero _).symm) $$ HcRc
  -- the result cut in its two halves, the scratch in its slots
  ihave Hos := (out_split (F := F) c fo) $$ Ho
  icases Hos with ⟨HoOwn, HoGive⟩
  ihave HoOwn := (Entails.of_eq (bagFrom_zero _).symm) $$ HoOwn
  ihave Hvs := (v_split (F := F) c fv) $$ Hv
  ihave Hvs := (Entails.of_eq (bigSep_fin8 _)) $$ Hvs
  icases Hvs with ⟨Hv0, Hv1, Hv2, Hv3, Hv4, Hv5, Hv6, Hv7⟩
  -- round 0 of every own cell is reached
  ihave #HrLd0r0 := (reached_of_records m K (mem_ld c (⟨0, by decide⟩ : Fin 8))) $$ HR
  ihave #HrSt0r0 := (reached_of_records m K (mem_st c (⟨0, by decide⟩ : Fin 8))) $$ HR
  ihave #HrSd0r0 := (reached_of_records m K (mem_sd c (⟨0, by decide⟩ : Fin 8))) $$ HR
  ihave #HrLd1r0 := (reached_of_records m K (mem_ld c (⟨1, by decide⟩ : Fin 8))) $$ HR
  ihave #HrSt1r0 := (reached_of_records m K (mem_st c (⟨1, by decide⟩ : Fin 8))) $$ HR
  ihave #HrSd1r0 := (reached_of_records m K (mem_sd c (⟨1, by decide⟩ : Fin 8))) $$ HR
  ihave #HrLd2r0 := (reached_of_records m K (mem_ld c (⟨2, by decide⟩ : Fin 8))) $$ HR
  ihave #HrSt2r0 := (reached_of_records m K (mem_st c (⟨2, by decide⟩ : Fin 8))) $$ HR
  ihave #HrSd2r0 := (reached_of_records m K (mem_sd c (⟨2, by decide⟩ : Fin 8))) $$ HR
  ihave #HrLd3r0 := (reached_of_records m K (mem_ld c (⟨3, by decide⟩ : Fin 8))) $$ HR
  ihave #HrSt3r0 := (reached_of_records m K (mem_st c (⟨3, by decide⟩ : Fin 8))) $$ HR
  ihave #HrSd3r0 := (reached_of_records m K (mem_sd c (⟨3, by decide⟩ : Fin 8))) $$ HR
  ihave #HrLd4r0 := (reached_of_records m K (mem_ld c (⟨4, by decide⟩ : Fin 8))) $$ HR
  ihave #HrSt4r0 := (reached_of_records m K (mem_st c (⟨4, by decide⟩ : Fin 8))) $$ HR
  ihave #HrSd4r0 := (reached_of_records m K (mem_sd c (⟨4, by decide⟩ : Fin 8))) $$ HR
  ihave #HrLd5r0 := (reached_of_records m K (mem_ld c (⟨5, by decide⟩ : Fin 8))) $$ HR
  ihave #HrSt5r0 := (reached_of_records m K (mem_st c (⟨5, by decide⟩ : Fin 8))) $$ HR
  ihave #HrSd5r0 := (reached_of_records m K (mem_sd c (⟨5, by decide⟩ : Fin 8))) $$ HR
  ihave #HrLd6r0 := (reached_of_records m K (mem_ld c (⟨6, by decide⟩ : Fin 8))) $$ HR
  ihave #HrSt6r0 := (reached_of_records m K (mem_st c (⟨6, by decide⟩ : Fin 8))) $$ HR
  ihave #HrSd6r0 := (reached_of_records m K (mem_sd c (⟨6, by decide⟩ : Fin 8))) $$ HR
  ihave #HrLd7r0 := (reached_of_records m K (mem_ld c (⟨7, by decide⟩ : Fin 8))) $$ HR
  ihave #HrSt7r0 := (reached_of_records m K (mem_st c (⟨7, by decide⟩ : Fin 8))) $$ HR
  ihave #HrSd7r0 := (reached_of_records m K (mem_sd c (⟨7, by decide⟩ : Fin 8))) $$ HR
  -- the body, part by part
  simp only [cc0_body_eq_skeleton]; unfold cc0_body_skel
  rw [wp_bind]; rw [k0_part61_eq_skeleton]; unfold k0_part61_skel
  ag_run_body
  -- every own cell has run through its rounds: they close (the goal is still the body's return)
  ihave #HIcld0 := (inv_of_records m K (mem_ld c (⟨0, by decide⟩ : Fin 8))) $$ HR
  imod (Rounds.cell_close ER (agRd m) (Set.mem_univ (K (ldCell c (⟨0, by decide⟩ : Fin 8)))) (fun h => h) (R := 4) (duties_ld_later m c (⟨0, by decide⟩ : Fin 8))) $$ [HatLd0] with HzLd0
  · isplitr; · iexact HIcld0
    iexact HatLd0
  ihave #HIcst0 := (inv_of_records m K (mem_st c (⟨0, by decide⟩ : Fin 8))) $$ HR
  imod (Rounds.cell_close ER (agRd m) (Set.mem_univ (K (stCell c (⟨0, by decide⟩ : Fin 8)))) (fun h => h) (R := 4) (duties_st_later m c (⟨0, by decide⟩ : Fin 8))) $$ [HatSt0] with HzSt0
  · isplitr; · iexact HIcst0
    iexact HatSt0
  ihave #HIcsd0 := (inv_of_records m K (mem_sd c (⟨0, by decide⟩ : Fin 8))) $$ HR
  imod (Rounds.cell_close ER (agRd m) (Set.mem_univ (K (sdCell c (⟨0, by decide⟩ : Fin 8)))) (fun h => h) (R := 4) (duties_sd_later m c (⟨0, by decide⟩ : Fin 8))) $$ [HatSd0] with HzSd0
  · isplitr; · iexact HIcsd0
    iexact HatSd0
  ihave #HIcld1 := (inv_of_records m K (mem_ld c (⟨1, by decide⟩ : Fin 8))) $$ HR
  imod (Rounds.cell_close ER (agRd m) (Set.mem_univ (K (ldCell c (⟨1, by decide⟩ : Fin 8)))) (fun h => h) (R := 4) (duties_ld_later m c (⟨1, by decide⟩ : Fin 8))) $$ [HatLd1] with HzLd1
  · isplitr; · iexact HIcld1
    iexact HatLd1
  ihave #HIcst1 := (inv_of_records m K (mem_st c (⟨1, by decide⟩ : Fin 8))) $$ HR
  imod (Rounds.cell_close ER (agRd m) (Set.mem_univ (K (stCell c (⟨1, by decide⟩ : Fin 8)))) (fun h => h) (R := 4) (duties_st_later m c (⟨1, by decide⟩ : Fin 8))) $$ [HatSt1] with HzSt1
  · isplitr; · iexact HIcst1
    iexact HatSt1
  ihave #HIcsd1 := (inv_of_records m K (mem_sd c (⟨1, by decide⟩ : Fin 8))) $$ HR
  imod (Rounds.cell_close ER (agRd m) (Set.mem_univ (K (sdCell c (⟨1, by decide⟩ : Fin 8)))) (fun h => h) (R := 4) (duties_sd_later m c (⟨1, by decide⟩ : Fin 8))) $$ [HatSd1] with HzSd1
  · isplitr; · iexact HIcsd1
    iexact HatSd1
  ihave #HIcld2 := (inv_of_records m K (mem_ld c (⟨2, by decide⟩ : Fin 8))) $$ HR
  imod (Rounds.cell_close ER (agRd m) (Set.mem_univ (K (ldCell c (⟨2, by decide⟩ : Fin 8)))) (fun h => h) (R := 4) (duties_ld_later m c (⟨2, by decide⟩ : Fin 8))) $$ [HatLd2] with HzLd2
  · isplitr; · iexact HIcld2
    iexact HatLd2
  ihave #HIcst2 := (inv_of_records m K (mem_st c (⟨2, by decide⟩ : Fin 8))) $$ HR
  imod (Rounds.cell_close ER (agRd m) (Set.mem_univ (K (stCell c (⟨2, by decide⟩ : Fin 8)))) (fun h => h) (R := 4) (duties_st_later m c (⟨2, by decide⟩ : Fin 8))) $$ [HatSt2] with HzSt2
  · isplitr; · iexact HIcst2
    iexact HatSt2
  ihave #HIcsd2 := (inv_of_records m K (mem_sd c (⟨2, by decide⟩ : Fin 8))) $$ HR
  imod (Rounds.cell_close ER (agRd m) (Set.mem_univ (K (sdCell c (⟨2, by decide⟩ : Fin 8)))) (fun h => h) (R := 4) (duties_sd_later m c (⟨2, by decide⟩ : Fin 8))) $$ [HatSd2] with HzSd2
  · isplitr; · iexact HIcsd2
    iexact HatSd2
  ihave #HIcld3 := (inv_of_records m K (mem_ld c (⟨3, by decide⟩ : Fin 8))) $$ HR
  imod (Rounds.cell_close ER (agRd m) (Set.mem_univ (K (ldCell c (⟨3, by decide⟩ : Fin 8)))) (fun h => h) (R := 4) (duties_ld_later m c (⟨3, by decide⟩ : Fin 8))) $$ [HatLd3] with HzLd3
  · isplitr; · iexact HIcld3
    iexact HatLd3
  ihave #HIcst3 := (inv_of_records m K (mem_st c (⟨3, by decide⟩ : Fin 8))) $$ HR
  imod (Rounds.cell_close ER (agRd m) (Set.mem_univ (K (stCell c (⟨3, by decide⟩ : Fin 8)))) (fun h => h) (R := 4) (duties_st_later m c (⟨3, by decide⟩ : Fin 8))) $$ [HatSt3] with HzSt3
  · isplitr; · iexact HIcst3
    iexact HatSt3
  ihave #HIcsd3 := (inv_of_records m K (mem_sd c (⟨3, by decide⟩ : Fin 8))) $$ HR
  imod (Rounds.cell_close ER (agRd m) (Set.mem_univ (K (sdCell c (⟨3, by decide⟩ : Fin 8)))) (fun h => h) (R := 4) (duties_sd_later m c (⟨3, by decide⟩ : Fin 8))) $$ [HatSd3] with HzSd3
  · isplitr; · iexact HIcsd3
    iexact HatSd3
  ihave #HIcld4 := (inv_of_records m K (mem_ld c (⟨4, by decide⟩ : Fin 8))) $$ HR
  imod (Rounds.cell_close ER (agRd m) (Set.mem_univ (K (ldCell c (⟨4, by decide⟩ : Fin 8)))) (fun h => h) (R := 4) (duties_ld_later m c (⟨4, by decide⟩ : Fin 8))) $$ [HatLd4] with HzLd4
  · isplitr; · iexact HIcld4
    iexact HatLd4
  ihave #HIcst4 := (inv_of_records m K (mem_st c (⟨4, by decide⟩ : Fin 8))) $$ HR
  imod (Rounds.cell_close ER (agRd m) (Set.mem_univ (K (stCell c (⟨4, by decide⟩ : Fin 8)))) (fun h => h) (R := 4) (duties_st_later m c (⟨4, by decide⟩ : Fin 8))) $$ [HatSt4] with HzSt4
  · isplitr; · iexact HIcst4
    iexact HatSt4
  ihave #HIcsd4 := (inv_of_records m K (mem_sd c (⟨4, by decide⟩ : Fin 8))) $$ HR
  imod (Rounds.cell_close ER (agRd m) (Set.mem_univ (K (sdCell c (⟨4, by decide⟩ : Fin 8)))) (fun h => h) (R := 4) (duties_sd_later m c (⟨4, by decide⟩ : Fin 8))) $$ [HatSd4] with HzSd4
  · isplitr; · iexact HIcsd4
    iexact HatSd4
  ihave #HIcld5 := (inv_of_records m K (mem_ld c (⟨5, by decide⟩ : Fin 8))) $$ HR
  imod (Rounds.cell_close ER (agRd m) (Set.mem_univ (K (ldCell c (⟨5, by decide⟩ : Fin 8)))) (fun h => h) (R := 4) (duties_ld_later m c (⟨5, by decide⟩ : Fin 8))) $$ [HatLd5] with HzLd5
  · isplitr; · iexact HIcld5
    iexact HatLd5
  ihave #HIcst5 := (inv_of_records m K (mem_st c (⟨5, by decide⟩ : Fin 8))) $$ HR
  imod (Rounds.cell_close ER (agRd m) (Set.mem_univ (K (stCell c (⟨5, by decide⟩ : Fin 8)))) (fun h => h) (R := 4) (duties_st_later m c (⟨5, by decide⟩ : Fin 8))) $$ [HatSt5] with HzSt5
  · isplitr; · iexact HIcst5
    iexact HatSt5
  ihave #HIcsd5 := (inv_of_records m K (mem_sd c (⟨5, by decide⟩ : Fin 8))) $$ HR
  imod (Rounds.cell_close ER (agRd m) (Set.mem_univ (K (sdCell c (⟨5, by decide⟩ : Fin 8)))) (fun h => h) (R := 4) (duties_sd_later m c (⟨5, by decide⟩ : Fin 8))) $$ [HatSd5] with HzSd5
  · isplitr; · iexact HIcsd5
    iexact HatSd5
  ihave #HIcld6 := (inv_of_records m K (mem_ld c (⟨6, by decide⟩ : Fin 8))) $$ HR
  imod (Rounds.cell_close ER (agRd m) (Set.mem_univ (K (ldCell c (⟨6, by decide⟩ : Fin 8)))) (fun h => h) (R := 4) (duties_ld_later m c (⟨6, by decide⟩ : Fin 8))) $$ [HatLd6] with HzLd6
  · isplitr; · iexact HIcld6
    iexact HatLd6
  ihave #HIcst6 := (inv_of_records m K (mem_st c (⟨6, by decide⟩ : Fin 8))) $$ HR
  imod (Rounds.cell_close ER (agRd m) (Set.mem_univ (K (stCell c (⟨6, by decide⟩ : Fin 8)))) (fun h => h) (R := 4) (duties_st_later m c (⟨6, by decide⟩ : Fin 8))) $$ [HatSt6] with HzSt6
  · isplitr; · iexact HIcst6
    iexact HatSt6
  ihave #HIcsd6 := (inv_of_records m K (mem_sd c (⟨6, by decide⟩ : Fin 8))) $$ HR
  imod (Rounds.cell_close ER (agRd m) (Set.mem_univ (K (sdCell c (⟨6, by decide⟩ : Fin 8)))) (fun h => h) (R := 4) (duties_sd_later m c (⟨6, by decide⟩ : Fin 8))) $$ [HatSd6] with HzSd6
  · isplitr; · iexact HIcsd6
    iexact HatSd6
  ihave #HIcld7 := (inv_of_records m K (mem_ld c (⟨7, by decide⟩ : Fin 8))) $$ HR
  imod (Rounds.cell_close ER (agRd m) (Set.mem_univ (K (ldCell c (⟨7, by decide⟩ : Fin 8)))) (fun h => h) (R := 4) (duties_ld_later m c (⟨7, by decide⟩ : Fin 8))) $$ [HatLd7] with HzLd7
  · isplitr; · iexact HIcld7
    iexact HatLd7
  ihave #HIcst7 := (inv_of_records m K (mem_st c (⟨7, by decide⟩ : Fin 8))) $$ HR
  imod (Rounds.cell_close ER (agRd m) (Set.mem_univ (K (stCell c (⟨7, by decide⟩ : Fin 8)))) (fun h => h) (R := 4) (duties_st_later m c (⟨7, by decide⟩ : Fin 8))) $$ [HatSt7] with HzSt7
  · isplitr; · iexact HIcst7
    iexact HatSt7
  ihave #HIcsd7 := (inv_of_records m K (mem_sd c (⟨7, by decide⟩ : Fin 8))) $$ HR
  imod (Rounds.cell_close ER (agRd m) (Set.mem_univ (K (sdCell c (⟨7, by decide⟩ : Fin 8)))) (fun h => h) (R := 4) (duties_sd_later m c (⟨7, by decide⟩ : Fin 8))) $$ [HatSd7] with HzSd7
  · isplitr; · iexact HIcsd7
    iexact HatSd7
  ihave HatRcAll := (Entails.of_eq (bagTo_all _)) $$ HatRc1
  imod ((bigSep_with_persistent (R := records m K) fun k _ => close_rc m K c k).trans (bigSep_fupd _ _)) $$ [HatRcAll] with HzRc
  · isplitr; · iexact HR
    iexact HatRcAll
  -- the result whole, the scratch whole
  ihave HresOwn := (Entails.of_eq (bagTo_all _)) $$ HresOwn
  ihave HresPar := (Entails.of_eq (bagTo_all _)) $$ HresPar
  ihave Hout := (out_join m c) $$ [HresOwn HresPar]
  · isplitl [HresOwn]; · iexact HresOwn
    unfold rcPay; iexact HresPar
  ihave Hvw := (v_join (F := F) c) $$ [Hv0 Hv1 Hv2 Hv3 Hv4 Hv5 Hv6 Hv7]
  · rw [bigSep_fin8]
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    iexact Hv7
  rw [wp_ret]; imodintro
  iapply Hk
  unfold bodyPost Φ₁
  ihave Hoa := (owesAt_succ_intro m c _) $$ HO
  isplitr [Hoa]
  · isplitl [Hx]; · iexact Hx
    isplitl [Hout]; · iexact Hout
    isplitl [Hvw]; · iexact Hvw
    isplitr [HzRc]
    · rw [bigSep_fin8]
      isplitl [HzLd0 HzSt0 HzSd0]
      · isplitl [HzLd0]; · iexact HzLd0
        isplitl [HzSt0]; · iexact HzSt0
        iexact HzSd0
      isplitl [HzLd1 HzSt1 HzSd1]
      · isplitl [HzLd1]; · iexact HzLd1
        isplitl [HzSt1]; · iexact HzSt1
        iexact HzSd1
      isplitl [HzLd2 HzSt2 HzSd2]
      · isplitl [HzLd2]; · iexact HzLd2
        isplitl [HzSt2]; · iexact HzSt2
        iexact HzSd2
      isplitl [HzLd3 HzSt3 HzSd3]
      · isplitl [HzLd3]; · iexact HzLd3
        isplitl [HzSt3]; · iexact HzSt3
        iexact HzSd3
      isplitl [HzLd4 HzSt4 HzSd4]
      · isplitl [HzLd4]; · iexact HzLd4
        isplitl [HzSt4]; · iexact HzSt4
        iexact HzSd4
      isplitl [HzLd5 HzSt5 HzSd5]
      · isplitl [HzLd5]; · iexact HzLd5
        isplitl [HzSt5]; · iexact HzSt5
        iexact HzSd5
      isplitl [HzLd6 HzSt6 HzSd6]
      · isplitl [HzLd6]; · iexact HzLd6
        isplitl [HzSt6]; · iexact HzSt6
        iexact HzSd6
      isplitl [HzLd7]; · iexact HzLd7
      isplitl [HzSt7]; · iexact HzSt7
      iexact HzSd7
    iexact HzRc
  · iexact Hoa

/-- info: 'Cert.Kernel.AG.sound_body' depends on axioms: [propext, Classical.choice, Quot.sound] -/
#guard_msgs in #print axioms sound_body

/-! ## The body obligation -/

/-- The kernel stages no window: a family over its windows is empty. -/
theorem bigSep_W (Φ : Fin cfg0.W → sProp 𝕄) : bigSep Finset.univ Φ = iprop(emp) := by
  rw [Finset.univ_eq_empty]; rfl

/-- What the pipeline hands the body at its one point, and what it takes back. -/
def obPre (c : Dev nD) : sProp 𝕄 := iprop(Φ₀ m c ∗ (dats m 0 c).owesAt () t₀.castSucc ∗ emp)
def obPost (c : Dev nD) : sProp 𝕄 := iprop(Φ₁ m c ∗ (dats m 0 c).owesAt () t₀.succ ∗ emp)

/-- The library's body obligation on device `c`, from the body's run. -/
theorem body_obligation_of
    (hsb : ∀ (K : GSem nD τ sig → ℕ) (c : Dev nD) (Kt : PUnit → sProp 𝕄),
      iprop(bodyPre m K c ∗ (bodyPost m c -∗ Kt ⟨⟩)) ⊢ wp frame (wpE (defs₀ (F := F)) 𝒱₀ c none) Set.univ
        (cc0_body (Memref.whole main_arg0) (Memref.isWhole_whole _) (Memref.whole main_v1) (Memref.isWhole_whole _)
          (Memref.whole cc0_scratch0) (Memref.isWhole_whole _) cc0_scratch1 cc0_scratch2 cc0_scratch3 cc0_scratch4) Kt)
    (c : Dev nD) : BodyObligation (dats (F := F) m 0 c) (defs₀ (F := F)) 𝒱₀ () Set.univ := fun t => by
  rw [fin_N t]
  rw [bigSep_W, bigSep_W]
  show obPre m c ⊢ wp frame (wpE (defs₀ (F := F)) 𝒱₀ c none) Set.univ
    (cc0_body (Memref.whole main_arg0) (Memref.isWhole_whole _) (Memref.whole main_v1) (Memref.isWhole_whole _)
      (Memref.whole cc0_scratch0) (Memref.isWhole_whole _) cc0_scratch1 cc0_scratch2 cc0_scratch3 cc0_scratch4) (fun _ => obPost m c)
  unfold obPre Φ₀ start ghost
  iintro ⟨⟨⟨⟨%K, Hrec, Hlin⟩, Hcr, Hlev, Hx, Hout⟩, Hscr⟩, HO, -⟩
  iapply (hsb K c fun _ => obPost m c)
  unfold bodyPre
  isplitr []
  · isplitl [Hrec]; · iexact Hrec
    isplitl [Hlin]; · iexact Hlin
    isplitl [Hcr]; · iexact Hcr
    isplitl [Hlev]; · iexact Hlev
    isplitl [Hx]; · iexact Hx
    isplitl [Hout]; · iexact Hout
    isplitl [Hscr]; · iexact Hscr
    iexact HO
  · unfold bodyPost obPost
    iintro ⟨H1, H2⟩
    isplitl [H1]; · iexact H1
    isplitl [H2]; · iexact H2
    iempintro

/-- The library's body obligation on device `c`. -/
theorem body_obligation (c : Dev nD) : BodyObligation (dats (F := F) m 0 c) (defs₀ (F := F)) 𝒱₀ () Set.univ :=
  body_obligation_of m (sound_body m) c

/-- info: 'Cert.Kernel.AG.body_obligation' depends on axioms: [propext, Classical.choice, Quot.sound] -/
#guard_msgs in #print axioms body_obligation

end Cert.Kernel.AG

end
-- ==== Proof.KAGLaunch.lean ====
/-
  The all-gather across the first mesh axis: the launch.

  The 57 cells of a device are indexed by kind — the barrier cell, the load, store and send cells of the 8 slots,
  the 32 receive cells — and the protocol's cells are exactly these on every device. The launch element deals every
  device the round state, the position and the reached-mark of its 57 cells and the duty tokens of its own cells
  (one a chunk on the load, store and send cells, one on every receive cell, one on the barrier cell); the global
  step allocates every cell's invariant, and the tokens of the receive cells and of the barrier cell go to the
  partner, who pays them. The launch credit of a device is what its partner owes its cells: a unit on the barrier
  cell and a chunk's credit on every receive cell. The input and the result array travel beside the region's
  invariant and are read against the final memory.
-/
import proofs.«900688_g7700000000000689_dist_ag_v7x_xyz2x4x4_x_m32768_n1024_f32_1_alg».proof.Proof.KProto

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells of a device, indexed by kind -/

/-- The own DMA semaphores: (load, store, send) of a slot, or the receive semaphore of a chunk. -/
abbrev OI : Type := (Fin 8 ⊕ Fin 8 ⊕ Fin 8) ⊕ Fin 32
/-- All 57: the barrier, or an own one. -/
abbrev CI : Type := Unit ⊕ OI

def osem : OI → SemLoc sig :=
  Sum.elim (Sum.elim (fun s => .dma (ldSem s)) (Sum.elim (fun s => .dma (stSem s)) (fun s => .dma (sdSem s)))) (fun k => .dma (rcSem k))
def csem : CI → SemLoc sig := Sum.elim (fun _ => .reg barS) osem
abbrev kcell (ci : Dev nD × CI) : GSem nD τ sig := ((ci.1 : Thread nD τ), csem ci.2)

/-- A semaphore's number among the 57: the barrier 0, DMA semaphore `d` at `d + 1`. -/
def semNo : SemLoc sig → ℕ
  | .reg _ => 0
  | .dma d => d.val + 1

theorem csem_injective : Function.Injective csem := by
  intro i i' h
  have h1 := congrArg semNo h
  rcases i with u | ((s | s | s) | k) <;> rcases i' with u' | ((s' | s' | s') | k') <;>
    dsimp only [csem, osem, Sum.elim_inl, Sum.elim_inr, semNo, ldSem, stSem, sdSem, rcSem] at h1 <;>
    first
      | rfl
      | (exfalso; omega)
      | (have hk : s = s' := Fin.ext (by omega); rw [hk])
      | (have hk : k = k' := Fin.ext (by omega); rw [hk])

theorem kcell_injective : Function.Injective (kcell : Dev nD × CI → GSem nD τ sig) := by
  rintro ⟨c, i⟩ ⟨c', i'⟩ h
  have h1 : c = c' := congrArg (fun g : GSem nD τ sig => g.1.1) h
  subst h1
  have h2 : csem i = csem i' := congrArg Prod.snd h
  rw [csem_injective h2]

theorem kind_csem (i : CI) : kindOf (csem i) ≠ .other := by
  rcases i with u | ((s | s | s) | k)
  · show kindOf (.reg barS) ≠ .other
    rw [kind_bar]; exact fun h => by cases h
  · show kindOf (.dma (ldSem s)) ≠ .other
    rw [kind_ld]; exact fun h => by cases h
  · show kindOf (.dma (stSem s)) ≠ .other
    rw [kind_st]; exact fun h => by cases h
  · show kindOf (.dma (sdSem s)) ≠ .other
    rw [kind_sd]; exact fun h => by cases h
  · show kindOf (.dma (rcSem k)) ≠ .other
    rw [kind_rc]; exact fun h => by cases h

/-- Every semaphore the protocol uses is one of the 57. -/
theorem csem_surj (sm : SemLoc sig) (h : kindOf sm ≠ .other) : ∃ i, csem i = sm := by
  rcases sm with q | d
  · by_cases hq : q = barS
    · exact ⟨.inl (), by rw [hq]; rfl⟩
    · exact absurd (show kindOf (.reg q) = .other from if_neg hq) h
  · have hd : d.val < 56 := d.isLt
    by_cases h8 : d.val < 8
    · exact ⟨.inr (.inl (.inl ⟨d.val, h8⟩)), rfl⟩
    · by_cases h16 : d.val < 16
      · exact ⟨.inr (.inl (.inr (.inl ⟨d.val - 8, by omega⟩))),
          congrArg SemLoc.dma (Fin.ext (show 8 + (d.val - 8) = d.val by omega))⟩
      · by_cases h24 : d.val < 24
        · exact ⟨.inr (.inl (.inr (.inr ⟨d.val - 16, by omega⟩))),
            congrArg SemLoc.dma (Fin.ext (show 16 + (d.val - 16) = d.val by omega))⟩
        · exact ⟨.inr (.inr ⟨d.val - 24, by omega⟩),
            congrArg SemLoc.dma (Fin.ext (show 24 + (d.val - 24) = d.val by omega))⟩

/-- The protocol's cells are the 57 cells of every device. -/
theorem cellsAll_eq : (cellsAll : Finset (GSem nD τ sig)) = Finset.univ.map ⟨kcell, kcell_injective⟩ := by
  ext g
  unfold cellsAll
  rw [Finset.mem_map, Finset.mem_filter]
  constructor
  · rintro ⟨-, hp, hk⟩
    obtain ⟨⟨d, p⟩, sm⟩ := g
    have hp' : p = .tc := hp
    subst hp'
    obtain ⟨i, hi⟩ := csem_surj sm hk
    exact ⟨(d, i), Finset.mem_univ _, by show ((d : Thread nD τ), csem i) = ((d, Proc.tc), sm); rw [hi]⟩
  · rintro ⟨⟨c, i⟩, -, rfl⟩
    exact ⟨Finset.mem_univ _, rfl, kind_csem i⟩

/-! ## Sums over the cells, regrouped -/

theorem bigSep_cells (Φ : GSem nD τ sig → sProp 𝕄) :
    bigSep cellsAll Φ = bigSep Finset.univ fun c : Dev nD => bigSep Finset.univ fun i : CI => Φ (kcell (c, i)) := by
  rw [cellsAll_eq, bigSep_map, bigSep_univ_prod]; rfl

/-- Over the own semaphores: slot by slot (load, store, send), then the receive semaphores. -/
theorem bigSep_OI (Φ : OI → sProp 𝕄) :
    bigSep Finset.univ Φ
      = iprop((bigSep Finset.univ fun s : Fin 8 => iprop(Φ (.inl (.inl s)) ∗ Φ (.inl (.inr (.inl s))) ∗ Φ (.inl (.inr (.inr s)))))
          ∗ bigSep Finset.univ fun k : Fin 32 => Φ (.inr k)) := by
  rw [bigSep_univ_sum, bigSep_univ_sum, bigSep_univ_sum,
    bigSep_sep' Finset.univ (fun s : Fin 8 => Φ (.inl (.inl s))) (fun s : Fin 8 => iprop(Φ (.inl (.inr (.inl s))) ∗ Φ (.inl (.inr (.inr s))))),
    bigSep_sep' Finset.univ (fun s : Fin 8 => Φ (.inl (.inr (.inl s)))) (fun s : Fin 8 => Φ (.inl (.inr (.inr s))))]
  rfl

/-- Over all 57: the barrier, then the own ones; -/
theorem bigSep_CI0 (Φ : CI → sProp 𝕄) :
    bigSep Finset.univ Φ = iprop(Φ (.inl ()) ∗ bigSep Finset.univ fun o : OI => Φ (.inr o)) := by
  rw [bigSep_univ_sum, bigSep_univ_of_subsingleton ()]
  rfl

/-- the own ones by kind. -/
theorem bigSep_CI (Φ : CI → sProp 𝕄) :
    bigSep Finset.univ Φ
      = iprop(Φ (.inl ()) ∗ (bigSep Finset.univ fun s : Fin 8 =>
            iprop(Φ (.inr (.inl (.inl s))) ∗ Φ (.inr (.inl (.inr (.inl s)))) ∗ Φ (.inr (.inl (.inr (.inr s))))))
          ∗ bigSep Finset.univ fun k : Fin 32 => Φ (.inr (.inr k))) := by
  rw [bigSep_univ_sum, bigSep_univ_of_subsingleton (), bigSep_OI]
  rfl

/-! ## The duty tokens -/

/-- The duties of a device's own cells: per chunk its load, its store, its send and its receive; the barrier's. -/
abbrev TI : Type := Fin 32 ⊕ Fin 32 ⊕ Fin 32 ⊕ Fin 32 ⊕ Unit

def tokAt (c : Dev nD) : TI → GSem nD τ sig × ℕ × Unit
  | .inl k => (ldCell c (slot k), rnd k, ())
  | .inr (.inl k) => (stCell c (slot k), rnd k, ())
  | .inr (.inr (.inl k)) => (sdCell c (slot k), rnd k, ())
  | .inr (.inr (.inr (.inl k))) => (rcCell c k, 0, ())
  | .inr (.inr (.inr (.inr _))) => (barCell c, 0, ())
def tokOf (cx : Dev nD × TI) : GSem nD τ sig × ℕ × Unit := tokAt cx.1 cx.2

theorem tokOf_injective : Function.Injective (tokOf : Dev nD × TI → GSem nD τ sig × ℕ × Unit) := by
  rintro ⟨c, x⟩ ⟨c', x'⟩ h
  have hc : c = c' := by
    have := congrArg (fun y : GSem nD τ sig × ℕ × Unit => y.1.1.1) h
    rcases x with k | k | k | k | u <;> rcases x' with k' | k' | k' | k' | u' <;> exact this
  subst hc
  have h1 := congrArg (fun y : GSem nD τ sig × ℕ × Unit => semNo y.1.2) h
  have h2 := congrArg (fun y : GSem nD τ sig × ℕ × Unit => y.2.1) h
  have hx : x = x' := by
    rcases x with k | k | k | k | u <;> rcases x' with k' | k' | k' | k' | u' <;>
      dsimp only [tokOf, tokAt, semNo, ldSem, stSem, sdSem, rcSem, slot, rnd] at h1 h2 <;>
      first
        | rfl
        | (exfalso; omega)
        | (have hk : k = k' := Fin.ext (by omega); rw [hk])
  rw [hx]

def agToks : Finset (GSem nD τ sig × ℕ × Unit) := Finset.univ.map ⟨tokOf, tokOf_injective⟩

/-- The duty tokens of device `c`'s own cells. -/
def toks (c : Dev nD) : sProp 𝕄 :=
  iprop((bigSep Finset.univ fun k : Fin 32 => dutyTok ER (ldCell c (slot k)) (rnd k) ())
    ∗ (bigSep Finset.univ fun k : Fin 32 => dutyTok ER (stCell c (slot k)) (rnd k) ())
    ∗ (bigSep Finset.univ fun k : Fin 32 => dutyTok ER (sdCell c (slot k)) (rnd k) ())
    ∗ (bigSep Finset.univ fun k : Fin 32 => dutyTok ER (rcCell c k) 0 ())
    ∗ dutyTok ER (barCell c) 0 ())

theorem agToks_split :
    bigSep agToks (fun x => (dutyTok ER x.1 x.2.1 x.2.2 : sProp 𝕄)) = bigSep Finset.univ fun c : Dev nD => toks c := by
  unfold agToks; rw [bigSep_map, bigSep_univ_prod]
  refine bigSep_congr fun c _ => ?_
  show (bigSep Finset.univ fun x : TI => (dutyTok ER (tokAt c x).1 (tokAt c x).2.1 (tokAt c x).2.2 : sProp 𝕄)) = toks c
  rw [bigSep_univ_sum, bigSep_univ_sum, bigSep_univ_sum, bigSep_univ_sum, bigSep_univ_of_subsingleton ()]
  rfl

/-- The tokens dealt to their payers: a device keeps those of its load, store and send cells; those of its receive
    cells and of its barrier cell go to the partner. -/
theorem toks_around : (bigSep Finset.univ fun c : Dev nD => (toks c : sProp 𝕄)) ⊢ bigSep Finset.univ fun c : Dev nD => payToks c := by
  unfold toks payToks
  simp only [bigSep_sep']
  rw [bigSep_univ_equiv prEquiv (fun c : Dev nD => (bigSep Finset.univ fun k : Fin 32 => dutyTok ER (rcCell c k) 0 () : sProp 𝕄)),
    bigSep_univ_equiv prEquiv (fun c : Dev nD => (dutyTok ER (barCell c) 0 () : sProp 𝕄))]
  iintro ⟨H1, H2, H3, H4, H5⟩
  isplitl [H1]; · iexact H1
  isplitl [H2]; · iexact H2
  isplitl [H3]; · iexact H3
  isplitl [H4]; · iexact H4
  iexact H5

/-! ## The launch element and the global step -/

theorem ownSemFacts : Pipeline.OwnSemFacts cfg0.spec osem :=
  ⟨fun o => by
      rcases o with (s | s | s) | k
      · revert s; decide
      · revert s; decide
      · revert s; decide
      · revert k; decide,
    fun o o' h => Sum.inr_injective (csem_injective (show csem (.inr o) = csem (.inr o') from h)),
    fun o w => w.elim0⟩

def u₀ : UU :=
  (initOf (Pipeline.cells cfgs cellOf_inj) (Pipeline.launchToks cfgs cellOf_inj), initOf cellsAll agToks)

/-- What the launch element deals device `c` (the theorem's `G`): the round state, the position and the reached-mark
    of each of its cells, and its own cells' duty tokens. -/
def G (c : Dev nD) : sProp 𝕄 :=
  iprop((bigSep Finset.univ fun i : CI => roundState ER (agRd m) (kcell (c, i)) 0)
    ∗ (bigSep Finset.univ fun i : CI => atPos ER (kcell (c, i)) 0 ∅ 0)
    ∗ (bigSep Finset.univ fun i : CI => reached ER (kcell (c, i)) 0)
    ∗ toks c)

/-- What the global step makes of it (`G'`). -/
def G' (c : Dev nD) : sProp 𝕄 := iprop(∃ K, ghost m K c)

theorem fund_ag : BI.own (ER (initOf cellsAll agToks)) ⊢ (|==> bigSep Finset.univ (G m) : sProp 𝕄) := by
  iintro HX
  imod (Rounds.fund ER (agRd m) cellsAll agToks) $$ HX with ⟨Hst, Hr, Hat, Htok⟩
  imodintro
  ihave Hst' := (Entails.of_eq (bigSep_cells (fun g => roundState ER (agRd m) g 0))) $$ Hst
  ihave Hat' := (Entails.of_eq (bigSep_cells (F := F) (fun g => atPos ER g 0 ∅ 0))) $$ Hat
  ihave Hr' := (Entails.of_eq (bigSep_cells (F := F) (fun g => reached ER g 0))) $$ Hr
  ihave Htok' := (Entails.of_eq (agToks_split (F := F))) $$ Htok
  unfold G; simp only [bigSep_sep']
  isplitl [Hst']; · iexact Hst'
  isplitl [Hat']; · iexact Hat'
  isplitl [Hr']; · iexact Hr'
  iexact Htok'

/-- The kernel's own semaphores, grouped by kind; -/
theorem ownSems0_eq (c : Dev nD) : (Pipeline.ownSems0 (Ix := Unit) (Name := ℕ) (U := UU) (Lvl := ℕ) (Val := Elt F) (τ := τ) osem c : sProp 𝕄)
    = iprop((bigSep Finset.univ fun s : Fin 8 => iprop(semVal (ldCell c s) 0 ∗ semVal (stCell c s) 0 ∗ semVal (sdCell c s) 0))
        ∗ bigSep Finset.univ fun k : Fin 32 => semVal (rcCell c k) 0) := by
  unfold Pipeline.ownSems0
  exact bigSep_OI (fun o => semVal ((c : Thread nD τ), osem o) 0)

/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell (c, i)) 0 : sProp 𝕄) := by
  rw [unscopedSems0_eq, bigSep_CI0]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => iprop(∃ κ : ℕ, cellInv ER (agRd m) κ (kcell (c, i))))
          ∗ (bigSep Finset.univ fun i : CI => atPos ER (kcell (c, i)) 0 ∅ 0)
          ∗ (bigSep Finset.univ fun i : CI => reached ER (kcell (c, i)) 0) ∗ toks c) := by
  unfold G
  iintro ⟨Hos, Hus, Hst, Hat, Hr, Htok⟩
  ihave Hv := (sems0_eq (F := F) c) $$ [Hos Hus]
  · isplitl [Hos] <;> iassumption
  imod (show iprop((bigSep Finset.univ fun i : CI => semVal (kcell (c, i)) 0) ∗ bigSep Finset.univ fun i : CI => roundState ER (agRd m) (kcell (c, i)) 0)
      ⊢ (|={Set.univ}=> bigSep Finset.univ fun i : CI => iprop(∃ κ : ℕ, cellInv ER (agRd m) κ (kcell (c, i))) : sProp 𝕄) from by
        rw [← bigSep_sep']
        exact (bigSep_mono fun i _ => (Rounds.body_intro ER (agRd m) (kcell (c, i))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

theorem ghost_intro (K : GSem nD τ sig → ℕ) (c : Dev nD) : iprop(records m K ∗ linear c) ⊢ G' m c := by
  unfold G' ghost
  iintro H
  iexists K
  iexact H

/-- A device's 57 positions, grouped by kind, with the tokens it pays. -/
theorem linear_intro (c : Dev nD) :
    iprop((bigSep Finset.univ fun i : CI => atPos ER (kcell (c, i)) 0 ∅ 0) ∗ payToks c) ⊢ (linear c : sProp 𝕄) := by
  rw [bigSep_CI]
  unfold linear
  iintro ⟨⟨Hb, Hs, Hk⟩, Hp⟩
  isplitl [Hb]; · iexact Hb
  isplitl [Hs]; · iexact Hs
  isplitl [Hk]; · iexact Hk
  iexact Hp

theorem regroup :
    (bigSep Finset.univ fun c : Dev nD => iprop((bigSep Finset.univ fun i : CI => iprop(∃ κ : ℕ, cellInv ER (agRd m) κ (kcell (c, i))))
          ∗ (bigSep Finset.univ fun i : CI => atPos ER (kcell (c, i)) 0 ∅ 0)
          ∗ (bigSep Finset.univ fun i : CI => reached ER (kcell (c, i)) 0) ∗ toks c) : sProp 𝕄)
      ⊢ bigSep Finset.univ (G' m) := by
  rw [bigSep_sep', bigSep_sep', bigSep_sep',
    ← bigSep_cells (fun g : GSem nD τ sig => iprop(∃ κ : ℕ, cellInv ER (agRd m) κ g)),
    ← bigSep_cells (F := F) (fun g : GSem nD τ sig => reached ER g 0)]
  iintro ⟨HI, Hat, #HR, Htok⟩
  ihave HK := (BI.bigSep_exists_pi cellsAll (fun (g : GSem nD τ sig) (κ : ℕ) => (cellInv ER (agRd m) κ g : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun i : CI => (atPos ER (kcell (c, i)) 0 ∅ 0 : sProp 𝕄)) payToks).symm).trans
      (bigSep_mono fun c _ => linear_intro (F := F) c))
    isplitl [Hat]; · iexact Hat
    iexact Htk

/-- The global step (`hglob`): own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem owedFrom_range (c : Dev nD) :
    ∀ n, owedFrom c n = ∑ i ∈ Finset.range n, tallyAt (rcCell (pr c) (chunkRev i)) () No
  | 0 => by rw [Finset.sum_range_zero]; rfl
  | n + 1 => by rw [Finset.sum_range_succ, ← owedFrom_range c n]; rfl

theorem chunkRev_rev (i : Fin 32) : chunkRev i.val = Fin.revPerm i :=
  Fin.ext (by rw [Fin.revPerm_apply, Fin.val_rev]; show 31 - i.val % 32 = 32 - (i.val + 1); omega)

/-- What a device owes its partner's receive cells: a chunk's credit each. -/
theorem owedFrom_eq (c : Dev nD) : owedFrom c 32 = ∑ k : Fin 32, tallyAt (rcCell (pr c) k) () No :=
  calc owedFrom c 32
      = ∑ i ∈ Finset.range 32, tallyAt (rcCell (pr c) (chunkRev i)) () No := owedFrom_range c 32
    _ = ∑ i : Fin 32, tallyAt (rcCell (pr c) (chunkRev i.val)) () No :=
        (Fin.sum_univ_eq_sum_range (fun i => tallyAt (rcCell (pr c) (chunkRev i)) () No) 32).symm
    _ = ∑ i : Fin 32, tallyAt (rcCell (pr c) (Fin.revPerm i)) () No :=
        Finset.sum_congr rfl fun i _ => by rw [chunkRev_rev]
    _ = ∑ k : Fin 32, tallyAt (rcCell (pr c) k) () No :=
        Equiv.sum_comp Fin.revPerm (fun k : Fin 32 => tallyAt (rcCell (pr c) k) () No)

/-- The launch credit of a device: what its partner owes its barrier cell and its receive cells. -/
theorem creds_intro (c : Dev nD) : (Pipeline.launchCred O₀ c : sProp 𝕄) ⊢ creds c := by
  have hO : (O₀ : Dev nD → CellTallies nD τ sig Unit)
      = fun d => (∑ k ∈ (Finset.univ : Finset (Fin 32)), tallyAt (rcCell (pr d) k) () No) + tallyAt (barCell (pr d)) () 1 :=
    funext fun d => by unfold O₀; rw [owedFrom_eq]
  rw [hO,
    Pipeline.launchCred_add (fun d : Dev nD => ∑ k ∈ (Finset.univ : Finset (Fin 32)), tallyAt (rcCell (pr d) k) () No)
      (fun d : Dev nD => tallyAt (barCell (pr d)) () 1) c,
    Pipeline.launchCred_sum Finset.univ (fun (k : Fin 32) (d : Dev nD) => tallyAt (rcCell (pr d) k) () No) c]
  have hbar : (Pipeline.launchCred (fun d : Dev nD => tallyAt (barCell (pr d)) () 1) c : sProp 𝕄) ⊢ cred (tallyAt (barCell c) () 1) :=
    Pipeline.launchCred_tallyAt (SemLoc.reg barS) pr pr pr_pr pr_pr () 1 c
  have hrc : (bigSep Finset.univ fun k : Fin 32 => (Pipeline.launchCred (fun d : Dev nD => tallyAt (rcCell (pr d) k) () No) c : sProp 𝕄))
      ⊢ bigSep Finset.univ fun k : Fin 32 => (cred (tallyAt (rcCell c k) () No) : sProp 𝕄) :=
    bigSep_mono fun k _ => Pipeline.launchCred_tallyAt (SemLoc.dma (rcSem k)) pr pr pr_pr pr_pr () No c
  unfold creds
  iintro ⟨Hr, Hb⟩
  isplitl [Hb]
  · iapply hbar; iexact Hb
  · iapply hrc; iexact Hr

/-! ## The theorem's side conditions -/

/-- What comes back beside the region's invariant: the input as it was, the result. -/
def Y (c : Dev nD) : sProp 𝕄 :=
  iprop((((c : Thread nD τ).loc main_arg0) ↦{fullShare} Xin m c) ∗ (((c : Thread nD τ).loc main_v1) ↦{fullShare} Fout m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Ha, Hv⟩, Hlev, Hcr, -, HG⟩
  ihave Hc := (creds_intro (F := F) c) $$ Hcr
  imodintro
  unfold start G'
  isplitl
  · isplitl [HG]; · iexact HG
    isplitl [Hc]; · iexact Hc
    isplitl [Hlev]; · iexact Hlev
    isplitl [Ha]; · iexact Ha
    iexists _; iexact Hv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq, ownSems0_eq]
  unfold Φ₁ Y
  iintro ⟨Ha, Hv, Hs, Hz, Hk⟩
  isplitl [Ha Hv]
  · isplitl [Ha] <;> iassumption
  isplitl [Hz Hk]
  · isplitl [Hz] <;> iassumption
  iexact Hs

theorem waits (c : Dev nD) : (levAts L lv : sProp 𝕄) ⊢ Pipeline.cellsWaits cfgs (dats m) () 0 c :=
  Pipeline.cellsWaits_intro cfgs (dats m) () 0 c fun w => w.elim0

/-! ## The run -/

set_option maxRecDepth 16384 in
/-- At the compiled mesh of 32 devices, for any float values, from any memory with zero counters: given the body
    obligation of every device, every weakly fair execution of @main terminates, and every final state has, on every
    device, the result array holding both input blocks of its column and the input array unchanged. -/
theorem run_main_of (hbody : ∀ c : Dev nD, BodyObligation (dats (F := F) m 0 c) (defs₀ (F := F)) 𝒱₀ () Set.univ) :
    θ_run defs (onTc (τ := τ) (main (F := F))) (s₀ m ρ)
      (fun r => ∀ c : Dev nD, r.2.mem ((c : Thread nD τ).loc main_v1) = Fout m c
        ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => w.elim0) (harr := arr_whole0) (hstage := stage_whole0) (hshare := fun c w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ag m) $$ HX with HG
      imodintro
      isplitl [HP] <;> iassumption)
    (hglob := glob m)
    (hA := fun _ w => w.elim0) (hpf := fun _ k => k.elim0)
    (X := start m) (Y := Y m) (Z := fun _ => iprop(emp))
    (hX := start_intro m ρ) (hin := phi0_intro m) (hout := phi1_exit m)
    (QY := fun c s => s.mem ((c : Thread nD τ).loc main_v1) = Fout m c ∧ s.mem ((c : Thread nD τ).loc main_arg0) = Xin m c)
    (hY := fun c s' => by
      unfold Y
      iintro ⟨⟨Ha, Hv⟩, -, HSI⟩
      icombine HSI Ha gives %ha
      icombine HSI Hv gives %hv
      imodintro
      isplitr
      · ipureintro; exact ⟨Buf.eq_of_forall_mem_univ hv, Buf.eq_of_forall_mem_univ ha⟩
      iexact HSI)
    (hQ := fun _ h c => (h c).2.2)

/-- info: 'Cert.Kernel.AG.run_main_of' depends on axioms: [propext, Classical.choice, Quot.sound] -/
#guard_msgs in #print axioms run_main_of

end Cert.Kernel.AG

end
-- ==== Proof.KRun.lean ====
/-
  The all-gather across the first mesh axis: the run of @main on all 32 devices — every device's body proved, the
  launch applied.
-/
import proofs.«900688_g7700000000000689_dist_ag_v7x_xyz2x4x4_x_m32768_n1024_f32_1_alg».proof.Proof.KBody
import proofs.«900688_g7700000000000689_dist_ag_v7x_xyz2x4x4_x_m32768_n1024_f32_1_alg».proof.Proof.KAGLaunch

noncomputable section

namespace Cert.Kernel.AG

open Cert.Kernel Cert.Kernel.Gen
open Idealize.ShloMosaic
open Idealize.ShloMosaic.TcCoe
open Idealize.SL Idealize.SL.Sem

variable {F : FTy → Type} [FloatOps F]

/-- Every weakly fair execution of @main terminates, nothing faulting, each device's result the whole array and its input
    block unchanged. -/
theorem run_main (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c : Thread nD τ).loc main_v1) = Fout m c
      ∧ r.2.mem ((c : Thread nD τ).loc main_arg0) = m ((c : Thread nD τ).loc main_arg0)) :=
  run_main_of m ρ (body_obligation m)

/-- info: 'Cert.Kernel.AG.run_main' depends on axioms: [propext, Classical.choice, Quot.sound] -/
#guard_msgs in #print axioms run_main

end Cert.Kernel.AG

end
-- ==== Proof.lean ====
/-
  An all-gather across the first axis of a 2 × 4 × 4 mesh, against the identity on the whole array.

  Each of the 32 devices holds one of the two blocks of 32768 rows of a 65536 × 1024 array, the block its coordinate on
  the first mesh axis names, and ends holding the whole array. It exchanges with its partner, the device of the same
  other two coordinates: after a handshake on the barrier semaphore (each signals the other and waits for the other's
  signal), it moves its block 1024 rows at a time through 8 scratch slots — a local copy of chunk `k` into slot `k mod 8`,
  then a local copy of the slot into rows `32768·x + 1024·k` of its own result and a remote copy of the slot into the
  same rows of the partner's result — reusing a slot only once both copies that read it have been waited for, and leaves
  after its 32 receive semaphores have each been credited a chunk.

  Why the two programs agree: rows `[32768·x, 32768·x + 32768)` of a device's result are written by its own local copies
  with its own block, the other half by the partner's remote copies with the partner's block, and the two blocks are,
  by the claim's hypothesis, the two halves of the reference's array; the reference returns its argument. No arithmetic
  is done on a float, so the precondition is never opened.

  Why it runs: every semaphore is given a schedule of rounds, one contribution a round; a device waits on its barrier
  owing only receive credits, on its local and send semaphores owing only receive credits, and on its receive
  semaphores owing nothing, so the waits are ordered by level and no one waits on what it still owes.

  The idealization rewrote nothing (its ledger is empty): `preserves` is `True`.
-/
import proofs.«900688_g7700000000000689_dist_ag_v7x_xyz2x4x4_x_m32768_n1024_f32_1_alg».proof.Defs
import proofs.«900688_g7700000000000689_dist_ag_v7x_xyz2x4x4_x_m32768_n1024_f32_1_alg».proof.Proof.Gen.Kernel
import proofs.«900688_g7700000000000689_dist_ag_v7x_xyz2x4x4_x_m32768_n1024_f32_1_alg».proof.Proof.Gen.KernelIdeal
import proofs.«900688_g7700000000000689_dist_ag_v7x_xyz2x4x4_x_m32768_n1024_f32_1_alg».proof.Proof.Gen.ReferenceIdeal
import proofs.«900688_g7700000000000689_dist_ag_v7x_xyz2x4x4_x_m32768_n1024_f32_1_alg».proof.Proof.Gen.Pre_finite_inputs_Kernel
import proofs.«900688_g7700000000000689_dist_ag_v7x_xyz2x4x4_x_m32768_n1024_f32_1_alg».proof.Proof.Gen.Pre_finite_inputs_ReferenceIdeal
import proofs.«900688_g7700000000000689_dist_ag_v7x_xyz2x4x4_x_m32768_n1024_f32_1_alg».proof.Proof.AGValue
import proofs.«900688_g7700000000000689_dist_ag_v7x_xyz2x4x4_x_m32768_n1024_f32_1_alg».proof.Proof.Run
import proofs.«900688_g7700000000000689_dist_ag_v7x_xyz2x4x4_x_m32768_n1024_f32_1_alg».proof.Proof.KRun

noncomputable section

namespace Cert.Proof

open Idealize.ShloMosaic Idealize.SL.Sem

theorem claim : Cert.Claim :=
  Cert.Proof.AG.claim_of_runs (G := fun m c => Cert.Kernel.AG.Fout m c)
    (fun m ρ => Cert.Kernel.AG.run_main m ρ) (fun m ρ => Cert.KernelIdeal.AG.run_main m ρ)

end Cert.Proof

end
